-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x512x512 : Shape := ⟨4, ![32, 1, 512, 512]⟩
abbrev S32 : Shape := ⟨1, ![32]⟩
abbrev S_ : Shape := ⟨0, ![]⟩

class Facts : Prop where
  bcast_S_S32x1x512x512 : S_.BroadcastsInDim S32x1x512x512 (![] : Fin 0 → Fin S32x1x512x512.rank)
  reducesTo_S32x1x512x512_S_d0_1_2_3 : S32x1x512x512.ReducesTo [0, 1, 2, 3] S_
  h_S_ : 0 < S_.numel

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S32x1x512x512 .f32) (main_arg1 : FVec F S32x1x512x512 .f32) (main_arg2 : IVec S32 32) (main_arg3 : IVec S32x1x512x512 32) : IVec S_ 1 :=
  let main_v0 : FVec F S32x1x512x512 .f32 := Host.absf main_arg0
  let main_cst : FVec F S_ .f32 := constant S_ .f32 0x7F800000#32
  let main_v1 : FVec F S32x1x512x512 .f32 := broadcastInDim S32x1x512x512 ![] bcast_S_S32x1x512x512 main_cst
  let main_v2 : IVec S32x1x512x512 1 := cmpf .olt main_v0 main_v1
  let main_c : IVec S_ 1 := constantI S_ 1 1#1
  let main_v3 : IVec S_ 1 := (fun x v => Host.reduce IntOp.andi x v reducesTo_S32x1x512x512_S_d0_1_2_3 h_S_) main_v2 main_c
  let main_v4 : FVec F S32x1x512x512 .f32 := Host.absf main_arg1
  let main_cst_0 : FVec F S_ .f32 := constant S_ .f32 0x7F800000#32
  let main_v5 : FVec F S32x1x512x512 .f32 := broadcastInDim S32x1x512x512 ![] bcast_S_S32x1x512x512 main_cst_0
  let main_v6 : IVec S32x1x512x512 1 := cmpf .olt main_v4 main_v5
  let main_c_1 : IVec S_ 1 := constantI S_ 1 1#1
  let main_v7 : IVec S_ 1 := (fun x v => Host.reduce IntOp.andi x v reducesTo_S32x1x512x512_S_d0_1_2_3 h_S_) main_v6 main_c_1
  let main_v8 : IVec S_ 1 := andi main_v3 main_v7
  let main_c_2 : IVec S_ 32 := constantI S_ 32 0#32
  let main_v9 : IVec S32x1x512x512 32 := broadcastInDim S32x1x512x512 ![] bcast_S_S32x1x512x512 main_c_2
  let main_v10 : IVec S32x1x512x512 1 := cmpi .sge main_arg3 main_v9
  let main_c_3 : IVec S_ 1 := constantI S_ 1 1#1
  let main_v11 : IVec S_ 1 := (fun x v => Host.reduce IntOp.andi x v reducesTo_S32x1x512x512_S_d0_1_2_3 h_S_) main_v10 main_c_3
  let main_v12 : IVec S_ 1 := andi main_v8 main_v11
  let main_c_4 : IVec S_ 32 := constantI S_ 32 100#32
  let main_v13 : IVec S32x1x512x512 32 := broadcastInDim S32x1x512x512 ![] bcast_S_S32x1x512x512 main_c_4
  let main_v14 : IVec S32x1x512x512 1 := cmpi .slt main_arg3 main_v13
  let main_c_5 : IVec S_ 1 := constantI S_ 1 1#1
  let main_v15 : IVec S_ 1 := (fun x v => Host.reduce IntOp.andi x v reducesTo_S32x1x512x512_S_d0_1_2_3 h_S_) main_v14 main_c_5
  fn_part1 (F := F) main_v12 main_v15
-- ==== Kernel.lean ====
abbrev S32x1x512x512 : Shape := ⟨4, ![32, 1, 512, 512]⟩
abbrev S32 : Shape := ⟨1, ![32]⟩
abbrev S32x512x512 : Shape := ⟨3, ![32, 512, 512]⟩
abbrev S32x1x128 : Shape := ⟨3, ![32, 1, 128]⟩
abbrev S1x32x512 : Shape := ⟨3, ![1, 32, 512]⟩
abbrev S1x1x128 : Shape := ⟨3, ![1, 1, 128]⟩
abbrev S1x128 : Shape := ⟨2, ![1, 128]⟩
abbrev S32x512 : Shape := ⟨2, ![32, 512]⟩
abbrev S32x512x1 : Shape := ⟨3, ![32, 512, 1]⟩
abbrev S32x512x128 : Shape := ⟨3, ![32, 512, 128]⟩
abbrev S32x1x512 : Shape := ⟨3, ![32, 1, 512]⟩
abbrev S_ : Shape := ⟨0, ![]⟩
abbrev S32x8x128 : Shape := ⟨3, ![32, 8, 128]⟩
abbrev S1x8x128 : Shape := ⟨3, ![1, 8, 128]⟩
abbrev S8x128 : Shape := ⟨2, ![8, 128]⟩
abbrev S1x128x1 : Shape := ⟨3, ![1, 128, 1]⟩
abbrev S32x128x512 : Shape := ⟨3, ![32, 128, 512]⟩
abbrev S1 : Shape := ⟨1, ![1]⟩
abbrev S32x1 : Shape := ⟨2, ![32, 1]⟩
abbrev S1x1 : Shape := ⟨2, ![1, 1]⟩

abbrev nBuf : Space → Nat
  | .hbm => 19
  | .vmem => 22
  | .smem => 1
  | _ => 0

abbrev bufTy : (tb : Table) → Fin (tcTables nBuf tb) → BufTy
  | .hbm, ⟨0, _⟩ => ⟨S32x1x512x512, .f32⟩
  | .hbm, ⟨1, _⟩ => ⟨S32x1x512x512, .f32⟩
  | .hbm, ⟨2, _⟩ => ⟨S32x1x512x512, .i32⟩
  | .hbm, ⟨3, _⟩ => ⟨S32x512x512, .f32⟩
  | .hbm, ⟨4, _⟩ => ⟨S32x512x512, .f32⟩
  | .hbm, ⟨5, _⟩ => ⟨S32x512x512, .i32⟩
  | .hbm, ⟨6, _⟩ => ⟨S32x1x128, .f32⟩
  | .hbm, ⟨7, _⟩ => ⟨S32x1x128, .f32⟩
  | .hbm, ⟨8, _⟩ => ⟨S_, .f32⟩
  | .hbm, ⟨9, _⟩ => ⟨S32x1x128, .f32⟩
  | .hbm, ⟨10, _⟩ => ⟨S32x1x128, .f32⟩
  | .hbm, ⟨11, _⟩ => ⟨S32x1x128, .f32⟩
  | .hbm, ⟨12, _⟩ => ⟨S32x512x512, .f32⟩
  | .hbm, ⟨13, _⟩ => ⟨S32x8x128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S32x1x512x512, .f32⟩
  | .local _ .vmem, ⟨0, _⟩ => ⟨S1x32x512, .f32⟩
  | .local _ .vmem, ⟨1, _⟩ => ⟨S1x32x512, .f32⟩
  | .local _ .vmem, ⟨2, _⟩ => ⟨S1x32x512, .f32⟩
  | .local _ .vmem, ⟨3, _⟩ => ⟨S1x32x512, .f32⟩
  | .local _ .vmem, ⟨4, _⟩ => ⟨S1x32x512, .i32⟩
  | .local _ .vmem, ⟨5, _⟩ => ⟨S1x32x512, .i32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x32x512, .i32⟩
  | .local _ .vmem, ⟨11, _⟩ => ⟨S1x32x512, .i32⟩
  | .local _ .vmem, ⟨12, _⟩ => ⟨S1x1x128, .f32⟩
  | .local _ .vmem, ⟨13, _⟩ => ⟨S1x1x128, .f32⟩
  | .local _ .vmem, ⟨14, _⟩ => ⟨S1x32x512, .f32⟩
  | .local _ .vmem, ⟨15, _⟩ => ⟨S1x32x512, .f32⟩
  | .local _ .vmem, ⟨16, _⟩ => ⟨S1x32x512, .f32⟩
  | .local _ .vmem, ⟨17, _⟩ => ⟨S1x32x512, .f32⟩
  | .local _ .vmem, ⟨18, _⟩ => ⟨S1x32x512, .f32⟩
  | .local _ .vmem, ⟨19, _⟩ => ⟨S1x32x512, .f32⟩
  | .local _ .vmem, ⟨20, _⟩ => ⟨S1x8x128, .f32⟩
  | .local _ .vmem, ⟨21, _⟩ => ⟨S1x8x128, .f32⟩
  | .local _ .smem, ⟨0, _⟩ => ⟨S32, .i32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨2, ![32, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![32, 16], ![false, false]⟩

abbrev pre1 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v21 : Index := Scalar.indexCast arg0
  ![v21.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x32x512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x32x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x32x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x32x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S32x1x512x512_S32x512x512 : S32x1x512x512.ShapeCasts S32x512x512
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  iota_S1x1x128_d2_w32 : S1x1x128.Iotas .tc 32 [2]
  shapeCasts_S32x512_S32x512x1 : S32x512.ShapeCasts S32x512x1
  broadcasts_S32x512x1_S32x512x128 : S32x512x1.Broadcasts S32x512x128
  broadcasts_S1x1x128_S32x512x128 : S1x1x128.Broadcasts S32x512x128
  natLt_1_32 : 1 < 32
  bitsLt_bf16_f32 : FTy.bits .bf16 < FTy.bits .f32
  shapeCasts_S32x512_S32x1x512 : S32x512.ShapeCasts S32x1x512
  reduces_S32x1x128_S1x128 : S32x1x128.Reduces [0] S1x128
  bcast_S_S32x1x128 : S_.BroadcastsInDim S32x1x128 (![] : Fin 0 → Fin S32x1x128.rank)
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  iota_S1x128x1_d1_w32 : S1x128x1.Iotas .tc 32 [1]
  broadcasts_S32x1x512_S32x128x512 : S32x1x512.Broadcasts S32x128x512
  broadcasts_S1x128x1_S32x128x512 : S1x128x1.Broadcasts S32x128x512
  shapeCasts_S1x1x128_S1x1x128 : S1x1x128.ShapeCasts S1x1x128
  broadcasts_S1x1x128_S32x1x128 : S1x1x128.Broadcasts S32x1x128
  shapeCasts_S32x1x512_S32x512 : S32x1x512.ShapeCasts S32x512
  numel1_S1 : S1.numel = 1
  shapeCasts_S32x512_S1x32x512 : S32x512.ShapeCasts S1x32x512
  reduces_S32x512_S32 : S32x512.Reduces [1] S32
  shapeCasts_S32_S32x1 : S32.ShapeCasts S32x1
  reduces_S32x1_S1 : S32x1.Reduces [0] S1
  shapeCasts_S1_S1x1 : S1.ShapeCasts S1x1
  shapeCasts_S1x1_S1x1 : S1x1.ShapeCasts S1x1
  broadcasts_S1x1_S8x128 : S1x1.Broadcasts S8x128
  reducesTo_S32x8x128_S_d0_1_2 : S32x8x128.ReducesTo [0, 1, 2] S_
  h_S_ : 0 < S_.numel
  shapeCasts_S32x512x512_S32x1x512x512 : S32x512x512.ShapeCasts S32x1x512x512
  dot_S32x1x512_S32x512x128_S32x1x128_2_1_1_2_0_0_wf : DotDims.WF S32x1x512 S32x512x128 S32x1x128 [2] [1] [1] [2] [0] [0]
  dot_S32x1x128_S32x128x512_S32x1x512_2_1_1_2_0_0_wf : DotDims.WF S32x1x128 S32x128x512 S32x1x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S32x512x512.size a
  hwx0_0 : ∀ i : grid0.Coords, EltTy.bits .f32 = 32 ∨ (Rect.block (s := S32x512x512) S1x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x512.size a ≤ S32x512x512.size a
  hwx0_1 : ∀ i : grid0.Coords, EltTy.bits .f32 = 32 ∨ (Rect.block (s := S32x512x512) S1x32x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x512.size a ≤ S32x512x512.size a
  hwx0_2 : ∀ i : grid0.Coords, EltTy.bits .i32 = 32 ∨ (Rect.block (s := S32x512x512) S1x32x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S32x1x128.size a
  hwx0_3 : ∀ i : grid0.Coords, EltTy.bits .f32 = 32 ∨ (Rect.block (s := S32x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S32x1x128.size a
  hwx0_4 : ∀ i : grid0.Coords, EltTy.bits .f32 = 32 ∨ (Rect.block (s := S32x1x128) S1x1x128.size (cc0_transform_4 i) (hinb0_4 i)).WholeWords (EltTy.packing .f32)
  hrank1 : 0 < grid1.rank
  k1_off1_inb : ∀ i : grid1.Coords, ∀ a, (k1_off1 i) a + S1.size a ≤ S32.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x512.size a ≤ S32x512x512.size a
  hwx1_0 : ∀ i : grid1.Coords, EltTy.bits .i32 = 32 ∨ (Rect.block (s := S32x512x512) S1x32x512.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x128.size a ≤ S32x1x128.size a
  hwx1_1 : ∀ i : grid1.Coords, EltTy.bits .f32 = 32 ∨ (Rect.block (s := S32x1x128) S1x1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x32x512.size a ≤ S32x512x512.size a
  hwx1_2 : ∀ i : grid1.Coords, EltTy.bits .f32 = 32 ∨ (Rect.block (s := S32x512x512) S1x32x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x32x512.size a ≤ S32x512x512.size a
  hwx1_3 : ∀ i : grid1.Coords, EltTy.bits .f32 = 32 ∨ (Rect.block (s := S32x512x512) S1x32x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x32x512.size a ≤ S32x512x512.size a
  hwx1_4 : ∀ i : grid1.Coords, EltTy.bits .f32 = 32 ∨ (Rect.block (s := S32x512x512) S1x32x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x8x128.size a ≤ S32x8x128.size a
  hwx1_5 : ∀ i : grid1.Coords, EltTy.bits .f32 = 32 ∨ (Rect.block (s := S32x8x128) S1x8x128.size (cc1_transform_5 i) (hinb1_5 i)).WholeWords (EltTy.packing .f32)

variable [Facts₀]

def dot_S32x1x512_S32x512x128_S32x1x128_2_1_1_2_0_0 : DotDims S32x1x512 S32x512x128 S32x1x128 where
  lhsContracting := [2]
  rhsContracting := [1]
  lhsNonContracting := [1]
  rhsNonContracting := [2]
  lhsBatch := [0]
  rhsBatch := [0]
  wf := dot_S32x1x512_S32x512x128_S32x1x128_2_1_1_2_0_0_wf
def dot_S32x1x128_S32x128x512_S32x1x512_2_1_1_2_0_0 : DotDims S32x1x128 S32x128x512 S32x1x512 where
  lhsContracting := [2]
  rhsContracting := [1]
  lhsNonContracting := [1]
  rhsNonContracting := [2]
  lhsBatch := [0]
  rhsBatch := [0]
  wf := dot_S32x1x128_S32x128x512_S32x1x512_2_1_1_2_0_0_wf

abbrev win0_0 : Pipeline.Window sig grid0 :=
  Pipeline.Window.ofSpec (Memref.whole main_v0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev spec1_0 : Pipeline.WinSpec sig grid1.rank :=
  Pipeline.WinSpec.ofSpec (Memref.whole main_v2) S1x32x512.size reads1_0 false false 2 stage1_0 sem1_0 nbuf1_0 hstage1_0

abbrev spec1_1 : Pipeline.WinSpec sig grid1.rank :=
  Pipeline.WinSpec.ofSpec (Memref.whole main_v6) S1x1x128.size reads1_1 false false 2 stage1_1 sem1_1 nbuf1_1 hstage1_1

abbrev spec1_2 : Pipeline.WinSpec sig grid1.rank :=
  Pipeline.WinSpec.ofSpec (Memref.whole main_v0) S1x32x512.size reads1_2 false false 2 stage1_2 sem1_2 nbuf1_2 hstage1_2

abbrev spec1_3 : Pipeline.WinSpec sig grid1.rank :=
  Pipeline.WinSpec.ofSpec (Memref.whole main_v1) S1x32x512.size reads1_3 false false 2 stage1_3 sem1_3 nbuf1_3 hstage1_3

abbrev spec1_4 : Pipeline.WinSpec sig grid1.rank :=
  Pipeline.WinSpec.ofSpec (Memref.whole main_v7_0) S1x32x512.size reads1_4 true false 2 stage1_4 sem1_4 nbuf1_4 hstage1_4

abbrev spec1_5 : Pipeline.WinSpec sig grid1.rank :=
  Pipeline.WinSpec.ofSpec (Memref.whole main_v7_1) S1x8x128.size reads1_5 true false 2 stage1_5 sem1_5 nbuf1_5 hstage1_5

abbrev spec1 : Fin 6 → Pipeline.WinSpec sig grid1.rank := fun | 0 => spec1_0 | 1 => spec1_1 | 2 => spec1_2 | 3 => spec1_3 | 4 => spec1_4 | 5 => spec1_5 | ⟨_ + 6, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | 5 => nbuf1_5 | ⟨_ + 6, h⟩ => absurd h (Nat.not_lt.2 (Nat.le_add_left _ _))
abbrev ix1 (pf : pre1.Contents (Elt F)) : (w : Fin 6) → grid1.Coords → Fin (spec1 w).shape.rank → Nat := fun | 0 => cc1_transform_0 | 1 => cc1_transform_1 | 2 => cc1_transform_2 | 3 => cc1_transform_3 | 4 => cc1_transform_4 | 5 => cc1_transform_5 | ⟨_ + 6, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | 3 => hreads1_3 | 4 => hreads1_4 | 5 => hreads1_5 | ⟨_ + 6, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | 3 => hinb1_3 | 4 => hinb1_4 | 5 => hinb1_5 | ⟨_ + 6, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | 3 => hwx1_3 | 4 => hwx1_4 | 5 => hwx1_5 | ⟨_ + 6, h⟩ => absurd h (Nat.not_lt.2 (Nat.le_add_left _ _))

class Facts : Prop extends Facts₀ where
  harr1 : ∀ w, (spec1 w).arr.IsWhole

variable [Facts]
-- ==== ReferenceIdeal.lean ====
abbrev S32x1x512x512 : Shape := ⟨4, ![32, 1, 512, 512]⟩
abbrev S32 : Shape := ⟨1, ![32]⟩
abbrev S_ : Shape := ⟨0, ![]⟩
abbrev S32x262144 : Shape := ⟨2, ![32, 262144]⟩
abbrev S32x1 : Shape := ⟨2, ![32, 1]⟩
abbrev S8388608 : Shape := ⟨1, ![8388608]⟩
abbrev S3200 : Shape := ⟨1, ![3200]⟩
abbrev S8388608x1 : Shape := ⟨2, ![8388608, 1]⟩
abbrev S32x1x1x1 : Shape := ⟨4, ![32, 1, 1, 1]⟩

abbrev nBuf : Space → Nat
  | .hbm => 67
  | .vmem => 0
  | .smem => 0
  | _ => 0

abbrev bufTy : (tb : Table) → Fin (tcTables nBuf tb) → BufTy
  | .hbm, ⟨0, _⟩ => ⟨S32x1x512x512, .f32⟩
  | .hbm, ⟨1, _⟩ => ⟨S32x1x512x512, .f32⟩
  | .hbm, ⟨2, _⟩ => ⟨S32, .i32⟩
  | .hbm, ⟨3, _⟩ => ⟨S32x1x512x512, .i32⟩
  | .hbm, ⟨4, _⟩ => ⟨S_, .f32⟩
  | .hbm, ⟨5, _⟩ => ⟨S32x1x512x512, .f32⟩
  | .hbm, ⟨6, _⟩ => ⟨S32x1x512x512, .f32⟩
  | .hbm, ⟨7, _⟩ => ⟨S_, .f32⟩
  | .hbm, ⟨8, _⟩ => ⟨S32x1x512x512, .f32⟩
  | .hbm, ⟨9, _⟩ => ⟨S32x1x512x512, .f32⟩
  | .hbm, ⟨10, _⟩ => ⟨S32x1x512x512, .f32⟩
  | .hbm, ⟨11, _⟩ => ⟨S32x262144, .i32⟩
  | .hbm, ⟨12, _⟩ => ⟨S32, .i32⟩
  | .hbm, ⟨13, _⟩ => ⟨S32x1, .i32⟩
  | .hbm, ⟨14, _⟩ => ⟨S_, .i32⟩
  | .hbm, ⟨15, _⟩ => ⟨S32x1, .i32⟩
  | .hbm, ⟨16, _⟩ => ⟨S32x1, .i32⟩
  | .hbm, ⟨17, _⟩ => ⟨S32x262144, .i32⟩
  | .hbm, ⟨18, _⟩ => ⟨S32x262144, .i32⟩
  | .hbm, ⟨19, _⟩ => ⟨S8388608, .i32⟩
  | .hbm, ⟨20, _⟩ => ⟨S8388608, .f32⟩
  | .hbm, ⟨21, _⟩ => ⟨S_, .f32⟩
  | .hbm, ⟨22, _⟩ => ⟨S3200, .f32⟩
  | .hbm, ⟨23, _⟩ => ⟨S8388608x1, .i32⟩
  | .hbm, ⟨24, _⟩ => ⟨S3200, .f32⟩
  | .hbm, ⟨25, _⟩ => ⟨S_, .f32⟩
  | .hbm, ⟨26, _⟩ => ⟨S8388608, .f32⟩
  | .hbm, ⟨27, _⟩ => ⟨S_, .f32⟩
  | .hbm, ⟨28, _⟩ => ⟨S3200, .f32⟩
  | .hbm, ⟨29, _⟩ => ⟨S8388608x1, .i32⟩
  | .hbm, ⟨30, _⟩ => ⟨S3200, .f32⟩
  | .hbm, ⟨31, _⟩ => ⟨S_, .f32⟩
  | .hbm, ⟨32, _⟩ => ⟨S3200, .f32⟩
  | .hbm, ⟨33, _⟩ => ⟨S3200, .f32⟩
  | .hbm, ⟨34, _⟩ => ⟨S3200, .f32⟩
  | .hbm, ⟨35, _⟩ => ⟨S_, .i32⟩
  | .hbm, ⟨36, _⟩ => ⟨S8388608, .i32⟩
  | .hbm, ⟨37, _⟩ => ⟨S8388608, .i1⟩
  | .hbm, ⟨38, _⟩ => ⟨S_, .i32⟩
  | .hbm, ⟨39, _⟩ => ⟨S8388608, .i32⟩
  | .hbm, ⟨40, _⟩ => ⟨S8388608, .i32⟩
  | .hbm, ⟨41, _⟩ => ⟨S8388608, .i32⟩
  | .hbm, ⟨42, _⟩ => ⟨S8388608x1, .i32⟩
  | .hbm, ⟨43, _⟩ => ⟨S8388608, .f32⟩
  | .hbm, ⟨44, _⟩ => ⟨S32x1x512x512, .f32⟩
  | .hbm, ⟨45, _⟩ => ⟨S_, .i32⟩
  | .hbm, ⟨46, _⟩ => ⟨S32, .i32⟩
  | .hbm, ⟨47, _⟩ => ⟨S32, .i1⟩
  | .hbm, ⟨48, _⟩ => ⟨S32x1x1x1, .i1⟩
  | .hbm, ⟨49, _⟩ => ⟨S_, .f32⟩
  | .hbm, ⟨50, _⟩ => ⟨S_, .f32⟩
  | .hbm, ⟨51, _⟩ => ⟨S32x1x512x512, .i1⟩
  | .hbm, ⟨52, _⟩ => ⟨S32x1x512x512, .f32⟩
  | .hbm, ⟨53, _⟩ => ⟨S32x1x512x512, .f32⟩
  | .hbm, ⟨54, _⟩ => ⟨S32x1x512x512, .f32⟩
  | .hbm, ⟨55, _⟩ => ⟨S32x1x512x512, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S32x1x512x512, .f32⟩
  | .hbm, ⟨61, _⟩ => ⟨S32x1x512x512, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_11 : Ref sig .tc := ⟨.hbm, 62, rfl⟩
abbrev main_v42 : Ref sig .tc := ⟨.hbm, 63, rfl⟩
abbrev main_cst_12 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  bcast_S_S32x1x512x512 : S_.BroadcastsInDim S32x1x512x512 (![] : Fin 0 → Fin S32x1x512x512.rank)
  shapeCasts_S32x1x512x512_S32x262144 : S32x1x512x512.ShapeCasts S32x262144
  bcast_S32_S32x1_0 : S32.BroadcastsInDim S32x1 (![0] : Fin 1 → Fin S32x1.rank)
  bcast_S_S32x1 : S_.BroadcastsInDim S32x1 (![] : Fin 0 → Fin S32x1.rank)
  bcast_S32x1_S32x262144_0_1 : S32x1.BroadcastsInDim S32x262144 (![0, 1] : Fin 2 → Fin S32x262144.rank)
  shapeCasts_S32x262144_S8388608 : S32x262144.ShapeCasts S8388608
  shapeCasts_S32x1x512x512_S8388608 : S32x1x512x512.ShapeCasts S8388608
  bcast_S_S3200 : S_.BroadcastsInDim S3200 (![] : Fin 0 → Fin S3200.rank)
  bcast_S8388608_S8388608x1_0 : S8388608.BroadcastsInDim S8388608x1 (![0] : Fin 1 → Fin S8388608x1.rank)
  bcast_S_S8388608 : S_.BroadcastsInDim S8388608 (![] : Fin 0 → Fin S8388608.rank)
  shapeCasts_S8388608_S32x1x512x512 : S8388608.ShapeCasts S32x1x512x512
  bcast_S_S32 : S_.BroadcastsInDim S32 (![] : Fin 0 → Fin S32.rank)
  bcast_S32_S32x1x1x1_0 : S32.BroadcastsInDim S32x1x1x1 (![0] : Fin 1 → Fin S32x1x1x1.rank)
  bcast_S32x1x1x1_S32x1x512x512_0_1_2_3 : S32x1x1x1.BroadcastsInDim S32x1x512x512 (![0, 1, 2, 3] : Fin 4 → Fin S32x1x512x512.rank)
  reducesTo_S32x1x512x512_S_d0_1_2_3 : S32x1x512x512.ReducesTo [0, 1, 2, 3] S_
  h_S_ : 0 < S_.numel
  scatter_S3200_S8388608x1_S8388608_n_0_0_1_wf : ScatterDims.WF S3200 S8388608x1 S8388608 [] [0] [0] 1
  gather_S3200_S8388608x1_S8388608_n_0_n_n_0_1_1_wf : GatherDims.WF S3200 S8388608x1 S8388608 [] [0] [] [0] [] 1 ![1]

variable [Facts₀]

def scatter_S3200_S8388608x1_S8388608_n_0_0_1 : ScatterDims S3200 S8388608x1 S8388608 where
  updateWindowDims := []
  insertedWindowDims := [0]
  scatterDimsToOperandDims := [0]
  indexVectorDim := 1
  wf := scatter_S3200_S8388608x1_S8388608_n_0_0_1_wf
def gather_S3200_S8388608x1_S8388608_n_0_n_n_0_1_1 : GatherDims S3200 S8388608x1 S8388608 where
  offsetDims := []
  collapsedSliceDims := [0]
  operandBatchingDims := []
  startIndicesBatchingDims := []
  startIndexMap := [0]
  indexVectorDim := 1
  sliceSizes := ![1]
  wf := gather_S3200_S8388608x1_S8388608_n_0_n_n_0_1_1_wf

class Facts : Prop extends Facts₀ where

variable [Facts]
-- ==== Proof.K.R0Runs.lean ====
/- The frame half of region 0 (the per-image statistics call), first module: what the two runs of its body share.
   The region is stated at a parameter V, the TensorCore's buffer contents when the region is entered. Here: each
   window's block at a grid point read off V, the fact that an input window's staging buffer holds its block at every
   point, the body's one branch condition (the row-chunk coordinate is 0) in closed form over the 512 points, and
   the staging memrefs the body is called with at a point. -/
import proofs.«423842_j58059367907504_3_alg».proof.Proof.Gen.Kernel.Launch
import proofs.«423842_j58059367907504_3_alg».proof.Proof.Gen.Kernel.Skeleton
import proofs.«423842_j58059367907504_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is V's and whose body leaves the block in place: unfetched, the block index has not moved.
    The three input windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region

/-! ## The body's branch condition -/

/-- The condition of the body's one conditional (the two accumulators are reset), from the grid coordinates:
    the row-chunk coordinate compared with 0, widened, compared with 0 again. -/
abbrev cond0 (i : grid0.Coords) : Prop := (Scalar.cmpi .ne (Scalar.extui (Scalar.cmpi .eq (BitVec.ofNat 32 (i 1).val) 0#32)) 0#32) = 1#1

/-- It holds exactly at an image's first row chunk: decided over the 512 points of the grid. -/
theorem hcond0 : ∀ t : Fin cfg0.N, cond0 (grid0.coords t) ↔ t.val % 16 = 0 :=
  (by decide +kernel : ∀ t : Fin grid0.N, cond0 (grid0.coords t) ↔ t.val % 16 = 0)

/-! ## The staging memrefs the body is called with -/

/-- One staging buffer of each output window, through which its contents are stated (the choice does not matter:
    pieces that cover the block read back the same through any whole view). -/
abbrev VO0_3 : View sig .tc .vmem S1x1x128 .f32 := (Memref.whole cc0_stg3_0 : Memref sig .tc .vmem S1x1x128 .f32).view
abbrev VO0_4 : View sig .tc .vmem S1x1x128 .f32 := (Memref.whole cc0_stg4_0 : Memref sig .tc .vmem S1x1x128 .f32).view

/-- Each window's current staging memref at point t, spelt as the pipeline passes it to the body, and its wholeness. -/
abbrev ms0_0 (t : Fin cfg0.N) : Memref sig .tc .vmem S1x32x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x512 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)

end Cert.Kernel.Hand

end
-- ==== Proof.K.R0RunA.lean ====
/- The frame half of region 0, second module: the body's run at an image's first row chunk (case A, the reset
   taken). On whole staging memrefs, the three inputs' at their contents and the two outputs' at anything, the body
   runs to a continuation that holds the inputs' as they were and each output's buffer with the pieces the body's
   stores wrote; the pieces are the witness the run finds. -/
import proofs.«423842_j58059367907504_3_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (the row-chunk coordinate is 0): both accumulators are zeroed, then each is read back and stored again
    with the chunk's lane sums added. The witness is, per output, the list of pieces stored (last first). -/
noncomputable def kernelRun0_A (c : Dev nD) (i : grid0.Coords) (arg2 : Memref sig .tc .vmem S1x32x512 .f32) (harg2 : arg2.IsWhole) (arg3 : Memref sig .tc .vmem S1x32x512 .f32) (harg3 : arg3.IsWhole) (arg4 : Memref sig .tc .vmem S1x32x512 .i32) (harg4 : arg4.IsWhole) (arg5 : Memref sig .tc .vmem S1x1x128 .f32) (harg5 : arg5.IsWhole) (arg6 : Memref sig .tc .vmem S1x1x128 .f32) (harg6 : arg6.IsWhole) (hc0 : cond0 i)
    (x2 : Vec F S1x32x512 .f32) (x3 : Vec F S1x32x512 .f32) (x4 : Vec F S1x32x512 .i32) :
    Σ' (L5 : List (View.Piece (Elt F) S1x1x128 .f32)), { L6 : List (View.Piece (Elt F) S1x1x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d)
            ∗ (iprop(owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0__stats_kernel i arg2 harg2 arg3 harg3 arg4 harg4 arg5 harg5 arg6 harg6) K } := by
  refine ⟨?_, ?_, fun E K => ?run⟩
  case run =>
    simp only [cc0__stats_kernel_eq_skeleton]; unfold cc0__stats_kernel_skel
    simp only [k0_part1_eq_skeleton]
    unfold owns
    iintro ⟨⟨%f2, %hf2, H2⟩, ⟨%f3, %hf3, H3⟩, ⟨%f4, %hf4, H4⟩, ⟨%d5, %f5, -, H5⟩, ⟨%d6, %f6, -, H6⟩, Hk⟩
    obtain rfl := harg2.eq_unread hf2; obtain rfl := harg3.eq_unread hf3; obtain rfl := harg4.eq_unread hf4
    sl_exec (disch := first | exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.Kernel.Hand

end
-- ==== Proof.K.R0RunB.lean ====
/- The frame half of region 0, third module: the body's run at a later row chunk of an image (case B, the reset
   not taken). The two outputs' staging buffers are entered at their running contents, which the body reads before it
   stores over them; otherwise as in case A. -/
import proofs.«423842_j58059367907504_3_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (the row-chunk coordinate is not 0): each accumulator is read and stored again with the chunk's lane sums
    added. The witness is, per output, the list of pieces stored (last first). -/
noncomputable def kernelRun0_B (c : Dev nD) (i : grid0.Coords) (arg2 : Memref sig .tc .vmem S1x32x512 .f32) (harg2 : arg2.IsWhole) (arg3 : Memref sig .tc .vmem S1x32x512 .f32) (harg3 : arg3.IsWhole) (arg4 : Memref sig .tc .vmem S1x32x512 .i32) (harg4 : arg4.IsWhole) (arg5 : Memref sig .tc .vmem S1x1x128 .f32) (harg5 : arg5.IsWhole) (arg6 : Memref sig .tc .vmem S1x1x128 .f32) (harg6 : arg6.IsWhole) (hc0 : ¬cond0 i)
    (x2 : Vec F S1x32x512 .f32) (x3 : Vec F S1x32x512 .f32) (x4 : Vec F S1x32x512 .i32) (xo5 : Vec F S1x1x128 .f32) (xo6 : Vec F S1x1x128 .f32) :
    Σ' (L5 : List (View.Piece (Elt F) S1x1x128 .f32)), { L6 : List (View.Piece (Elt F) S1x1x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare xo5 ∗ owns (c : Thread nD τ) arg6 fullShare xo6
            ∗ (iprop(owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0__stats_kernel i arg2 harg2 arg3 harg3 arg4 harg4 arg5 harg5 arg6 harg6) K } := by
  refine ⟨?_, ?_, fun E K => ?run⟩
  case run =>
    simp only [cc0__stats_kernel_eq_skeleton]; unfold cc0__stats_kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.Kernel.Hand

end
-- ==== Proof.K.R0.lean ====
/- The frame half of region 0, last module. From the two runs: the pieces each case stores tile each output's
   [1,1,128] block; what each case leaves in an output's staging buffer (the pieces read back); THE ACCUMULATION, what the
   two output buffers hold after the body at each grid point, by recursion on the point (a first row chunk resets, a later
   one adds to what the point before left); the pipeline's proof data at the entry contents V; what each window's
   staging buffer holds when the body is called; and the body obligation at every point. -/
import proofs.«423842_j58059367907504_3_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the outputs' buffers -/

/-- Case A's pieces for the lane sums tile the block, so they cover it. -/
theorem cover0_A_3 (c : Dev nD) (i : grid0.Coords) (arg2 : Memref sig .tc .vmem S1x32x512 .f32) (harg2 : arg2.IsWhole) (arg3 : Memref sig .tc .vmem S1x32x512 .f32) (harg3 : arg3.IsWhole) (arg4 : Memref sig .tc .vmem S1x32x512 .i32) (harg4 : arg4.IsWhole) (arg5 : Memref sig .tc .vmem S1x1x128 .f32) (harg5 : arg5.IsWhole) (arg6 : Memref sig .tc .vmem S1x1x128 .f32) (harg6 : arg6.IsWhole) (hc0 : cond0 i) (x2 : Vec F S1x32x512 .f32) (x3 : Vec F S1x32x512 .f32) (x4 : Vec F S1x32x512 .i32) (y : S1x1x128.Idx) :
    ∃ pc ∈ (kernelRun0_A c i arg2 harg2 arg3 harg3 arg4 harg4 arg5 harg5 arg6 harg6 hc0 x2 x3 x4).1, y ∈ pc.1.set :=
  View.cover_of_tiledL (kernelRun0_A c i arg2 harg2 arg3 harg3 arg4 harg4 arg5 harg5 arg6 harg6 hc0 x2 x3 x4).1 S1x1x128.size (by sl_kernel_rfl) y

/-- Case A's pieces for the lane counts tile the block, so they cover it. -/
theorem cover0_A_4 (c : Dev nD) (i : grid0.Coords) (arg2 : Memref sig .tc .vmem S1x32x512 .f32) (harg2 : arg2.IsWhole) (arg3 : Memref sig .tc .vmem S1x32x512 .f32) (harg3 : arg3.IsWhole) (arg4 : Memref sig .tc .vmem S1x32x512 .i32) (harg4 : arg4.IsWhole) (arg5 : Memref sig .tc .vmem S1x1x128 .f32) (harg5 : arg5.IsWhole) (arg6 : Memref sig .tc .vmem S1x1x128 .f32) (harg6 : arg6.IsWhole) (hc0 : cond0 i) (x2 : Vec F S1x32x512 .f32) (x3 : Vec F S1x32x512 .f32) (x4 : Vec F S1x32x512 .i32) (y : S1x1x128.Idx) :
    ∃ pc ∈ (kernelRun0_A c i arg2 harg2 arg3 harg3 arg4 harg4 arg5 harg5 arg6 harg6 hc0 x2 x3 x4).2.1, y ∈ pc.1.set :=
  View.cover_of_tiledL (kernelRun0_A c i arg2 harg2 arg3 harg3 arg4 harg4 arg5 harg5 arg6 harg6 hc0 x2 x3 x4).2.1 S1x1x128.size (by sl_kernel_rfl) y

/-- What case A leaves in the lane sums' staging buffer: its pieces read back over junk. -/
def out0_A_3 (c : Dev nD) (i : grid0.Coords) (arg2 : Memref sig .tc .vmem S1x32x512 .f32) (harg2 : arg2.IsWhole) (arg3 : Memref sig .tc .vmem S1x32x512 .f32) (harg3 : arg3.IsWhole) (arg4 : Memref sig .tc .vmem S1x32x512 .i32) (harg4 : arg4.IsWhole) (arg5 : Memref sig .tc .vmem S1x1x128 .f32) (harg5 : arg5.IsWhole) (arg6 : Memref sig .tc .vmem S1x1x128 .f32) (harg6 : arg6.IsWhole) (hc0 : cond0 i) (x2 : Vec F S1x32x512 .f32) (x3 : Vec F S1x32x512 .f32) (x4 : Vec F S1x32x512 .i32) : Vec F S1x1x128 .f32 :=
  VO0_3.read (Elt F) (VO0_3.writes (Elt F) VO0_3.junk (kernelRun0_A c i arg2 harg2 arg3 harg3 arg4 harg4 arg5 harg5 arg6 harg6 hc0 x2 x3 x4).1)

/-- What case A leaves in the lane counts' staging buffer. -/
def out0_A_4 (c : Dev nD) (i : grid0.Coords) (arg2 : Memref sig .tc .vmem S1x32x512 .f32) (harg2 : arg2.IsWhole) (arg3 : Memref sig .tc .vmem S1x32x512 .f32) (harg3 : arg3.IsWhole) (arg4 : Memref sig .tc .vmem S1x32x512 .i32) (harg4 : arg4.IsWhole) (arg5 : Memref sig .tc .vmem S1x1x128 .f32) (harg5 : arg5.IsWhole) (arg6 : Memref sig .tc .vmem S1x1x128 .f32) (harg6 : arg6.IsWhole) (hc0 : cond0 i) (x2 : Vec F S1x32x512 .f32) (x3 : Vec F S1x32x512 .f32) (x4 : Vec F S1x32x512 .i32) : Vec F S1x1x128 .f32 :=
  VO0_4.read (Elt F) (VO0_4.writes (Elt F) VO0_4.junk (kernelRun0_A c i arg2 harg2 arg3 harg3 arg4 harg4 arg5 harg5 arg6 harg6 hc0 x2 x3 x4).2.1)

/-- Case B's pieces for the lane sums tile the block, so they cover it. -/
theorem cover0_B_3 (c : Dev nD) (i : grid0.Coords) (arg2 : Memref sig .tc .vmem S1x32x512 .f32) (harg2 : arg2.IsWhole) (arg3 : Memref sig .tc .vmem S1x32x512 .f32) (harg3 : arg3.IsWhole) (arg4 : Memref sig .tc .vmem S1x32x512 .i32) (harg4 : arg4.IsWhole) (arg5 : Memref sig .tc .vmem S1x1x128 .f32) (harg5 : arg5.IsWhole) (arg6 : Memref sig .tc .vmem S1x1x128 .f32) (harg6 : arg6.IsWhole) (hc0 : ¬cond0 i) (x2 : Vec F S1x32x512 .f32) (x3 : Vec F S1x32x512 .f32) (x4 : Vec F S1x32x512 .i32) (xo5 : Vec F S1x1x128 .f32) (xo6 : Vec F S1x1x128 .f32) (y : S1x1x128.Idx) :
    ∃ pc ∈ (kernelRun0_B c i arg2 harg2 arg3 harg3 arg4 harg4 arg5 harg5 arg6 harg6 hc0 x2 x3 x4 xo5 xo6).1, y ∈ pc.1.set :=
  View.cover_of_tiledL (kernelRun0_B c i arg2 harg2 arg3 harg3 arg4 harg4 arg5 harg5 arg6 harg6 hc0 x2 x3 x4 xo5 xo6).1 S1x1x128.size (by sl_kernel_rfl) y

/-- Case B's pieces for the lane counts tile the block, so they cover it. -/
theorem cover0_B_4 (c : Dev nD) (i : grid0.Coords) (arg2 : Memref sig .tc .vmem S1x32x512 .f32) (harg2 : arg2.IsWhole) (arg3 : Memref sig .tc .vmem S1x32x512 .f32) (harg3 : arg3.IsWhole) (arg4 : Memref sig .tc .vmem S1x32x512 .i32) (harg4 : arg4.IsWhole) (arg5 : Memref sig .tc .vmem S1x1x128 .f32) (harg5 : arg5.IsWhole) (arg6 : Memref sig .tc .vmem S1x1x128 .f32) (harg6 : arg6.IsWhole) (hc0 : ¬cond0 i) (x2 : Vec F S1x32x512 .f32) (x3 : Vec F S1x32x512 .f32) (x4 : Vec F S1x32x512 .i32) (xo5 : Vec F S1x1x128 .f32) (xo6 : Vec F S1x1x128 .f32) (y : S1x1x128.Idx) :
    ∃ pc ∈ (kernelRun0_B c i arg2 harg2 arg3 harg3 arg4 harg4 arg5 harg5 arg6 harg6 hc0 x2 x3 x4 xo5 xo6).2.1, y ∈ pc.1.set :=
  View.cover_of_tiledL (kernelRun0_B c i arg2 harg2 arg3 harg3 arg4 harg4 arg5 harg5 arg6 harg6 hc0 x2 x3 x4 xo5 xo6).2.1 S1x1x128.size (by sl_kernel_rfl) y

/-- What case B leaves in the lane sums' staging buffer: its pieces read back over junk. -/
def out0_B_3 (c : Dev nD) (i : grid0.Coords) (arg2 : Memref sig .tc .vmem S1x32x512 .f32) (harg2 : arg2.IsWhole) (arg3 : Memref sig .tc .vmem S1x32x512 .f32) (harg3 : arg3.IsWhole) (arg4 : Memref sig .tc .vmem S1x32x512 .i32) (harg4 : arg4.IsWhole) (arg5 : Memref sig .tc .vmem S1x1x128 .f32) (harg5 : arg5.IsWhole) (arg6 : Memref sig .tc .vmem S1x1x128 .f32) (harg6 : arg6.IsWhole) (hc0 : ¬cond0 i) (x2 : Vec F S1x32x512 .f32) (x3 : Vec F S1x32x512 .f32) (x4 : Vec F S1x32x512 .i32) (xo5 : Vec F S1x1x128 .f32) (xo6 : Vec F S1x1x128 .f32) : Vec F S1x1x128 .f32 :=
  VO0_3.read (Elt F) (VO0_3.writes (Elt F) VO0_3.junk (kernelRun0_B c i arg2 harg2 arg3 harg3 arg4 harg4 arg5 harg5 arg6 harg6 hc0 x2 x3 x4 xo5 xo6).1)

/-- What case B leaves in the lane counts' staging buffer. -/
def out0_B_4 (c : Dev nD) (i : grid0.Coords) (arg2 : Memref sig .tc .vmem S1x32x512 .f32) (harg2 : arg2.IsWhole) (arg3 : Memref sig .tc .vmem S1x32x512 .f32) (harg3 : arg3.IsWhole) (arg4 : Memref sig .tc .vmem S1x32x512 .i32) (harg4 : arg4.IsWhole) (arg5 : Memref sig .tc .vmem S1x1x128 .f32) (harg5 : arg5.IsWhole) (arg6 : Memref sig .tc .vmem S1x1x128 .f32) (harg6 : arg6.IsWhole) (hc0 : ¬cond0 i) (x2 : Vec F S1x32x512 .f32) (x3 : Vec F S1x32x512 .f32) (x4 : Vec F S1x32x512 .i32) (xo5 : Vec F S1x1x128 .f32) (xo6 : Vec F S1x1x128 .f32) : Vec F S1x1x128 .f32 :=
  VO0_4.read (Elt F) (VO0_4.writes (Elt F) VO0_4.junk (kernelRun0_B c i arg2 harg2 arg3 harg3 arg4 harg4 arg5 harg5 arg6 harg6 hc0 x2 x3 x4 xo5 xo6).2.1)

section Region
variable (V : (c : Dev nD) → (b : Ref sig .tc) → Buf (Elt F) ((c : Thread nD τ).loc b))

/-! ## What the outputs hold after each point -/

/-- THE ACCUMULATION. What the two outputs' staging buffers hold after the body at position n (first the lane sums,
    second the lane counts): at an image's first row chunk case A on the point's input blocks; at a later chunk case B
    on the point's input blocks over what this leaves at n - 1 (the buffers are not written back in between). -/
def outsAt0 (c : Dev nD) : (n : ℕ) → n < cfg0.N → Vec F S1x1x128 .f32 × Vec F S1x1x128 .f32
  | 0, hn =>
    (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0 ⟨0, hn⟩).mpr (Nat.zero_mod _)) (iblk0 V c 0 ⟨0, hn⟩) (iblk0 V c 1 ⟨0, hn⟩) (iblk0 V c 2 ⟨0, hn⟩),
     out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0 ⟨0, hn⟩).mpr (Nat.zero_mod _)) (iblk0 V c 0 ⟨0, hn⟩) (iblk0 V c 1 ⟨0, hn⟩) (iblk0 V c 2 ⟨0, hn⟩))
  | n + 1, hn =>
    if h0 : (n + 1) % 16 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0 ⟨n + 1, hn⟩).mpr h0) (iblk0 V c 0 ⟨n + 1, hn⟩) (iblk0 V c 1 ⟨n + 1, hn⟩) (iblk0 V c 2 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0 ⟨n + 1, hn⟩).mpr h0) (iblk0 V c 0 ⟨n + 1, hn⟩) (iblk0 V c 1 ⟨n + 1, hn⟩) (iblk0 V c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2)

/-- The accumulation at a first row chunk: case A's contents. -/
theorem outsAt0_A (c : Dev nD) (t : Fin cfg0.N) (h0 : t.val % 16 = 0) :
    outsAt0 V c t.val t.isLt =
      (out0_A_3 c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t) (iblk0 V c 2 t),
       out0_A_4 c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t) (iblk0 V c 2 t)) := by
  obtain ⟨n, hn⟩ := t
  cases n with
  | zero => exact rfl
  | succ n => exact (dif_pos h0).trans rfl

/-- The accumulation at a later row chunk: case B's contents, over what the point before left. -/
theorem outsAt0_B (c : Dev nD) (t : Fin cfg0.N) (h0 : ¬t.val % 16 = 0) :
    outsAt0 V c t.val t.isLt =
      (out0_B_3 c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2,
       out0_B_4 c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core c: the arrays as the region finds them; after the body at
    point t each input's buffer at its block and the two outputs' at the accumulation; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- At a later row chunk the lane sums' current staging buffer holds what the body left at the point before: the
    point is not the first, the buffer was not written back in between (a write-back happens only after an image's
    last chunk), the window is live and uncut. -/
theorem before0_3_B (c : Dev nD) (t : Fin cfg0.N) (h0 : ¬t.val % 16 = 0) (d) :
    (dat0 V c).before 3 t d = (outsAt0 V c (t.val - 1) (Nat.lt_of_le_of_lt (Nat.sub_le _ _) t.isLt)).1 := by
  have hN : t.val < 512 := lt_of_lt_of_eq t.isLt (show cfg0.N = 512 from N_0)
  rw [Dat.before_out_kept _ 3 rfl t (by omega) (Bool.eq_false_iff.mpr fun h => by have := (flush0_3 _).mp h; dsimp only at this; omega)
    (fun _ => rfl) (fun _ _ => rfl)]
  dsimp only [dat0]

/-- The same for the lane counts' buffer. -/
theorem before0_4_B (c : Dev nD) (t : Fin cfg0.N) (h0 : ¬t.val % 16 = 0) (d) :
    (dat0 V c).before 4 t d = (outsAt0 V c (t.val - 1) (Nat.lt_of_le_of_lt (Nat.sub_le _ _) t.isLt)).2 := by
  have hN : t.val < 512 := lt_of_lt_of_eq t.isLt (show cfg0.N = 512 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation, at a generic point -/

/-- What the body is called with at point t (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 800000 in
/-- The body at any point: the inputs' memrefs hold their blocks; the closed form of the condition says which case
    the point is in; at a later row chunk each output's memref holds what the point before left; so the case's run
    applies, and the pieces it leaves, covering the block, read back as the accumulation. The invariant passes through
    unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val % 16 = 0
  · have e3 := congrArg Prod.fst (outsAt0_A V c t h0)
    have e4 := congrArg Prod.snd (outsAt0_A V c t h0)
    dsimp only at e3 e4
    rw [e3, e4]
    unfold out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0 t).mpr h0) (iblk0 V c 0 t) (iblk0 V c 1 t) (iblk0 V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3', H3⟩, ⟨%e4', H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _)
  · have e3 := congrArg Prod.fst (outsAt0_B V c t h0)
    have e4 := congrArg Prod.snd (outsAt0_B V c t h0)
    dsimp only at e3 e4
    rw [e3, e4]
    simp only [before0_3_B V c t h0, before0_4_B V c t h0]
    unfold out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0 t).mp h)) (iblk0 V c 0 t) (iblk0 V c 1 t) (iblk0 V c 2 t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3', H3⟩, ⟨%e4', H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.K.R1Runs.lean ====
/- The frame half of the second pallas_call (the broadcast-and-loss kernel, whose pipeline prefetches the label
   table): what its two control cases share. The windows' blocks read off the buffer contents the region is entered
   with, the schedule of its two output windows, the branch condition of the body in closed form, the label word the
   body loads, and the staging memrefs the pipeline hands the body at a point. Everything is stated at variable
   admissible contents of the table. -/
import proofs.«423842_j58059367907504_3_alg».proof.Proof.Gen.Kernel.Launch
import proofs.«423842_j58059367907504_3_alg».proof.Proof.Gen.Kernel.Skeleton
import proofs.«423842_j58059367907504_3_alg».proof.Proof.Gen.Kernel.Points
import Idealize.ShloMosaic.Lib.Pipeline.FrameBody
import Idealize.ShloMosaic.Lib.Ring
import Idealize.ShloMosaic.Lib.Tactic

-- membership in a rectangle of production extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg1 (F := F)).Adm)

/-! ## The windows' blocks -/

/-- Window `w`'s block at point `t`, read off its array as the region finds it (`V`). -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-! ## The schedule of the output windows

The index maps read no table, so the schedule is the same at every contents: decided over the grid on the closed
maps and restated over the pinned windows, which unfold to them. -/

/-- Window 4 (the target block, block index `(b, c, 0)`) is written back at every point. -/
theorem flush1_4 : ∀ t : Fin (cfg1 a).N, ((cfg1 a).win 4).flush t = true :=
  (by decide +kernel : ∀ t : Fin grid1.N, Pipeline.Window.flushOf grid1 true cc1_transform_4 t = true)

/-- Window 5 (the loss accumulator, block index `(b, 0, 0)`) is written back at the last chunk of each image. -/
theorem flush1_5 : ∀ t : Fin (cfg1 a).N, ((cfg1 a).win 5).flush t = true ↔ t.val % 16 = 15 :=
  (by decide +kernel : ∀ t : Fin grid1.N, Pipeline.Window.flushOf grid1 true cc1_transform_5 t = true ↔ t.val % 16 = 15)

/-! ## The body's branch condition -/

/-- The condition of the body's conditional (the accumulator is reset when the chunk coordinate is 0), from the grid
    coordinates. -/
abbrev cond1 (i : grid1.Coords) : Prop := (Scalar.cmpi .ne (Scalar.extui (Scalar.cmpi .eq (BitVec.ofNat 32 (i 1).val) 0#32)) 0#32) = 1#1

/-- It holds at the first chunk of each image, decided over the grid. -/
theorem hcond1 : ∀ t : Fin (cfg1 a).N, cond1 (grid1.coords t) ↔ t.val % 16 = 0 :=
  (by decide +kernel : ∀ t : Fin grid1.N, cond1 (grid1.coords t) ↔ t.val % 16 = 0)

/-! ## The table as the body is handed it -/

/-- The label table as the body is handed it: its whole buffer as a memref. -/
abbrev tbM1 : Memref sig .tc .smem S32 .i32 := Memref.whole main_arg2
abbrev htbM1 : tbM1.IsWhole := Memref.isWhole_whole _

/-- The table memref's buffer on core `c`, and it held whole at contents `f`. -/
abbrev TbBuf1 (c : Dev nD) : Type := Buf (Elt F) (tbM1.view.loc (c : Thread nD τ))
abbrev tbPt1 (c : Dev nD) (f : TbBuf1 (F := F) c) : sProp 𝕄 :=
  tbM1.view.loc (c : Thread nD τ) ↦{fullShare} f

/-- The word the body's scalar load returns at grid point `i` when the table holds `f`: the element under the one
    index of the unit rectangle at the image coordinate. -/
abbrev lblAt1 (c : Dev nD) (f : TbBuf1 (F := F) c) (i : grid1.Coords) : Elt F .i32 :=
  tbM1.view.readAt (Elt F) (Rect.unit (s := S32) (k1_off1 i) S1.size (k1_off1_inb i)).toLoadRect f (Shape.Idx.first (numel1_S1.symm ▸ Nat.one_pos))

/-- The label of grid point `i`'s image: that word at the table's admissible contents. -/
def lbl1 (i : grid1.Coords) : Elt F .i32 := lblAt1 (0 : Dev nD) (a.1 0) i

/-- The table's points-to out of the region's invariant: one table, held whole. -/
theorem prefHeld1_eq (c : Dev nD) :
    (Pipeline.prefHeld (Ix := Unit) (Name := ℕ) (U := UR sig nD τ) (Lvl := ℕ) pre1 c (fun _ => fullShare) a.1 : sProp 𝕄) = tbPt1 c (a.1 0) := by
  unfold Pipeline.prefHeld
  rw [show (Finset.univ : Finset (Fin 1)) = {(0 : Fin 1)} from by decide, bigSep_singleton]
  rfl

/-! ## The staging memrefs at a point -/

/-- Each window's current staging memref at point `t`, spelled as the pipeline passes it, and its wholeness. -/
abbrev ms1_0 (t : Fin (cfg1 a).N) : Memref sig .tc .vmem S1x32x512 .i32 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S1x1x128 .f32 := spec1_1.stage ((cfg1 a).slots t 1)
abbrev hs1_1 (t : Fin (cfg1 a).N) : (ms1_1 a t).IsWhole := hstage1_1 (((cfg1 a).slots t 1).cast nbuf1_1)
abbrev ms1_2 (t : Fin (cfg1 a).N) : Memref sig .tc .vmem S1x32x512 .f32 := spec1_2.stage ((cfg1 a).slots t 2)
abbrev hs1_2 (t : Fin (cfg1 a).N) : (ms1_2 a t).IsWhole := hstage1_2 (((cfg1 a).slots t 2).cast nbuf1_2)
abbrev ms1_3 (t : Fin (cfg1 a).N) : Memref sig .tc .vmem S1x32x512 .f32 := spec1_3.stage ((cfg1 a).slots t 3)
abbrev hs1_3 (t : Fin (cfg1 a).N) : (ms1_3 a t).IsWhole := hstage1_3 (((cfg1 a).slots t 3).cast nbuf1_3)
abbrev ms1_4 (t : Fin (cfg1 a).N) : Memref sig .tc .vmem S1x32x512 .f32 := spec1_4.stage ((cfg1 a).slots t 4)
abbrev hs1_4 (t : Fin (cfg1 a).N) : (ms1_4 a t).IsWhole := hstage1_4 (((cfg1 a).slots t 4).cast nbuf1_4)
abbrev ms1_5 (t : Fin (cfg1 a).N) : Memref sig .tc .vmem S1x8x128 .f32 := spec1_5.stage ((cfg1 a).slots t 5)
abbrev hs1_5 (t : Fin (cfg1 a).N) : (ms1_5 a t).IsWhole := hstage1_5 (((cfg1 a).slots t 5).cast nbuf1_5)

/-- The kernel body at point `t`, on what the pipeline calls it with: the grid point, the table's memref, and each
    window's current staging memref. -/
abbrev bodyAt1 (t : Fin (cfg1 a).N) : Prog (TpuEff nD τ sig (Elt F) Λ₀ .tc) PUnit :=
  cc1__broadcast_loss_kernel (grid1.coords t) tbM1 htbM1 (ms1_0 a t) (hs1_0 a t) (ms1_1 a t) (hs1_1 a t) (ms1_2 a t) (hs1_2 a t) (ms1_3 a t) (hs1_3 a t) (ms1_4 a t) (hs1_4 a t) (ms1_5 a t) (hs1_5 a t)

/-- One staging buffer of each output window, through which its contents are stated (the choice does not matter). -/
abbrev VO1_4 : View sig .tc .vmem S1x32x512 .f32 := (Memref.whole cc1_stg4_0 : Memref sig .tc .vmem S1x32x512 .f32).view
abbrev VO1_5 : View sig .tc .vmem S1x8x128 .f32 := (Memref.whole cc1_stg5_0 : Memref sig .tc .vmem S1x8x128 .f32).view

end Cert.Kernel.Hand

end
-- ==== Proof.K.R1RunA.lean ====
/- The whole-body run of the broadcast-and-loss kernel in the case where the chunk coordinate is 0 (the loss
   accumulator is reset before it is added to): the body's triple on any whole staging memrefs, the pieces each
   output's buffer ends with being the witness the run finds. -/
import proofs.«423842_j58059367907504_3_alg».proof.Proof.K.R1Runs

-- membership in a rectangle of production extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg1 (F := F)).Adm)

-- (the run's proof term is large: the definition's epilogue walks it past the default budget)
set_option maxHeartbeats 4000000 in
/-- What the body's stores leave in the two outputs' staging memrefs, as pieces (last first), IN CASE A (the chunk
    coordinate is 0: the accumulator is reset), WITH the proof that on whole staging memrefs, the four inputs' at
    their contents, the table held whole at `tb`, the two outputs' at anything, the body runs to the continuation
    holding the inputs' and the table as they were and each output's buffer with its pieces written. The printed
    functions are their skeletons; the conditional is decided by the case's hypothesis; the pieces are the witness the
    run finds. -/
noncomputable def kernelRun1_A (c : Dev nD) (i : grid1.Coords) (arg3 : Memref sig .tc .vmem S1x32x512 .i32) (harg3 : arg3.IsWhole) (arg4 : Memref sig .tc .vmem S1x1x128 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x32x512 .f32) (harg7 : arg7.IsWhole) (arg8 : Memref sig .tc .vmem S1x8x128 .f32) (harg8 : arg8.IsWhole) (hc : cond1 i)
    (x3 : Vec F S1x32x512 .i32) (x4 : Vec F S1x1x128 .f32) (x5 : Vec F S1x32x512 .f32) (x6 : Vec F S1x32x512 .f32) (tb : TbBuf1 (F := F) c) :
    Σ' (L4 : List (View.Piece (Elt F) S1x32x512 .f32)), { L5 : List (View.Piece (Elt F) S1x8x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ d, owns (c : Thread nD τ) arg8 fullShare d) ∗ tbPt1 c tb
            ∗ (iprop(owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f L5) ∗ tbPt1 c tb) -∗ K ⟨⟩))
          ⊢ wp frame (wpE (defs₀ (F := F)) Variants.none c none) E (cc1__broadcast_loss_kernel i tbM1 htbM1 arg3 harg3 arg4 harg4 arg5 harg5 arg6 harg6 arg7 harg7 arg8 harg8) K } := by
  refine ⟨?_, ?_, fun E K => ?run⟩
  case run =>
    simp only [cc1__broadcast_loss_kernel_eq_skeleton]; unfold cc1__broadcast_loss_kernel_skel
    simp only [k1_part1_eq_skeleton]
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, HT, Hk⟩
    obtain rfl := harg3.eq_unread hf3; obtain rfl := harg4.eq_unread hf4; obtain rfl := harg5.eq_unread hf5; obtain rfl := harg6.eq_unread hf6
    sl_exec (disch := first | exact hc)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexact HT

end Cert.Kernel.Hand

end
-- ==== Proof.K.R1RunB.lean ====
/- The whole-body run of the broadcast-and-loss kernel in the case where the chunk coordinate is not 0 (the loss
   accumulator is carried over from the point before): the body's triple on any whole staging memrefs, the pieces each
   output's buffer ends with being the witness the run finds. -/
import proofs.«423842_j58059367907504_3_alg».proof.Proof.K.R1RunA

-- membership in a rectangle of production extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg1 (F := F)).Adm)

-- (the run's proof term is large: the definition's epilogue walks it past the default budget)
set_option maxHeartbeats 4000000 in
/-- What the body's stores leave in the two outputs' staging memrefs, as pieces (last first), IN CASE B (the chunk
    coordinate is not 0: the accumulator holds what the point before left, `xo8`), WITH the proof that on whole staging
    memrefs, the four inputs' at their contents, the table held whole at `tb`, the target block's at anything and the
    accumulator's at `xo8`, the body runs to the continuation holding the inputs' and the table as they were and each
    output's buffer with its pieces written. The conditional is decided by the case's hypothesis; the pieces are the
    witness the run finds. -/
noncomputable def kernelRun1_B (c : Dev nD) (i : grid1.Coords) (arg3 : Memref sig .tc .vmem S1x32x512 .i32) (harg3 : arg3.IsWhole) (arg4 : Memref sig .tc .vmem S1x1x128 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x32x512 .f32) (harg7 : arg7.IsWhole) (arg8 : Memref sig .tc .vmem S1x8x128 .f32) (harg8 : arg8.IsWhole) (hc : ¬cond1 i)
    (x3 : Vec F S1x32x512 .i32) (x4 : Vec F S1x1x128 .f32) (x5 : Vec F S1x32x512 .f32) (x6 : Vec F S1x32x512 .f32) (tb : TbBuf1 (F := F) c) (xo8 : Vec F S1x8x128 .f32) :
    Σ' (L4 : List (View.Piece (Elt F) S1x32x512 .f32)), { L5 : List (View.Piece (Elt F) S1x8x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ owns (c : Thread nD τ) arg8 fullShare xo8 ∗ tbPt1 c tb
            ∗ (iprop(owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f L5) ∗ tbPt1 c tb) -∗ K ⟨⟩))
          ⊢ wp frame (wpE (defs₀ (F := F)) Variants.none c none) E (cc1__broadcast_loss_kernel i tbM1 htbM1 arg3 harg3 arg4 harg4 arg5 harg5 arg6 harg6 arg7 harg7 arg8 harg8) K } := by
  refine ⟨?_, ?_, fun E K => ?run⟩
  case run =>
    simp only [cc1__broadcast_loss_kernel_eq_skeleton]; unfold cc1__broadcast_loss_kernel_skel
    simp only [k1_part1_eq_skeleton]
    unfold owns
    iintro ⟨⟨%f3, %hf3, H3⟩, ⟨%f4, %hf4, H4⟩, ⟨%f5, %hf5, H5⟩, ⟨%f6, %hf6, H6⟩, ⟨%d7, %f7, -, H7⟩, ⟨%f8, %hf8, H8⟩, HT, Hk⟩
    obtain rfl := harg3.eq_unread hf3; obtain rfl := harg4.eq_unread hf4; obtain rfl := harg5.eq_unread hf5; obtain rfl := harg6.eq_unread hf6
    obtain rfl := harg8.eq_unread hf8
    sl_exec (disch := first | exact hc)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexact HT

end Cert.Kernel.Hand

end
-- ==== Proof.K.R1.lean ====
/- The frame half of the second pallas_call (the broadcast-and-loss kernel), its last module: what each control case
   leaves in the two outputs' staging buffers (the pieces cover them), what the outputs hold point by point (the loss
   accumulator carried from one chunk of an image to the next), the pipeline's proof data at the buffer contents the
   region is entered with and at variable admissible contents of the label table, what each window's staging buffer
   holds when the body is called, the word the body loads from the table, and the body obligation at every point. -/
import proofs.«423842_j58059367907504_3_alg».proof.Proof.K.R1RunB
import Idealize.ShloMosaic.Lib.ValueIdx

-- membership in a rectangle of production extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg1 (F := F)).Adm)

/-! ## What each case leaves in the outputs' buffers -/

/-- Case A's pieces for the target block tile it (one whole-block store), so they cover it. -/
theorem cover1_A_4 (c : Dev nD) (i : grid1.Coords) (arg3 : Memref sig .tc .vmem S1x32x512 .i32) (harg3 : arg3.IsWhole) (arg4 : Memref sig .tc .vmem S1x1x128 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x32x512 .f32) (harg7 : arg7.IsWhole) (arg8 : Memref sig .tc .vmem S1x8x128 .f32) (harg8 : arg8.IsWhole) (hc : cond1 i)
    (x3 : Vec F S1x32x512 .i32) (x4 : Vec F S1x1x128 .f32) (x5 : Vec F S1x32x512 .f32) (x6 : Vec F S1x32x512 .f32) (tb : TbBuf1 (F := F) c) (y : S1x32x512.Idx) :
    ∃ pc ∈ (kernelRun1_A c i arg3 harg3 arg4 harg4 arg5 harg5 arg6 harg6 arg7 harg7 arg8 harg8 hc x3 x4 x5 x6 tb).1, y ∈ pc.1.set :=
  View.cover_of_tiledL (kernelRun1_A c i arg3 harg3 arg4 harg4 arg5 harg5 arg6 harg6 arg7 harg7 arg8 harg8 hc x3 x4 x5 x6 tb).1 S1x32x512.size (by sl_kernel_rfl) y

/-- Case A's pieces for the loss accumulator tile it (the reset and the accumulation, each a whole-block store), so
    they cover it. -/
theorem cover1_A_5 (c : Dev nD) (i : grid1.Coords) (arg3 : Memref sig .tc .vmem S1x32x512 .i32) (harg3 : arg3.IsWhole) (arg4 : Memref sig .tc .vmem S1x1x128 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x32x512 .f32) (harg7 : arg7.IsWhole) (arg8 : Memref sig .tc .vmem S1x8x128 .f32) (harg8 : arg8.IsWhole) (hc : cond1 i)
    (x3 : Vec F S1x32x512 .i32) (x4 : Vec F S1x1x128 .f32) (x5 : Vec F S1x32x512 .f32) (x6 : Vec F S1x32x512 .f32) (tb : TbBuf1 (F := F) c) (y : S1x8x128.Idx) :
    ∃ pc ∈ (kernelRun1_A c i arg3 harg3 arg4 harg4 arg5 harg5 arg6 harg6 arg7 harg7 arg8 harg8 hc x3 x4 x5 x6 tb).2.1, y ∈ pc.1.set :=
  View.cover_of_tiledL (kernelRun1_A c i arg3 harg3 arg4 harg4 arg5 harg5 arg6 harg6 arg7 harg7 arg8 harg8 hc x3 x4 x5 x6 tb).2.1 S1x8x128.size (by sl_kernel_rfl) y

/-- What case A leaves in the target block's staging buffer: its pieces read back over junk. -/
def out1_A_4 (c : Dev nD) (i : grid1.Coords) (arg3 : Memref sig .tc .vmem S1x32x512 .i32) (harg3 : arg3.IsWhole) (arg4 : Memref sig .tc .vmem S1x1x128 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x32x512 .f32) (harg7 : arg7.IsWhole) (arg8 : Memref sig .tc .vmem S1x8x128 .f32) (harg8 : arg8.IsWhole) (hc : cond1 i)
    (x3 : Vec F S1x32x512 .i32) (x4 : Vec F S1x1x128 .f32) (x5 : Vec F S1x32x512 .f32) (x6 : Vec F S1x32x512 .f32) (tb : TbBuf1 (F := F) c) : Vec F S1x32x512 .f32 :=
  VO1_4.read (Elt F) (VO1_4.writes (Elt F) VO1_4.junk (kernelRun1_A c i arg3 harg3 arg4 harg4 arg5 harg5 arg6 harg6 arg7 harg7 arg8 harg8 hc x3 x4 x5 x6 tb).1)

/-- What case A leaves in the loss accumulator's staging buffer: its pieces read back over junk. -/
def out1_A_5 (c : Dev nD) (i : grid1.Coords) (arg3 : Memref sig .tc .vmem S1x32x512 .i32) (harg3 : arg3.IsWhole) (arg4 : Memref sig .tc .vmem S1x1x128 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x32x512 .f32) (harg7 : arg7.IsWhole) (arg8 : Memref sig .tc .vmem S1x8x128 .f32) (harg8 : arg8.IsWhole) (hc : cond1 i)
    (x3 : Vec F S1x32x512 .i32) (x4 : Vec F S1x1x128 .f32) (x5 : Vec F S1x32x512 .f32) (x6 : Vec F S1x32x512 .f32) (tb : TbBuf1 (F := F) c) : Vec F S1x8x128 .f32 :=
  VO1_5.read (Elt F) (VO1_5.writes (Elt F) VO1_5.junk (kernelRun1_A c i arg3 harg3 arg4 harg4 arg5 harg5 arg6 harg6 arg7 harg7 arg8 harg8 hc x3 x4 x5 x6 tb).2.1)

/-- Case B's pieces for the target block tile it (one whole-block store), so they cover it. -/
theorem cover1_B_4 (c : Dev nD) (i : grid1.Coords) (arg3 : Memref sig .tc .vmem S1x32x512 .i32) (harg3 : arg3.IsWhole) (arg4 : Memref sig .tc .vmem S1x1x128 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x32x512 .f32) (harg7 : arg7.IsWhole) (arg8 : Memref sig .tc .vmem S1x8x128 .f32) (harg8 : arg8.IsWhole) (hc : ¬cond1 i)
    (x3 : Vec F S1x32x512 .i32) (x4 : Vec F S1x1x128 .f32) (x5 : Vec F S1x32x512 .f32) (x6 : Vec F S1x32x512 .f32) (tb : TbBuf1 (F := F) c) (xo8 : Vec F S1x8x128 .f32) (y : S1x32x512.Idx) :
    ∃ pc ∈ (kernelRun1_B c i arg3 harg3 arg4 harg4 arg5 harg5 arg6 harg6 arg7 harg7 arg8 harg8 hc x3 x4 x5 x6 tb xo8).1, y ∈ pc.1.set :=
  View.cover_of_tiledL (kernelRun1_B c i arg3 harg3 arg4 harg4 arg5 harg5 arg6 harg6 arg7 harg7 arg8 harg8 hc x3 x4 x5 x6 tb xo8).1 S1x32x512.size (by sl_kernel_rfl) y

/-- Case B's pieces for the loss accumulator tile it (the accumulation, a whole-block store), so they cover it. -/
theorem cover1_B_5 (c : Dev nD) (i : grid1.Coords) (arg3 : Memref sig .tc .vmem S1x32x512 .i32) (harg3 : arg3.IsWhole) (arg4 : Memref sig .tc .vmem S1x1x128 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x32x512 .f32) (harg7 : arg7.IsWhole) (arg8 : Memref sig .tc .vmem S1x8x128 .f32) (harg8 : arg8.IsWhole) (hc : ¬cond1 i)
    (x3 : Vec F S1x32x512 .i32) (x4 : Vec F S1x1x128 .f32) (x5 : Vec F S1x32x512 .f32) (x6 : Vec F S1x32x512 .f32) (tb : TbBuf1 (F := F) c) (xo8 : Vec F S1x8x128 .f32) (y : S1x8x128.Idx) :
    ∃ pc ∈ (kernelRun1_B c i arg3 harg3 arg4 harg4 arg5 harg5 arg6 harg6 arg7 harg7 arg8 harg8 hc x3 x4 x5 x6 tb xo8).2.1, y ∈ pc.1.set :=
  View.cover_of_tiledL (kernelRun1_B c i arg3 harg3 arg4 harg4 arg5 harg5 arg6 harg6 arg7 harg7 arg8 harg8 hc x3 x4 x5 x6 tb xo8).2.1 S1x8x128.size (by sl_kernel_rfl) y

/-- What case B leaves in the target block's staging buffer: its pieces read back over junk. -/
def out1_B_4 (c : Dev nD) (i : grid1.Coords) (arg3 : Memref sig .tc .vmem S1x32x512 .i32) (harg3 : arg3.IsWhole) (arg4 : Memref sig .tc .vmem S1x1x128 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x32x512 .f32) (harg7 : arg7.IsWhole) (arg8 : Memref sig .tc .vmem S1x8x128 .f32) (harg8 : arg8.IsWhole) (hc : ¬cond1 i)
    (x3 : Vec F S1x32x512 .i32) (x4 : Vec F S1x1x128 .f32) (x5 : Vec F S1x32x512 .f32) (x6 : Vec F S1x32x512 .f32) (tb : TbBuf1 (F := F) c) (xo8 : Vec F S1x8x128 .f32) : Vec F S1x32x512 .f32 :=
  VO1_4.read (Elt F) (VO1_4.writes (Elt F) VO1_4.junk (kernelRun1_B c i arg3 harg3 arg4 harg4 arg5 harg5 arg6 harg6 arg7 harg7 arg8 harg8 hc x3 x4 x5 x6 tb xo8).1)

/-- What case B leaves in the loss accumulator's staging buffer: its pieces read back over junk. -/
def out1_B_5 (c : Dev nD) (i : grid1.Coords) (arg3 : Memref sig .tc .vmem S1x32x512 .i32) (harg3 : arg3.IsWhole) (arg4 : Memref sig .tc .vmem S1x1x128 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x32x512 .f32) (harg7 : arg7.IsWhole) (arg8 : Memref sig .tc .vmem S1x8x128 .f32) (harg8 : arg8.IsWhole) (hc : ¬cond1 i)
    (x3 : Vec F S1x32x512 .i32) (x4 : Vec F S1x1x128 .f32) (x5 : Vec F S1x32x512 .f32) (x6 : Vec F S1x32x512 .f32) (tb : TbBuf1 (F := F) c) (xo8 : Vec F S1x8x128 .f32) : Vec F S1x8x128 .f32 :=
  VO1_5.read (Elt F) (VO1_5.writes (Elt F) VO1_5.junk (kernelRun1_B c i arg3 harg3 arg4 harg4 arg5 harg5 arg6 harg6 arg7 harg7 arg8 harg8 hc x3 x4 x5 x6 tb xo8).2.1)

/-! ## What the outputs hold after each point -/

/-- THE ACCUMULATION. What the two outputs' staging buffers hold after the body at position `n` (first the target
    block's, second the loss accumulator's): at the first chunk of an image case A, run at the point's memrefs, input
    blocks and the table's contents; at a later chunk case B, over what this leaves in the accumulator at `n - 1` (its
    buffer is not written back between). -/
def outsAt1 (c : Dev nD) : (n : ℕ) → n < (cfg1 a).N → Vec F S1x32x512 .f32 × Vec F S1x8x128 .f32
  | 0, hn =>
    (out1_A_4 c (grid1.coords ⟨0, hn⟩) (ms1_0 a ⟨0, hn⟩) (hs1_0 a ⟨0, hn⟩) (ms1_1 a ⟨0, hn⟩) (hs1_1 a ⟨0, hn⟩) (ms1_2 a ⟨0, hn⟩) (hs1_2 a ⟨0, hn⟩) (ms1_3 a ⟨0, hn⟩) (hs1_3 a ⟨0, hn⟩) (ms1_4 a ⟨0, hn⟩) (hs1_4 a ⟨0, hn⟩) (ms1_5 a ⟨0, hn⟩) (hs1_5 a ⟨0, hn⟩) ((hcond1 a ⟨0, hn⟩).mpr (Nat.zero_mod _)) (iblk1 V a c 0 ⟨0, hn⟩) (iblk1 V a c 1 ⟨0, hn⟩) (iblk1 V a c 2 ⟨0, hn⟩) (iblk1 V a c 3 ⟨0, hn⟩) (a.1 0),
     out1_A_5 c (grid1.coords ⟨0, hn⟩) (ms1_0 a ⟨0, hn⟩) (hs1_0 a ⟨0, hn⟩) (ms1_1 a ⟨0, hn⟩) (hs1_1 a ⟨0, hn⟩) (ms1_2 a ⟨0, hn⟩) (hs1_2 a ⟨0, hn⟩) (ms1_3 a ⟨0, hn⟩) (hs1_3 a ⟨0, hn⟩) (ms1_4 a ⟨0, hn⟩) (hs1_4 a ⟨0, hn⟩) (ms1_5 a ⟨0, hn⟩) (hs1_5 a ⟨0, hn⟩) ((hcond1 a ⟨0, hn⟩).mpr (Nat.zero_mod _)) (iblk1 V a c 0 ⟨0, hn⟩) (iblk1 V a c 1 ⟨0, hn⟩) (iblk1 V a c 2 ⟨0, hn⟩) (iblk1 V a c 3 ⟨0, hn⟩) (a.1 0))
  | n + 1, hn =>
    if h0 : (n + 1) % 16 = 0 then
      (out1_A_4 c (grid1.coords ⟨n + 1, hn⟩) (ms1_0 a ⟨n + 1, hn⟩) (hs1_0 a ⟨n + 1, hn⟩) (ms1_1 a ⟨n + 1, hn⟩) (hs1_1 a ⟨n + 1, hn⟩) (ms1_2 a ⟨n + 1, hn⟩) (hs1_2 a ⟨n + 1, hn⟩) (ms1_3 a ⟨n + 1, hn⟩) (hs1_3 a ⟨n + 1, hn⟩) (ms1_4 a ⟨n + 1, hn⟩) (hs1_4 a ⟨n + 1, hn⟩) (ms1_5 a ⟨n + 1, hn⟩) (hs1_5 a ⟨n + 1, hn⟩) ((hcond1 a ⟨n + 1, hn⟩).mpr h0) (iblk1 V a c 0 ⟨n + 1, hn⟩) (iblk1 V a c 1 ⟨n + 1, hn⟩) (iblk1 V a c 2 ⟨n + 1, hn⟩) (iblk1 V a c 3 ⟨n + 1, hn⟩) (a.1 0),
       out1_A_5 c (grid1.coords ⟨n + 1, hn⟩) (ms1_0 a ⟨n + 1, hn⟩) (hs1_0 a ⟨n + 1, hn⟩) (ms1_1 a ⟨n + 1, hn⟩) (hs1_1 a ⟨n + 1, hn⟩) (ms1_2 a ⟨n + 1, hn⟩) (hs1_2 a ⟨n + 1, hn⟩) (ms1_3 a ⟨n + 1, hn⟩) (hs1_3 a ⟨n + 1, hn⟩) (ms1_4 a ⟨n + 1, hn⟩) (hs1_4 a ⟨n + 1, hn⟩) (ms1_5 a ⟨n + 1, hn⟩) (hs1_5 a ⟨n + 1, hn⟩) ((hcond1 a ⟨n + 1, hn⟩).mpr h0) (iblk1 V a c 0 ⟨n + 1, hn⟩) (iblk1 V a c 1 ⟨n + 1, hn⟩) (iblk1 V a c 2 ⟨n + 1, hn⟩) (iblk1 V a c 3 ⟨n + 1, hn⟩) (a.1 0))
    else
      (out1_B_4 c (grid1.coords ⟨n + 1, hn⟩) (ms1_0 a ⟨n + 1, hn⟩) (hs1_0 a ⟨n + 1, hn⟩) (ms1_1 a ⟨n + 1, hn⟩) (hs1_1 a ⟨n + 1, hn⟩) (ms1_2 a ⟨n + 1, hn⟩) (hs1_2 a ⟨n + 1, hn⟩) (ms1_3 a ⟨n + 1, hn⟩) (hs1_3 a ⟨n + 1, hn⟩) (ms1_4 a ⟨n + 1, hn⟩) (hs1_4 a ⟨n + 1, hn⟩) (ms1_5 a ⟨n + 1, hn⟩) (hs1_5 a ⟨n + 1, hn⟩) (fun h => h0 ((hcond1 a ⟨n + 1, hn⟩).mp h)) (iblk1 V a c 0 ⟨n + 1, hn⟩) (iblk1 V a c 1 ⟨n + 1, hn⟩) (iblk1 V a c 2 ⟨n + 1, hn⟩) (iblk1 V a c 3 ⟨n + 1, hn⟩) (a.1 0) (outsAt1 c n (Nat.lt_of_succ_lt hn)).2,
       out1_B_5 c (grid1.coords ⟨n + 1, hn⟩) (ms1_0 a ⟨n + 1, hn⟩) (hs1_0 a ⟨n + 1, hn⟩) (ms1_1 a ⟨n + 1, hn⟩) (hs1_1 a ⟨n + 1, hn⟩) (ms1_2 a ⟨n + 1, hn⟩) (hs1_2 a ⟨n + 1, hn⟩) (ms1_3 a ⟨n + 1, hn⟩) (hs1_3 a ⟨n + 1, hn⟩) (ms1_4 a ⟨n + 1, hn⟩) (hs1_4 a ⟨n + 1, hn⟩) (ms1_5 a ⟨n + 1, hn⟩) (hs1_5 a ⟨n + 1, hn⟩) (fun h => h0 ((hcond1 a ⟨n + 1, hn⟩).mp h)) (iblk1 V a c 0 ⟨n + 1, hn⟩) (iblk1 V a c 1 ⟨n + 1, hn⟩) (iblk1 V a c 2 ⟨n + 1, hn⟩) (iblk1 V a c 3 ⟨n + 1, hn⟩) (a.1 0) (outsAt1 c n (Nat.lt_of_succ_lt hn)).2)

/-- `outsAt1` at a point of case A: that case's contents. -/
theorem outsAt1_A (c : Dev nD) (t : Fin (cfg1 a).N) (h0 : t.val % 16 = 0) :
    outsAt1 V a c t.val t.isLt =
      (out1_A_4 c (grid1.coords t) (ms1_0 a t) (hs1_0 a t) (ms1_1 a t) (hs1_1 a t) (ms1_2 a t) (hs1_2 a t) (ms1_3 a t) (hs1_3 a t) (ms1_4 a t) (hs1_4 a t) (ms1_5 a t) (hs1_5 a t) ((hcond1 a t).mpr h0) (iblk1 V a c 0 t) (iblk1 V a c 1 t) (iblk1 V a c 2 t) (iblk1 V a c 3 t) (a.1 0),
       out1_A_5 c (grid1.coords t) (ms1_0 a t) (hs1_0 a t) (ms1_1 a t) (hs1_1 a t) (ms1_2 a t) (hs1_2 a t) (ms1_3 a t) (hs1_3 a t) (ms1_4 a t) (hs1_4 a t) (ms1_5 a t) (hs1_5 a t) ((hcond1 a t).mpr h0) (iblk1 V a c 0 t) (iblk1 V a c 1 t) (iblk1 V a c 2 t) (iblk1 V a c 3 t) (a.1 0)) := by
  obtain ⟨n, hn⟩ := t
  cases n with
  | zero => exact rfl
  | succ n => exact (dif_pos h0).trans rfl

/-- `outsAt1` at a point of case B: that case's contents, over what the point before left in the accumulator. -/
theorem outsAt1_B (c : Dev nD) (t : Fin (cfg1 a).N) (h0 : ¬t.val % 16 = 0) :
    outsAt1 V a c t.val t.isLt =
      (out1_B_4 c (grid1.coords t) (ms1_0 a t) (hs1_0 a t) (ms1_1 a t) (hs1_1 a t) (ms1_2 a t) (hs1_2 a t) (ms1_3 a t) (hs1_3 a t) (ms1_4 a t) (hs1_4 a t) (ms1_5 a t) (hs1_5 a t) (fun h => h0 ((hcond1 a t).mp h)) (iblk1 V a c 0 t) (iblk1 V a c 1 t) (iblk1 V a c 2 t) (iblk1 V a c 3 t) (a.1 0) (outsAt1 V a c (t.val - 1) (Nat.lt_of_le_of_lt (Nat.sub_le _ _) t.isLt)).2,
       out1_B_5 c (grid1.coords t) (ms1_0 a t) (hs1_0 a t) (ms1_1 a t) (hs1_1 a t) (ms1_2 a t) (hs1_2 a t) (ms1_3 a t) (hs1_3 a t) (ms1_4 a t) (hs1_4 a t) (ms1_5 a t) (hs1_5 a t) (fun h => h0 ((hcond1 a t).mp h)) (iblk1 V a c 0 t) (iblk1 V a c 1 t) (iblk1 V a c 2 t) (iblk1 V a c 3 t) (a.1 0) (outsAt1 V a c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The components of a pair equal to a given pair. -/
theorem fst_of_eq_mk {α β : Type} {p : α × β} {x : α} {y : β} (h : p = (x, y)) : p.1 = x := by rw [h]
theorem snd_of_eq_mk {α β : Type} {p : α × β} {x : α} {y : β} (h : p = (x, y)) : p.2 = y := by rw [h]

/-- The two components of `outsAt1` at a point of case A, and at a point of case B. -/
theorem outsAt1_A_fst (c : Dev nD) (t : Fin (cfg1 a).N) (h0 : t.val % 16 = 0) :
    (outsAt1 V a c t.val t.isLt).1 = out1_A_4 c (grid1.coords t) (ms1_0 a t) (hs1_0 a t) (ms1_1 a t) (hs1_1 a t) (ms1_2 a t) (hs1_2 a t) (ms1_3 a t) (hs1_3 a t) (ms1_4 a t) (hs1_4 a t) (ms1_5 a t) (hs1_5 a t) ((hcond1 a t).mpr h0) (iblk1 V a c 0 t) (iblk1 V a c 1 t) (iblk1 V a c 2 t) (iblk1 V a c 3 t) (a.1 0) :=
  fst_of_eq_mk (outsAt1_A V a c t h0)
theorem outsAt1_A_snd (c : Dev nD) (t : Fin (cfg1 a).N) (h0 : t.val % 16 = 0) :
    (outsAt1 V a c t.val t.isLt).2 = out1_A_5 c (grid1.coords t) (ms1_0 a t) (hs1_0 a t) (ms1_1 a t) (hs1_1 a t) (ms1_2 a t) (hs1_2 a t) (ms1_3 a t) (hs1_3 a t) (ms1_4 a t) (hs1_4 a t) (ms1_5 a t) (hs1_5 a t) ((hcond1 a t).mpr h0) (iblk1 V a c 0 t) (iblk1 V a c 1 t) (iblk1 V a c 2 t) (iblk1 V a c 3 t) (a.1 0) :=
  snd_of_eq_mk (outsAt1_A V a c t h0)
theorem outsAt1_B_fst (c : Dev nD) (t : Fin (cfg1 a).N) (h0 : ¬t.val % 16 = 0) :
    (outsAt1 V a c t.val t.isLt).1 = out1_B_4 c (grid1.coords t) (ms1_0 a t) (hs1_0 a t) (ms1_1 a t) (hs1_1 a t) (ms1_2 a t) (hs1_2 a t) (ms1_3 a t) (hs1_3 a t) (ms1_4 a t) (hs1_4 a t) (ms1_5 a t) (hs1_5 a t) (fun h => h0 ((hcond1 a t).mp h)) (iblk1 V a c 0 t) (iblk1 V a c 1 t) (iblk1 V a c 2 t) (iblk1 V a c 3 t) (a.1 0) (outsAt1 V a c (t.val - 1) (Nat.lt_of_le_of_lt (Nat.sub_le _ _) t.isLt)).2 :=
  fst_of_eq_mk (outsAt1_B V a c t h0)
theorem outsAt1_B_snd (c : Dev nD) (t : Fin (cfg1 a).N) (h0 : ¬t.val % 16 = 0) :
    (outsAt1 V a c t.val t.isLt).2 = out1_B_5 c (grid1.coords t) (ms1_0 a t) (hs1_0 a t) (ms1_1 a t) (hs1_1 a t) (ms1_2 a t) (hs1_2 a t) (ms1_3 a t) (hs1_3 a t) (ms1_4 a t) (hs1_4 a t) (ms1_5 a t) (hs1_5 a t) (fun h => h0 ((hcond1 a t).mp h)) (iblk1 V a c 0 t) (iblk1 V a c 1 t) (iblk1 V a c 2 t) (iblk1 V a c 3 t) (a.1 0) (outsAt1 V a c (t.val - 1) (Nat.lt_of_le_of_lt (Nat.sub_le _ _) t.isLt)).2 :=
  snd_of_eq_mk (outsAt1_B V a c t h0)

/-! ## The pipeline's proof data -/

/-- The proof data of this pipeline on core `c`: the arrays as the region finds them (`V`); after the body at point
    `t` each input's buffer at its block and the two outputs' at `outsAt1`; the invariant the scoped rest, the
    random-number register and the label table held whole at its contents; nothing owed; full shares. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => iblk1 V a c 3 t
    | ⟨4, _⟩ => (outsAt1 V a c t.val t.isLt).1
    | ⟨5, _⟩ => (outsAt1 V a c t.val t.isLt).2
  Φ _ := iprop(Pipeline.ΦA spec1 c ∗ Pipeline.prefHeld (Ix := Unit) (Name := ℕ) (U := UR sig nD τ) (Lvl := ℕ) pre1 c (fun _ => fullShare) a.1)
  q _ := fullShare
  owed _ := 0

/-- The proof data's arrays are the region-entry contents (the definition projected, `V` never unfolded). -/
theorem A_eq1 (c : Dev nD) (w : Fin (cfg1 a).W) : (dat1 V a c).A w = V c (Pipeline.arrRef spec1 w) := by
  dsimp only [dat1]

/-- What the body leaves, window by window. -/
theorem after1_0 (c : Dev nD) (t : Fin (cfg1 a).N) : (dat1 V a c).after 0 t = iblk1 V a c 0 t := by dsimp only [dat1]; try rfl
theorem after1_1 (c : Dev nD) (t : Fin (cfg1 a).N) : (dat1 V a c).after 1 t = iblk1 V a c 1 t := by dsimp only [dat1]; try rfl
theorem after1_2 (c : Dev nD) (t : Fin (cfg1 a).N) : (dat1 V a c).after 2 t = iblk1 V a c 2 t := by dsimp only [dat1]; try rfl
theorem after1_3 (c : Dev nD) (t : Fin (cfg1 a).N) : (dat1 V a c).after 3 t = iblk1 V a c 3 t := by dsimp only [dat1]; try rfl
theorem after1_4 (c : Dev nD) (t : Fin (cfg1 a).N) : (dat1 V a c).after 4 t = (outsAt1 V a c t.val t.isLt).1 := by dsimp only [dat1]; try rfl
theorem after1_5 (c : Dev nD) (t : Fin (cfg1 a).N) : (dat1 V a c).after 5 t = (outsAt1 V a c t.val t.isLt).2 := by dsimp only [dat1]; try rfl

/-- Each input's current staging buffer holds its block at every point, fetched there or not (unfetched, the block
    index has not moved: the means block is fetched once per image). -/
theorem before1_0 (c : Dev nD) (t : Fin (cfg1 a).N) (d) : (dat1 V a c).before 0 t d = iblk1 V a c 0 t :=
  ((dat1 V a c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin (cfg1 a).N) (d) : (dat1 V a c).before 1 t d = iblk1 V a c 1 t :=
  ((dat1 V a c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin (cfg1 a).N) (d) : (dat1 V a c).before 2 t d = iblk1 V a c 2 t :=
  ((dat1 V a c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin (cfg1 a).N) (d) : (dat1 V a c).before 3 t d = iblk1 V a c 3 t :=
  ((dat1 V a c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- At a point of case B the loss accumulator's current staging buffer holds what the body left at the point before:
    the point is not the first, and the buffer was not written back between (it is written back only after the last
    chunk of an image). -/
theorem before1_5_B (c : Dev nD) (t : Fin (cfg1 a).N) (h0 : ¬t.val % 16 = 0) (d) :
    (dat1 V a c).before 5 t d = (outsAt1 V a c (t.val - 1) (Nat.lt_of_le_of_lt (Nat.sub_le _ _) t.isLt)).2 := by
  have hN : t.val < 512 := lt_of_lt_of_eq t.isLt (show (cfg1 a).N = 512 from N_1)
  rw [Dat.before_out_kept _ 5 rfl t (by omega) (Bool.eq_false_iff.mpr fun h => by have := (flush1_5 a _).mp h; dsimp only at this; omega)
    (fun _ => rfl) (fun _ _ => rfl)]
  exact after1_5 V a c _

/-! ## The word the body loads -/

/-- The word the body's scalar load returns, at any contents of the table: the table's element at the image
    coordinate (the load's unit rectangle starts at the coordinate, by the closed form of its offset). -/
theorem lblAt1_eq (c : Dev nD) (f : TbBuf1 (F := F) c) (i : grid1.Coords) : lblAt1 c f i = f (ValueIdx.ix1 (i 0)) := by
  unfold lblAt1
  rw [View.readAt_apply]
  show f _ = f _
  refine congrArg f ?_
  funext d
  match d with
  | ⟨0, _⟩ => exact Fin.ext (congrFun (k1_off1_eq i) 0)

/-- The label the body loads at grid point `i` is the table's element at the image coordinate. -/
theorem lbl1_eq (i : grid1.Coords) : lbl1 a i = a.1 0 (ValueIdx.ix1 (i 0)) := lblAt1_eq 0 (a.1 0) i

/-! ## The body obligation, at a generic point -/

/-- What the body is called with at point `t` (the windows one by one), -/
def bodyPre1 (c : Dev nD) (t : Fin (cfg1 a).N) : sProp 𝕄 :=
  iprop((dat1 V a c).Φ t.castSucc ∗ (dat1 V a c).owesAt () t.castSucc
    ∗ (∃ d, owns (c : Thread nD τ) (ms1_0 a t) fullShare ((dat1 V a c).before 0 t d))
    ∗ (∃ d, owns (c : Thread nD τ) (ms1_1 a t) fullShare ((dat1 V a c).before 1 t d))
    ∗ (∃ d, owns (c : Thread nD τ) (ms1_2 a t) fullShare ((dat1 V a c).before 2 t d))
    ∗ (∃ d, owns (c : Thread nD τ) (ms1_3 a t) fullShare ((dat1 V a c).before 3 t d))
    ∗ (∃ d, owns (c : Thread nD τ) (ms1_4 a t) fullShare ((dat1 V a c).before 4 t d))
    ∗ (∃ d, owns (c : Thread nD τ) (ms1_5 a t) fullShare ((dat1 V a c).before 5 t d)))

/-- and what it returns. -/
def bodyPost1 (c : Dev nD) (t : Fin (cfg1 a).N) : sProp 𝕄 :=
  iprop((dat1 V a c).Φ t.succ ∗ (dat1 V a c).owesAt () t.succ
    ∗ owns (c : Thread nD τ) (ms1_0 a t) fullShare ((dat1 V a c).after 0 t)
    ∗ owns (c : Thread nD τ) (ms1_1 a t) fullShare ((dat1 V a c).after 1 t)
    ∗ owns (c : Thread nD τ) (ms1_2 a t) fullShare ((dat1 V a c).after 2 t)
    ∗ owns (c : Thread nD τ) (ms1_3 a t) fullShare ((dat1 V a c).after 3 t)
    ∗ owns (c : Thread nD τ) (ms1_4 a t) fullShare ((dat1 V a c).after 4 t)
    ∗ owns (c : Thread nD τ) (ms1_5 a t) fullShare ((dat1 V a c).after 5 t))

set_option maxHeartbeats 1600000 in
/-- The body at any point: the inputs' memrefs hold their blocks; the closed form says which case the point is in; at
    a later chunk the accumulator holds what the point before left; so the case's run applies; the table passes
    through the run and back into the invariant, the rest of the invariant unread; the core owes nothing throughout. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0, before1_1, before1_2, before1_3]
  rw [show (dat1 V a c).Φ t.succ = (dat1 V a c).Φ t.castSucc from rfl,
    show (dat1 V a c).owesAt () t.succ = (dat1 V a c).owesAt () t.castSucc from rfl,
    after1_0, after1_1, after1_2, after1_3, after1_4, after1_5]
  rw [show (dat1 V a c).Φ t.castSucc = iprop(Pipeline.ΦA spec1 c ∗ Pipeline.prefHeld (Ix := Unit) (Name := ℕ) (U := UR sig nD τ) (Lvl := ℕ) pre1 c (fun _ => fullShare) a.1) from rfl, prefHeld1_eq]
  by_cases h0 : t.val % 16 = 0
  · rw [outsAt1_A_fst V a c t h0, outsAt1_A_snd V a c t h0]
    unfold out1_A_4 out1_A_5
    iintro ⟨⟨HΦ, HT⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ ((hcond1 a t).mpr h0) (iblk1 V a c 0 t) (iblk1 V a c 1 t) (iblk1 V a c 2 t) (iblk1 V a c 3 t) (a.1 0)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HT]; · iexact HT
    iintro ⟨H0, H1, H2, H3, ⟨%e4, H4⟩, ⟨%e5, H5⟩, HT⟩
    isplitl [HΦ HT]
    · isplitl [HΦ]; · iexact HΦ
      iexact HT
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 (F := F) c _ _ _ _ _ _ _ _ _ _ _ _ _ _ _ _ _ _ _)
    unfold owns; iexists _; isplitr
    swap; · iexact H5
    ipureintro; exact View.read_writes_of_cover _ _ _ _ _ (cover1_A_5 (F := F) c _ _ _ _ _ _ _ _ _ _ _ _ _ _ _ _ _ _ _)
  · simp only [before1_5_B V a c t h0]
    rw [outsAt1_B_fst V a c t h0, outsAt1_B_snd V a c t h0]
    unfold out1_B_4 out1_B_5
    iintro ⟨⟨HΦ, HT⟩, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ (fun h => h0 ((hcond1 a t).mp h)) (iblk1 V a c 0 t) (iblk1 V a c 1 t) (iblk1 V a c 2 t) (iblk1 V a c 3 t) (a.1 0) _).2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [HT]; · iexact HT
    iintro ⟨H0, H1, H2, H3, ⟨%e4, H4⟩, ⟨%e5, H5⟩, HT⟩
    isplitl [HΦ HT]
    · isplitl [HΦ]; · iexact HΦ
      iexact HT
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_B_4 (F := F) c _ _ _ _ _ _ _ _ _ _ _ _ _ _ _ _ _ _ _ _)
    unfold owns; iexists _; isplitr
    swap; · iexact H5
    ipureintro; exact View.read_writes_of_cover _ _ _ _ _ (cover1_B_5 (F := F) c _ _ _ _ _ _ _ _ _ _ _ _ _ _ _ _ _ _ _ _)

/-- The library's body obligation, at every point. -/
theorem body_obligation1 (c : Dev nD) : BodyObligation (dat1 (F := F) V a c) (defs₀ (F := F)) Variants.none () Set.univ := fun t => by
  rw [bigSep_W1, bigSep_W1]
  exact sound_body1 V a c t

end Cert.Kernel.Hand

end
-- ==== Proof.K.Run.lean ====
/-
  @main from the launch to the return, as segments: three stretches of host operations and the two kernel
  regions between them.  At every boundary the core's unscoped buffers are held whole at a valuation that is a
  fold from the launch memory: a stretch applies its operations, a region replaces its windows' arrays by what
  its write-backs leave and keeps every other buffer.  Region 1 reads one table, the label vector: it is set
  aside at the region's entry, rides the region's invariant, and is put back at its exit.  The run's post reads
  every unscoped buffer of the final memory at the last valuation.
-/
import proofs.«423842_j58059367907504_3_alg».proof.Proof.K.R0
import proofs.«423842_j58059367907504_3_alg».proof.Proof.K.R1
import proofs.«423842_j58059367907504_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first stretch (the three reshapes): region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 winFacts0.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the means): region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- The label table as region 1 finds it. -/
def tbl1 : pre1.Contents (Elt F) := fun k => V3 m ρ (0 : Dev nD) (pre1.ref k)
/-- Its contents are admissible: the region's side condition asks nothing of them. -/
abbrev adm1 : (pcfg1 (F := F)).Adm := ⟨tbl1 m ρ, trivial⟩

theorem V3_pre (c : Dev nD) : (fun k => V3 m ρ c (pre1.ref k)) = (adm1 m ρ).1 := by
  obtain rfl : c = 0 := Subsingleton.elim _ _
  rfl

/-- Region 1's unscoped rest at its entry is the label table, at its admissible contents, beside the remainder. -/
theorem rest1_split (c : Dev nD) :
    (Pipeline.unscopedRest (Ix := Unit) (Name := ℕ) (U := UR sig nD τ) (Lvl := ℕ) spec1 c (V3 m ρ c) : sProp 𝕄)
      = iprop(Pipeline.prefHeld pre1 c (fun _ => fullShare) (adm1 m ρ).1 ∗ Pipeline.unscopedRestP pre1 spec1 c (V3 m ρ c)) := by
  rw [Pipeline.unscopedRest_split preFacts1 c (V3 m ρ c), V3_pre m ρ c]

/-- At region 1's exit. -/
def W4 (c : Dev nD) : Valuation τ sig (Elt F) :=
  Pipeline.withArrays spec1 c (W3 m ρ c) fun w => (dat1 (V3 m ρ) (adm1 m ρ) c).arrAt w (cfg1 (adm1 m ρ)).N
theorem W4_arr (c : Dev nD) (w : Fin (cfg1 (adm1 m ρ)).W) :
    W4 m ρ c (Proc.devRef .tc (Pipeline.arrRef spec1 w)) = (dat1 (V3 m ρ) (adm1 m ρ) c).arrAt w (cfg1 (adm1 m ρ)).N := by
  unfold W4; exact Pipeline.withArrays_arr spec1 winFacts1.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin (cfg1 (adm1 m ρ)).W) :
    (dat1 (V3 m ρ) (adm1 m ρ) c).arrAt w (cfg1 (adm1 m ρ)).N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last stretch (the sum, the quotient, the reshape): the return. -/
abbrev W5 : Dev nD → Valuation τ sig (Elt F) := fun c => StableHlo.after hostOps2 (W4 m ρ c)

/-! ## The proof data family and the thread state -/

/-- The tables' admissible contents, pipeline by pipeline. -/
def adm : (p : Fin 2) → (pcfgs (F := F) p).Adm
  | ⟨0, _⟩ => cfg0.toPCfg_adm
  | ⟨1, _⟩ => adm1 m ρ
  | ⟨_ + 2, h⟩ => absurd h (Nat.not_lt.2 (Nat.le_add_left _ _))

/-- Every pipeline's proof data, each at its region's entry contents. -/
def pdats : (p : Fin 2) → (c : Dev nD) → Dat τ (Elt F) Unit ℕ (UR sig nD τ) ℕ (Pipeline.pin (pcfgs (F := F)) (adm m ρ) p) c
  | ⟨0, _⟩ => fun c => dat0 (V1 m ρ) c
  | ⟨1, _⟩ => fun c => dat1 (V3 m ρ) (adm1 m ρ) c
  | ⟨_ + 2, h⟩ => absurd h (Nat.not_lt.2 (Nat.le_add_left _ _))

abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owes. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0: entered from every unscoped buffer at W1, left at W2. -/
def reg0 : Pipeline.RegionSeg (pcfgs (F := F)) (adm m ρ) (pdats m ρ) () defs₀ 𝒱₀ L lv 0 where
  win := winFacts0.to₀
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) (adm m ρ) (pdats m ρ) winFacts0 arr_whole0 c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m ρ) (Ix := Unit) (Name := ℕ) (U := UR sig nD τ) (Lvl := ℕ)
      winFacts0 arr_whole0 c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at W3, left at W4; the label table set aside at the entry,
    carried by the invariant, put back at the exit. -/
def reg1 : Pipeline.RegionSeg (pcfgs (F := F)) (adm m ρ) (pdats m ρ) () defs₀ 𝒱₀ L lv 1 where
  win := winFacts1.to₀
  block_pos := block_pos1
  stage_whole := stage_whole1
  K := PEmpty
  osem k := k.elim
  ho := Pipeline.OwnSemFacts.none _
  hbody c := (body_obligation1 (V3 m ρ) (adm1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (adm1 m ρ).1)
  Z c := Pipeline.unscopedRestP (Ix := Unit) (Name := ℕ) (U := UR sig nD τ) (Lvl := ℕ) pre1 spec1 c (V3 m ρ c)
  hentry c := by
    rw [Pipeline.ownSems0_none]
    have hsplit := Pipeline.arrays_of_unscopedBufs (p := 1) (pcfgs (F := F)) (adm m ρ) (pdats m ρ) winFacts1 arr_whole1 c
      ((pdats m ρ 1 c).share_full fun _ => rfl) (V3 m ρ c) fun _ => rfl
    rw [Pipeline.unscopedBufs_held] at hsplit
    have hsplit' : StableHlo.held (c : Thread nD τ) (Pipeline.ucRefs τ sig) (W3 m ρ c)
        ⊢ (iprop((pdats m ρ 1 c).arrays ((pdats m ρ 1 c).arrAt · 0)
            ∗ Pipeline.prefHeld pre1 c (fun _ => fullShare) (adm1 m ρ).1 ∗ Pipeline.unscopedRestP pre1 spec1 c (V3 m ρ c)) : sProp 𝕄) := by
      rw [← rest1_split m ρ c]; exact hsplit
    iintro ⟨⟨Hub, Hp, HO⟩, -, -⟩
    ihave H := hsplit' $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = iprop(Pipeline.ΦA spec1 c ∗ Pipeline.prefHeld (Ix := Unit) (Name := ℕ) (U := UR sig nD τ) (Lvl := ℕ) pre1 c (fun _ => fullShare) (adm1 m ρ).1) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m ρ 1 c).Φ (Fin.last _) = iprop(Pipeline.ΦA spec1 c ∗ Pipeline.prefHeld (Ix := Unit) (Name := ℕ) (U := UR sig nD τ) (Lvl := ℕ) pre1 c (fun _ => fullShare) (adm1 m ρ).1) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm m ρ) (Ix := Unit) (Name := ℕ) (U := UR sig nD τ) (Lvl := ℕ)
      winFacts1 arr_whole1 c (pdats m ρ) ((pdats m ρ 1 c).share_full fun _ => rfl)
      (V3 m ρ c) (V4 m ρ c) ((pdats m ρ 1 c).arrAt · (cfg1 (adm1 m ρ)).N) (hF1 m ρ c) (hrest1 m ρ c)
    rw [Pipeline.unscopedBufs_held] at hjoin
    have hjoin' : (iprop((pdats m ρ 1 c).arrays ((pdats m ρ 1 c).arrAt · (cfg1 (adm1 m ρ)).N)
            ∗ Pipeline.prefHeld pre1 c (fun _ => fullShare) (adm1 m ρ).1 ∗ Pipeline.unscopedRestP pre1 spec1 c (V3 m ρ c)) : sProp 𝕄)
        ⊢ StableHlo.held (c : Thread nD τ) (Pipeline.ucRefs τ sig) (W4 m ρ c) := by
      rw [← rest1_split m ρ c]; exact hjoin
    iintro ⟨Ha, HO, ⟨HY, Ht⟩, Hrest⟩
    imodintro
    isplitl [Ha Hrest Ht]
    · iapply hjoin'
      isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

/-! ## @main as segments, and the launch -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- @main's five segments in order. -/
abbrev segs : List (Pipeline.Seg (pcfgs (F := F)) (adm m ρ) (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- THE RUN: every weakly fair execution of @main from memory m with zero counters terminates, nothing faulting,
    and the final memory holds every unscoped buffer at the last valuation W5. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) (adm m ρ) (pdats m ρ) () (cellOf_inj (adm m ρ)) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ)) (cellOf_inj (adm m ρ))) (Pipeline.launchToks (Pipeline.pin (pcfgs (F := F)) (adm m ρ)) (cellOf_inj (adm m ρ))))
    (hu₀ := by
      iintro Hu; imodintro
      isplitl [Hu]
      · iapply (show (ownU (initOf (Pipeline.cells (Pipeline.pin (pcfgs (F := F)) (adm m ρ)) (cellOf_inj (adm m ρ))) (Pipeline.launchToks (Pipeline.pin (pcfgs (F := F)) (adm m ρ)) (cellOf_inj (adm m ρ)))) : sProp 𝕄)
            ⊢ BI.own (emb₁ (initOf (Pipeline.cells (Pipeline.pin (pcfgs (F := F)) (adm m ρ)) (cellOf_inj (adm m ρ))) (Pipeline.launchToks (Pipeline.pin (pcfgs (F := F)) (adm m ρ)) (cellOf_inj (adm m ρ))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄)
        ⊢ iprop(Tₙ m ρ c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## The arguments end as launched -/

/-- A buffer that no stretch writes and that is no window's array of either region reaches the end as launched. -/
theorem W5_of_kept (c : Dev nD) (r : Ref sig .tc) (h0 : r ∉ hostOps0_W) (h1 : r ∉ hostOps1_W) (h2 : r ∉ hostOps2_W)
    (ha0 : ∀ w, Pipeline.arrRef spec0 w ≠ r) (ha1 : ∀ w, Pipeline.arrRef spec1 w ≠ r) :
    W5 m ρ c (Proc.devRef .tc r) = m ((c : Thread nD τ).loc r) :=
  (StableHlo.after_of_writes_sub hostOps2 _ hostOps2_writes h2).trans <|
    (W4_of_ne m ρ c r ha1).trans <|
    (StableHlo.after_of_writes_sub hostOps1 _ hostOps1_writes h1).trans <|
    (W2_of_ne m ρ c r ha0).trans <|
    (StableHlo.after_of_writes_sub hostOps0 _ hostOps0_writes h0).trans rfl

theorem W5_main_arg0 (c : Dev nD) : W5 m ρ c (Proc.devRef .tc main_arg0) = m ((c : Thread nD τ).loc main_arg0) :=
  W5_of_kept m ρ c main_arg0 (by decide) (by decide) (by decide) (by decide) (by decide)
theorem W5_main_arg1 (c : Dev nD) : W5 m ρ c (Proc.devRef .tc main_arg1) = m ((c : Thread nD τ).loc main_arg1) :=
  W5_of_kept m ρ c main_arg1 (by decide) (by decide) (by decide) (by decide) (by decide)
theorem W5_main_arg2 (c : Dev nD) : W5 m ρ c (Proc.devRef .tc main_arg2) = m ((c : Thread nD τ).loc main_arg2) :=
  W5_of_kept m ρ c main_arg2 (by decide) (by decide) (by decide) (by decide) (by decide)
theorem W5_main_arg3 (c : Dev nD) : W5 m ρ c (Proc.devRef .tc main_arg3) = m ((c : Thread nD τ).loc main_arg3) :=
  W5_of_kept m ρ c main_arg3 (by decide) (by decide) (by decide) (by decide) (by decide)

/-- THE FRAME: @main runs to the end, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.Kernel.Hand

end
-- ==== Proof.KI.R0Runs.lean ====
/- The frame half of region 0 (the per-image statistics call), first module: what the two runs of its body share.
   The region is stated at a parameter V, the TensorCore's buffer contents when the region is entered. Here: each
   window's block at a grid point read off V, the fact that an input window's staging buffer holds its block at every
   point, the body's one branch condition (the row-chunk coordinate is 0) in closed form over the 512 points, and
   the staging memrefs the body is called with at a point. -/
import proofs.«423842_j58059367907504_3_alg».proof.Proof.Gen.KernelIdeal.Launch
import proofs.«423842_j58059367907504_3_alg».proof.Proof.Gen.KernelIdeal.Skeleton
import proofs.«423842_j58059367907504_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is V's and whose body leaves the block in place: unfetched, the block index has not moved.
    The three input windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region

/-! ## The body's branch condition -/

/-- The condition of the body's one conditional (the two accumulators are reset), from the grid coordinates:
    the row-chunk coordinate compared with 0, widened, compared with 0 again. -/
abbrev cond0 (i : grid0.Coords) : Prop := (Scalar.cmpi .ne (Scalar.extui (Scalar.cmpi .eq (BitVec.ofNat 32 (i 1).val) 0#32)) 0#32) = 1#1

/-- It holds exactly at an image's first row chunk: decided over the 512 points of the grid. -/
theorem hcond0 : ∀ t : Fin cfg0.N, cond0 (grid0.coords t) ↔ t.val % 16 = 0 :=
  (by decide +kernel : ∀ t : Fin grid0.N, cond0 (grid0.coords t) ↔ t.val % 16 = 0)

/-! ## The staging memrefs the body is called with -/

/-- One staging buffer of each output window, through which its contents are stated (the choice does not matter:
    pieces that cover the block read back the same through any whole view). -/
abbrev VO0_3 : View sig .tc .vmem S1x1x128 .f32 := (Memref.whole cc0_stg3_0 : Memref sig .tc .vmem S1x1x128 .f32).view
abbrev VO0_4 : View sig .tc .vmem S1x1x128 .f32 := (Memref.whole cc0_stg4_0 : Memref sig .tc .vmem S1x1x128 .f32).view

/-- Each window's current staging memref at point t, spelt as the pipeline passes it to the body, and its wholeness. -/
abbrev ms0_0 (t : Fin cfg0.N) : Memref sig .tc .vmem S1x32x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x512 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)

end Cert.KernelIdeal.Hand

end
-- ==== Proof.KI.R0RunA.lean ====
/- The frame half of region 0, second module: the body's run at an image's first row chunk (case A, the reset
   taken). On whole staging memrefs, the three inputs' at their contents and the two outputs' at anything, the body
   runs to a continuation that holds the inputs' as they were and each output's buffer with the pieces the body's
   stores wrote; the pieces are the witness the run finds. -/
import proofs.«423842_j58059367907504_3_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (the row-chunk coordinate is 0): both accumulators are zeroed, then each is read back and stored again
    with the chunk's lane sums added. The witness is, per output, the list of pieces stored (last first). -/
noncomputable def kernelRun0_A (c : Dev nD) (i : grid0.Coords) (arg2 : Memref sig .tc .vmem S1x32x512 .f32) (harg2 : arg2.IsWhole) (arg3 : Memref sig .tc .vmem S1x32x512 .f32) (harg3 : arg3.IsWhole) (arg4 : Memref sig .tc .vmem S1x32x512 .i32) (harg4 : arg4.IsWhole) (arg5 : Memref sig .tc .vmem S1x1x128 .f32) (harg5 : arg5.IsWhole) (arg6 : Memref sig .tc .vmem S1x1x128 .f32) (harg6 : arg6.IsWhole) (hc0 : cond0 i)
    (x2 : Vec F S1x32x512 .f32) (x3 : Vec F S1x32x512 .f32) (x4 : Vec F S1x32x512 .i32) :
    Σ' (L5 : List (View.Piece (Elt F) S1x1x128 .f32)), { L6 : List (View.Piece (Elt F) S1x1x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d)
            ∗ (iprop(owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0__stats_kernel i arg2 harg2 arg3 harg3 arg4 harg4 arg5 harg5 arg6 harg6) K } := by
  refine ⟨?_, ?_, fun E K => ?run⟩
  case run =>
    simp only [cc0__stats_kernel_eq_skeleton]; unfold cc0__stats_kernel_skel
    simp only [k0_part1_eq_skeleton]
    unfold owns
    iintro ⟨⟨%f2, %hf2, H2⟩, ⟨%f3, %hf3, H3⟩, ⟨%f4, %hf4, H4⟩, ⟨%d5, %f5, -, H5⟩, ⟨%d6, %f6, -, H6⟩, Hk⟩
    obtain rfl := harg2.eq_unread hf2; obtain rfl := harg3.eq_unread hf3; obtain rfl := harg4.eq_unread hf4
    sl_exec (disch := first | exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.KernelIdeal.Hand

end
-- ==== Proof.KI.R0RunB.lean ====
/- The frame half of region 0, third module: the body's run at a later row chunk of an image (case B, the reset
   not taken). The two outputs' staging buffers are entered at their running contents, which the body reads before it
   stores over them; otherwise as in case A. -/
import proofs.«423842_j58059367907504_3_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (the row-chunk coordinate is not 0): each accumulator is read and stored again with the chunk's lane sums
    added. The witness is, per output, the list of pieces stored (last first). -/
noncomputable def kernelRun0_B (c : Dev nD) (i : grid0.Coords) (arg2 : Memref sig .tc .vmem S1x32x512 .f32) (harg2 : arg2.IsWhole) (arg3 : Memref sig .tc .vmem S1x32x512 .f32) (harg3 : arg3.IsWhole) (arg4 : Memref sig .tc .vmem S1x32x512 .i32) (harg4 : arg4.IsWhole) (arg5 : Memref sig .tc .vmem S1x1x128 .f32) (harg5 : arg5.IsWhole) (arg6 : Memref sig .tc .vmem S1x1x128 .f32) (harg6 : arg6.IsWhole) (hc0 : ¬cond0 i)
    (x2 : Vec F S1x32x512 .f32) (x3 : Vec F S1x32x512 .f32) (x4 : Vec F S1x32x512 .i32) (xo5 : Vec F S1x1x128 .f32) (xo6 : Vec F S1x1x128 .f32) :
    Σ' (L5 : List (View.Piece (Elt F) S1x1x128 .f32)), { L6 : List (View.Piece (Elt F) S1x1x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare xo5 ∗ owns (c : Thread nD τ) arg6 fullShare xo6
            ∗ (iprop(owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0__stats_kernel i arg2 harg2 arg3 harg3 arg4 harg4 arg5 harg5 arg6 harg6) K } := by
  refine ⟨?_, ?_, fun E K => ?run⟩
  case run =>
    simp only [cc0__stats_kernel_eq_skeleton]; unfold cc0__stats_kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.KernelIdeal.Hand

end
-- ==== Proof.KI.R0.lean ====
/- The frame half of region 0, last module. From the two runs: the pieces each case stores tile each output's
   [1,1,128] block; what each case leaves in an output's staging buffer (the pieces read back); THE ACCUMULATION, what the
   two output buffers hold after the body at each grid point, by recursion on the point (a first row chunk resets, a later
   one adds to what the point before left); the pipeline's proof data at the entry contents V; what each window's
   staging buffer holds when the body is called; and the body obligation at every point. -/
import proofs.«423842_j58059367907504_3_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the outputs' buffers -/

/-- Case A's pieces for the lane sums tile the block, so they cover it. -/
theorem cover0_A_3 (c : Dev nD) (i : grid0.Coords) (arg2 : Memref sig .tc .vmem S1x32x512 .f32) (harg2 : arg2.IsWhole) (arg3 : Memref sig .tc .vmem S1x32x512 .f32) (harg3 : arg3.IsWhole) (arg4 : Memref sig .tc .vmem S1x32x512 .i32) (harg4 : arg4.IsWhole) (arg5 : Memref sig .tc .vmem S1x1x128 .f32) (harg5 : arg5.IsWhole) (arg6 : Memref sig .tc .vmem S1x1x128 .f32) (harg6 : arg6.IsWhole) (hc0 : cond0 i) (x2 : Vec F S1x32x512 .f32) (x3 : Vec F S1x32x512 .f32) (x4 : Vec F S1x32x512 .i32) (y : S1x1x128.Idx) :
    ∃ pc ∈ (kernelRun0_A c i arg2 harg2 arg3 harg3 arg4 harg4 arg5 harg5 arg6 harg6 hc0 x2 x3 x4).1, y ∈ pc.1.set :=
  View.cover_of_tiledL (kernelRun0_A c i arg2 harg2 arg3 harg3 arg4 harg4 arg5 harg5 arg6 harg6 hc0 x2 x3 x4).1 S1x1x128.size (by sl_kernel_rfl) y

/-- Case A's pieces for the lane counts tile the block, so they cover it. -/
theorem cover0_A_4 (c : Dev nD) (i : grid0.Coords) (arg2 : Memref sig .tc .vmem S1x32x512 .f32) (harg2 : arg2.IsWhole) (arg3 : Memref sig .tc .vmem S1x32x512 .f32) (harg3 : arg3.IsWhole) (arg4 : Memref sig .tc .vmem S1x32x512 .i32) (harg4 : arg4.IsWhole) (arg5 : Memref sig .tc .vmem S1x1x128 .f32) (harg5 : arg5.IsWhole) (arg6 : Memref sig .tc .vmem S1x1x128 .f32) (harg6 : arg6.IsWhole) (hc0 : cond0 i) (x2 : Vec F S1x32x512 .f32) (x3 : Vec F S1x32x512 .f32) (x4 : Vec F S1x32x512 .i32) (y : S1x1x128.Idx) :
    ∃ pc ∈ (kernelRun0_A c i arg2 harg2 arg3 harg3 arg4 harg4 arg5 harg5 arg6 harg6 hc0 x2 x3 x4).2.1, y ∈ pc.1.set :=
  View.cover_of_tiledL (kernelRun0_A c i arg2 harg2 arg3 harg3 arg4 harg4 arg5 harg5 arg6 harg6 hc0 x2 x3 x4).2.1 S1x1x128.size (by sl_kernel_rfl) y

/-- What case A leaves in the lane sums' staging buffer: its pieces read back over junk. -/
def out0_A_3 (c : Dev nD) (i : grid0.Coords) (arg2 : Memref sig .tc .vmem S1x32x512 .f32) (harg2 : arg2.IsWhole) (arg3 : Memref sig .tc .vmem S1x32x512 .f32) (harg3 : arg3.IsWhole) (arg4 : Memref sig .tc .vmem S1x32x512 .i32) (harg4 : arg4.IsWhole) (arg5 : Memref sig .tc .vmem S1x1x128 .f32) (harg5 : arg5.IsWhole) (arg6 : Memref sig .tc .vmem S1x1x128 .f32) (harg6 : arg6.IsWhole) (hc0 : cond0 i) (x2 : Vec F S1x32x512 .f32) (x3 : Vec F S1x32x512 .f32) (x4 : Vec F S1x32x512 .i32) : Vec F S1x1x128 .f32 :=
  VO0_3.read (Elt F) (VO0_3.writes (Elt F) VO0_3.junk (kernelRun0_A c i arg2 harg2 arg3 harg3 arg4 harg4 arg5 harg5 arg6 harg6 hc0 x2 x3 x4).1)

/-- What case A leaves in the lane counts' staging buffer. -/
def out0_A_4 (c : Dev nD) (i : grid0.Coords) (arg2 : Memref sig .tc .vmem S1x32x512 .f32) (harg2 : arg2.IsWhole) (arg3 : Memref sig .tc .vmem S1x32x512 .f32) (harg3 : arg3.IsWhole) (arg4 : Memref sig .tc .vmem S1x32x512 .i32) (harg4 : arg4.IsWhole) (arg5 : Memref sig .tc .vmem S1x1x128 .f32) (harg5 : arg5.IsWhole) (arg6 : Memref sig .tc .vmem S1x1x128 .f32) (harg6 : arg6.IsWhole) (hc0 : cond0 i) (x2 : Vec F S1x32x512 .f32) (x3 : Vec F S1x32x512 .f32) (x4 : Vec F S1x32x512 .i32) : Vec F S1x1x128 .f32 :=
  VO0_4.read (Elt F) (VO0_4.writes (Elt F) VO0_4.junk (kernelRun0_A c i arg2 harg2 arg3 harg3 arg4 harg4 arg5 harg5 arg6 harg6 hc0 x2 x3 x4).2.1)

/-- Case B's pieces for the lane sums tile the block, so they cover it. -/
theorem cover0_B_3 (c : Dev nD) (i : grid0.Coords) (arg2 : Memref sig .tc .vmem S1x32x512 .f32) (harg2 : arg2.IsWhole) (arg3 : Memref sig .tc .vmem S1x32x512 .f32) (harg3 : arg3.IsWhole) (arg4 : Memref sig .tc .vmem S1x32x512 .i32) (harg4 : arg4.IsWhole) (arg5 : Memref sig .tc .vmem S1x1x128 .f32) (harg5 : arg5.IsWhole) (arg6 : Memref sig .tc .vmem S1x1x128 .f32) (harg6 : arg6.IsWhole) (hc0 : ¬cond0 i) (x2 : Vec F S1x32x512 .f32) (x3 : Vec F S1x32x512 .f32) (x4 : Vec F S1x32x512 .i32) (xo5 : Vec F S1x1x128 .f32) (xo6 : Vec F S1x1x128 .f32) (y : S1x1x128.Idx) :
    ∃ pc ∈ (kernelRun0_B c i arg2 harg2 arg3 harg3 arg4 harg4 arg5 harg5 arg6 harg6 hc0 x2 x3 x4 xo5 xo6).1, y ∈ pc.1.set :=
  View.cover_of_tiledL (kernelRun0_B c i arg2 harg2 arg3 harg3 arg4 harg4 arg5 harg5 arg6 harg6 hc0 x2 x3 x4 xo5 xo6).1 S1x1x128.size (by sl_kernel_rfl) y

/-- Case B's pieces for the lane counts tile the block, so they cover it. -/
theorem cover0_B_4 (c : Dev nD) (i : grid0.Coords) (arg2 : Memref sig .tc .vmem S1x32x512 .f32) (harg2 : arg2.IsWhole) (arg3 : Memref sig .tc .vmem S1x32x512 .f32) (harg3 : arg3.IsWhole) (arg4 : Memref sig .tc .vmem S1x32x512 .i32) (harg4 : arg4.IsWhole) (arg5 : Memref sig .tc .vmem S1x1x128 .f32) (harg5 : arg5.IsWhole) (arg6 : Memref sig .tc .vmem S1x1x128 .f32) (harg6 : arg6.IsWhole) (hc0 : ¬cond0 i) (x2 : Vec F S1x32x512 .f32) (x3 : Vec F S1x32x512 .f32) (x4 : Vec F S1x32x512 .i32) (xo5 : Vec F S1x1x128 .f32) (xo6 : Vec F S1x1x128 .f32) (y : S1x1x128.Idx) :
    ∃ pc ∈ (kernelRun0_B c i arg2 harg2 arg3 harg3 arg4 harg4 arg5 harg5 arg6 harg6 hc0 x2 x3 x4 xo5 xo6).2.1, y ∈ pc.1.set :=
  View.cover_of_tiledL (kernelRun0_B c i arg2 harg2 arg3 harg3 arg4 harg4 arg5 harg5 arg6 harg6 hc0 x2 x3 x4 xo5 xo6).2.1 S1x1x128.size (by sl_kernel_rfl) y

/-- What case B leaves in the lane sums' staging buffer: its pieces read back over junk. -/
def out0_B_3 (c : Dev nD) (i : grid0.Coords) (arg2 : Memref sig .tc .vmem S1x32x512 .f32) (harg2 : arg2.IsWhole) (arg3 : Memref sig .tc .vmem S1x32x512 .f32) (harg3 : arg3.IsWhole) (arg4 : Memref sig .tc .vmem S1x32x512 .i32) (harg4 : arg4.IsWhole) (arg5 : Memref sig .tc .vmem S1x1x128 .f32) (harg5 : arg5.IsWhole) (arg6 : Memref sig .tc .vmem S1x1x128 .f32) (harg6 : arg6.IsWhole) (hc0 : ¬cond0 i) (x2 : Vec F S1x32x512 .f32) (x3 : Vec F S1x32x512 .f32) (x4 : Vec F S1x32x512 .i32) (xo5 : Vec F S1x1x128 .f32) (xo6 : Vec F S1x1x128 .f32) : Vec F S1x1x128 .f32 :=
  VO0_3.read (Elt F) (VO0_3.writes (Elt F) VO0_3.junk (kernelRun0_B c i arg2 harg2 arg3 harg3 arg4 harg4 arg5 harg5 arg6 harg6 hc0 x2 x3 x4 xo5 xo6).1)

/-- What case B leaves in the lane counts' staging buffer. -/
def out0_B_4 (c : Dev nD) (i : grid0.Coords) (arg2 : Memref sig .tc .vmem S1x32x512 .f32) (harg2 : arg2.IsWhole) (arg3 : Memref sig .tc .vmem S1x32x512 .f32) (harg3 : arg3.IsWhole) (arg4 : Memref sig .tc .vmem S1x32x512 .i32) (harg4 : arg4.IsWhole) (arg5 : Memref sig .tc .vmem S1x1x128 .f32) (harg5 : arg5.IsWhole) (arg6 : Memref sig .tc .vmem S1x1x128 .f32) (harg6 : arg6.IsWhole) (hc0 : ¬cond0 i) (x2 : Vec F S1x32x512 .f32) (x3 : Vec F S1x32x512 .f32) (x4 : Vec F S1x32x512 .i32) (xo5 : Vec F S1x1x128 .f32) (xo6 : Vec F S1x1x128 .f32) : Vec F S1x1x128 .f32 :=
  VO0_4.read (Elt F) (VO0_4.writes (Elt F) VO0_4.junk (kernelRun0_B c i arg2 harg2 arg3 harg3 arg4 harg4 arg5 harg5 arg6 harg6 hc0 x2 x3 x4 xo5 xo6).2.1)

section Region
variable (V : (c : Dev nD) → (b : Ref sig .tc) → Buf (Elt F) ((c : Thread nD τ).loc b))

/-! ## What the outputs hold after each point -/

/-- THE ACCUMULATION. What the two outputs' staging buffers hold after the body at position n (first the lane sums,
    second the lane counts): at an image's first row chunk case A on the point's input blocks; at a later chunk case B
    on the point's input blocks over what this leaves at n - 1 (the buffers are not written back in between). -/
def outsAt0 (c : Dev nD) : (n : ℕ) → n < cfg0.N → Vec F S1x1x128 .f32 × Vec F S1x1x128 .f32
  | 0, hn =>
    (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0 ⟨0, hn⟩).mpr (Nat.zero_mod _)) (iblk0 V c 0 ⟨0, hn⟩) (iblk0 V c 1 ⟨0, hn⟩) (iblk0 V c 2 ⟨0, hn⟩),
     out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0 ⟨0, hn⟩).mpr (Nat.zero_mod _)) (iblk0 V c 0 ⟨0, hn⟩) (iblk0 V c 1 ⟨0, hn⟩) (iblk0 V c 2 ⟨0, hn⟩))
  | n + 1, hn =>
    if h0 : (n + 1) % 16 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0 ⟨n + 1, hn⟩).mpr h0) (iblk0 V c 0 ⟨n + 1, hn⟩) (iblk0 V c 1 ⟨n + 1, hn⟩) (iblk0 V c 2 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0 ⟨n + 1, hn⟩).mpr h0) (iblk0 V c 0 ⟨n + 1, hn⟩) (iblk0 V c 1 ⟨n + 1, hn⟩) (iblk0 V c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2)

/-- The accumulation at a first row chunk: case A's contents. -/
theorem outsAt0_A (c : Dev nD) (t : Fin cfg0.N) (h0 : t.val % 16 = 0) :
    outsAt0 V c t.val t.isLt =
      (out0_A_3 c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t) (iblk0 V c 2 t),
       out0_A_4 c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t) (iblk0 V c 2 t)) := by
  obtain ⟨n, hn⟩ := t
  cases n with
  | zero => exact rfl
  | succ n => exact (dif_pos h0).trans rfl

/-- The accumulation at a later row chunk: case B's contents, over what the point before left. -/
theorem outsAt0_B (c : Dev nD) (t : Fin cfg0.N) (h0 : ¬t.val % 16 = 0) :
    outsAt0 V c t.val t.isLt =
      (out0_B_3 c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2,
       out0_B_4 c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core c: the arrays as the region finds them; after the body at
    point t each input's buffer at its block and the two outputs' at the accumulation; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- At a later row chunk the lane sums' current staging buffer holds what the body left at the point before: the
    point is not the first, the buffer was not written back in between (a write-back happens only after an image's
    last chunk), the window is live and uncut. -/
theorem before0_3_B (c : Dev nD) (t : Fin cfg0.N) (h0 : ¬t.val % 16 = 0) (d) :
    (dat0 V c).before 3 t d = (outsAt0 V c (t.val - 1) (Nat.lt_of_le_of_lt (Nat.sub_le _ _) t.isLt)).1 := by
  have hN : t.val < 512 := lt_of_lt_of_eq t.isLt (show cfg0.N = 512 from N_0)
  rw [Dat.before_out_kept _ 3 rfl t (by omega) (Bool.eq_false_iff.mpr fun h => by have := (flush0_3 _).mp h; dsimp only at this; omega)
    (fun _ => rfl) (fun _ _ => rfl)]
  dsimp only [dat0]

/-- The same for the lane counts' buffer. -/
theorem before0_4_B (c : Dev nD) (t : Fin cfg0.N) (h0 : ¬t.val % 16 = 0) (d) :
    (dat0 V c).before 4 t d = (outsAt0 V c (t.val - 1) (Nat.lt_of_le_of_lt (Nat.sub_le _ _) t.isLt)).2 := by
  have hN : t.val < 512 := lt_of_lt_of_eq t.isLt (show cfg0.N = 512 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation, at a generic point -/

/-- What the body is called with at point t (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 800000 in
/-- The body at any point: the inputs' memrefs hold their blocks; the closed form of the condition says which case
    the point is in; at a later row chunk each output's memref holds what the point before left; so the case's run
    applies, and the pieces it leaves, covering the block, read back as the accumulation. The invariant passes through
    unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val % 16 = 0
  · have e3 := congrArg Prod.fst (outsAt0_A V c t h0)
    have e4 := congrArg Prod.snd (outsAt0_A V c t h0)
    dsimp only at e3 e4
    rw [e3, e4]
    unfold out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0 t).mpr h0) (iblk0 V c 0 t) (iblk0 V c 1 t) (iblk0 V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3', H3⟩, ⟨%e4', H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _)
  · have e3 := congrArg Prod.fst (outsAt0_B V c t h0)
    have e4 := congrArg Prod.snd (outsAt0_B V c t h0)
    dsimp only at e3 e4
    rw [e3, e4]
    simp only [before0_3_B V c t h0, before0_4_B V c t h0]
    unfold out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0 t).mp h)) (iblk0 V c 0 t) (iblk0 V c 1 t) (iblk0 V c 2 t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3', H3⟩, ⟨%e4', H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KI.R1Runs.lean ====
/- The frame half of the second pallas_call (the broadcast-and-loss kernel, whose pipeline prefetches the label
   table): what its two control cases share. The windows' blocks read off the buffer contents the region is entered
   with, the schedule of its two output windows, the branch condition of the body in closed form, the label word the
   body loads, and the staging memrefs the pipeline hands the body at a point. Everything is stated at variable
   admissible contents of the table. -/
import proofs.«423842_j58059367907504_3_alg».proof.Proof.Gen.KernelIdeal.Launch
import proofs.«423842_j58059367907504_3_alg».proof.Proof.Gen.KernelIdeal.Skeleton
import proofs.«423842_j58059367907504_3_alg».proof.Proof.Gen.KernelIdeal.Points
import Idealize.ShloMosaic.Lib.Pipeline.FrameBody
import Idealize.ShloMosaic.Lib.Ring
import Idealize.ShloMosaic.Lib.Tactic

-- membership in a rectangle of production extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg1 (F := F)).Adm)

/-! ## The windows' blocks -/

/-- Window `w`'s block at point `t`, read off its array as the region finds it (`V`). -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-! ## The schedule of the output windows

The index maps read no table, so the schedule is the same at every contents: decided over the grid on the closed
maps and restated over the pinned windows, which unfold to them. -/

/-- Window 4 (the target block, block index `(b, c, 0)`) is written back at every point. -/
theorem flush1_4 : ∀ t : Fin (cfg1 a).N, ((cfg1 a).win 4).flush t = true :=
  (by decide +kernel : ∀ t : Fin grid1.N, Pipeline.Window.flushOf grid1 true cc1_transform_4 t = true)

/-- Window 5 (the loss accumulator, block index `(b, 0, 0)`) is written back at the last chunk of each image. -/
theorem flush1_5 : ∀ t : Fin (cfg1 a).N, ((cfg1 a).win 5).flush t = true ↔ t.val % 16 = 15 :=
  (by decide +kernel : ∀ t : Fin grid1.N, Pipeline.Window.flushOf grid1 true cc1_transform_5 t = true ↔ t.val % 16 = 15)

/-! ## The body's branch condition -/

/-- The condition of the body's conditional (the accumulator is reset when the chunk coordinate is 0), from the grid
    coordinates. -/
abbrev cond1 (i : grid1.Coords) : Prop := (Scalar.cmpi .ne (Scalar.extui (Scalar.cmpi .eq (BitVec.ofNat 32 (i 1).val) 0#32)) 0#32) = 1#1

/-- It holds at the first chunk of each image, decided over the grid. -/
theorem hcond1 : ∀ t : Fin (cfg1 a).N, cond1 (grid1.coords t) ↔ t.val % 16 = 0 :=
  (by decide +kernel : ∀ t : Fin grid1.N, cond1 (grid1.coords t) ↔ t.val % 16 = 0)

/-! ## The table as the body is handed it -/

/-- The label table as the body is handed it: its whole buffer as a memref. -/
abbrev tbM1 : Memref sig .tc .smem S32 .i32 := Memref.whole main_arg2
abbrev htbM1 : tbM1.IsWhole := Memref.isWhole_whole _

/-- The table memref's buffer on core `c`, and it held whole at contents `f`. -/
abbrev TbBuf1 (c : Dev nD) : Type := Buf (Elt F) (tbM1.view.loc (c : Thread nD τ))
abbrev tbPt1 (c : Dev nD) (f : TbBuf1 (F := F) c) : sProp 𝕄 :=
  tbM1.view.loc (c : Thread nD τ) ↦{fullShare} f

/-- The word the body's scalar load returns at grid point `i` when the table holds `f`: the element under the one
    index of the unit rectangle at the image coordinate. -/
abbrev lblAt1 (c : Dev nD) (f : TbBuf1 (F := F) c) (i : grid1.Coords) : Elt F .i32 :=
  tbM1.view.readAt (Elt F) (Rect.unit (s := S32) (k1_off1 i) S1.size (k1_off1_inb i)).toLoadRect f (Shape.Idx.first (numel1_S1.symm ▸ Nat.one_pos))

/-- The label of grid point `i`'s image: that word at the table's admissible contents. -/
def lbl1 (i : grid1.Coords) : Elt F .i32 := lblAt1 (0 : Dev nD) (a.1 0) i

/-- The table's points-to out of the region's invariant: one table, held whole. -/
theorem prefHeld1_eq (c : Dev nD) :
    (Pipeline.prefHeld (Ix := Unit) (Name := ℕ) (U := UR sig nD τ) (Lvl := ℕ) pre1 c (fun _ => fullShare) a.1 : sProp 𝕄) = tbPt1 c (a.1 0) := by
  unfold Pipeline.prefHeld
  rw [show (Finset.univ : Finset (Fin 1)) = {(0 : Fin 1)} from by decide, bigSep_singleton]
  rfl

/-! ## The staging memrefs at a point -/

/-- Each window's current staging memref at point `t`, spelled as the pipeline passes it, and its wholeness. -/
abbrev ms1_0 (t : Fin (cfg1 a).N) : Memref sig .tc .vmem S1x32x512 .i32 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S1x1x128 .f32 := spec1_1.stage ((cfg1 a).slots t 1)
abbrev hs1_1 (t : Fin (cfg1 a).N) : (ms1_1 a t).IsWhole := hstage1_1 (((cfg1 a).slots t 1).cast nbuf1_1)
abbrev ms1_2 (t : Fin (cfg1 a).N) : Memref sig .tc .vmem S1x32x512 .f32 := spec1_2.stage ((cfg1 a).slots t 2)
abbrev hs1_2 (t : Fin (cfg1 a).N) : (ms1_2 a t).IsWhole := hstage1_2 (((cfg1 a).slots t 2).cast nbuf1_2)
abbrev ms1_3 (t : Fin (cfg1 a).N) : Memref sig .tc .vmem S1x32x512 .f32 := spec1_3.stage ((cfg1 a).slots t 3)
abbrev hs1_3 (t : Fin (cfg1 a).N) : (ms1_3 a t).IsWhole := hstage1_3 (((cfg1 a).slots t 3).cast nbuf1_3)
abbrev ms1_4 (t : Fin (cfg1 a).N) : Memref sig .tc .vmem S1x32x512 .f32 := spec1_4.stage ((cfg1 a).slots t 4)
abbrev hs1_4 (t : Fin (cfg1 a).N) : (ms1_4 a t).IsWhole := hstage1_4 (((cfg1 a).slots t 4).cast nbuf1_4)
abbrev ms1_5 (t : Fin (cfg1 a).N) : Memref sig .tc .vmem S1x8x128 .f32 := spec1_5.stage ((cfg1 a).slots t 5)
abbrev hs1_5 (t : Fin (cfg1 a).N) : (ms1_5 a t).IsWhole := hstage1_5 (((cfg1 a).slots t 5).cast nbuf1_5)

/-- The kernel body at point `t`, on what the pipeline calls it with: the grid point, the table's memref, and each
    window's current staging memref. -/
abbrev bodyAt1 (t : Fin (cfg1 a).N) : Prog (TpuEff nD τ sig (Elt F) Λ₀ .tc) PUnit :=
  cc1__broadcast_loss_kernel (grid1.coords t) tbM1 htbM1 (ms1_0 a t) (hs1_0 a t) (ms1_1 a t) (hs1_1 a t) (ms1_2 a t) (hs1_2 a t) (ms1_3 a t) (hs1_3 a t) (ms1_4 a t) (hs1_4 a t) (ms1_5 a t) (hs1_5 a t)

/-- One staging buffer of each output window, through which its contents are stated (the choice does not matter). -/
abbrev VO1_4 : View sig .tc .vmem S1x32x512 .f32 := (Memref.whole cc1_stg4_0 : Memref sig .tc .vmem S1x32x512 .f32).view
abbrev VO1_5 : View sig .tc .vmem S1x8x128 .f32 := (Memref.whole cc1_stg5_0 : Memref sig .tc .vmem S1x8x128 .f32).view

end Cert.KernelIdeal.Hand

end
-- ==== Proof.KI.R1RunA.lean ====
/- The whole-body run of the broadcast-and-loss kernel in the case where the chunk coordinate is 0 (the loss
   accumulator is reset before it is added to): the body's triple on any whole staging memrefs, the pieces each
   output's buffer ends with being the witness the run finds. -/
import proofs.«423842_j58059367907504_3_alg».proof.Proof.KI.R1Runs

-- membership in a rectangle of production extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg1 (F := F)).Adm)

-- (the run's proof term is large: the definition's epilogue walks it past the default budget)
set_option maxHeartbeats 4000000 in
/-- What the body's stores leave in the two outputs' staging memrefs, as pieces (last first), IN CASE A (the chunk
    coordinate is 0: the accumulator is reset), WITH the proof that on whole staging memrefs, the four inputs' at
    their contents, the table held whole at `tb`, the two outputs' at anything, the body runs to the continuation
    holding the inputs' and the table as they were and each output's buffer with its pieces written. The printed
    functions are their skeletons; the conditional is decided by the case's hypothesis; the pieces are the witness the
    run finds. -/
noncomputable def kernelRun1_A (c : Dev nD) (i : grid1.Coords) (arg3 : Memref sig .tc .vmem S1x32x512 .i32) (harg3 : arg3.IsWhole) (arg4 : Memref sig .tc .vmem S1x1x128 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x32x512 .f32) (harg7 : arg7.IsWhole) (arg8 : Memref sig .tc .vmem S1x8x128 .f32) (harg8 : arg8.IsWhole) (hc : cond1 i)
    (x3 : Vec F S1x32x512 .i32) (x4 : Vec F S1x1x128 .f32) (x5 : Vec F S1x32x512 .f32) (x6 : Vec F S1x32x512 .f32) (tb : TbBuf1 (F := F) c) :
    Σ' (L4 : List (View.Piece (Elt F) S1x32x512 .f32)), { L5 : List (View.Piece (Elt F) S1x8x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ d, owns (c : Thread nD τ) arg8 fullShare d) ∗ tbPt1 c tb
            ∗ (iprop(owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f L5) ∗ tbPt1 c tb) -∗ K ⟨⟩))
          ⊢ wp frame (wpE (defs₀ (F := F)) Variants.none c none) E (cc1__broadcast_loss_kernel i tbM1 htbM1 arg3 harg3 arg4 harg4 arg5 harg5 arg6 harg6 arg7 harg7 arg8 harg8) K } := by
  refine ⟨?_, ?_, fun E K => ?run⟩
  case run =>
    simp only [cc1__broadcast_loss_kernel_eq_skeleton]; unfold cc1__broadcast_loss_kernel_skel
    simp only [k1_part1_eq_skeleton]
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, HT, Hk⟩
    obtain rfl := harg3.eq_unread hf3; obtain rfl := harg4.eq_unread hf4; obtain rfl := harg5.eq_unread hf5; obtain rfl := harg6.eq_unread hf6
    sl_exec (disch := first | exact hc)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexact HT

end Cert.KernelIdeal.Hand

end
-- ==== Proof.KI.R1RunB.lean ====
/- The whole-body run of the broadcast-and-loss kernel in the case where the chunk coordinate is not 0 (the loss
   accumulator is carried over from the point before): the body's triple on any whole staging memrefs, the pieces each
   output's buffer ends with being the witness the run finds. -/
import proofs.«423842_j58059367907504_3_alg».proof.Proof.KI.R1RunA

-- membership in a rectangle of production extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg1 (F := F)).Adm)

-- (the run's proof term is large: the definition's epilogue walks it past the default budget)
set_option maxHeartbeats 4000000 in
/-- What the body's stores leave in the two outputs' staging memrefs, as pieces (last first), IN CASE B (the chunk
    coordinate is not 0: the accumulator holds what the point before left, `xo8`), WITH the proof that on whole staging
    memrefs, the four inputs' at their contents, the table held whole at `tb`, the target block's at anything and the
    accumulator's at `xo8`, the body runs to the continuation holding the inputs' and the table as they were and each
    output's buffer with its pieces written. The conditional is decided by the case's hypothesis; the pieces are the
    witness the run finds. -/
noncomputable def kernelRun1_B (c : Dev nD) (i : grid1.Coords) (arg3 : Memref sig .tc .vmem S1x32x512 .i32) (harg3 : arg3.IsWhole) (arg4 : Memref sig .tc .vmem S1x1x128 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x32x512 .f32) (harg7 : arg7.IsWhole) (arg8 : Memref sig .tc .vmem S1x8x128 .f32) (harg8 : arg8.IsWhole) (hc : ¬cond1 i)
    (x3 : Vec F S1x32x512 .i32) (x4 : Vec F S1x1x128 .f32) (x5 : Vec F S1x32x512 .f32) (x6 : Vec F S1x32x512 .f32) (tb : TbBuf1 (F := F) c) (xo8 : Vec F S1x8x128 .f32) :
    Σ' (L4 : List (View.Piece (Elt F) S1x32x512 .f32)), { L5 : List (View.Piece (Elt F) S1x8x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ owns (c : Thread nD τ) arg8 fullShare xo8 ∗ tbPt1 c tb
            ∗ (iprop(owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f L5) ∗ tbPt1 c tb) -∗ K ⟨⟩))
          ⊢ wp frame (wpE (defs₀ (F := F)) Variants.none c none) E (cc1__broadcast_loss_kernel i tbM1 htbM1 arg3 harg3 arg4 harg4 arg5 harg5 arg6 harg6 arg7 harg7 arg8 harg8) K } := by
  refine ⟨?_, ?_, fun E K => ?run⟩
  case run =>
    simp only [cc1__broadcast_loss_kernel_eq_skeleton]; unfold cc1__broadcast_loss_kernel_skel
    simp only [k1_part1_eq_skeleton]
    unfold owns
    iintro ⟨⟨%f3, %hf3, H3⟩, ⟨%f4, %hf4, H4⟩, ⟨%f5, %hf5, H5⟩, ⟨%f6, %hf6, H6⟩, ⟨%d7, %f7, -, H7⟩, ⟨%f8, %hf8, H8⟩, HT, Hk⟩
    obtain rfl := harg3.eq_unread hf3; obtain rfl := harg4.eq_unread hf4; obtain rfl := harg5.eq_unread hf5; obtain rfl := harg6.eq_unread hf6
    obtain rfl := harg8.eq_unread hf8
    sl_exec (disch := first | exact hc)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexact HT

end Cert.KernelIdeal.Hand

end
-- ==== Proof.KI.R1.lean ====
/- The frame half of the second pallas_call (the broadcast-and-loss kernel), its last module: what each control case
   leaves in the two outputs' staging buffers (the pieces cover them), what the outputs hold point by point (the loss
   accumulator carried from one chunk of an image to the next), the pipeline's proof data at the buffer contents the
   region is entered with and at variable admissible contents of the label table, what each window's staging buffer
   holds when the body is called, the word the body loads from the table, and the body obligation at every point. -/
import proofs.«423842_j58059367907504_3_alg».proof.Proof.KI.R1RunB
import Idealize.ShloMosaic.Lib.ValueIdx

-- membership in a rectangle of production extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg1 (F := F)).Adm)

/-! ## What each case leaves in the outputs' buffers -/

/-- Case A's pieces for the target block tile it (one whole-block store), so they cover it. -/
theorem cover1_A_4 (c : Dev nD) (i : grid1.Coords) (arg3 : Memref sig .tc .vmem S1x32x512 .i32) (harg3 : arg3.IsWhole) (arg4 : Memref sig .tc .vmem S1x1x128 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x32x512 .f32) (harg7 : arg7.IsWhole) (arg8 : Memref sig .tc .vmem S1x8x128 .f32) (harg8 : arg8.IsWhole) (hc : cond1 i)
    (x3 : Vec F S1x32x512 .i32) (x4 : Vec F S1x1x128 .f32) (x5 : Vec F S1x32x512 .f32) (x6 : Vec F S1x32x512 .f32) (tb : TbBuf1 (F := F) c) (y : S1x32x512.Idx) :
    ∃ pc ∈ (kernelRun1_A c i arg3 harg3 arg4 harg4 arg5 harg5 arg6 harg6 arg7 harg7 arg8 harg8 hc x3 x4 x5 x6 tb).1, y ∈ pc.1.set :=
  View.cover_of_tiledL (kernelRun1_A c i arg3 harg3 arg4 harg4 arg5 harg5 arg6 harg6 arg7 harg7 arg8 harg8 hc x3 x4 x5 x6 tb).1 S1x32x512.size (by sl_kernel_rfl) y

/-- Case A's pieces for the loss accumulator tile it (the reset and the accumulation, each a whole-block store), so
    they cover it. -/
theorem cover1_A_5 (c : Dev nD) (i : grid1.Coords) (arg3 : Memref sig .tc .vmem S1x32x512 .i32) (harg3 : arg3.IsWhole) (arg4 : Memref sig .tc .vmem S1x1x128 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x32x512 .f32) (harg7 : arg7.IsWhole) (arg8 : Memref sig .tc .vmem S1x8x128 .f32) (harg8 : arg8.IsWhole) (hc : cond1 i)
    (x3 : Vec F S1x32x512 .i32) (x4 : Vec F S1x1x128 .f32) (x5 : Vec F S1x32x512 .f32) (x6 : Vec F S1x32x512 .f32) (tb : TbBuf1 (F := F) c) (y : S1x8x128.Idx) :
    ∃ pc ∈ (kernelRun1_A c i arg3 harg3 arg4 harg4 arg5 harg5 arg6 harg6 arg7 harg7 arg8 harg8 hc x3 x4 x5 x6 tb).2.1, y ∈ pc.1.set :=
  View.cover_of_tiledL (kernelRun1_A c i arg3 harg3 arg4 harg4 arg5 harg5 arg6 harg6 arg7 harg7 arg8 harg8 hc x3 x4 x5 x6 tb).2.1 S1x8x128.size (by sl_kernel_rfl) y

/-- What case A leaves in the target block's staging buffer: its pieces read back over junk. -/
def out1_A_4 (c : Dev nD) (i : grid1.Coords) (arg3 : Memref sig .tc .vmem S1x32x512 .i32) (harg3 : arg3.IsWhole) (arg4 : Memref sig .tc .vmem S1x1x128 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x32x512 .f32) (harg7 : arg7.IsWhole) (arg8 : Memref sig .tc .vmem S1x8x128 .f32) (harg8 : arg8.IsWhole) (hc : cond1 i)
    (x3 : Vec F S1x32x512 .i32) (x4 : Vec F S1x1x128 .f32) (x5 : Vec F S1x32x512 .f32) (x6 : Vec F S1x32x512 .f32) (tb : TbBuf1 (F := F) c) : Vec F S1x32x512 .f32 :=
  VO1_4.read (Elt F) (VO1_4.writes (Elt F) VO1_4.junk (kernelRun1_A c i arg3 harg3 arg4 harg4 arg5 harg5 arg6 harg6 arg7 harg7 arg8 harg8 hc x3 x4 x5 x6 tb).1)

/-- What case A leaves in the loss accumulator's staging buffer: its pieces read back over junk. -/
def out1_A_5 (c : Dev nD) (i : grid1.Coords) (arg3 : Memref sig .tc .vmem S1x32x512 .i32) (harg3 : arg3.IsWhole) (arg4 : Memref sig .tc .vmem S1x1x128 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x32x512 .f32) (harg7 : arg7.IsWhole) (arg8 : Memref sig .tc .vmem S1x8x128 .f32) (harg8 : arg8.IsWhole) (hc : cond1 i)
    (x3 : Vec F S1x32x512 .i32) (x4 : Vec F S1x1x128 .f32) (x5 : Vec F S1x32x512 .f32) (x6 : Vec F S1x32x512 .f32) (tb : TbBuf1 (F := F) c) : Vec F S1x8x128 .f32 :=
  VO1_5.read (Elt F) (VO1_5.writes (Elt F) VO1_5.junk (kernelRun1_A c i arg3 harg3 arg4 harg4 arg5 harg5 arg6 harg6 arg7 harg7 arg8 harg8 hc x3 x4 x5 x6 tb).2.1)

/-- Case B's pieces for the target block tile it (one whole-block store), so they cover it. -/
theorem cover1_B_4 (c : Dev nD) (i : grid1.Coords) (arg3 : Memref sig .tc .vmem S1x32x512 .i32) (harg3 : arg3.IsWhole) (arg4 : Memref sig .tc .vmem S1x1x128 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x32x512 .f32) (harg7 : arg7.IsWhole) (arg8 : Memref sig .tc .vmem S1x8x128 .f32) (harg8 : arg8.IsWhole) (hc : ¬cond1 i)
    (x3 : Vec F S1x32x512 .i32) (x4 : Vec F S1x1x128 .f32) (x5 : Vec F S1x32x512 .f32) (x6 : Vec F S1x32x512 .f32) (tb : TbBuf1 (F := F) c) (xo8 : Vec F S1x8x128 .f32) (y : S1x32x512.Idx) :
    ∃ pc ∈ (kernelRun1_B c i arg3 harg3 arg4 harg4 arg5 harg5 arg6 harg6 arg7 harg7 arg8 harg8 hc x3 x4 x5 x6 tb xo8).1, y ∈ pc.1.set :=
  View.cover_of_tiledL (kernelRun1_B c i arg3 harg3 arg4 harg4 arg5 harg5 arg6 harg6 arg7 harg7 arg8 harg8 hc x3 x4 x5 x6 tb xo8).1 S1x32x512.size (by sl_kernel_rfl) y

/-- Case B's pieces for the loss accumulator tile it (the accumulation, a whole-block store), so they cover it. -/
theorem cover1_B_5 (c : Dev nD) (i : grid1.Coords) (arg3 : Memref sig .tc .vmem S1x32x512 .i32) (harg3 : arg3.IsWhole) (arg4 : Memref sig .tc .vmem S1x1x128 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x32x512 .f32) (harg7 : arg7.IsWhole) (arg8 : Memref sig .tc .vmem S1x8x128 .f32) (harg8 : arg8.IsWhole) (hc : ¬cond1 i)
    (x3 : Vec F S1x32x512 .i32) (x4 : Vec F S1x1x128 .f32) (x5 : Vec F S1x32x512 .f32) (x6 : Vec F S1x32x512 .f32) (tb : TbBuf1 (F := F) c) (xo8 : Vec F S1x8x128 .f32) (y : S1x8x128.Idx) :
    ∃ pc ∈ (kernelRun1_B c i arg3 harg3 arg4 harg4 arg5 harg5 arg6 harg6 arg7 harg7 arg8 harg8 hc x3 x4 x5 x6 tb xo8).2.1, y ∈ pc.1.set :=
  View.cover_of_tiledL (kernelRun1_B c i arg3 harg3 arg4 harg4 arg5 harg5 arg6 harg6 arg7 harg7 arg8 harg8 hc x3 x4 x5 x6 tb xo8).2.1 S1x8x128.size (by sl_kernel_rfl) y

/-- What case B leaves in the target block's staging buffer: its pieces read back over junk. -/
def out1_B_4 (c : Dev nD) (i : grid1.Coords) (arg3 : Memref sig .tc .vmem S1x32x512 .i32) (harg3 : arg3.IsWhole) (arg4 : Memref sig .tc .vmem S1x1x128 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x32x512 .f32) (harg7 : arg7.IsWhole) (arg8 : Memref sig .tc .vmem S1x8x128 .f32) (harg8 : arg8.IsWhole) (hc : ¬cond1 i)
    (x3 : Vec F S1x32x512 .i32) (x4 : Vec F S1x1x128 .f32) (x5 : Vec F S1x32x512 .f32) (x6 : Vec F S1x32x512 .f32) (tb : TbBuf1 (F := F) c) (xo8 : Vec F S1x8x128 .f32) : Vec F S1x32x512 .f32 :=
  VO1_4.read (Elt F) (VO1_4.writes (Elt F) VO1_4.junk (kernelRun1_B c i arg3 harg3 arg4 harg4 arg5 harg5 arg6 harg6 arg7 harg7 arg8 harg8 hc x3 x4 x5 x6 tb xo8).1)

/-- What case B leaves in the loss accumulator's staging buffer: its pieces read back over junk. -/
def out1_B_5 (c : Dev nD) (i : grid1.Coords) (arg3 : Memref sig .tc .vmem S1x32x512 .i32) (harg3 : arg3.IsWhole) (arg4 : Memref sig .tc .vmem S1x1x128 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x32x512 .f32) (harg7 : arg7.IsWhole) (arg8 : Memref sig .tc .vmem S1x8x128 .f32) (harg8 : arg8.IsWhole) (hc : ¬cond1 i)
    (x3 : Vec F S1x32x512 .i32) (x4 : Vec F S1x1x128 .f32) (x5 : Vec F S1x32x512 .f32) (x6 : Vec F S1x32x512 .f32) (tb : TbBuf1 (F := F) c) (xo8 : Vec F S1x8x128 .f32) : Vec F S1x8x128 .f32 :=
  VO1_5.read (Elt F) (VO1_5.writes (Elt F) VO1_5.junk (kernelRun1_B c i arg3 harg3 arg4 harg4 arg5 harg5 arg6 harg6 arg7 harg7 arg8 harg8 hc x3 x4 x5 x6 tb xo8).2.1)

/-! ## What the outputs hold after each point -/

/-- THE ACCUMULATION. What the two outputs' staging buffers hold after the body at position `n` (first the target
    block's, second the loss accumulator's): at the first chunk of an image case A, run at the point's memrefs, input
    blocks and the table's contents; at a later chunk case B, over what this leaves in the accumulator at `n - 1` (its
    buffer is not written back between). -/
def outsAt1 (c : Dev nD) : (n : ℕ) → n < (cfg1 a).N → Vec F S1x32x512 .f32 × Vec F S1x8x128 .f32
  | 0, hn =>
    (out1_A_4 c (grid1.coords ⟨0, hn⟩) (ms1_0 a ⟨0, hn⟩) (hs1_0 a ⟨0, hn⟩) (ms1_1 a ⟨0, hn⟩) (hs1_1 a ⟨0, hn⟩) (ms1_2 a ⟨0, hn⟩) (hs1_2 a ⟨0, hn⟩) (ms1_3 a ⟨0, hn⟩) (hs1_3 a ⟨0, hn⟩) (ms1_4 a ⟨0, hn⟩) (hs1_4 a ⟨0, hn⟩) (ms1_5 a ⟨0, hn⟩) (hs1_5 a ⟨0, hn⟩) ((hcond1 a ⟨0, hn⟩).mpr (Nat.zero_mod _)) (iblk1 V a c 0 ⟨0, hn⟩) (iblk1 V a c 1 ⟨0, hn⟩) (iblk1 V a c 2 ⟨0, hn⟩) (iblk1 V a c 3 ⟨0, hn⟩) (a.1 0),
     out1_A_5 c (grid1.coords ⟨0, hn⟩) (ms1_0 a ⟨0, hn⟩) (hs1_0 a ⟨0, hn⟩) (ms1_1 a ⟨0, hn⟩) (hs1_1 a ⟨0, hn⟩) (ms1_2 a ⟨0, hn⟩) (hs1_2 a ⟨0, hn⟩) (ms1_3 a ⟨0, hn⟩) (hs1_3 a ⟨0, hn⟩) (ms1_4 a ⟨0, hn⟩) (hs1_4 a ⟨0, hn⟩) (ms1_5 a ⟨0, hn⟩) (hs1_5 a ⟨0, hn⟩) ((hcond1 a ⟨0, hn⟩).mpr (Nat.zero_mod _)) (iblk1 V a c 0 ⟨0, hn⟩) (iblk1 V a c 1 ⟨0, hn⟩) (iblk1 V a c 2 ⟨0, hn⟩) (iblk1 V a c 3 ⟨0, hn⟩) (a.1 0))
  | n + 1, hn =>
    if h0 : (n + 1) % 16 = 0 then
      (out1_A_4 c (grid1.coords ⟨n + 1, hn⟩) (ms1_0 a ⟨n + 1, hn⟩) (hs1_0 a ⟨n + 1, hn⟩) (ms1_1 a ⟨n + 1, hn⟩) (hs1_1 a ⟨n + 1, hn⟩) (ms1_2 a ⟨n + 1, hn⟩) (hs1_2 a ⟨n + 1, hn⟩) (ms1_3 a ⟨n + 1, hn⟩) (hs1_3 a ⟨n + 1, hn⟩) (ms1_4 a ⟨n + 1, hn⟩) (hs1_4 a ⟨n + 1, hn⟩) (ms1_5 a ⟨n + 1, hn⟩) (hs1_5 a ⟨n + 1, hn⟩) ((hcond1 a ⟨n + 1, hn⟩).mpr h0) (iblk1 V a c 0 ⟨n + 1, hn⟩) (iblk1 V a c 1 ⟨n + 1, hn⟩) (iblk1 V a c 2 ⟨n + 1, hn⟩) (iblk1 V a c 3 ⟨n + 1, hn⟩) (a.1 0),
       out1_A_5 c (grid1.coords ⟨n + 1, hn⟩) (ms1_0 a ⟨n + 1, hn⟩) (hs1_0 a ⟨n + 1, hn⟩) (ms1_1 a ⟨n + 1, hn⟩) (hs1_1 a ⟨n + 1, hn⟩) (ms1_2 a ⟨n + 1, hn⟩) (hs1_2 a ⟨n + 1, hn⟩) (ms1_3 a ⟨n + 1, hn⟩) (hs1_3 a ⟨n + 1, hn⟩) (ms1_4 a ⟨n + 1, hn⟩) (hs1_4 a ⟨n + 1, hn⟩) (ms1_5 a ⟨n + 1, hn⟩) (hs1_5 a ⟨n + 1, hn⟩) ((hcond1 a ⟨n + 1, hn⟩).mpr h0) (iblk1 V a c 0 ⟨n + 1, hn⟩) (iblk1 V a c 1 ⟨n + 1, hn⟩) (iblk1 V a c 2 ⟨n + 1, hn⟩) (iblk1 V a c 3 ⟨n + 1, hn⟩) (a.1 0))
    else
      (out1_B_4 c (grid1.coords ⟨n + 1, hn⟩) (ms1_0 a ⟨n + 1, hn⟩) (hs1_0 a ⟨n + 1, hn⟩) (ms1_1 a ⟨n + 1, hn⟩) (hs1_1 a ⟨n + 1, hn⟩) (ms1_2 a ⟨n + 1, hn⟩) (hs1_2 a ⟨n + 1, hn⟩) (ms1_3 a ⟨n + 1, hn⟩) (hs1_3 a ⟨n + 1, hn⟩) (ms1_4 a ⟨n + 1, hn⟩) (hs1_4 a ⟨n + 1, hn⟩) (ms1_5 a ⟨n + 1, hn⟩) (hs1_5 a ⟨n + 1, hn⟩) (fun h => h0 ((hcond1 a ⟨n + 1, hn⟩).mp h)) (iblk1 V a c 0 ⟨n + 1, hn⟩) (iblk1 V a c 1 ⟨n + 1, hn⟩) (iblk1 V a c 2 ⟨n + 1, hn⟩) (iblk1 V a c 3 ⟨n + 1, hn⟩) (a.1 0) (outsAt1 c n (Nat.lt_of_succ_lt hn)).2,
       out1_B_5 c (grid1.coords ⟨n + 1, hn⟩) (ms1_0 a ⟨n + 1, hn⟩) (hs1_0 a ⟨n + 1, hn⟩) (ms1_1 a ⟨n + 1, hn⟩) (hs1_1 a ⟨n + 1, hn⟩) (ms1_2 a ⟨n + 1, hn⟩) (hs1_2 a ⟨n + 1, hn⟩) (ms1_3 a ⟨n + 1, hn⟩) (hs1_3 a ⟨n + 1, hn⟩) (ms1_4 a ⟨n + 1, hn⟩) (hs1_4 a ⟨n + 1, hn⟩) (ms1_5 a ⟨n + 1, hn⟩) (hs1_5 a ⟨n + 1, hn⟩) (fun h => h0 ((hcond1 a ⟨n + 1, hn⟩).mp h)) (iblk1 V a c 0 ⟨n + 1, hn⟩) (iblk1 V a c 1 ⟨n + 1, hn⟩) (iblk1 V a c 2 ⟨n + 1, hn⟩) (iblk1 V a c 3 ⟨n + 1, hn⟩) (a.1 0) (outsAt1 c n (Nat.lt_of_succ_lt hn)).2)

/-- `outsAt1` at a point of case A: that case's contents. -/
theorem outsAt1_A (c : Dev nD) (t : Fin (cfg1 a).N) (h0 : t.val % 16 = 0) :
    outsAt1 V a c t.val t.isLt =
      (out1_A_4 c (grid1.coords t) (ms1_0 a t) (hs1_0 a t) (ms1_1 a t) (hs1_1 a t) (ms1_2 a t) (hs1_2 a t) (ms1_3 a t) (hs1_3 a t) (ms1_4 a t) (hs1_4 a t) (ms1_5 a t) (hs1_5 a t) ((hcond1 a t).mpr h0) (iblk1 V a c 0 t) (iblk1 V a c 1 t) (iblk1 V a c 2 t) (iblk1 V a c 3 t) (a.1 0),
       out1_A_5 c (grid1.coords t) (ms1_0 a t) (hs1_0 a t) (ms1_1 a t) (hs1_1 a t) (ms1_2 a t) (hs1_2 a t) (ms1_3 a t) (hs1_3 a t) (ms1_4 a t) (hs1_4 a t) (ms1_5 a t) (hs1_5 a t) ((hcond1 a t).mpr h0) (iblk1 V a c 0 t) (iblk1 V a c 1 t) (iblk1 V a c 2 t) (iblk1 V a c 3 t) (a.1 0)) := by
  obtain ⟨n, hn⟩ := t
  cases n with
  | zero => exact rfl
  | succ n => exact (dif_pos h0).trans rfl

/-- `outsAt1` at a point of case B: that case's contents, over what the point before left in the accumulator. -/
theorem outsAt1_B (c : Dev nD) (t : Fin (cfg1 a).N) (h0 : ¬t.val % 16 = 0) :
    outsAt1 V a c t.val t.isLt =
      (out1_B_4 c (grid1.coords t) (ms1_0 a t) (hs1_0 a t) (ms1_1 a t) (hs1_1 a t) (ms1_2 a t) (hs1_2 a t) (ms1_3 a t) (hs1_3 a t) (ms1_4 a t) (hs1_4 a t) (ms1_5 a t) (hs1_5 a t) (fun h => h0 ((hcond1 a t).mp h)) (iblk1 V a c 0 t) (iblk1 V a c 1 t) (iblk1 V a c 2 t) (iblk1 V a c 3 t) (a.1 0) (outsAt1 V a c (t.val - 1) (Nat.lt_of_le_of_lt (Nat.sub_le _ _) t.isLt)).2,
       out1_B_5 c (grid1.coords t) (ms1_0 a t) (hs1_0 a t) (ms1_1 a t) (hs1_1 a t) (ms1_2 a t) (hs1_2 a t) (ms1_3 a t) (hs1_3 a t) (ms1_4 a t) (hs1_4 a t) (ms1_5 a t) (hs1_5 a t) (fun h => h0 ((hcond1 a t).mp h)) (iblk1 V a c 0 t) (iblk1 V a c 1 t) (iblk1 V a c 2 t) (iblk1 V a c 3 t) (a.1 0) (outsAt1 V a c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The components of a pair equal to a given pair. -/
theorem fst_of_eq_mk {α β : Type} {p : α × β} {x : α} {y : β} (h : p = (x, y)) : p.1 = x := by rw [h]
theorem snd_of_eq_mk {α β : Type} {p : α × β} {x : α} {y : β} (h : p = (x, y)) : p.2 = y := by rw [h]

/-- The two components of `outsAt1` at a point of case A, and at a point of case B. -/
theorem outsAt1_A_fst (c : Dev nD) (t : Fin (cfg1 a).N) (h0 : t.val % 16 = 0) :
    (outsAt1 V a c t.val t.isLt).1 = out1_A_4 c (grid1.coords t) (ms1_0 a t) (hs1_0 a t) (ms1_1 a t) (hs1_1 a t) (ms1_2 a t) (hs1_2 a t) (ms1_3 a t) (hs1_3 a t) (ms1_4 a t) (hs1_4 a t) (ms1_5 a t) (hs1_5 a t) ((hcond1 a t).mpr h0) (iblk1 V a c 0 t) (iblk1 V a c 1 t) (iblk1 V a c 2 t) (iblk1 V a c 3 t) (a.1 0) :=
  fst_of_eq_mk (outsAt1_A V a c t h0)
theorem outsAt1_A_snd (c : Dev nD) (t : Fin (cfg1 a).N) (h0 : t.val % 16 = 0) :
    (outsAt1 V a c t.val t.isLt).2 = out1_A_5 c (grid1.coords t) (ms1_0 a t) (hs1_0 a t) (ms1_1 a t) (hs1_1 a t) (ms1_2 a t) (hs1_2 a t) (ms1_3 a t) (hs1_3 a t) (ms1_4 a t) (hs1_4 a t) (ms1_5 a t) (hs1_5 a t) ((hcond1 a t).mpr h0) (iblk1 V a c 0 t) (iblk1 V a c 1 t) (iblk1 V a c 2 t) (iblk1 V a c 3 t) (a.1 0) :=
  snd_of_eq_mk (outsAt1_A V a c t h0)
theorem outsAt1_B_fst (c : Dev nD) (t : Fin (cfg1 a).N) (h0 : ¬t.val % 16 = 0) :
    (outsAt1 V a c t.val t.isLt).1 = out1_B_4 c (grid1.coords t) (ms1_0 a t) (hs1_0 a t) (ms1_1 a t) (hs1_1 a t) (ms1_2 a t) (hs1_2 a t) (ms1_3 a t) (hs1_3 a t) (ms1_4 a t) (hs1_4 a t) (ms1_5 a t) (hs1_5 a t) (fun h => h0 ((hcond1 a t).mp h)) (iblk1 V a c 0 t) (iblk1 V a c 1 t) (iblk1 V a c 2 t) (iblk1 V a c 3 t) (a.1 0) (outsAt1 V a c (t.val - 1) (Nat.lt_of_le_of_lt (Nat.sub_le _ _) t.isLt)).2 :=
  fst_of_eq_mk (outsAt1_B V a c t h0)
theorem outsAt1_B_snd (c : Dev nD) (t : Fin (cfg1 a).N) (h0 : ¬t.val % 16 = 0) :
    (outsAt1 V a c t.val t.isLt).2 = out1_B_5 c (grid1.coords t) (ms1_0 a t) (hs1_0 a t) (ms1_1 a t) (hs1_1 a t) (ms1_2 a t) (hs1_2 a t) (ms1_3 a t) (hs1_3 a t) (ms1_4 a t) (hs1_4 a t) (ms1_5 a t) (hs1_5 a t) (fun h => h0 ((hcond1 a t).mp h)) (iblk1 V a c 0 t) (iblk1 V a c 1 t) (iblk1 V a c 2 t) (iblk1 V a c 3 t) (a.1 0) (outsAt1 V a c (t.val - 1) (Nat.lt_of_le_of_lt (Nat.sub_le _ _) t.isLt)).2 :=
  snd_of_eq_mk (outsAt1_B V a c t h0)

/-! ## The pipeline's proof data -/

/-- The proof data of this pipeline on core `c`: the arrays as the region finds them (`V`); after the body at point
    `t` each input's buffer at its block and the two outputs' at `outsAt1`; the invariant the scoped rest, the
    random-number register and the label table held whole at its contents; nothing owed; full shares. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => iblk1 V a c 3 t
    | ⟨4, _⟩ => (outsAt1 V a c t.val t.isLt).1
    | ⟨5, _⟩ => (outsAt1 V a c t.val t.isLt).2
  Φ _ := iprop(Pipeline.ΦA spec1 c ∗ Pipeline.prefHeld (Ix := Unit) (Name := ℕ) (U := UR sig nD τ) (Lvl := ℕ) pre1 c (fun _ => fullShare) a.1)
  q _ := fullShare
  owed _ := 0

/-- The proof data's arrays are the region-entry contents (the definition projected, `V` never unfolded). -/
theorem A_eq1 (c : Dev nD) (w : Fin (cfg1 a).W) : (dat1 V a c).A w = V c (Pipeline.arrRef spec1 w) := by
  dsimp only [dat1]

/-- What the body leaves, window by window. -/
theorem after1_0 (c : Dev nD) (t : Fin (cfg1 a).N) : (dat1 V a c).after 0 t = iblk1 V a c 0 t := by dsimp only [dat1]; try rfl
theorem after1_1 (c : Dev nD) (t : Fin (cfg1 a).N) : (dat1 V a c).after 1 t = iblk1 V a c 1 t := by dsimp only [dat1]; try rfl
theorem after1_2 (c : Dev nD) (t : Fin (cfg1 a).N) : (dat1 V a c).after 2 t = iblk1 V a c 2 t := by dsimp only [dat1]; try rfl
theorem after1_3 (c : Dev nD) (t : Fin (cfg1 a).N) : (dat1 V a c).after 3 t = iblk1 V a c 3 t := by dsimp only [dat1]; try rfl
theorem after1_4 (c : Dev nD) (t : Fin (cfg1 a).N) : (dat1 V a c).after 4 t = (outsAt1 V a c t.val t.isLt).1 := by dsimp only [dat1]; try rfl
theorem after1_5 (c : Dev nD) (t : Fin (cfg1 a).N) : (dat1 V a c).after 5 t = (outsAt1 V a c t.val t.isLt).2 := by dsimp only [dat1]; try rfl

/-- Each input's current staging buffer holds its block at every point, fetched there or not (unfetched, the block
    index has not moved: the means block is fetched once per image). -/
theorem before1_0 (c : Dev nD) (t : Fin (cfg1 a).N) (d) : (dat1 V a c).before 0 t d = iblk1 V a c 0 t :=
  ((dat1 V a c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin (cfg1 a).N) (d) : (dat1 V a c).before 1 t d = iblk1 V a c 1 t :=
  ((dat1 V a c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin (cfg1 a).N) (d) : (dat1 V a c).before 2 t d = iblk1 V a c 2 t :=
  ((dat1 V a c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin (cfg1 a).N) (d) : (dat1 V a c).before 3 t d = iblk1 V a c 3 t :=
  ((dat1 V a c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- At a point of case B the loss accumulator's current staging buffer holds what the body left at the point before:
    the point is not the first, and the buffer was not written back between (it is written back only after the last
    chunk of an image). -/
theorem before1_5_B (c : Dev nD) (t : Fin (cfg1 a).N) (h0 : ¬t.val % 16 = 0) (d) :
    (dat1 V a c).before 5 t d = (outsAt1 V a c (t.val - 1) (Nat.lt_of_le_of_lt (Nat.sub_le _ _) t.isLt)).2 := by
  have hN : t.val < 512 := lt_of_lt_of_eq t.isLt (show (cfg1 a).N = 512 from N_1)
  rw [Dat.before_out_kept _ 5 rfl t (by omega) (Bool.eq_false_iff.mpr fun h => by have := (flush1_5 a _).mp h; dsimp only at this; omega)
    (fun _ => rfl) (fun _ _ => rfl)]
  exact after1_5 V a c _

/-! ## The word the body loads -/

/-- The word the body's scalar load returns, at any contents of the table: the table's element at the image
    coordinate (the load's unit rectangle starts at the coordinate, by the closed form of its offset). -/
theorem lblAt1_eq (c : Dev nD) (f : TbBuf1 (F := F) c) (i : grid1.Coords) : lblAt1 c f i = f (ValueIdx.ix1 (i 0)) := by
  unfold lblAt1
  rw [View.readAt_apply]
  show f _ = f _
  refine congrArg f ?_
  funext d
  match d with
  | ⟨0, _⟩ => exact Fin.ext (congrFun (k1_off1_eq i) 0)

/-- The label the body loads at grid point `i` is the table's element at the image coordinate. -/
theorem lbl1_eq (i : grid1.Coords) : lbl1 a i = a.1 0 (ValueIdx.ix1 (i 0)) := lblAt1_eq 0 (a.1 0) i

/-! ## The body obligation, at a generic point -/

/-- What the body is called with at point `t` (the windows one by one), -/
def bodyPre1 (c : Dev nD) (t : Fin (cfg1 a).N) : sProp 𝕄 :=
  iprop((dat1 V a c).Φ t.castSucc ∗ (dat1 V a c).owesAt () t.castSucc
    ∗ (∃ d, owns (c : Thread nD τ) (ms1_0 a t) fullShare ((dat1 V a c).before 0 t d))
    ∗ (∃ d, owns (c : Thread nD τ) (ms1_1 a t) fullShare ((dat1 V a c).before 1 t d))
    ∗ (∃ d, owns (c : Thread nD τ) (ms1_2 a t) fullShare ((dat1 V a c).before 2 t d))
    ∗ (∃ d, owns (c : Thread nD τ) (ms1_3 a t) fullShare ((dat1 V a c).before 3 t d))
    ∗ (∃ d, owns (c : Thread nD τ) (ms1_4 a t) fullShare ((dat1 V a c).before 4 t d))
    ∗ (∃ d, owns (c : Thread nD τ) (ms1_5 a t) fullShare ((dat1 V a c).before 5 t d)))

/-- and what it returns. -/
def bodyPost1 (c : Dev nD) (t : Fin (cfg1 a).N) : sProp 𝕄 :=
  iprop((dat1 V a c).Φ t.succ ∗ (dat1 V a c).owesAt () t.succ
    ∗ owns (c : Thread nD τ) (ms1_0 a t) fullShare ((dat1 V a c).after 0 t)
    ∗ owns (c : Thread nD τ) (ms1_1 a t) fullShare ((dat1 V a c).after 1 t)
    ∗ owns (c : Thread nD τ) (ms1_2 a t) fullShare ((dat1 V a c).after 2 t)
    ∗ owns (c : Thread nD τ) (ms1_3 a t) fullShare ((dat1 V a c).after 3 t)
    ∗ owns (c : Thread nD τ) (ms1_4 a t) fullShare ((dat1 V a c).after 4 t)
    ∗ owns (c : Thread nD τ) (ms1_5 a t) fullShare ((dat1 V a c).after 5 t))

set_option maxHeartbeats 1600000 in
/-- The body at any point: the inputs' memrefs hold their blocks; the closed form says which case the point is in; at
    a later chunk the accumulator holds what the point before left; so the case's run applies; the table passes
    through the run and back into the invariant, the rest of the invariant unread; the core owes nothing throughout. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0, before1_1, before1_2, before1_3]
  rw [show (dat1 V a c).Φ t.succ = (dat1 V a c).Φ t.castSucc from rfl,
    show (dat1 V a c).owesAt () t.succ = (dat1 V a c).owesAt () t.castSucc from rfl,
    after1_0, after1_1, after1_2, after1_3, after1_4, after1_5]
  rw [show (dat1 V a c).Φ t.castSucc = iprop(Pipeline.ΦA spec1 c ∗ Pipeline.prefHeld (Ix := Unit) (Name := ℕ) (U := UR sig nD τ) (Lvl := ℕ) pre1 c (fun _ => fullShare) a.1) from rfl, prefHeld1_eq]
  by_cases h0 : t.val % 16 = 0
  · rw [outsAt1_A_fst V a c t h0, outsAt1_A_snd V a c t h0]
    unfold out1_A_4 out1_A_5
    iintro ⟨⟨HΦ, HT⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ ((hcond1 a t).mpr h0) (iblk1 V a c 0 t) (iblk1 V a c 1 t) (iblk1 V a c 2 t) (iblk1 V a c 3 t) (a.1 0)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HT]; · iexact HT
    iintro ⟨H0, H1, H2, H3, ⟨%e4, H4⟩, ⟨%e5, H5⟩, HT⟩
    isplitl [HΦ HT]
    · isplitl [HΦ]; · iexact HΦ
      iexact HT
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 (F := F) c _ _ _ _ _ _ _ _ _ _ _ _ _ _ _ _ _ _ _)
    unfold owns; iexists _; isplitr
    swap; · iexact H5
    ipureintro; exact View.read_writes_of_cover _ _ _ _ _ (cover1_A_5 (F := F) c _ _ _ _ _ _ _ _ _ _ _ _ _ _ _ _ _ _ _)
  · simp only [before1_5_B V a c t h0]
    rw [outsAt1_B_fst V a c t h0, outsAt1_B_snd V a c t h0]
    unfold out1_B_4 out1_B_5
    iintro ⟨⟨HΦ, HT⟩, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ (fun h => h0 ((hcond1 a t).mp h)) (iblk1 V a c 0 t) (iblk1 V a c 1 t) (iblk1 V a c 2 t) (iblk1 V a c 3 t) (a.1 0) _).2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [HT]; · iexact HT
    iintro ⟨H0, H1, H2, H3, ⟨%e4, H4⟩, ⟨%e5, H5⟩, HT⟩
    isplitl [HΦ HT]
    · isplitl [HΦ]; · iexact HΦ
      iexact HT
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_B_4 (F := F) c _ _ _ _ _ _ _ _ _ _ _ _ _ _ _ _ _ _ _ _)
    unfold owns; iexists _; isplitr
    swap; · iexact H5
    ipureintro; exact View.read_writes_of_cover _ _ _ _ _ (cover1_B_5 (F := F) c _ _ _ _ _ _ _ _ _ _ _ _ _ _ _ _ _ _ _ _)

/-- The library's body obligation, at every point. -/
theorem body_obligation1 (c : Dev nD) : BodyObligation (dat1 (F := F) V a c) (defs₀ (F := F)) Variants.none () Set.univ := fun t => by
  rw [bigSep_W1, bigSep_W1]
  exact sound_body1 V a c t

end Cert.KernelIdeal.Hand

end
-- ==== Proof.KI.Run.lean ====
/-
  @main from the launch to the return, as segments: three stretches of host operations and the two kernel
  regions between them.  At every boundary the core's unscoped buffers are held whole at a valuation that is a
  fold from the launch memory: a stretch applies its operations, a region replaces its windows' arrays by what
  its write-backs leave and keeps every other buffer.  Region 1 reads one table, the label vector: it is set
  aside at the region's entry, rides the region's invariant, and is put back at its exit.  The run's post reads
  every unscoped buffer of the final memory at the last valuation.
-/
import proofs.«423842_j58059367907504_3_alg».proof.Proof.KI.R0
import proofs.«423842_j58059367907504_3_alg».proof.Proof.KI.R1
import proofs.«423842_j58059367907504_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first stretch (the three reshapes): region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 winFacts0.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the means): region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- The label table as region 1 finds it. -/
def tbl1 : pre1.Contents (Elt F) := fun k => V3 m ρ (0 : Dev nD) (pre1.ref k)
/-- Its contents are admissible: the region's side condition asks nothing of them. -/
abbrev adm1 : (pcfg1 (F := F)).Adm := ⟨tbl1 m ρ, trivial⟩

theorem V3_pre (c : Dev nD) : (fun k => V3 m ρ c (pre1.ref k)) = (adm1 m ρ).1 := by
  obtain rfl : c = 0 := Subsingleton.elim _ _
  rfl

/-- Region 1's unscoped rest at its entry is the label table, at its admissible contents, beside the remainder. -/
theorem rest1_split (c : Dev nD) :
    (Pipeline.unscopedRest (Ix := Unit) (Name := ℕ) (U := UR sig nD τ) (Lvl := ℕ) spec1 c (V3 m ρ c) : sProp 𝕄)
      = iprop(Pipeline.prefHeld pre1 c (fun _ => fullShare) (adm1 m ρ).1 ∗ Pipeline.unscopedRestP pre1 spec1 c (V3 m ρ c)) := by
  rw [Pipeline.unscopedRest_split preFacts1 c (V3 m ρ c), V3_pre m ρ c]

/-- At region 1's exit. -/
def W4 (c : Dev nD) : Valuation τ sig (Elt F) :=
  Pipeline.withArrays spec1 c (W3 m ρ c) fun w => (dat1 (V3 m ρ) (adm1 m ρ) c).arrAt w (cfg1 (adm1 m ρ)).N
theorem W4_arr (c : Dev nD) (w : Fin (cfg1 (adm1 m ρ)).W) :
    W4 m ρ c (Proc.devRef .tc (Pipeline.arrRef spec1 w)) = (dat1 (V3 m ρ) (adm1 m ρ) c).arrAt w (cfg1 (adm1 m ρ)).N := by
  unfold W4; exact Pipeline.withArrays_arr spec1 winFacts1.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin (cfg1 (adm1 m ρ)).W) :
    (dat1 (V3 m ρ) (adm1 m ρ) c).arrAt w (cfg1 (adm1 m ρ)).N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last stretch (the sum, the quotient, the reshape): the return. -/
abbrev W5 : Dev nD → Valuation τ sig (Elt F) := fun c => StableHlo.after hostOps2 (W4 m ρ c)

/-! ## The proof data family and the thread state -/

/-- The tables' admissible contents, pipeline by pipeline. -/
def adm : (p : Fin 2) → (pcfgs (F := F) p).Adm
  | ⟨0, _⟩ => cfg0.toPCfg_adm
  | ⟨1, _⟩ => adm1 m ρ
  | ⟨_ + 2, h⟩ => absurd h (Nat.not_lt.2 (Nat.le_add_left _ _))

/-- Every pipeline's proof data, each at its region's entry contents. -/
def pdats : (p : Fin 2) → (c : Dev nD) → Dat τ (Elt F) Unit ℕ (UR sig nD τ) ℕ (Pipeline.pin (pcfgs (F := F)) (adm m ρ) p) c
  | ⟨0, _⟩ => fun c => dat0 (V1 m ρ) c
  | ⟨1, _⟩ => fun c => dat1 (V3 m ρ) (adm1 m ρ) c
  | ⟨_ + 2, h⟩ => absurd h (Nat.not_lt.2 (Nat.le_add_left _ _))

abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owes. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0: entered from every unscoped buffer at W1, left at W2. -/
def reg0 : Pipeline.RegionSeg (pcfgs (F := F)) (adm m ρ) (pdats m ρ) () defs₀ 𝒱₀ L lv 0 where
  win := winFacts0.to₀
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) (adm m ρ) (pdats m ρ) winFacts0 arr_whole0 c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m ρ) (Ix := Unit) (Name := ℕ) (U := UR sig nD τ) (Lvl := ℕ)
      winFacts0 arr_whole0 c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at W3, left at W4; the label table set aside at the entry,
    carried by the invariant, put back at the exit. -/
def reg1 : Pipeline.RegionSeg (pcfgs (F := F)) (adm m ρ) (pdats m ρ) () defs₀ 𝒱₀ L lv 1 where
  win := winFacts1.to₀
  block_pos := block_pos1
  stage_whole := stage_whole1
  K := PEmpty
  osem k := k.elim
  ho := Pipeline.OwnSemFacts.none _
  hbody c := (body_obligation1 (V3 m ρ) (adm1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (adm1 m ρ).1)
  Z c := Pipeline.unscopedRestP (Ix := Unit) (Name := ℕ) (U := UR sig nD τ) (Lvl := ℕ) pre1 spec1 c (V3 m ρ c)
  hentry c := by
    rw [Pipeline.ownSems0_none]
    have hsplit := Pipeline.arrays_of_unscopedBufs (p := 1) (pcfgs (F := F)) (adm m ρ) (pdats m ρ) winFacts1 arr_whole1 c
      ((pdats m ρ 1 c).share_full fun _ => rfl) (V3 m ρ c) fun _ => rfl
    rw [Pipeline.unscopedBufs_held] at hsplit
    have hsplit' : StableHlo.held (c : Thread nD τ) (Pipeline.ucRefs τ sig) (W3 m ρ c)
        ⊢ (iprop((pdats m ρ 1 c).arrays ((pdats m ρ 1 c).arrAt · 0)
            ∗ Pipeline.prefHeld pre1 c (fun _ => fullShare) (adm1 m ρ).1 ∗ Pipeline.unscopedRestP pre1 spec1 c (V3 m ρ c)) : sProp 𝕄) := by
      rw [← rest1_split m ρ c]; exact hsplit
    iintro ⟨⟨Hub, Hp, HO⟩, -, -⟩
    ihave H := hsplit' $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = iprop(Pipeline.ΦA spec1 c ∗ Pipeline.prefHeld (Ix := Unit) (Name := ℕ) (U := UR sig nD τ) (Lvl := ℕ) pre1 c (fun _ => fullShare) (adm1 m ρ).1) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m ρ 1 c).Φ (Fin.last _) = iprop(Pipeline.ΦA spec1 c ∗ Pipeline.prefHeld (Ix := Unit) (Name := ℕ) (U := UR sig nD τ) (Lvl := ℕ) pre1 c (fun _ => fullShare) (adm1 m ρ).1) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm m ρ) (Ix := Unit) (Name := ℕ) (U := UR sig nD τ) (Lvl := ℕ)
      winFacts1 arr_whole1 c (pdats m ρ) ((pdats m ρ 1 c).share_full fun _ => rfl)
      (V3 m ρ c) (V4 m ρ c) ((pdats m ρ 1 c).arrAt · (cfg1 (adm1 m ρ)).N) (hF1 m ρ c) (hrest1 m ρ c)
    rw [Pipeline.unscopedBufs_held] at hjoin
    have hjoin' : (iprop((pdats m ρ 1 c).arrays ((pdats m ρ 1 c).arrAt · (cfg1 (adm1 m ρ)).N)
            ∗ Pipeline.prefHeld pre1 c (fun _ => fullShare) (adm1 m ρ).1 ∗ Pipeline.unscopedRestP pre1 spec1 c (V3 m ρ c)) : sProp 𝕄)
        ⊢ StableHlo.held (c : Thread nD τ) (Pipeline.ucRefs τ sig) (W4 m ρ c) := by
      rw [← rest1_split m ρ c]; exact hjoin
    iintro ⟨Ha, HO, ⟨HY, Ht⟩, Hrest⟩
    imodintro
    isplitl [Ha Hrest Ht]
    · iapply hjoin'
      isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

/-! ## @main as segments, and the launch -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- @main's five segments in order. -/
abbrev segs : List (Pipeline.Seg (pcfgs (F := F)) (adm m ρ) (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- THE RUN: every weakly fair execution of @main from memory m with zero counters terminates, nothing faulting,
    and the final memory holds every unscoped buffer at the last valuation W5. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) (adm m ρ) (pdats m ρ) () (cellOf_inj (adm m ρ)) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ)) (cellOf_inj (adm m ρ))) (Pipeline.launchToks (Pipeline.pin (pcfgs (F := F)) (adm m ρ)) (cellOf_inj (adm m ρ))))
    (hu₀ := by
      iintro Hu; imodintro
      isplitl [Hu]
      · iapply (show (ownU (initOf (Pipeline.cells (Pipeline.pin (pcfgs (F := F)) (adm m ρ)) (cellOf_inj (adm m ρ))) (Pipeline.launchToks (Pipeline.pin (pcfgs (F := F)) (adm m ρ)) (cellOf_inj (adm m ρ)))) : sProp 𝕄)
            ⊢ BI.own (emb₁ (initOf (Pipeline.cells (Pipeline.pin (pcfgs (F := F)) (adm m ρ)) (cellOf_inj (adm m ρ))) (Pipeline.launchToks (Pipeline.pin (pcfgs (F := F)) (adm m ρ)) (cellOf_inj (adm m ρ))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄)
        ⊢ iprop(Tₙ m ρ c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## The arguments end as launched -/

/-- A buffer that no stretch writes and that is no window's array of either region reaches the end as launched. -/
theorem W5_of_kept (c : Dev nD) (r : Ref sig .tc) (h0 : r ∉ hostOps0_W) (h1 : r ∉ hostOps1_W) (h2 : r ∉ hostOps2_W)
    (ha0 : ∀ w, Pipeline.arrRef spec0 w ≠ r) (ha1 : ∀ w, Pipeline.arrRef spec1 w ≠ r) :
    W5 m ρ c (Proc.devRef .tc r) = m ((c : Thread nD τ).loc r) :=
  (StableHlo.after_of_writes_sub hostOps2 _ hostOps2_writes h2).trans <|
    (W4_of_ne m ρ c r ha1).trans <|
    (StableHlo.after_of_writes_sub hostOps1 _ hostOps1_writes h1).trans <|
    (W2_of_ne m ρ c r ha0).trans <|
    (StableHlo.after_of_writes_sub hostOps0 _ hostOps0_writes h0).trans rfl

theorem W5_main_arg0 (c : Dev nD) : W5 m ρ c (Proc.devRef .tc main_arg0) = m ((c : Thread nD τ).loc main_arg0) :=
  W5_of_kept m ρ c main_arg0 (by decide) (by decide) (by decide) (by decide) (by decide)
theorem W5_main_arg1 (c : Dev nD) : W5 m ρ c (Proc.devRef .tc main_arg1) = m ((c : Thread nD τ).loc main_arg1) :=
  W5_of_kept m ρ c main_arg1 (by decide) (by decide) (by decide) (by decide) (by decide)
theorem W5_main_arg2 (c : Dev nD) : W5 m ρ c (Proc.devRef .tc main_arg2) = m ((c : Thread nD τ).loc main_arg2) :=
  W5_of_kept m ρ c main_arg2 (by decide) (by decide) (by decide) (by decide) (by decide)
theorem W5_main_arg3 (c : Dev nD) : W5 m ρ c (Proc.devRef .tc main_arg3) = m ((c : Thread nD τ).loc main_arg3) :=
  W5_of_kept m ρ c main_arg3 (by decide) (by decide) (by decide) (by decide) (by decide)

/-- THE FRAME: @main runs to the end, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.KernelIdeal.Hand

end
-- ==== Proof.Spec.lean ====
/-
  The function both programs compute, over the extended reals.

  Inputs: two images `rgb`, `freq` : [32,1,512,512] → EReal, a label word per image, and a segment id word
  per pixel.  With `t = ½·rgb + ½·freq`:
    * `segSum b k` is the sum of `t` over the pixels of image `b` whose id is the word `k`, `segCnt b k` their number;
    * `mean b k = segSum b k / max (segCnt b k) 1`;
    * `tgt` at a pixel is the mean of that pixel's own segment, or 0 where the image's label is 0;
    * `loss = (∑ (rgb - tgt)²) / 2²³ + (∑ (freq - tgt)²) / 2²³`.
  The second half restates the same quantities over the images reshaped to [32,512,512], lane by lane
  (a lane `k : Fin 128` standing for the id word `k`), which is the form a row-chunked accumulation produces.
-/
import Idealize.ShloMosaic.PureOps.Ideal
import Idealize.ShloMosaic.Lib.ValueIdx

noncomputable section

namespace Cert.Spec

open Idealize.ShloMosaic Idealize.ShloMosaic.ValueIdx

abbrev A4 : Shape := ⟨4, ![32, 1, 512, 512]⟩
abbrev A3 : Shape := ⟨3, ![32, 512, 512]⟩
abbrev L32 : Shape := ⟨1, ![32]⟩
abbrev M3 : Shape := ⟨3, ![32, 1, 128]⟩
abbrev P3 : Shape := ⟨3, ![32, 8, 128]⟩
abbrev Sc : Shape := ⟨0, ![]⟩

/-- Pixel (h, w) of image b. -/
abbrev px (b : Fin 32) (h w : Fin 512) : A4.Idx := ix4 b (0 : Fin 1) h w

abbrev half : EReal := Ideal.ofBits .f32 0x3F000000#32
abbrev one : EReal := Ideal.ofBits .f32 0x3F800000#32
abbrev c1024 : EReal := Ideal.ofBits .f32 0x44800000#32
abbrev c2p23 : EReal := Ideal.ofBits .f32 0x4B000000#32

section Whole

variable (rgb freq : A4.Idx → EReal) (lab : L32.Idx → BitVec 32) (spx : A4.Idx → BitVec 32)

/-- The weighted sum of the two views at a pixel. -/
def wsum (i : A4.Idx) : EReal := half * rgb i + half * freq i

/-- The sum of the weighted view over image b's pixels whose segment id is the word k. -/
def segSum (b : Fin 32) (k : BitVec 32) : EReal :=
  ∑ h : Fin 512, ∑ w : Fin 512, if spx (px b h w) = k then wsum rgb freq (px b h w) else 0

/-- The number of image b's pixels whose segment id is the word k. -/
def segCnt (b : Fin 32) (k : BitVec 32) : EReal :=
  ∑ h : Fin 512, ∑ w : Fin 512, if spx (px b h w) = k then 1 else 0

/-- The segment's mean; an empty segment divides by one. -/
def mean (b : Fin 32) (k : BitVec 32) : EReal :=
  Ideal.div (segSum rgb freq spx b k) (max (segCnt spx b k) one)

/-- The target map: each pixel's own segment mean, zero on the images labelled 0. -/
def tgt (i : A4.Idx) : EReal :=
  if lab (ix1 (i 0)) = 0#32 then 0 else mean rgb freq spx (i 0) (spx i)

/-- A view's squared distance to the target at a pixel. -/
def sqd (x : A4.Idx → EReal) (i : A4.Idx) : EReal :=
  (x i - tgt rgb freq lab spx i) * (x i - tgt rgb freq lab spx i)

/-- The two mean squared distances, added. -/
def loss : EReal :=
  Ideal.div (∑ i : A4.Idx, sqd rgb freq lab spx rgb i) c2p23 + Ideal.div (∑ i : A4.Idx, sqd rgb freq lab spx freq i) c2p23

end Whole

section Lanes

variable (r3 f3 : A3.Idx → EReal) (s3 : A3.Idx → BitVec 32)

/-- Lane k of image b's segment sums, over the reshaped images. -/
def sums3 (b : Fin 32) (k : Fin 128) : EReal :=
  ∑ h : Fin 512, ∑ w : Fin 512,
    if s3 (ix3 b h w) = BitVec.ofNat 32 k.val then half * r3 (ix3 b h w) + half * f3 (ix3 b h w) else 0

/-- Lane k of image b's segment counts. -/
def cnts3 (b : Fin 32) (k : Fin 128) : EReal :=
  ∑ h : Fin 512, ∑ w : Fin 512, if s3 (ix3 b h w) = BitVec.ofNat 32 k.val then 1 else 0

variable (mn : M3.Idx → EReal) (lab : L32.Idx → BitVec 32)

/-- The target from a table of lane means: the one-hot contraction over the 128 lanes, zero on images labelled 0. -/
def tgt3 (j : A3.Idx) : EReal :=
  if lab (ix1 (j 0)) = 0#32 then 0
  else ∑ k : Fin 128, mn (ix3 (j 0) (0 : Fin 1) k) * (if s3 j = BitVec.ofNat 32 k.val then 1 else 0)

/-- Both views' squared distances to that target at a pixel, added. -/
def sq3 (j : A3.Idx) : EReal :=
  (r3 j - tgt3 s3 mn lab j) * (r3 j - tgt3 s3 mn lab j) + (f3 j - tgt3 s3 mn lab j) * (f3 j - tgt3 s3 mn lab j)

/-- Row h = 32·cc + r of an image. -/
abbrev row (cc : Fin 16) (r : Fin 32) : Fin 512 := ⟨32 * cc.val + r.val, by have := cc.isLt; have := r.isLt; omega⟩

/-- Image b's accumulated loss share: per chunk of 32 rows the chunk's sum over 1024, the sixteen chunks added. -/
def part3 (b : Fin 32) : EReal :=
  ∑ cc : Fin 16, Ideal.div (∑ r : Fin 32, ∑ w : Fin 512, sq3 r3 f3 s3 mn lab (ix3 b (row cc r) w)) c1024

end Lanes

end Cert.Spec

end
-- ==== Proof.KI.Pay0.lean ====
/-
  Region 0's body read at a lane, over the extended reals.

  The body compares each pixel's segment word with the lane's own word k, turns the comparison into a 0/1
  table, and contracts it (row by row, then over the 32 rows) against the weighted view and against the constant 1.
  Read at lane k this leaves, on top of what the two accumulators held,
    the sum over the block's pixels whose segment word is k of (half * rgb + half * freq), and
    the number of those pixels.
  The steps: a table entry is 1 where the words agree and 0 elsewhere; the re-layings of a block (a unit axis dropped,
  added in the middle or at the end; a column or a lane vector spread over the table) read their operand at the
  evident index; a row's contraction into a zero accumulator is the sum over the row's 512 pixels; the reduction of
  the 32 row results from zero is their sum; multiplying by a table entry keeps the term or kills it.
-/
import proofs.«423842_j58059367907504_3_alg».proof.Proof.Gen.KernelIdeal.Skeleton
import proofs.«423842_j58059367907504_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! ## Words and constants -/

/-- Two words compared for equality, widened and read as a signed integer: 1 where they agree, 0 elsewhere. -/
theorem sitofp_eq_words (x y : BitVec 32) :
    (FloatOps.sitofp (F := Ideal) .f32 ((IntOp.cmpi .eq x y).setWidth 32) : EReal) = if x = y then 1 else 0 := by
  show (((((IntOp.cmpi .eq x y).setWidth 32).toInt : ℝ)) : EReal) = _
  by_cases h : x = y
  · subst h
    rw [if_pos rfl]
    have : (IntOp.cmpi .eq x x).setWidth 32 = 1#32 := by simp [IntOp.cmpi]
    rw [this]
    norm_num
  · rw [if_neg h]
    have hb : (x == y) = false := beq_eq_false_iff_ne.mpr h
    have : (IntOp.cmpi .eq x y).setWidth 32 = 0#32 := by
      show BitVec.setWidth 32 (BitVec.ofBool (x == y)) = 0#32
      rw [hb]; rfl
    rw [this]
    norm_num

/-- The bf16 pattern 0x3F80 is the number one. -/
theorem ofBits_one_bf16 : Ideal.ofBits .bf16 0x3F80#16 = 1 := by
  simp [Ideal.ofBits, Ideal.ieee]
  rw [← EReal.coe_mul]
  norm_num

/-! ## Re-layings read at an index -/

section Layout
variable {α : Type}

/-- An [a, b] array cast to [a, b, 1] reads, at (p, q, u), the operand at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An [a, b] array cast to [a, 1, b] reads, at (p, u, q), the operand at (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An [a, b, 1] array spread over c lanes reads, at (p, q, s), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (s : Fin c) :
    broadcastTo ⟨3, ![a, b, c]⟩ v h (ix3 p q s) = v (ix3 p q (0 : Fin 1)) := by
  refine broadcastTo_apply v h (ix3 p q s) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A [1, 1, c] lane vector spread over an [a, b, c] table reads, at (p, q, s), the operand at (0, 0, s). -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ v h (ix3 p q s) = v (ix3 (0 : Fin 1) (0 : Fin 1) s) := by
  refine broadcastTo_apply v h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

/-- A sum along the leading axis of an [a, b, c] array, from the neutral accumulator, reads at (q, s) as the sum over
    p of the array at (p, q, s). -/
theorem leadSum_abc_apply {a b c : ℕ} {φ : FTy} (v : FVec Ideal ⟨3, ![a, b, c]⟩ φ) (acc : BitVec φ.bits)
    (h : Shape.Reduces ⟨3, ![a, b, c]⟩ [0] ⟨2, ![b, c]⟩) (hφ : FKind.Formats φ) (hacc : acc = FKind.add.neutral φ hφ)
    (q : Fin b) (s : Fin c) :
    multiReduction .add [0] ⟨2, ![b, c]⟩ v acc h hφ hacc (ix2 q s) = ∑ p : Fin a, v (ix3 p q s) := by
  rw [Ideal.multiReduction_add_single]
  refine Finset.sum_congr rfl fun p _ => congrArg v (funext fun ax => Fin.ext ?_)
  match ax with
  | ⟨0, _⟩ => rfl
  | ⟨1, _⟩ => rfl
  | ⟨2, _⟩ => rfl

/-! ## The row-by-row contraction -/

theorem lhs_rows_0 (j : S32x1x128.Idx) (c : dot_S32x1x512_S32x512x128_S32x1x128_2_1_1_2_0_0.contr.Idx) :
    (dot_S32x1x512_S32x512x128_S32x1x128_2_1_1_2_0_0.lhsIdx j c 0).val = (j 0).val := by
  simp [DotDims.lhsIdx, dot_S32x1x512_S32x512x128_S32x1x128_2_1_1_2_0_0]
  rfl

theorem lhs_rows_1 (j : S32x1x128.Idx) (c : dot_S32x1x512_S32x512x128_S32x1x128_2_1_1_2_0_0.contr.Idx) :
    (dot_S32x1x512_S32x512x128_S32x1x128_2_1_1_2_0_0.lhsIdx j c 1).val = (j 1).val := by
  simp [DotDims.lhsIdx, dot_S32x1x512_S32x512x128_S32x1x128_2_1_1_2_0_0]
  exact (Nat.lt_one_iff.mp (j 1).isLt).symm

theorem lhs_rows_2 (j : S32x1x128.Idx) (c : dot_S32x1x512_S32x512x128_S32x1x128_2_1_1_2_0_0.contr.Idx) :
    (dot_S32x1x512_S32x512x128_S32x1x128_2_1_1_2_0_0.lhsIdx j c 2).val = (c ⟨0, by decide⟩).val :=
  dot_S32x1x512_S32x512x128_S32x1x128_2_1_1_2_0_0.lhsIdx_val_of_single rfl j c

theorem rhs_rows_0 (j : S32x1x128.Idx) (c : dot_S32x1x512_S32x512x128_S32x1x128_2_1_1_2_0_0.contr.Idx) :
    (dot_S32x1x512_S32x512x128_S32x1x128_2_1_1_2_0_0.rhsIdx j c 0).val = (j 0).val := by
  simp [DotDims.rhsIdx, dot_S32x1x512_S32x512x128_S32x1x128_2_1_1_2_0_0]
  rfl

theorem rhs_rows_1 (j : S32x1x128.Idx) (c : dot_S32x1x512_S32x512x128_S32x1x128_2_1_1_2_0_0.contr.Idx) :
    (dot_S32x1x512_S32x512x128_S32x1x128_2_1_1_2_0_0.rhsIdx j c 1).val = (c ⟨0, by decide⟩).val :=
  dot_S32x1x512_S32x512x128_S32x1x128_2_1_1_2_0_0.rhsIdx_val_of_single rfl j c

theorem rhs_rows_2 (j : S32x1x128.Idx) (c : dot_S32x1x512_S32x512x128_S32x1x128_2_1_1_2_0_0.contr.Idx) :
    (dot_S32x1x512_S32x512x128_S32x1x128_2_1_1_2_0_0.rhsIdx j c 2).val = (j 2).val := by
  simp [DotDims.rhsIdx, dot_S32x1x512_S32x512x128_S32x1x128_2_1_1_2_0_0]
  rfl

/-- The batched contraction into a zero accumulator, at row r and lane k: the sum over the row's 512 positions of the
    left operand at (r, m, w) times the table at (r, w, k). -/
theorem matmul_rows_apply (A : FVec Ideal S32x1x512 .bf16) (B : FVec Ideal S32x512x128 .bf16)
    (r : Fin 32) (m : Fin 1) (k : Fin 128) :
    matmul dot_S32x1x512_S32x512x128_S32x1x128_2_1_1_2_0_0 none A B
        (constant (F := Ideal) S32x1x128 .f32 0x00000000#32) (ix3 r m k)
      = ∑ w : Fin 512, A (ix3 r m w) * B (ix3 r w k) := by
  show FloatOps.matmul _ none A B _ _ = _
  rw [Ideal.matmul_constant_zero_apply,
    ← Equiv.sum_comp (contrEquiv1 dot_S32x1x512_S32x512x128_S32x1x128_2_1_1_2_0_0 512 rfl rfl).symm]
  refine Finset.sum_congr rfl fun w _ => ?_
  have hc := contrEquiv1_symm_val dot_S32x1x512_S32x512x128_S32x1x128_2_1_1_2_0_0 512 rfl rfl w
  have hl : dot_S32x1x512_S32x512x128_S32x1x128_2_1_1_2_0_0.lhsIdx (ix3 r m k)
      ((contrEquiv1 _ 512 rfl rfl).symm w) = ix3 r m w := by
    funext ax; apply Fin.ext
    match ax with
    | ⟨0, _⟩ => exact lhs_rows_0 _ _
    | ⟨1, _⟩ => exact lhs_rows_1 _ _
    | ⟨2, _⟩ => exact (lhs_rows_2 _ _).trans hc
  have hr : dot_S32x1x512_S32x512x128_S32x1x128_2_1_1_2_0_0.rhsIdx (ix3 r m k)
      ((contrEquiv1 _ 512 rfl rfl).symm w) = ix3 r w k := by
    funext ax; apply Fin.ext
    match ax with
    | ⟨0, _⟩ => exact rhs_rows_0 _ _
    | ⟨1, _⟩ => exact (rhs_rows_1 _ _).trans hc
    | ⟨2, _⟩ => exact rhs_rows_2 _ _
  rw [hl, hr]

/-! ## The table -/

/-- The 0/1 table at row r, position w and lane k: 1 where the pixel's segment word is the lane's word. -/
theorem onehot_apply (x4 : Vec Ideal S1x32x512 .i32) (r : Fin 32) (w : Fin 512) (k : Fin 128) :
    k0_pay4 (F := Ideal) x4 (ix3 r w k) = if x4 (ix3 0 r w) = BitVec.ofNat 32 k.val then 1 else 0 := by
  unfold k0_pay4
  dsimp only
  have e16 : broadcastTo S32x512x128 (shapeCast S32x512x1 (shapeCast S32x512 x4 shapeCasts_S1x32x512_S32x512)
      shapeCasts_S32x512_S32x512x1) broadcasts_S32x512x1_S32x512x128 (ix3 r w k) = x4 (ix3 0 r w) := by
    rw [broadcastTo_ab1_abc_apply, shapeCast_ab_ab1_apply, shapeCast_1ab_ab_apply]
  have e17 : broadcastTo S32x512x128 (iota .tc S1x1x128 32 [2] iota_S1x1x128_d2_w32)
      broadcasts_S1x1x128_S32x512x128 (ix3 r w k) = BitVec.ofNat 32 k.val := by
    rw [broadcastTo_11c_abc_apply, iota_single_apply]
  rw [truncf_apply, sitofp_apply, extui_apply]
  show FloatOps.sitofp (F := Ideal) .f32 ((IntOp.cmpi .eq (broadcastTo S32x512x128 _ _ (ix3 r w k))
      (broadcastTo S32x512x128 _ _ (ix3 r w k))).setWidth 32) = _
  rw [e16, e17]
  exact sitofp_eq_words _ _

/-! ## The payloads at a lane -/

variable (x2 x3 : Vec Ideal S1x32x512 .f32) (x4 : Vec Ideal S1x32x512 .i32) (acc : Vec Ideal S1x1x128 .f32) (k : Fin 128)

/-- The sums accumulator after the body: what it held plus the block's weighted sum over the pixels of lane k's segment. -/
theorem pay6_apply :
    k0_pay6 (F := Ideal) x2 x3 x4 acc (ix3 0 0 k)
      = acc (ix3 0 0 k) + ∑ r : Fin 32, ∑ w : Fin 512,
          if x4 (ix3 0 r w) = BitVec.ofNat 32 k.val then Cert.Spec.half * x2 (ix3 0 r w) + Cert.Spec.half * x3 (ix3 0 r w) else 0 := by
  unfold k0_pay6
  dsimp only
  rw [shapeCast_ab_1ab_apply, addf_apply, shapeCast_1ab_ab_apply]
  refine congrArg (acc (ix3 0 0 k) + ·) ((leadSum_abc_apply _ _ _ _ _ (0 : Fin 1) k).trans (Finset.sum_congr rfl fun r _ => ?_))
  rw [matmul_rows_apply]
  refine Finset.sum_congr rfl fun w _ => ?_
  rw [onehot_apply, shapeCast_ab_a1b_apply, truncf_apply, addf_apply, mulf_apply, mulf_apply,
    shapeCast_1ab_ab_apply, shapeCast_1ab_ab_apply]
  split
  · rw [mul_one]; rfl
  · rw [mul_zero]

/-- The counts accumulator after the body: what it held plus the number of the block's pixels in lane k's segment. -/
theorem pay1_apply :
    k0_pay1 (F := Ideal) (k0_pay5 x4) acc (ix3 0 0 k)
      = acc (ix3 0 0 k) + ∑ r : Fin 32, ∑ w : Fin 512, if x4 (ix3 0 r w) = BitVec.ofNat 32 k.val then 1 else 0 := by
  unfold k0_pay1 k0_pay5
  dsimp only
  rw [shapeCast_ab_1ab_apply, addf_apply, shapeCast_1ab_ab_apply]
  refine congrArg (acc (ix3 0 0 k) + ·) ((leadSum_abc_apply _ _ _ _ _ (0 : Fin 1) k).trans (Finset.sum_congr rfl fun r _ => ?_))
  rw [matmul_rows_apply]
  refine Finset.sum_congr rfl fun w _ => ?_
  rw [onehot_apply, broadcast_apply]
  show Ideal.ofBits .bf16 0x3F80#16 * _ = _
  rw [ofBits_one_bf16, one_mul]

/-- The reset value of the sums accumulator is zero at every lane. -/
theorem pay2_apply : k0_pay2 (F := Ideal) (ix3 0 0 k) = 0 := by
  unfold k0_pay2
  rw [shapeCast_ab_1ab_apply, broadcast_apply]
  exact Ideal.ofBits_zero_f32

/-- The reset value of the counts accumulator is zero at every lane. -/
theorem pay3_apply : k0_pay3 (F := Ideal) (ix3 0 0 k) = 0 := by
  unfold k0_pay3
  rw [shapeCast_ab_1ab_apply, broadcast_apply]
  exact Ideal.ofBits_zero_f32

end Cert.KernelIdeal.Hand

end
-- ==== Proof.KI.Val0.lean ====
/-
  What region 0 leaves in its two output arrays, over the extended reals.

  After the body at grid point t = 16·b + cc the lane sums' buffer holds, lane by lane, the weighted view summed over
  the pixels of the lane's segment in rows 0 .. 32·cc + 31 of image b, and the lane counts' buffer the number of those
  pixels: the first row chunk of an image starts from the zero block, every later one adds its 32 rows to what the
  chunk before left. The image's last chunk is written back, so block b of each array ends at the sum over all 512
  rows, and the sixteen points with cc = 15 cover the arrays.
-/
import proofs.«423842_j58059367907504_3_alg».proof.Proof.KI.R0
import proofs.«423842_j58059367907504_3_alg».proof.Proof.KI.Pay0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.ValueIdx
open Idealize.ShloMosaic.Pipeline (Dat)

/-! ## What each case leaves, as the body's arithmetic -/

section Pieces
variable {F : FTy → Type} [FloatOps F]

theorem zero_offsets3 : (![0, 0, 0] : Fin 3 → Nat) = fun _ => 0 := funext fun a => by fin_cases a <;> rfl

/-- A later row chunk leaves, in the lane sums' buffer holding xo5, the chunk's lane sums added to xo5. -/
theorem out0_B_3_eq (c : Dev nD) (i : grid0.Coords) (arg2 : Memref sig .tc .vmem S1x32x512 .f32) (harg2 : arg2.IsWhole) (arg3 : Memref sig .tc .vmem S1x32x512 .f32) (harg3 : arg3.IsWhole) (arg4 : Memref sig .tc .vmem S1x32x512 .i32) (harg4 : arg4.IsWhole) (arg5 : Memref sig .tc .vmem S1x1x128 .f32) (harg5 : arg5.IsWhole) (arg6 : Memref sig .tc .vmem S1x1x128 .f32) (harg6 : arg6.IsWhole) (hc0 : ¬cond0 i) (x2 : Vec F S1x32x512 .f32) (x3 : Vec F S1x32x512 .f32) (x4 : Vec F S1x32x512 .i32) (xo5 : Vec F S1x1x128 .f32) (xo6 : Vec F S1x1x128 .f32) :
    out0_B_3 c i arg2 harg2 arg3 harg3 arg4 harg4 arg5 harg5 arg6 harg6 hc0 x2 x3 x4 xo5 xo6 = k0_pay6 x2 x3 x4 xo5 := by
  unfold out0_B_3
  rw [View.read_writes_eq_canon _ _ _ (cover0_B_3 c i arg2 harg2 arg3 harg3 arg4 harg4 arg5 harg5 arg6 harg6 hc0 x2 x3 x4 xo5 xo6)]
  unfold kernelRun0_B
  dsimp only
  sl_unfold_words
  rw [View.canon_unit_zero zero_offsets3]
  simp only [View.readAt_eq_ld, harg2.read_unread, harg3.read_unread, harg4.read_unread, harg5.read_unread,
    View.ld_unit_zero (S := S1x32x512) zero_offsets3, View.ld_unit_zero (S := S1x1x128) zero_offsets3]

/-- A later row chunk leaves, in the lane counts' buffer holding xo6, the chunk's lane counts added to xo6. -/
theorem out0_B_4_eq (c : Dev nD) (i : grid0.Coords) (arg2 : Memref sig .tc .vmem S1x32x512 .f32) (harg2 : arg2.IsWhole) (arg3 : Memref sig .tc .vmem S1x32x512 .f32) (harg3 : arg3.IsWhole) (arg4 : Memref sig .tc .vmem S1x32x512 .i32) (harg4 : arg4.IsWhole) (arg5 : Memref sig .tc .vmem S1x1x128 .f32) (harg5 : arg5.IsWhole) (arg6 : Memref sig .tc .vmem S1x1x128 .f32) (harg6 : arg6.IsWhole) (hc0 : ¬cond0 i) (x2 : Vec F S1x32x512 .f32) (x3 : Vec F S1x32x512 .f32) (x4 : Vec F S1x32x512 .i32) (xo5 : Vec F S1x1x128 .f32) (xo6 : Vec F S1x1x128 .f32) :
    out0_B_4 c i arg2 harg2 arg3 harg3 arg4 harg4 arg5 harg5 arg6 harg6 hc0 x2 x3 x4 xo5 xo6 = k0_pay1 (k0_pay5 x4) xo6 := by
  unfold out0_B_4
  rw [View.read_writes_eq_canon _ _ _ (cover0_B_4 c i arg2 harg2 arg3 harg3 arg4 harg4 arg5 harg5 arg6 harg6 hc0 x2 x3 x4 xo5 xo6)]
  unfold kernelRun0_B
  dsimp only
  sl_unfold_words
  rw [View.canon_unit_zero zero_offsets3]
  simp only [View.readAt_eq_ld, harg4.read_unread, harg6.read_unread,
    View.ld_unit_zero (S := S1x32x512) zero_offsets3, View.ld_unit_zero (S := S1x1x128) zero_offsets3]

/-- An image's first row chunk leaves, in the lane sums' buffer, the chunk's lane sums added to the zero block it stored first. -/
theorem out0_A_3_eq (c : Dev nD) (i : grid0.Coords) (arg2 : Memref sig .tc .vmem S1x32x512 .f32) (harg2 : arg2.IsWhole) (arg3 : Memref sig .tc .vmem S1x32x512 .f32) (harg3 : arg3.IsWhole) (arg4 : Memref sig .tc .vmem S1x32x512 .i32) (harg4 : arg4.IsWhole) (arg5 : Memref sig .tc .vmem S1x1x128 .f32) (harg5 : arg5.IsWhole) (arg6 : Memref sig .tc .vmem S1x1x128 .f32) (harg6 : arg6.IsWhole) (hc0 : cond0 i) (x2 : Vec F S1x32x512 .f32) (x3 : Vec F S1x32x512 .f32) (x4 : Vec F S1x32x512 .i32) :
    out0_A_3 c i arg2 harg2 arg3 harg3 arg4 harg4 arg5 harg5 arg6 harg6 hc0 x2 x3 x4 = k0_pay6 x2 x3 x4 (k0_pay2 (F := F)) := by
  unfold out0_A_3
  rw [View.read_writes_eq_canon _ _ _ (cover0_A_3 c i arg2 harg2 arg3 harg3 arg4 harg4 arg5 harg5 arg6 harg6 hc0 x2 x3 x4)]
  unfold kernelRun0_A
  dsimp only
  sl_unfold_words
  rw [View.canon_cons_unit_zero (S := S1x1x128) zero_offsets3, View.readCov_unit_zero (S := S1x1x128) _ zero_offsets3]
  simp only [View.readAt_eq_ld, harg2.read_unread, harg3.read_unread, harg4.read_unread,
    View.ld_unit_zero (S := S1x32x512) zero_offsets3, View.ld_unit_zero (S := S1x1x128) zero_offsets3]

/-- An image's first row chunk leaves, in the lane counts' buffer, the chunk's lane counts added to the zero block it stored first. -/
theorem out0_A_4_eq (c : Dev nD) (i : grid0.Coords) (arg2 : Memref sig .tc .vmem S1x32x512 .f32) (harg2 : arg2.IsWhole) (arg3 : Memref sig .tc .vmem S1x32x512 .f32) (harg3 : arg3.IsWhole) (arg4 : Memref sig .tc .vmem S1x32x512 .i32) (harg4 : arg4.IsWhole) (arg5 : Memref sig .tc .vmem S1x1x128 .f32) (harg5 : arg5.IsWhole) (arg6 : Memref sig .tc .vmem S1x1x128 .f32) (harg6 : arg6.IsWhole) (hc0 : cond0 i) (x2 : Vec F S1x32x512 .f32) (x3 : Vec F S1x32x512 .f32) (x4 : Vec F S1x32x512 .i32) :
    out0_A_4 c i arg2 harg2 arg3 harg3 arg4 harg4 arg5 harg5 arg6 harg6 hc0 x2 x3 x4 = k0_pay1 (k0_pay5 x4) (k0_pay3 (F := F)) := by
  unfold out0_A_4
  rw [View.read_writes_eq_canon _ _ _ (cover0_A_4 c i arg2 harg2 arg3 harg3 arg4 harg4 arg5 harg5 arg6 harg6 hc0 x2 x3 x4)]
  unfold kernelRun0_A
  dsimp only
  sl_unfold_words
  rw [View.canon_cons_unit_zero (S := S1x1x128) zero_offsets3, View.readCov_unit_zero (S := S1x1x128) _ zero_offsets3]
  simp only [View.readAt_eq_ld, harg4.read_unread,
    View.ld_unit_zero (S := S1x32x512) zero_offsets3, View.ld_unit_zero (S := S1x1x128) zero_offsets3]

end Pieces

/-! ## Sums over the first rows of an image -/

/-- The sum of g over the rows h < m (rows past the image count nothing). -/
def rowsTo (g : Fin 512 → EReal) (m : ℕ) : EReal :=
  ∑ h ∈ Finset.range m, if hh : h < 512 then g ⟨h, hh⟩ else 0

theorem rowsTo_zero (g : Fin 512 → EReal) : rowsTo g 0 = 0 := Finset.sum_range_zero _

/-- One more chunk of 32 rows. -/
theorem rowsTo_chunk (g : Fin 512 → EReal) (cc : Fin 16) :
    rowsTo g (32 * cc.val + 32) = rowsTo g (32 * cc.val) + ∑ r : Fin 32, g (Cert.Spec.row cc r) := by
  unfold rowsTo
  rw [Finset.sum_range_add]
  refine congrArg (_ + ·) ?_
  rw [Finset.sum_range]
  refine Finset.sum_congr rfl fun r _ => ?_
  have hr : 32 * cc.val + r.val < 512 := by have := cc.isLt; have := r.isLt; omega
  rw [dif_pos hr]

/-- All sixteen chunks: the sum over the image's rows. -/
theorem rowsTo_full (g : Fin 512 → EReal) : rowsTo g 512 = ∑ h : Fin 512, g h := by
  unfold rowsTo
  rw [Finset.sum_range]
  exact Finset.sum_congr rfl fun h _ => by rw [dif_pos h.isLt]

section Rows
variable (r3 f3 : Cert.Spec.A3.Idx → EReal) (s3 : Cert.Spec.A3.Idx → BitVec 32)

/-- Row h of image b at lane k: the weighted view summed over the row's pixels of the lane's segment. -/
def sumRow (b : Fin 32) (k : Fin 128) (h : Fin 512) : EReal :=
  ∑ w : Fin 512, if s3 (ix3 b h w) = BitVec.ofNat 32 k.val then Cert.Spec.half * r3 (ix3 b h w) + Cert.Spec.half * f3 (ix3 b h w) else 0

/-- Row h of image b at lane k: the number of the row's pixels of the lane's segment. -/
def cntRow (b : Fin 32) (k : Fin 128) (h : Fin 512) : EReal :=
  ∑ w : Fin 512, if s3 (ix3 b h w) = BitVec.ofNat 32 k.val then 1 else 0

theorem sums3_eq_rowsTo (b : Fin 32) (k : Fin 128) : Cert.Spec.sums3 r3 f3 s3 b k = rowsTo (sumRow r3 f3 s3 b k) 512 :=
  (rowsTo_full _).symm

theorem cnts3_eq_rowsTo (b : Fin 32) (k : Fin 128) : Cert.Spec.cnts3 s3 b k = rowsTo (cntRow s3 b k) 512 :=
  (rowsTo_full _).symm

/-- One point's step for the lane sums: blocks that are rows 32·cc .. 32·cc + 31 of image b, over an accumulator that
    holds the rows before them, leave the rows up to the chunk's last. -/
theorem sums_step (x2 x3 : Vec Ideal S1x32x512 .f32) (x4 : Vec Ideal S1x32x512 .i32) (acc : Vec Ideal S1x1x128 .f32)
    (b : Fin 32) (cc : Fin 16) (k : Fin 128)
    (h2 : ∀ (r : Fin 32) (w : Fin 512), x2 (ix3 0 r w) = r3 (ix3 b (Cert.Spec.row cc r) w))
    (h3 : ∀ (r : Fin 32) (w : Fin 512), x3 (ix3 0 r w) = f3 (ix3 b (Cert.Spec.row cc r) w))
    (h4 : ∀ (r : Fin 32) (w : Fin 512), x4 (ix3 0 r w) = s3 (ix3 b (Cert.Spec.row cc r) w))
    (hacc : acc (ix3 0 0 k) = rowsTo (sumRow r3 f3 s3 b k) (32 * cc.val)) :
    k0_pay6 (F := Ideal) x2 x3 x4 acc (ix3 0 0 k) = rowsTo (sumRow r3 f3 s3 b k) (32 * cc.val + 32) := by
  rw [pay6_apply, hacc, rowsTo_chunk]
  refine congrArg (_ + ·) (Finset.sum_congr rfl fun r _ => ?_)
  unfold sumRow
  exact Finset.sum_congr rfl fun w _ => by rw [h2, h3, h4]

/-- One point's step for the lane counts. -/
theorem cnts_step (x4 : Vec Ideal S1x32x512 .i32) (acc : Vec Ideal S1x1x128 .f32)
    (b : Fin 32) (cc : Fin 16) (k : Fin 128)
    (h4 : ∀ (r : Fin 32) (w : Fin 512), x4 (ix3 0 r w) = s3 (ix3 b (Cert.Spec.row cc r) w))
    (hacc : acc (ix3 0 0 k) = rowsTo (cntRow s3 b k) (32 * cc.val)) :
    k0_pay1 (F := Ideal) (k0_pay5 x4) acc (ix3 0 0 k) = rowsTo (cntRow s3 b k) (32 * cc.val + 32) := by
  rw [pay1_apply, hacc, rowsTo_chunk]
  refine congrArg (_ + ·) (Finset.sum_congr rfl fun r _ => ?_)
  unfold cntRow
  exact Finset.sum_congr rfl fun w _ => by rw [h4]

end Rows

/-! ## The blocks of a point -/

/-- The printed index maps over the 512 points: an input block is chunk t % 16 of image t / 16, an output block is
    block t / 16. -/
theorem index_facts0 : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = t.val % 16 ∧ win0_1.index t (2 : Fin 3) = 0
    ∧ win0_2.index t (0 : Fin 3) = t.val / 16 ∧ win0_2.index t (1 : Fin 3) = t.val % 16 ∧ win0_2.index t (2 : Fin 3) = 0
    ∧ win0_3.index t (0 : Fin 3) = t.val / 16 ∧ win0_3.index t (1 : Fin 3) = 0 ∧ win0_3.index t (2 : Fin 3) = 0
    ∧ win0_4.index t (0 : Fin 3) = t.val / 16 ∧ win0_4.index t (1 : Fin 3) = 0 ∧ win0_4.index t (2 : Fin 3) = 0 :=
  (by decide +kernel : ∀ t : Fin grid0.N, _)

section Region
variable (V : (c : Dev nD) → (b : Ref sig .tc) → Buf (Elt Ideal) ((c : Thread nD τ).loc b))

/-- The three input arrays as the region finds them, at their literal types. -/
abbrev rgb3 (c : Dev nD) : Cert.Spec.A3.Idx → EReal := V c main_v0
abbrev freq3 (c : Dev nD) : Cert.Spec.A3.Idx → EReal := V c main_v1
abbrev spx3 (c : Dev nD) : Cert.Spec.A3.Idx → BitVec 32 := V c main_v2

/-- Window 0's block at point 16·b + cc is rows 32·cc .. 32·cc + 31 of image b of the first view. -/
theorem iblk0_0_apply (c : Dev nD) (t : Fin cfg0.N) (b : Fin 32) (cc : Fin 16) (ht : t.val = 16 * b.val + cc.val)
    (r : Fin 32) (w : Fin 512) :
    (iblk0 V c 0 t : Vec Ideal S1x32x512 .f32) (ix3 0 r w) = rgb3 V c (ix3 b (Cert.Spec.row cc r) w) := by
  obtain ⟨e0, e1, e2, -⟩ := index_facts0 t
  unfold iblk0
  rw [View.read_apply]
  show V c main_v0 _ = V c main_v0 _
  congr 1
  funext a; apply Fin.ext
  match a with
  | ⟨0, _⟩ => show win0_0.index t (0 : Fin 3) * 1 + 1 * 0 = b.val; have := cc.isLt; omega
  | ⟨1, _⟩ => show win0_0.index t (1 : Fin 3) * 32 + 1 * r.val = 32 * cc.val + r.val; have := cc.isLt; omega
  | ⟨2, _⟩ => show win0_0.index t (2 : Fin 3) * 512 + 1 * w.val = w.val; omega

/-- Window 1's block at point 16·b + cc is the same rows of the second view. -/
theorem iblk0_1_apply (c : Dev nD) (t : Fin cfg0.N) (b : Fin 32) (cc : Fin 16) (ht : t.val = 16 * b.val + cc.val)
    (r : Fin 32) (w : Fin 512) :
    (iblk0 V c 1 t : Vec Ideal S1x32x512 .f32) (ix3 0 r w) = freq3 V c (ix3 b (Cert.Spec.row cc r) w) := by
  obtain ⟨-, -, -, e0, e1, e2, -⟩ := index_facts0 t
  unfold iblk0
  rw [View.read_apply]
  show V c main_v1 _ = V c main_v1 _
  congr 1
  funext a; apply Fin.ext
  match a with
  | ⟨0, _⟩ => show win0_1.index t (0 : Fin 3) * 1 + 1 * 0 = b.val; have := cc.isLt; omega
  | ⟨1, _⟩ => show win0_1.index t (1 : Fin 3) * 32 + 1 * r.val = 32 * cc.val + r.val; have := cc.isLt; omega
  | ⟨2, _⟩ => show win0_1.index t (2 : Fin 3) * 512 + 1 * w.val = w.val; omega

/-- Window 2's block at point 16·b + cc is the same rows of the segment ids. -/
theorem iblk0_2_apply (c : Dev nD) (t : Fin cfg0.N) (b : Fin 32) (cc : Fin 16) (ht : t.val = 16 * b.val + cc.val)
    (r : Fin 32) (w : Fin 512) :
    (iblk0 V c 2 t : Vec Ideal S1x32x512 .i32) (ix3 0 r w) = spx3 V c (ix3 b (Cert.Spec.row cc r) w) := by
  obtain ⟨-, -, -, -, -, -, e0, e1, e2, -⟩ := index_facts0 t
  unfold iblk0
  rw [View.read_apply]
  show V c main_v2 _ = V c main_v2 _
  congr 1
  funext a; apply Fin.ext
  match a with
  | ⟨0, _⟩ => show win0_2.index t (0 : Fin 3) * 1 + 1 * 0 = b.val; have := cc.isLt; omega
  | ⟨1, _⟩ => show win0_2.index t (1 : Fin 3) * 32 + 1 * r.val = 32 * cc.val + r.val; have := cc.isLt; omega
  | ⟨2, _⟩ => show win0_2.index t (2 : Fin 3) * 512 + 1 * w.val = w.val; omega

/-! ## The accumulation in closed form -/

/-- After point 16·b + cc the lane sums' buffer holds, at lane k, rows 0 .. 32·cc + 31 of image b: by induction on the
    point, a first chunk from the zero block, a later one from what the point before left. -/
theorem sumsAt_eq (c : Dev nD) (k : Fin 128) : ∀ (n : ℕ) (h : n < cfg0.N) (b : Fin 32) (cc : Fin 16), n = 16 * b.val + cc.val →
    (outsAt0 V c n h).1 (ix3 0 0 k) = rowsTo (sumRow (rgb3 V c) (freq3 V c) (spx3 V c) b k) (32 * cc.val + 32)
  | 0, h, b, cc, hn => by
    have hcc : cc.val = 0 := by omega
    have e := congrArg Prod.fst (outsAt0_A V c ⟨0, h⟩ rfl)
    dsimp only at e
    rw [e, out0_A_3_eq]
    refine sums_step (rgb3 V c) (freq3 V c) (spx3 V c) _ _ _ _ b cc k (iblk0_0_apply V c ⟨0, h⟩ b cc hn)
      (iblk0_1_apply V c ⟨0, h⟩ b cc hn) (iblk0_2_apply V c ⟨0, h⟩ b cc hn) ?_
    rw [pay2_apply, hcc]
    exact (rowsTo_zero _).symm
  | n + 1, h, b, cc, hn => by
    by_cases h0 : (n + 1) % 16 = 0
    · have hcc : cc.val = 0 := by have := cc.isLt; omega
      have e := congrArg Prod.fst (outsAt0_A V c ⟨n + 1, h⟩ h0)
      dsimp only at e
      rw [e, out0_A_3_eq]
      refine sums_step (rgb3 V c) (freq3 V c) (spx3 V c) _ _ _ _ b cc k (iblk0_0_apply V c ⟨n + 1, h⟩ b cc hn)
        (iblk0_1_apply V c ⟨n + 1, h⟩ b cc hn) (iblk0_2_apply V c ⟨n + 1, h⟩ b cc hn) ?_
      rw [pay2_apply, hcc]
      exact (rowsTo_zero _).symm
    · have hcc : cc.val ≠ 0 := by have := cc.isLt; omega
      have e := congrArg Prod.fst (outsAt0_B V c ⟨n + 1, h⟩ h0)
      dsimp only at e
      rw [e, out0_B_3_eq]
      refine sums_step (rgb3 V c) (freq3 V c) (spx3 V c) _ _ _ _ b cc k (iblk0_0_apply V c ⟨n + 1, h⟩ b cc hn)
        (iblk0_1_apply V c ⟨n + 1, h⟩ b cc hn) (iblk0_2_apply V c ⟨n + 1, h⟩ b cc hn) ?_
      have ih := sumsAt_eq c k n (Nat.lt_of_succ_lt h) b ⟨cc.val - 1, by have := cc.isLt; omega⟩ (by dsimp only; omega)
      rw [show 32 * cc.val = 32 * (cc.val - 1) + 32 by omega]
      exact ih

/-- The same for the lane counts' buffer. -/
theorem cntsAt_eq (c : Dev nD) (k : Fin 128) : ∀ (n : ℕ) (h : n < cfg0.N) (b : Fin 32) (cc : Fin 16), n = 16 * b.val + cc.val →
    (outsAt0 V c n h).2 (ix3 0 0 k) = rowsTo (cntRow (spx3 V c) b k) (32 * cc.val + 32)
  | 0, h, b, cc, hn => by
    have hcc : cc.val = 0 := by omega
    have e := congrArg Prod.snd (outsAt0_A V c ⟨0, h⟩ rfl)
    dsimp only at e
    rw [e, out0_A_4_eq]
    refine cnts_step (spx3 V c) _ _ b cc k (iblk0_2_apply V c ⟨0, h⟩ b cc hn) ?_
    rw [pay3_apply, hcc]
    exact (rowsTo_zero _).symm
  | n + 1, h, b, cc, hn => by
    by_cases h0 : (n + 1) % 16 = 0
    · have hcc : cc.val = 0 := by have := cc.isLt; omega
      have e := congrArg Prod.snd (outsAt0_A V c ⟨n + 1, h⟩ h0)
      dsimp only at e
      rw [e, out0_A_4_eq]
      refine cnts_step (spx3 V c) _ _ b cc k (iblk0_2_apply V c ⟨n + 1, h⟩ b cc hn) ?_
      rw [pay3_apply, hcc]
      exact (rowsTo_zero _).symm
    · have hcc : cc.val ≠ 0 := by have := cc.isLt; omega
      have e := congrArg Prod.snd (outsAt0_B V c ⟨n + 1, h⟩ h0)
      dsimp only at e
      rw [e, out0_B_4_eq]
      refine cnts_step (spx3 V c) _ _ b cc k (iblk0_2_apply V c ⟨n + 1, h⟩ b cc hn) ?_
      have ih := cntsAt_eq c k n (Nat.lt_of_succ_lt h) b ⟨cc.val - 1, by have := cc.isLt; omega⟩ (by dsimp only; omega)
      rw [show 32 * cc.val = 32 * (cc.val - 1) + 32 by omega]
      exact ih

/-! ## The arrays when the region ends -/

/-- The lane sums' array: block b holds image b's segment sums. -/
abbrev sumsArr (c : Dev nD) : S32x1x128.Idx → EReal :=
  fun i => Cert.Spec.sums3 (rgb3 V c) (freq3 V c) (spx3 V c) (i 0) (i 2)

/-- The lane counts' array: block b holds image b's segment counts. -/
abbrev cntsArr (c : Dev nD) : S32x1x128.Idx → EReal :=
  fun i => Cert.Spec.cnts3 (spx3 V c) (i 0) (i 2)

/-- What an image's last row chunk writes back is the image's block of the lane sums. -/
theorem flushed0_3_eq (c : Dev nD) (t : Fin cfg0.N) (hf : (cfg0.win 3).flush t = true) :
    (dat0 V c).flushed 3 t = ((cfg0.win 3).blk t).view.read (Elt Ideal) (sumsArr V c) := by
  have h15 : t.val % 16 = 15 := (flush0_3 t).mp hf
  have hN : t.val < 512 := lt_of_lt_of_eq t.isLt (show cfg0.N = 512 from N_0)
  obtain ⟨-, -, -, -, -, -, -, -, -, e0, e1, e2, -⟩ := index_facts0 t
  show (cfg0.win 3).cut (grid0.coords t) ((dat0 V c).after 3 t) = _
  rw [after0_3]
  funext y
  have y0 : (y 0).val < 1 := (y 0).isLt
  have y1 : (y 1).val < 1 := (y 1).isLt
  have y2 : (y 2).val < 128 := (y 2).isLt
  refine Eq.trans (b := (outsAt0 V c t.val t.isLt).1 (ix3 0 0 ⟨(y 2).val, y2⟩))
    (congrArg (outsAt0 V c t.val t.isLt).1 (funext fun a => Fin.ext ?_)) ?_
  · match a with
    | ⟨0, _⟩ => show (y 0).val = 0; omega
    | ⟨1, _⟩ => show (y 1).val = 0; omega
    | ⟨2, _⟩ => rfl
  · rw [View.read_apply, sumsAt_eq V c ⟨(y 2).val, y2⟩ t.val t.isLt ⟨t.val / 16, by omega⟩ ⟨15, by decide⟩ (by dsimp only; omega)]
    show rowsTo _ 512 = Cert.Spec.sums3 _ _ _ ((((cfg0.win 3).blk t).view.emb y) 0) ((((cfg0.win 3).blk t).view.emb y) 2)
    rw [← sums3_eq_rowsTo]
    congr 1 <;> apply Fin.ext
    · show t.val / 16 = win0_3.index t (0 : Fin 3) * 1 + 1 * (y 0).val; omega
    · show (y 2).val = win0_3.index t (2 : Fin 3) * 128 + 1 * (y 2).val; omega

/-- What an image's last row chunk writes back is the image's block of the lane counts. -/
theorem flushed0_4_eq (c : Dev nD) (t : Fin cfg0.N) (hf : (cfg0.win 4).flush t = true) :
    (dat0 V c).flushed 4 t = ((cfg0.win 4).blk t).view.read (Elt Ideal) (cntsArr V c) := by
  have h15 : t.val % 16 = 15 := (flush0_4 t).mp hf
  have hN : t.val < 512 := lt_of_lt_of_eq t.isLt (show cfg0.N = 512 from N_0)
  obtain ⟨-, -, -, -, -, -, -, -, -, -, -, -, e0, e1, e2⟩ := index_facts0 t
  show (cfg0.win 4).cut (grid0.coords t) ((dat0 V c).after 4 t) = _
  rw [after0_4]
  funext y
  have y0 : (y 0).val < 1 := (y 0).isLt
  have y1 : (y 1).val < 1 := (y 1).isLt
  have y2 : (y 2).val < 128 := (y 2).isLt
  refine Eq.trans (b := (outsAt0 V c t.val t.isLt).2 (ix3 0 0 ⟨(y 2).val, y2⟩))
    (congrArg (outsAt0 V c t.val t.isLt).2 (funext fun a => Fin.ext ?_)) ?_
  · match a with
    | ⟨0, _⟩ => show (y 0).val = 0; omega
    | ⟨1, _⟩ => show (y 1).val = 0; omega
    | ⟨2, _⟩ => rfl
  · rw [View.read_apply, cntsAt_eq V c ⟨(y 2).val, y2⟩ t.val t.isLt ⟨t.val / 16, by omega⟩ ⟨15, by decide⟩ (by dsimp only; omega)]
    show rowsTo _ 512 = Cert.Spec.cnts3 _ ((((cfg0.win 4).blk t).view.emb y) 0) ((((cfg0.win 4).blk t).view.emb y) 2)
    rw [← cnts3_eq_rowsTo]
    congr 1 <;> apply Fin.ext
    · show t.val / 16 = win0_4.index t (0 : Fin 3) * 1 + 1 * (y 0).val; omega
    · show (y 2).val = win0_4.index t (2 : Fin 3) * 128 + 1 * (y 2).val; omega

/-- The point that writes image b's block back: the image's last row chunk. -/
abbrev lastPoint (b : Fin 32) : Fin cfg0.N :=
  ⟨16 * b.val + 15, by rw [show cfg0.N = 512 from N_0]; have := b.isLt; omega⟩

/-- The lane sums' array ends at the segment sums: every block is written back by its image's last chunk. -/
theorem arr0_3 (c : Dev nD) : (dat0 V c).arrAt 3 cfg0.N = sumsArr V c :=
  (dat0 V c).arrAt_eq_of_cover 3 (sumsArr V c) (flushed0_3_eq V c) fun i => by
    have i0 : (i 0).val < 32 := (i 0).isLt
    have i1 : (i 1).val < 1 := (i 1).isLt
    have i2 : (i 2).val < 128 := (i 2).isLt
    refine ⟨lastPoint ⟨(i 0).val, i0⟩, (flush0_3 _).mpr (by dsimp only; omega), ?_⟩
    obtain ⟨-, -, -, -, -, -, -, -, -, e0, e1, e2, -⟩ := index_facts0 (lastPoint ⟨(i 0).val, i0⟩)
    dsimp only at e0
    show i ∈ ((View.whole main_v3_0).slice (win0_3.rect (lastPoint ⟨(i 0).val, i0⟩))).set
    rw [View.set_slice_whole, Rect.mem_set_unit]
    intro a
    match a with
    | ⟨0, _⟩ =>
      show win0_3.index (lastPoint ⟨(i 0).val, i0⟩) (0 : Fin 3) * 1 ≤ (i 0).val ∧ (i 0).val < win0_3.index (lastPoint ⟨(i 0).val, i0⟩) (0 : Fin 3) * 1 + 1
      omega
    | ⟨1, _⟩ =>
      show win0_3.index (lastPoint ⟨(i 0).val, i0⟩) (1 : Fin 3) * 1 ≤ (i 1).val ∧ (i 1).val < win0_3.index (lastPoint ⟨(i 0).val, i0⟩) (1 : Fin 3) * 1 + 1
      omega
    | ⟨2, _⟩ =>
      show win0_3.index (lastPoint ⟨(i 0).val, i0⟩) (2 : Fin 3) * 128 ≤ (i 2).val ∧ (i 2).val < win0_3.index (lastPoint ⟨(i 0).val, i0⟩) (2 : Fin 3) * 128 + 128
      omega

/-- The lane counts' array ends at the segment counts. -/
theorem arr0_4 (c : Dev nD) : (dat0 V c).arrAt 4 cfg0.N = cntsArr V c :=
  (dat0 V c).arrAt_eq_of_cover 4 (cntsArr V c) (flushed0_4_eq V c) fun i => by
    have i0 : (i 0).val < 32 := (i 0).isLt
    have i1 : (i 1).val < 1 := (i 1).isLt
    have i2 : (i 2).val < 128 := (i 2).isLt
    refine ⟨lastPoint ⟨(i 0).val, i0⟩, (flush0_4 _).mpr (by dsimp only; omega), ?_⟩
    obtain ⟨-, -, -, -, -, -, -, -, -, -, -, -, e0, e1, e2⟩ := index_facts0 (lastPoint ⟨(i 0).val, i0⟩)
    dsimp only at e0
    show i ∈ ((View.whole main_v3_1).slice (win0_4.rect (lastPoint ⟨(i 0).val, i0⟩))).set
    rw [View.set_slice_whole, Rect.mem_set_unit]
    intro a
    match a with
    | ⟨0, _⟩ =>
      show win0_4.index (lastPoint ⟨(i 0).val, i0⟩) (0 : Fin 3) * 1 ≤ (i 0).val ∧ (i 0).val < win0_4.index (lastPoint ⟨(i 0).val, i0⟩) (0 : Fin 3) * 1 + 1
      omega
    | ⟨1, _⟩ =>
      show win0_4.index (lastPoint ⟨(i 0).val, i0⟩) (1 : Fin 3) * 1 ≤ (i 1).val ∧ (i 1).val < win0_4.index (lastPoint ⟨(i 0).val, i0⟩) (1 : Fin 3) * 1 + 1
      omega
    | ⟨2, _⟩ =>
      show win0_4.index (lastPoint ⟨(i 0).val, i0⟩) (2 : Fin 3) * 128 ≤ (i 2).val ∧ (i 2).val < win0_4.index (lastPoint ⟨(i 0).val, i0⟩) (2 : Fin 3) * 128 + 128
      omega

/-- When the region ends the lane sums' array holds, at block b and lane k, image b's sum over the lane's segment. -/
theorem final0_3 (c : Dev nD) (b : Fin 32) (k : Fin 128) :
    (dat0 (F := Ideal) V c).arrAt 3 cfg0.N (ix3 b 0 k) = Cert.Spec.sums3 (V c main_v0) (V c main_v1) (V c main_v2) b k :=
  congrFun (arr0_3 V c) (ix3 b 0 k)

/-- When the region ends the lane counts' array holds, at block b and lane k, the size of image b's segment of the lane. -/
theorem final0_4 (c : Dev nD) (b : Fin 32) (k : Fin 128) :
    (dat0 (F := Ideal) V c).arrAt 4 cfg0.N (ix3 b 0 k) = Cert.Spec.cnts3 (V c main_v2) b k :=
  congrFun (arr0_4 V c) (ix3 b 0 k)

end Region

end Cert.KernelIdeal.Hand

end
-- ==== Proof.LibKeepdimsColumn.lean ====
/-
  A sum over the last axis kept as a column (jnp.sum(x, axis=1, keepdims=True)), read at an index.

  A lane sum of an [a, b] array along its second axis leaves an [a] vector; keepdims casts it to an [a, 1] column,
  which is then broadcast over b columns, or (on the host) transposed to a [1, a] row. Each of these re-layings reads its
  operand at the evident index, for any extents a and b:
    the lane sum at row p is the sum over the row,
    the [a] vector cast to [a, 1], at (i, u), is the vector at i,
    the [a, 1] column broadcast to [a, b], at (p, c), is the column at row p,
    the [a, 1] column transposed to [1, a], at (u, i), is the column at row i.
-/
import Idealize.ShloMosaic.Lib.Pipeline.Value
import Idealize.ShloMosaic.Lib.ValueIdx
import Idealize.ShloMosaic.PureOps.Ideal.Laws

noncomputable section

namespace Idealize.ShloMosaic.KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1]` column transposed to a `[1, a]` row reads, at `(u, i)`, the column at row `i`. -/
theorem transpose_a1_1a_apply {a : ℕ} (x : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] x h (ix2 u i) = x (ix2 i u) :=
  transpose_apply _ x h _ _ fun c => match c with | ⟨0, _⟩ => rfl | ⟨1, _⟩ => rfl

/-- On the extended reals a lane sum of an `[a, b]` array along its second axis, from the neutral accumulator, reads at
    row `p` as the sum over `d` of the array at `(p, d)`. -/
theorem laneSum_ab_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ d : Fin b, v (ix2 p d) := by
  rw [Ideal.multiReduction_add_single]
  refine Finset.sum_congr rfl fun d _ => congrArg v (funext fun c => Fin.ext ?_)
  match c with
  | ⟨0, _⟩ => rfl
  | ⟨1, _⟩ => rfl

end Idealize.ShloMosaic.KeepdimsColumn

end
-- ==== Proof.KI.Pay1.lean ====
/-
  The second region's body arithmetic read at an index, over the extended reals.

  The body takes a block of 32 rows of segment ids, the image's table of 128 lane means, the image's label word and the
  same rows of the two views. Its target at a pixel is the one-hot contraction of the lane means against the pixel's id
  (a product of a [32,1,128] stack by a [32,128,512] stack, matrix by matrix), or zero when the label word is zero; its
  contribution to the loss accumulator is the rows' total of both views' squared distances to that target, over 1024,
  added to every entry of the [1,8,128] accumulator block.
-/
import proofs.«423842_j58059367907504_3_alg».proof.Proof.Gen.KernelIdeal.Skeleton
import proofs.«423842_j58059367907504_3_alg».proof.Proof.Spec
import proofs.«423842_j58059367907504_3_alg».proof.Proof.LibKeepdimsColumn
import Idealize.ShloMosaic.Lib.ValueLayout
import Idealize.ShloMosaic.PureOps.Ideal.Laws

noncomputable section

namespace Cert.KernelIdeal.Hand

namespace Reg1

open Idealize.ShloMosaic Cert.KernelIdeal Cert.KernelIdeal.Gen Idealize.ShloMosaic.ValueIdx

/-! ## The product of the two stacks at an index -/

/-- The stack product's left index at result index (r, u, w) and contracted coordinate c is (r, u, c). -/
theorem stack_lhsIdx (r : Fin 32) (u : Fin 1) (w : Fin 512) (c : Fin 128) :
    dot_S32x1x128_S32x128x512_S32x1x512_2_1_1_2_0_0.lhsIdx (ix3 r u w)
      ((contrEquiv1 dot_S32x1x128_S32x128x512_S32x1x512_2_1_1_2_0_0 128 rfl rfl).symm c) = ix3 r u c := by
  have c3 := contrEquiv1_symm_val dot_S32x1x128_S32x128x512_S32x1x512_2_1_1_2_0_0 128 rfl rfl c
  funext ax; apply Fin.ext
  match ax with
  | ⟨0, _⟩ => simp [DotDims.lhsIdx, dot_S32x1x128_S32x128x512_S32x1x512_2_1_1_2_0_0]; rfl
  | ⟨1, _⟩ => simp [DotDims.lhsIdx, dot_S32x1x128_S32x128x512_S32x1x512_2_1_1_2_0_0]
  | ⟨2, _⟩ => simp [DotDims.lhsIdx, dot_S32x1x128_S32x128x512_S32x1x512_2_1_1_2_0_0]; exact c3

/-- Its right index there is (r, c, w). -/
theorem stack_rhsIdx (r : Fin 32) (u : Fin 1) (w : Fin 512) (c : Fin 128) :
    dot_S32x1x128_S32x128x512_S32x1x512_2_1_1_2_0_0.rhsIdx (ix3 r u w)
      ((contrEquiv1 dot_S32x1x128_S32x128x512_S32x1x512_2_1_1_2_0_0 128 rfl rfl).symm c) = ix3 r c w := by
  have c3 := contrEquiv1_symm_val dot_S32x1x128_S32x128x512_S32x1x512_2_1_1_2_0_0 128 rfl rfl c
  funext ax; apply Fin.ext
  match ax with
  | ⟨0, _⟩ => simp [DotDims.rhsIdx, dot_S32x1x128_S32x128x512_S32x1x512_2_1_1_2_0_0]; rfl
  | ⟨1, _⟩ => simp [DotDims.rhsIdx, dot_S32x1x128_S32x128x512_S32x1x512_2_1_1_2_0_0]; exact c3
  | ⟨2, _⟩ => simp [DotDims.rhsIdx, dot_S32x1x128_S32x128x512_S32x1x512_2_1_1_2_0_0]; rfl

/-- The product of a [32,1,128] stack by a [32,128,512] stack into a zero accumulator, at (r, u, w): the sum over the
    128 contracted coordinates of the two members' entries' products. -/
theorem stack_matmul_apply {φ₁ φ₂ : FTy} (A : FVec Ideal S32x1x128 φ₁) (B : FVec Ideal S32x128x512 φ₂)
    (r : Fin 32) (u : Fin 1) (w : Fin 512) :
    matmul dot_S32x1x128_S32x128x512_S32x1x512_2_1_1_2_0_0 none A B (constant (F := Ideal) S32x1x512 .f32 0x00000000#32) (ix3 r u w)
      = ∑ c : Fin 128, A (ix3 r u c) * B (ix3 r c w) := by
  show FloatOps.matmul dot_S32x1x128_S32x128x512_S32x1x512_2_1_1_2_0_0 none A B _ (ix3 r u w) = _
  rw [Ideal.matmul_constant_zero_apply,
    ← Equiv.sum_comp (contrEquiv1 dot_S32x1x128_S32x128x512_S32x1x512_2_1_1_2_0_0 128 rfl rfl).symm]
  refine Finset.sum_congr rfl fun c _ => ?_
  rw [stack_lhsIdx, stack_rhsIdx]

/-! ## The words of the body -/

/-- The equality bit of two id words, widened to a word and converted, is the extended real 1 or 0. -/
theorem onehot_entry (a b : BitVec 32) :
    (FloatOps.sitofp (F := Ideal) .f32 ((IntOp.cmpi .eq a b).setWidth 32) : EReal) = if a = b then 1 else 0 := by
  by_cases h : a = b
  · have e : (IntOp.cmpi .eq a b).setWidth 32 = 1#32 := by subst h; simp [IntOp.cmpi]
    rw [e, if_pos h]
    show ((((1#32 : BitVec 32).toInt : ℤ) : ℝ) : EReal) = 1
    rw [show (1#32 : BitVec 32).toInt = 1 from by decide]
    simp
  · have hne : (a == b) = false := by simpa using h
    have e : (IntOp.cmpi .eq a b).setWidth 32 = 0#32 := by simp [IntOp.cmpi, hne]
    rw [e, if_neg h]
    show ((((0#32 : BitVec 32).toInt : ℤ) : ℝ) : EReal) = 0
    rw [show (0#32 : BitVec 32).toInt = 0 from by decide]
    simp

/-- A one-hot array built from two word arrays, at an index where the two words are known. -/
theorem onehot_words_apply {s : Shape} (a b : IVec s 32) (h1 : 1 < 32) (h2 : FTy.bits .bf16 < FTy.bits .f32) (i : s.Idx)
    (p q : BitVec 32) (ha : a i = p) (hb : b i = q) :
    (truncf .bf16 (sitofp (F := Ideal) .f32 (extui 32 (cmpi .eq a b) h1)) h2 : FVec Ideal s .bf16) i
      = if p = q then 1 else 0 := by
  rw [← ha, ← hb]
  exact onehot_entry (a i) (b i)

/-- A sum along the first axis of an [a, 1] column, from the neutral accumulator, is the sum of the column. -/
theorem colSum_a1_apply {a : ℕ} {φ : FTy} (v : FVec Ideal ⟨2, ![a, 1]⟩ φ) (acc : BitVec φ.bits)
    (h : Shape.Reduces ⟨2, ![a, 1]⟩ [0] ⟨1, ![1]⟩) (hφ : FKind.Formats φ) (hacc : acc = FKind.add.neutral φ hφ) (u : Fin 1) :
    multiReduction .add [0] ⟨1, ![1]⟩ v acc h hφ hacc (ValueIdx.ix1 u) = ∑ p : Fin a, v (ix2 p u) := by
  rw [Ideal.multiReduction_add_single]
  refine Finset.sum_congr rfl fun d _ => congrArg v (funext fun c => Fin.ext ?_)
  match c with
  | ⟨0, _⟩ => rfl
  | ⟨1, _⟩ => rfl

/-! ## The target -/

variable (x3 : Vec Ideal S1x32x512 .i32) (x4 : Vec Ideal S1x1x128 .f32) (lbl : BitVec 32)
  (x5 x6 : Vec Ideal S1x32x512 .f32) (acc : Vec Ideal S1x8x128 .f32)

/-- The selected target, as a [32,512] array, at (r, w). -/
theorem k1_pay3_apply (r : Fin 32) (w : Fin 512) :
    k1_pay3 (F := Ideal) x3 x4 lbl (ix2 r w)
      = if lbl = 0#32 then 0
        else ∑ k : Fin 128, x4 (ix3 0 0 k) * (if x3 (ix3 0 r w) = BitVec.ofNat 32 k.val then 1 else 0) := by
  unfold k1_pay3
  dsimp only
  by_cases h : lbl = 0#32
  · subst h
    rw [if_pos rfl, show Scalar.cmpi .ne (0#32) 0#32 = 0#1 from by decide, select_zero]
    exact Ideal.ofBits_zero_f32
  · have hb : Scalar.cmpi .ne lbl 0#32 = 1#1 := by
      have hne : (lbl != 0#32) = true := by simpa using h
      unfold Scalar.cmpi IntOp.cmpi
      simp [hne]
    rw [if_neg h, hb, select_one]
    refine (shapeCast_apply _ _ (ix2 r w) (ix3 r (0 : Fin 1) w) ?_).trans ?_
    · rw [Shape.rowMajor_val_three, Shape.rowMajor_val_two]
      show (r.val * 1 + 0) * 512 + w.val = r.val * 512 + w.val
      omega
    refine (stack_matmul_apply _ _ r 0 w).trans (Finset.sum_congr rfl fun k _ => ?_)
    congr 1
    · -- the lane means, repeated over the 32 rows
      refine (truncf_apply (φ := .f32) (ψ := .bf16) _ _ _).trans ?_
      refine (broadcastTo_apply _ _ (ix3 r (0 : Fin 1) k) (ix3 (0 : Fin 1) (0 : Fin 1) k) ?_).trans ?_
      · intro a
        match a with
        | ⟨0, _⟩ => rfl
        | ⟨1, _⟩ => rfl
        | ⟨2, _⟩ => rfl
      rw [shapeCast_self, shapeCast_shapeCast]
    · -- the one-hot of the pixel's id against the lane number
      refine onehot_words_apply _ _ _ _ _ _ _ ?_ ?_
      · refine (broadcastTo_apply _ _ (ix3 r k w) (ix3 r (0 : Fin 1) w) ?_).trans ?_
        · intro a
          match a with
          | ⟨0, _⟩ => rfl
          | ⟨1, _⟩ => rfl
          | ⟨2, _⟩ => rfl
        refine (shapeCast_apply _ _ (ix3 r (0 : Fin 1) w) (ix2 r w) ?_).trans ?_
        · rw [Shape.rowMajor_val_three, Shape.rowMajor_val_two]
          show r.val * 512 + w.val = (r.val * 1 + 0) * 512 + w.val
          omega
        exact shapeCast_1ab_ab_apply _ _ r w
      · refine (broadcastTo_apply _ _ (ix3 r k w) (ix3 (0 : Fin 1) k (0 : Fin 1)) ?_).trans ?_
        · intro a
          match a with
          | ⟨0, _⟩ => rfl
          | ⟨1, _⟩ => rfl
          | ⟨2, _⟩ => rfl
        exact iota_single_apply .tc S1x128x1 32 1 _ _

/-- The stored target block at (0, r, w) is the [32,512] target at (r, w). -/
theorem k1_pay4_eq_pay3 (r : Fin 32) (w : Fin 512) :
    k1_pay4 (F := Ideal) x3 x4 lbl (ix3 0 r w) = k1_pay3 (F := Ideal) x3 x4 lbl (ix2 r w) := by
  unfold k1_pay4
  exact shapeCast_ab_1ab_apply _ _ 0 r w

/-- The target block the body stores: the one-hot contraction of the lane means against the pixel's id, zero when the
    label word is zero. -/
theorem k1_pay4_apply (r : Fin 32) (w : Fin 512) :
    k1_pay4 (F := Ideal) x3 x4 lbl (ix3 0 r w)
      = if lbl = 0#32 then 0
        else ∑ k : Fin 128, x4 (ix3 0 0 k) * (if x3 (ix3 0 r w) = BitVec.ofNat 32 k.val then 1 else 0) :=
  (k1_pay4_eq_pay3 x3 x4 lbl r w).trans (k1_pay3_apply x3 x4 lbl r w)

/-! ## The loss accumulator -/

/-- The first view's squared distance to the target at (r, w). -/
theorem k1_pay5_apply (r : Fin 32) (w : Fin 512) :
    k1_pay5 (F := Ideal) x3 x4 lbl x5 (ix2 r w)
      = (x5 (ix3 0 r w) - k1_pay4 x3 x4 lbl (ix3 0 r w)) * (x5 (ix3 0 r w) - k1_pay4 x3 x4 lbl (ix3 0 r w)) := by
  unfold k1_pay5
  show (shapeCast S32x512 x5 _ (ix2 r w) - k1_pay3 x3 x4 lbl (ix2 r w))
      * (shapeCast S32x512 x5 _ (ix2 r w) - k1_pay3 x3 x4 lbl (ix2 r w)) = _
  rw [shapeCast_1ab_ab_apply, k1_pay4_eq_pay3]

/-- The second view's distance to the target at (r, w). -/
theorem k1_pay6_apply (r : Fin 32) (w : Fin 512) :
    k1_pay6 (F := Ideal) x3 x4 lbl x6 (ix2 r w) = x6 (ix3 0 r w) - k1_pay4 x3 x4 lbl (ix3 0 r w) := by
  unfold k1_pay6
  show shapeCast S32x512 x6 _ (ix2 r w) - k1_pay3 x3 x4 lbl (ix2 r w) = _
  rw [shapeCast_1ab_ab_apply, k1_pay4_eq_pay3]

/-- The accumulator block the body stores: every entry gains the block's total of both views' squared distances to
    the target, over 1024. -/
theorem k1_pay1_apply (i : Fin 8) (j : Fin 128) :
    k1_pay1 (F := Ideal) (k1_pay5 x3 x4 lbl x5) (k1_pay6 x3 x4 lbl x6) acc (ix3 0 i j)
      = acc (ix3 0 i j) + Ideal.div (∑ r : Fin 32, ∑ w : Fin 512,
          ((x5 (ix3 0 r w) - k1_pay4 x3 x4 lbl (ix3 0 r w)) * (x5 (ix3 0 r w) - k1_pay4 x3 x4 lbl (ix3 0 r w))
            + (x6 (ix3 0 r w) - k1_pay4 x3 x4 lbl (ix3 0 r w)) * (x6 (ix3 0 r w) - k1_pay4 x3 x4 lbl (ix3 0 r w))))
          Cert.Spec.c1024 := by
  unfold k1_pay1
  dsimp only
  refine (shapeCast_ab_1ab_apply _ _ 0 i j).trans ?_
  refine (addf_apply _ _ _).trans ?_
  congr 1
  · exact shapeCast_1ab_ab_apply _ _ i j
  · refine (broadcastTo_apply _ _ (ix2 i j) (ix2 (0 : Fin 1) (0 : Fin 1)) ?_).trans ?_
    · intro a
      match a with
      | ⟨0, _⟩ => rfl
      | ⟨1, _⟩ => rfl
    refine (congrFun (shapeCast_self _ _) _).trans ?_
    refine (divf_apply _ _ _).trans ?_
    congr 1
    refine (shapeCast_a_1a_apply _ _ 0 0).trans ?_
    refine (colSum_a1_apply _ _ _ _ _ 0).trans (Finset.sum_congr rfl fun r _ => ?_)
    refine (KeepdimsColumn.shapeCast_a_a1_apply _ _ r 0).trans ?_
    refine (KeepdimsColumn.laneSum_ab_apply _ _ _ _ _ r).trans (Finset.sum_congr rfl fun w _ => ?_)
    show k1_pay5 (F := Ideal) x3 x4 lbl x5 (ix2 r w)
        + k1_pay6 (F := Ideal) x3 x4 lbl x6 (ix2 r w) * k1_pay6 (F := Ideal) x3 x4 lbl x6 (ix2 r w) = _
    rw [k1_pay5_apply, k1_pay6_apply]

/-- The block the reset stores is zero. -/
theorem k1_pay2_apply (i : Fin 8) (j : Fin 128) : k1_pay2 (F := Ideal) (ix3 0 i j) = 0 := by
  unfold k1_pay2
  refine (shapeCast_ab_1ab_apply _ _ 0 i j).trans ?_
  exact Ideal.ofBits_zero_f32

end Reg1

end Cert.KernelIdeal.Hand

end
-- ==== Proof.KI.Val1.lean ====
/-
  The value leg of the second region over the extended reals: what its two output arrays hold when it ends.

  Each case of the body leaves in the target block's buffer the one-hot contraction of the lane means against the
  block's ids (zero under a zero label), and in the loss accumulator's buffer the reset or carried block plus the
  chunk's share, the block's total of both views' squared distances to that target over 1024. By induction on the
  point the accumulator after chunk cc of image b holds, in every entry, the shares of chunks 0 … cc added up. The
  target block is written back at every point and the blocks tile the [32,512,512] map; the accumulator is written
  back after an image's last chunk, when it holds the image's sixteen shares.
-/
import proofs.«423842_j58059367907504_3_alg».proof.Proof.KI.R1
import proofs.«423842_j58059367907504_3_alg».proof.Proof.KI.Pay1
import Idealize.ShloMosaic.Lib.Pipeline.Value

set_option maxRecDepth 16384

noncomputable section

namespace Cert.KernelIdeal.Hand

namespace Reg1

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Payloads
variable {F : FTy → Type} [FloatOps F]

/-! ## What each case leaves in the two outputs' buffers, as payloads -/

theorem hz3 : (![0, 0, 0] : Fin 3 → Nat) = fun _ => 0 := funext fun a => by fin_cases a <;> rfl

/-- A later chunk's target block: the body's one covering store's payload, on the blocks and the label word it loaded. -/
theorem out1_B_4_eq (c : Dev nD) (i : grid1.Coords) (arg3 : Memref sig .tc .vmem S1x32x512 .i32) (harg3 : arg3.IsWhole) (arg4 : Memref sig .tc .vmem S1x1x128 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x32x512 .f32) (harg7 : arg7.IsWhole) (arg8 : Memref sig .tc .vmem S1x8x128 .f32) (harg8 : arg8.IsWhole) (hc : ¬cond1 i)
    (x3 : Vec F S1x32x512 .i32) (x4 : Vec F S1x1x128 .f32) (x5 : Vec F S1x32x512 .f32) (x6 : Vec F S1x32x512 .f32) (tb : TbBuf1 (F := F) c) (xo8 : Vec F S1x8x128 .f32) :
    out1_B_4 c i arg3 harg3 arg4 harg4 arg5 harg5 arg6 harg6 arg7 harg7 arg8 harg8 hc x3 x4 x5 x6 tb xo8 = k1_pay4 x3 x4 (lblAt1 c tb i) := by
  unfold out1_B_4
  rw [View.read_writes_eq_canon _ _ _ (cover1_B_4 c i arg3 harg3 arg4 harg4 arg5 harg5 arg6 harg6 arg7 harg7 arg8 harg8 hc x3 x4 x5 x6 tb xo8)]
  unfold kernelRun1_B
  dsimp only
  sl_unfold_words
  rw [View.canon_unit_zero hz3]
  simp only [View.readAt_eq_ld, harg3.read_unread, harg4.read_unread, View.ld_unit_zero (S := S1x32x512) hz3,
    View.ld_unit_zero (S := S1x1x128) hz3]
  rfl

/-- A later chunk's accumulator block: the carried block plus the chunk's share. -/
theorem out1_B_5_eq (c : Dev nD) (i : grid1.Coords) (arg3 : Memref sig .tc .vmem S1x32x512 .i32) (harg3 : arg3.IsWhole) (arg4 : Memref sig .tc .vmem S1x1x128 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x32x512 .f32) (harg7 : arg7.IsWhole) (arg8 : Memref sig .tc .vmem S1x8x128 .f32) (harg8 : arg8.IsWhole) (hc : ¬cond1 i)
    (x3 : Vec F S1x32x512 .i32) (x4 : Vec F S1x1x128 .f32) (x5 : Vec F S1x32x512 .f32) (x6 : Vec F S1x32x512 .f32) (tb : TbBuf1 (F := F) c) (xo8 : Vec F S1x8x128 .f32) :
    out1_B_5 c i arg3 harg3 arg4 harg4 arg5 harg5 arg6 harg6 arg7 harg7 arg8 harg8 hc x3 x4 x5 x6 tb xo8
      = k1_pay1 (k1_pay5 x3 x4 (lblAt1 c tb i) x5) (k1_pay6 x3 x4 (lblAt1 c tb i) x6) xo8 := by
  unfold out1_B_5
  rw [View.read_writes_eq_canon _ _ _ (cover1_B_5 c i arg3 harg3 arg4 harg4 arg5 harg5 arg6 harg6 arg7 harg7 arg8 harg8 hc x3 x4 x5 x6 tb xo8)]
  unfold kernelRun1_B
  dsimp only
  sl_unfold_words
  rw [View.canon_unit_zero hz3]
  simp only [View.readAt_eq_ld, harg3.read_unread, harg4.read_unread, harg5.read_unread, harg6.read_unread,
    harg8.read_unread, View.ld_unit_zero (S := S1x32x512) hz3, View.ld_unit_zero (S := S1x1x128) hz3,
    View.ld_unit_zero (S := S1x8x128) hz3]
  rfl

/-- A first chunk's target block. -/
theorem out1_A_4_eq (c : Dev nD) (i : grid1.Coords) (arg3 : Memref sig .tc .vmem S1x32x512 .i32) (harg3 : arg3.IsWhole) (arg4 : Memref sig .tc .vmem S1x1x128 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x32x512 .f32) (harg7 : arg7.IsWhole) (arg8 : Memref sig .tc .vmem S1x8x128 .f32) (harg8 : arg8.IsWhole) (hc : cond1 i)
    (x3 : Vec F S1x32x512 .i32) (x4 : Vec F S1x1x128 .f32) (x5 : Vec F S1x32x512 .f32) (x6 : Vec F S1x32x512 .f32) (tb : TbBuf1 (F := F) c) :
    out1_A_4 c i arg3 harg3 arg4 harg4 arg5 harg5 arg6 harg6 arg7 harg7 arg8 harg8 hc x3 x4 x5 x6 tb = k1_pay4 x3 x4 (lblAt1 c tb i) := by
  unfold out1_A_4
  rw [View.read_writes_eq_canon _ _ _ (cover1_A_4 c i arg3 harg3 arg4 harg4 arg5 harg5 arg6 harg6 arg7 harg7 arg8 harg8 hc x3 x4 x5 x6 tb)]
  unfold kernelRun1_A
  dsimp only
  sl_unfold_words
  rw [View.canon_unit_zero hz3]
  simp only [View.readAt_eq_ld, harg3.read_unread, harg4.read_unread, View.ld_unit_zero (S := S1x32x512) hz3,
    View.ld_unit_zero (S := S1x1x128) hz3]
  rfl

/-- A first chunk's accumulator block: the reset block, read back, plus the chunk's share. -/
theorem out1_A_5_eq (c : Dev nD) (i : grid1.Coords) (arg3 : Memref sig .tc .vmem S1x32x512 .i32) (harg3 : arg3.IsWhole) (arg4 : Memref sig .tc .vmem S1x1x128 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x32x512 .f32) (harg7 : arg7.IsWhole) (arg8 : Memref sig .tc .vmem S1x8x128 .f32) (harg8 : arg8.IsWhole) (hc : cond1 i)
    (x3 : Vec F S1x32x512 .i32) (x4 : Vec F S1x1x128 .f32) (x5 : Vec F S1x32x512 .f32) (x6 : Vec F S1x32x512 .f32) (tb : TbBuf1 (F := F) c) :
    out1_A_5 c i arg3 harg3 arg4 harg4 arg5 harg5 arg6 harg6 arg7 harg7 arg8 harg8 hc x3 x4 x5 x6 tb
      = k1_pay1 (k1_pay5 x3 x4 (lblAt1 c tb i) x5) (k1_pay6 x3 x4 (lblAt1 c tb i) x6) k1_pay2 := by
  unfold out1_A_5
  rw [View.read_writes_eq_canon _ _ _ (cover1_A_5 c i arg3 harg3 arg4 harg4 arg5 harg5 arg6 harg6 arg7 harg7 arg8 harg8 hc x3 x4 x5 x6 tb)]
  unfold kernelRun1_A
  dsimp only
  sl_unfold_words
  rw [View.canon_cons_unit_zero (S := S1x8x128) hz3, View.readCov_unit_zero (S := S1x8x128) _ hz3]
  simp only [View.readAt_eq_ld, harg3.read_unread, harg4.read_unread, harg5.read_unread, harg6.read_unread,
    View.ld_unit_zero (S := S1x32x512) hz3, View.ld_unit_zero (S := S1x1x128) hz3]
  rfl

end Payloads

/-! ## The body's values against the specification, block by block -/

section Point

open Cert.Spec (A3 M3 L32)

variable (x3 : Vec Ideal S1x32x512 .i32) (x4 : Vec Ideal S1x1x128 .f32) (lbl : BitVec 32)
  (x5 x6 : Vec Ideal S1x32x512 .f32)

/-- A chunk's share of the loss from the body's blocks: the block's total of both views' squared distances to the
    target, over 1024. -/
def chunkShare : EReal :=
  Ideal.div (∑ r : Fin 32, ∑ w : Fin 512,
    ((x5 (ix3 0 r w) - k1_pay4 x3 x4 lbl (ix3 0 r w)) * (x5 (ix3 0 r w) - k1_pay4 x3 x4 lbl (ix3 0 r w))
      + (x6 (ix3 0 r w) - k1_pay4 x3 x4 lbl (ix3 0 r w)) * (x6 (ix3 0 r w) - k1_pay4 x3 x4 lbl (ix3 0 r w))))
    Cert.Spec.c1024

/-- The accumulator block a later chunk stores: the carried entry plus the chunk's share. -/
theorem acc_later (acc : Vec Ideal S1x8x128 .f32) (i : Fin 8) (j : Fin 128) :
    k1_pay1 (F := Ideal) (k1_pay5 x3 x4 lbl x5) (k1_pay6 x3 x4 lbl x6) acc (ix3 0 i j)
      = acc (ix3 0 i j) + chunkShare x3 x4 lbl x5 x6 :=
  k1_pay1_apply x3 x4 lbl x5 x6 acc i j

/-- The accumulator block a first chunk stores: the chunk's share. -/
theorem acc_first (i : Fin 8) (j : Fin 128) :
    k1_pay1 (F := Ideal) (k1_pay5 x3 x4 lbl x5) (k1_pay6 x3 x4 lbl x6) (k1_pay2 (F := Ideal)) (ix3 0 i j)
      = chunkShare x3 x4 lbl x5 x6 := by
  rw [acc_later, k1_pay2_apply, zero_add]

variable (R3 F3 : A3.Idx → EReal) (S3 : A3.Idx → BitVec 32) (MN : M3.Idx → EReal) (lab : L32.Idx → BitVec 32)

/-- Where the id block is rows of image b's ids, the means block image b's lane means and the label word image b's
    label, the body's target at a pixel is the specification's. -/
theorem tgt_point (b : Fin 32) (h : Fin 512) (r : Fin 32) (w : Fin 512)
    (h3 : x3 (ix3 0 r w) = S3 (ix3 b h w)) (h4 : ∀ k : Fin 128, x4 (ix3 0 0 k) = MN (ix3 b (0 : Fin 1) k))
    (hl : lbl = lab (ValueIdx.ix1 b)) :
    k1_pay4 (F := Ideal) x3 x4 lbl (ix3 0 r w) = Cert.Spec.tgt3 S3 MN lab (ix3 b h w) := by
  rw [k1_pay4_apply, h3, hl]
  unfold Cert.Spec.tgt3
  simp only [h4]

/-- And the chunk's share is the specification's chunk term. -/
theorem share_point (b : Fin 32) (cc : Fin 16)
    (h3 : ∀ (r : Fin 32) (w : Fin 512), x3 (ix3 0 r w) = S3 (ix3 b (Cert.Spec.row cc r) w))
    (h4 : ∀ k : Fin 128, x4 (ix3 0 0 k) = MN (ix3 b (0 : Fin 1) k))
    (h5 : ∀ (r : Fin 32) (w : Fin 512), x5 (ix3 0 r w) = R3 (ix3 b (Cert.Spec.row cc r) w))
    (h6 : ∀ (r : Fin 32) (w : Fin 512), x6 (ix3 0 r w) = F3 (ix3 b (Cert.Spec.row cc r) w))
    (hl : lbl = lab (ValueIdx.ix1 b)) :
    chunkShare x3 x4 lbl x5 x6
      = Ideal.div (∑ r : Fin 32, ∑ w : Fin 512, Cert.Spec.sq3 R3 F3 S3 MN lab (ix3 b (Cert.Spec.row cc r) w)) Cert.Spec.c1024 := by
  unfold chunkShare
  congr 1
  refine Finset.sum_congr rfl fun r _ => Finset.sum_congr rfl fun w _ => ?_
  rw [tgt_point x3 x4 lbl S3 MN lab b (Cert.Spec.row cc r) r w (h3 r w) h4 hl, h5, h6]
  rfl

end Point

/-! ## The blocks the body reads, off the arrays as the region finds them -/

section Region

open Cert.Spec (A3 M3 P3 L32)

variable (V : (c : Dev nD) → (b : Ref sig .tc) → Buf (Elt Ideal) ((c : Thread nD τ).loc b)) (a : (pcfg1 (F := Ideal)).Adm)
  (c : Dev nD)

/-- The printed index maps in closed form, decided over the grid: point t = 16·b + cc reads and writes the row blocks at
    (b, cc, 0) and the per-image blocks at (b, 0, 0); its image coordinate is b. -/
theorem idx_facts1 : ∀ t : Fin grid1.N,
    (cc1_transform_0 (grid1.coords t) 0 = t.val / 16 ∧ cc1_transform_0 (grid1.coords t) 1 = t.val % 16 ∧ cc1_transform_0 (grid1.coords t) 2 = 0) ∧ (cc1_transform_1 (grid1.coords t) 0 = t.val / 16 ∧ cc1_transform_1 (grid1.coords t) 1 = 0 ∧ cc1_transform_1 (grid1.coords t) 2 = 0) ∧ (cc1_transform_2 (grid1.coords t) 0 = t.val / 16 ∧ cc1_transform_2 (grid1.coords t) 1 = t.val % 16 ∧ cc1_transform_2 (grid1.coords t) 2 = 0) ∧ (cc1_transform_3 (grid1.coords t) 0 = t.val / 16 ∧ cc1_transform_3 (grid1.coords t) 1 = t.val % 16 ∧ cc1_transform_3 (grid1.coords t) 2 = 0)
    ∧ (cc1_transform_4 (grid1.coords t) 0 = t.val / 16 ∧ cc1_transform_4 (grid1.coords t) 1 = t.val % 16 ∧ cc1_transform_4 (grid1.coords t) 2 = 0) ∧ (cc1_transform_5 (grid1.coords t) 0 = t.val / 16 ∧ cc1_transform_5 (grid1.coords t) 1 = 0 ∧ cc1_transform_5 (grid1.coords t) 2 = 0) ∧ (grid1.coords t 0).val = t.val / 16 := by
  decide +kernel

/-- The id block at point 16·b + cc is rows 32·cc … 32·cc + 31 of image b's ids. -/
theorem blk_ids (t : Fin (cfg1 a).N) (b : Fin 32) (cc : Fin 16) (ht : t.val = 16 * b.val + cc.val) (r : Fin 32) (w : Fin 512) :
    (iblk1 V a c 0 t : Vec Ideal S1x32x512 .i32) (ix3 0 r w) = (V c main_v2 : A3.Idx → BitVec 32) (ix3 b (Cert.Spec.row cc r) w) := by
  obtain ⟨e0, e1, e2⟩ := (idx_facts1 t).1
  unfold iblk1
  show V c main_v2 ((((cfg1 a).win 0).blk t).view.emb (ix3 0 r w)) = V c main_v2 _
  congr 1
  funext ax; apply Fin.ext
  match ax with
  | ⟨0, _⟩ => show cc1_transform_0 (grid1.coords t) 0 * 1 + 1 * 0 = b.val; rw [e0]; omega
  | ⟨1, _⟩ => show cc1_transform_0 (grid1.coords t) 1 * 32 + 1 * r.val = 32 * cc.val + r.val; rw [e1]; omega
  | ⟨2, _⟩ => show cc1_transform_0 (grid1.coords t) 2 * 512 + 1 * w.val = w.val; rw [e2]; omega

/-- The first view's block there is the same rows of image b's first view. -/
theorem blk_rgb (t : Fin (cfg1 a).N) (b : Fin 32) (cc : Fin 16) (ht : t.val = 16 * b.val + cc.val) (r : Fin 32) (w : Fin 512) :
    (iblk1 V a c 2 t : Vec Ideal S1x32x512 .f32) (ix3 0 r w) = (V c main_v0 : A3.Idx → EReal) (ix3 b (Cert.Spec.row cc r) w) := by
  obtain ⟨e0, e1, e2⟩ := (idx_facts1 t).2.2.1
  unfold iblk1
  show V c main_v0 ((((cfg1 a).win 2).blk t).view.emb (ix3 0 r w)) = V c main_v0 _
  congr 1
  funext ax; apply Fin.ext
  match ax with
  | ⟨0, _⟩ => show cc1_transform_2 (grid1.coords t) 0 * 1 + 1 * 0 = b.val; rw [e0]; omega
  | ⟨1, _⟩ => show cc1_transform_2 (grid1.coords t) 1 * 32 + 1 * r.val = 32 * cc.val + r.val; rw [e1]; omega
  | ⟨2, _⟩ => show cc1_transform_2 (grid1.coords t) 2 * 512 + 1 * w.val = w.val; rw [e2]; omega

/-- The second view's block there is the same rows of image b's second view. -/
theorem blk_freq (t : Fin (cfg1 a).N) (b : Fin 32) (cc : Fin 16) (ht : t.val = 16 * b.val + cc.val) (r : Fin 32) (w : Fin 512) :
    (iblk1 V a c 3 t : Vec Ideal S1x32x512 .f32) (ix3 0 r w) = (V c main_v1 : A3.Idx → EReal) (ix3 b (Cert.Spec.row cc r) w) := by
  obtain ⟨e0, e1, e2⟩ := (idx_facts1 t).2.2.2.1
  unfold iblk1
  show V c main_v1 ((((cfg1 a).win 3).blk t).view.emb (ix3 0 r w)) = V c main_v1 _
  congr 1
  funext ax; apply Fin.ext
  match ax with
  | ⟨0, _⟩ => show cc1_transform_3 (grid1.coords t) 0 * 1 + 1 * 0 = b.val; rw [e0]; omega
  | ⟨1, _⟩ => show cc1_transform_3 (grid1.coords t) 1 * 32 + 1 * r.val = 32 * cc.val + r.val; rw [e1]; omega
  | ⟨2, _⟩ => show cc1_transform_3 (grid1.coords t) 2 * 512 + 1 * w.val = w.val; rw [e2]; omega

/-- The means block there is image b's lane means. -/
theorem blk_means (t : Fin (cfg1 a).N) (b : Fin 32) (cc : Fin 16) (ht : t.val = 16 * b.val + cc.val) (k : Fin 128) :
    (iblk1 V a c 1 t : Vec Ideal S1x1x128 .f32) (ix3 0 0 k) = (V c main_v6 : M3.Idx → EReal) (ix3 b (0 : Fin 1) k) := by
  obtain ⟨e0, e1, e2⟩ := (idx_facts1 t).2.1
  unfold iblk1
  show V c main_v6 ((((cfg1 a).win 1).blk t).view.emb (ix3 0 0 k)) = V c main_v6 _
  congr 1
  funext ax; apply Fin.ext
  match ax with
  | ⟨0, _⟩ => show cc1_transform_1 (grid1.coords t) 0 * 1 + 1 * 0 = b.val; rw [e0]; omega
  | ⟨1, _⟩ => show cc1_transform_1 (grid1.coords t) 1 * 1 + 1 * 0 = 0; rw [e1]
  | ⟨2, _⟩ => show cc1_transform_1 (grid1.coords t) 2 * 128 + 1 * k.val = k.val; rw [e2]; omega

/-- The label word the body loads there is image b's label. -/
theorem lbl_point (t : Fin (cfg1 a).N) (b : Fin 32) (cc : Fin 16) (ht : t.val = 16 * b.val + cc.val) :
    lblAt1 c (a.1 0) (grid1.coords t) = (a.1 0 : L32.Idx → BitVec 32) (ValueIdx.ix1 b) := by
  refine (lblAt1_eq c (a.1 0) (grid1.coords t)).trans ?_
  refine congrArg _ (funext fun d => ?_)
  match d with
  | ⟨0, _⟩ => exact Fin.ext (show (grid1.coords t 0).val = b.val from (idx_facts1 t).2.2.2.2.2.2.trans (by omega))

/-! ## The two buffers after each point, in closed form -/

/-- The target block's buffer after point t: the body's target on the point's blocks and label word. -/
theorem tgtBuf_eq (t : Fin (cfg1 a).N) :
    (outsAt1 V a c t.val t.isLt).1
      = k1_pay4 (iblk1 V a c 0 t) (iblk1 V a c 1 t) (lblAt1 c (a.1 0) (grid1.coords t)) := by
  by_cases h0 : t.val % 16 = 0
  · exact (outsAt1_A_fst V a c t h0).trans (out1_A_4_eq ..)
  · exact (outsAt1_B_fst V a c t h0).trans (out1_B_4_eq ..)

/-- The share of the chunk at the point numbered n (zero past the grid). -/
def shareAt (n : ℕ) : EReal :=
  if h : n < (cfg1 a).N then
    chunkShare (iblk1 V a c 0 ⟨n, h⟩) (iblk1 V a c 1 ⟨n, h⟩) (lblAt1 c (a.1 0) (grid1.coords ⟨n, h⟩))
      (iblk1 V a c 2 ⟨n, h⟩) (iblk1 V a c 3 ⟨n, h⟩)
  else 0

theorem shareAt_eq (t : Fin (cfg1 a).N) (n : ℕ) (hn : n = t.val) :
    shareAt V a c n
      = chunkShare (iblk1 V a c 0 t) (iblk1 V a c 1 t) (lblAt1 c (a.1 0) (grid1.coords t)) (iblk1 V a c 2 t) (iblk1 V a c 3 t) := by
  subst hn
  unfold shareAt
  rw [dif_pos t.isLt]

/-- After an image's first chunk every entry of the accumulator's buffer is that chunk's share. -/
theorem acc_A (t : Fin (cfg1 a).N) (h0 : t.val % 16 = 0) (y : S1x8x128.Idx) :
    (outsAt1 V a c t.val t.isLt).2 y = shareAt V a c t.val := by
  obtain ⟨u, i, j, rfl⟩ : ∃ (u : Fin 1) (i : Fin 8) (j : Fin 128), y = ix3 u i j := ⟨y 0, y 1, y 2, eq_ix3 y⟩
  obtain rfl : u = 0 := Subsingleton.elim _ _
  refine (congrFun (outsAt1_A_snd V a c t h0) (ix3 0 i j)).trans ?_
  refine (congrFun (out1_A_5_eq ..) (ix3 0 i j)).trans ?_
  refine (acc_first _ _ _ _ _ i j).trans ?_
  exact (shareAt_eq V a c t t.val rfl).symm

/-- After a later chunk every entry is what the point before left there plus that chunk's share. -/
theorem acc_B (t : Fin (cfg1 a).N) (h0 : ¬t.val % 16 = 0) (y : S1x8x128.Idx) :
    (outsAt1 V a c t.val t.isLt).2 y
      = (outsAt1 V a c (t.val - 1) (Nat.lt_of_le_of_lt (Nat.sub_le _ _) t.isLt)).2 y + shareAt V a c t.val := by
  obtain ⟨u, i, j, rfl⟩ : ∃ (u : Fin 1) (i : Fin 8) (j : Fin 128), y = ix3 u i j := ⟨y 0, y 1, y 2, eq_ix3 y⟩
  obtain rfl : u = 0 := Subsingleton.elim _ _
  refine (congrFun (outsAt1_B_snd V a c t h0) (ix3 0 i j)).trans ?_
  refine (congrFun (out1_B_5_eq ..) (ix3 0 i j)).trans ?_
  refine (acc_later _ _ _ _ _ _ i j).trans ?_
  rw [shareAt_eq V a c t t.val rfl]

/-- So after chunk n % 16 of an image every entry holds the shares of the image's chunks up to that one, added in
    order: by induction on the point. -/
theorem acc_eq : ∀ (n : ℕ) (h : n < (cfg1 a).N) (y : S1x8x128.Idx),
    (outsAt1 V a c n h).2 y = ∑ s ∈ Finset.range (n % 16 + 1), shareAt V a c (n - n % 16 + s)
  | 0, h, y => by
    refine (acc_A V a c ⟨0, h⟩ (Nat.zero_mod 16) y).trans ?_
    simp only [Nat.zero_mod, Nat.sub_zero, Nat.zero_add, Finset.sum_range_one]
  | n + 1, h, y => by
    by_cases h0 : (n + 1) % 16 = 0
    · refine (acc_A V a c ⟨n + 1, h⟩ h0 y).trans ?_
      rw [h0]
      simp only [Nat.zero_add, Nat.sub_zero, Nat.add_zero, Finset.sum_range_one]
    · refine (acc_B V a c ⟨n + 1, h⟩ h0 y).trans ?_
      have ih := acc_eq n (Nat.lt_of_succ_lt h) y
      show (outsAt1 V a c n _).2 y + shareAt V a c (n + 1) = _
      rw [ih]
      have e1 : (n + 1) % 16 = n % 16 + 1 := by omega
      have e2 : n + 1 - (n % 16 + 1) = n - n % 16 := by omega
      rw [e1, e2, Finset.sum_range_succ _ (n % 16 + 1)]
      congr 1
      rw [show n - n % 16 + (n % 16 + 1) = n + 1 from by omega]

/-- After an image's last chunk every entry is the image's accumulated loss share. -/
theorem acc_last (t : Fin (cfg1 a).N) (b : Fin 32) (ht : t.val = 16 * b.val + 15) (y : S1x8x128.Idx) :
    (outsAt1 V a c t.val t.isLt).2 y
      = Cert.Spec.part3 (V c main_v0) (V c main_v1) (V c main_v2) (V c main_v6) (a.1 0) b := by
  have hN : (cfg1 a).N = 512 := N_1
  rw [acc_eq V a c t.val t.isLt y]
  have e1 : t.val % 16 + 1 = 16 := by omega
  have e2 : t.val - t.val % 16 = 16 * b.val := by omega
  rw [e1, e2, Finset.sum_range]
  unfold Cert.Spec.part3
  refine Finset.sum_congr rfl fun cc _ => ?_
  have hlt : 16 * b.val + cc.val < (cfg1 a).N := by have := b.isLt; have := cc.isLt; omega
  rw [shareAt_eq V a c ⟨16 * b.val + cc.val, hlt⟩ _ rfl]
  exact share_point _ _ _ _ _ (V c main_v0) (V c main_v1) (V c main_v2) (V c main_v6) (a.1 0) b cc
    (fun r w => blk_ids V a c _ b cc rfl r w) (fun k => blk_means V a c _ b cc rfl k)
    (fun r w => blk_rgb V a c _ b cc rfl r w) (fun r w => blk_freq V a c _ b cc rfl r w)
    (lbl_point a c _ b cc rfl)

/-! ## From the blocks to the arrays -/

/-- What point t writes back of the target block is its block of the specification's target map. -/
theorem flushed1_4_eq (t : Fin (cfg1 a).N) :
    (dat1 V a c).flushed 4 t
      = (((cfg1 a).win 4).blk t).view.read (Elt Ideal) (Cert.Spec.tgt3 (V c main_v2) (V c main_v6) (a.1 0)) := by
  have hN : (cfg1 a).N = 512 := N_1
  have htN : t.val < 512 := lt_of_lt_of_eq t.isLt hN
  obtain ⟨e0, e1, e2⟩ := (idx_facts1 t).2.2.2.2.1
  have hdm : t.val = 16 * (t.val / 16) + t.val % 16 := by omega
  refine funext fun (y : S1x32x512.Idx) => ?_
  obtain ⟨u, r, w, rfl⟩ : ∃ (u : Fin 1) (r : Fin 32) (w : Fin 512), y = ix3 u r w := ⟨y 0, y 1, y 2, eq_ix3 y⟩
  obtain rfl : u = 0 := Subsingleton.elim _ _
  have hemb : (((cfg1 a).win 4).blk t).view.emb (ix3 0 r w)
      = ix3 (⟨t.val / 16, by omega⟩ : Fin 32) (Cert.Spec.row (⟨t.val % 16, by omega⟩ : Fin 16) r) w := by
    funext ax; apply Fin.ext
    match ax with
    | ⟨0, _⟩ => show cc1_transform_4 (grid1.coords t) 0 * 1 + 1 * 0 = t.val / 16; rw [e0]; omega
    | ⟨1, _⟩ => show cc1_transform_4 (grid1.coords t) 1 * 32 + 1 * r.val = 32 * (t.val % 16) + r.val; rw [e1]; omega
    | ⟨2, _⟩ => show cc1_transform_4 (grid1.coords t) 2 * 512 + 1 * w.val = w.val; rw [e2]; omega
  show (outsAt1 V a c t.val t.isLt).1 (ix3 0 r w)
      = Cert.Spec.tgt3 (V c main_v2) (V c main_v6) (a.1 0) ((((cfg1 a).win 4).blk t).view.emb (ix3 0 r w))
  rw [tgtBuf_eq V a c t, hemb]
  exact tgt_point _ _ _ (V c main_v2) (V c main_v6) (a.1 0) ⟨t.val / 16, by omega⟩ _ r w
    (blk_ids V a c t ⟨t.val / 16, by omega⟩ ⟨t.val % 16, by omega⟩ hdm r w)
    (fun k => blk_means V a c t ⟨t.val / 16, by omega⟩ ⟨t.val % 16, by omega⟩ hdm k)
    (lbl_point a c t ⟨t.val / 16, by omega⟩ ⟨t.val % 16, by omega⟩ hdm)

/-- Every pixel of the target map is in the block of the point of its image and row chunk, which writes back. -/
theorem cover1_4 (i : A3.Idx) :
    ∃ t : Fin (cfg1 a).N, ((cfg1 a).win 4).flush t = true ∧ i ∈ (((cfg1 a).win 4).blk t).view.set := by
  have hN : (cfg1 a).N = 512 := N_1
  have h0 : (i 0).val < 32 := (i 0).isLt
  have h1 : (i 1).val < 512 := (i 1).isLt
  have h2 : (i 2).val < 512 := (i 2).isLt
  obtain ⟨t, ht⟩ : ∃ t : Fin (cfg1 a).N, t.val = 16 * (i 0).val + (i 1).val / 32 := ⟨⟨_, by omega⟩, rfl⟩
  obtain ⟨e0, e1, e2⟩ := (idx_facts1 t).2.2.2.2.1
  refine ⟨t, flush1_4 a t, ?_⟩
  show i ∈ ((View.whole main_v7_0).slice (((cfg1 a).win 4).rect t)).set
  refine (Finset.ext_iff.mp (View.set_slice_whole main_v7_0 (((cfg1 a).win 4).rect t)) i).mpr ?_
  refine Rect.mem_set_unit.mpr fun ax => ?_
  match ax with
  | ⟨0, _⟩ =>
    show cc1_transform_4 (grid1.coords t) 0 * 1 ≤ (i 0).val ∧ (i 0).val < cc1_transform_4 (grid1.coords t) 0 * 1 + 1
    rw [e0]; omega
  | ⟨1, _⟩ =>
    show cc1_transform_4 (grid1.coords t) 1 * 32 ≤ (i 1).val ∧ (i 1).val < cc1_transform_4 (grid1.coords t) 1 * 32 + 32
    rw [e1]; omega
  | ⟨2, _⟩ =>
    show cc1_transform_4 (grid1.coords t) 2 * 512 ≤ (i 2).val ∧ (i 2).val < cc1_transform_4 (grid1.coords t) 2 * 512 + 512
    rw [e2]; omega

/-- THE TARGET MAP after the region: the one-hot contraction of each image's lane means against the pixel's id, zero
    on the images labelled 0. -/
theorem _root_.Cert.KernelIdeal.Hand.final1_4 (b : Fin 32) (h w : Fin 512) :
    (dat1 (F := Ideal) V a c).arrAt 4 (cfg1 a).N (ix3 b h w)
      = Cert.Spec.tgt3 (V c main_v2) (V c main_v6) (a.1 0) (ix3 b h w) :=
  congrFun ((dat1 V a c).arrAt_eq_of_cover 4 (Cert.Spec.tgt3 (V c main_v2) (V c main_v6) (a.1 0))
    (fun t _ => flushed1_4_eq V a c t) (cover1_4 a)) (ix3 b h w)

/-- What an image's last point writes back of the accumulator is its block of the per-image accumulated shares. -/
theorem flushed1_5_eq (t : Fin (cfg1 a).N) (hf : ((cfg1 a).win 5).flush t = true) :
    (dat1 V a c).flushed 5 t
      = (((cfg1 a).win 5).blk t).view.read (Elt Ideal)
          (fun j : P3.Idx => Cert.Spec.part3 (V c main_v0) (V c main_v1) (V c main_v2) (V c main_v6) (a.1 0) (j 0)) := by
  have hN : (cfg1 a).N = 512 := N_1
  have htN : t.val < 512 := lt_of_lt_of_eq t.isLt hN
  have h15 : t.val % 16 = 15 := (flush1_5 a t).mp hf
  obtain ⟨e0, e1, e2⟩ := (idx_facts1 t).2.2.2.2.2.1
  refine funext fun (y : S1x8x128.Idx) => ?_
  obtain ⟨u, i, j, rfl⟩ : ∃ (u : Fin 1) (i : Fin 8) (j : Fin 128), y = ix3 u i j := ⟨y 0, y 1, y 2, eq_ix3 y⟩
  obtain rfl : u = 0 := Subsingleton.elim _ _
  have hemb : (((cfg1 a).win 5).blk t).view.emb (ix3 0 i j) = (ix3 (⟨t.val / 16, by omega⟩ : Fin 32) i j : P3.Idx) := by
    funext ax; apply Fin.ext
    match ax with
    | ⟨0, _⟩ => show cc1_transform_5 (grid1.coords t) 0 * 1 + 1 * 0 = t.val / 16; rw [e0]; omega
    | ⟨1, _⟩ => show cc1_transform_5 (grid1.coords t) 1 * 8 + 1 * i.val = i.val; rw [e1]; omega
    | ⟨2, _⟩ => show cc1_transform_5 (grid1.coords t) 2 * 128 + 1 * j.val = j.val; rw [e2]; omega
  show (outsAt1 V a c t.val t.isLt).2 (ix3 0 i j)
      = (fun j : P3.Idx => Cert.Spec.part3 (V c main_v0) (V c main_v1) (V c main_v2) (V c main_v6) (a.1 0) (j 0))
          ((((cfg1 a).win 5).blk t).view.emb (ix3 0 i j))
  rw [hemb]
  exact acc_last V a c t ⟨t.val / 16, by omega⟩ (by show t.val = 16 * (t.val / 16) + 15; omega) (ix3 0 i j)

/-- Every entry of the loss-share array is in the block of its image's last point, which writes back. -/
theorem cover1_5 (i : P3.Idx) :
    ∃ t : Fin (cfg1 a).N, ((cfg1 a).win 5).flush t = true ∧ i ∈ (((cfg1 a).win 5).blk t).view.set := by
  have hN : (cfg1 a).N = 512 := N_1
  have h0 : (i 0).val < 32 := (i 0).isLt
  have h1 : (i 1).val < 8 := (i 1).isLt
  have h2 : (i 2).val < 128 := (i 2).isLt
  obtain ⟨t, ht⟩ : ∃ t : Fin (cfg1 a).N, t.val = 16 * (i 0).val + 15 := ⟨⟨_, by omega⟩, rfl⟩
  obtain ⟨e0, e1, e2⟩ := (idx_facts1 t).2.2.2.2.2.1
  refine ⟨t, (flush1_5 a t).mpr (by omega), ?_⟩
  show i ∈ ((View.whole main_v7_1).slice (((cfg1 a).win 5).rect t)).set
  refine (Finset.ext_iff.mp (View.set_slice_whole main_v7_1 (((cfg1 a).win 5).rect t)) i).mpr ?_
  refine Rect.mem_set_unit.mpr fun ax => ?_
  match ax with
  | ⟨0, _⟩ =>
    show cc1_transform_5 (grid1.coords t) 0 * 1 ≤ (i 0).val ∧ (i 0).val < cc1_transform_5 (grid1.coords t) 0 * 1 + 1
    rw [e0]; omega
  | ⟨1, _⟩ =>
    show cc1_transform_5 (grid1.coords t) 1 * 8 ≤ (i 1).val ∧ (i 1).val < cc1_transform_5 (grid1.coords t) 1 * 8 + 8
    rw [e1]; omega
  | ⟨2, _⟩ =>
    show cc1_transform_5 (grid1.coords t) 2 * 128 ≤ (i 2).val ∧ (i 2).val < cc1_transform_5 (grid1.coords t) 2 * 128 + 128
    rw [e2]; omega

/-- THE LOSS SHARES after the region: every entry of image b's [8,128] block is the image's sixteen chunk shares added. -/
theorem _root_.Cert.KernelIdeal.Hand.final1_5 (b : Fin 32) (i : Fin 8) (j : Fin 128) :
    (dat1 (F := Ideal) V a c).arrAt 5 (cfg1 a).N (ix3 b i j)
      = Cert.Spec.part3 (V c main_v0) (V c main_v1) (V c main_v2) (V c main_v6) (a.1 0) b :=
  congrFun ((dat1 V a c).arrAt_eq_of_cover 5
    (fun j : P3.Idx => Cert.Spec.part3 (V c main_v0) (V c main_v1) (V c main_v2) (V c main_v6) (a.1 0) (j 0))
    (flushed1_5_eq V a c) (cover1_5 a)) (ix3 b i j)

end Region

end Reg1

end Cert.KernelIdeal.Hand

end
-- ==== Proof.KI.HostRead.lean ====
/-
  An image array [32,1,512,512] and its reshape [32,512,512] hold the same entries: entry (b, h, w) of the one is
  entry (b, 0, h, w) of the other, both being at row-major position (b·512 + h)·512 + w.
-/
import Idealize.ShloMosaic.Lib.Pipeline.Value
import Idealize.ShloMosaic.Lib.ValueIdx
import proofs.«423842_j58059367907504_3_alg».proof.Proof.Spec

noncomputable section

namespace Cert.HostRead

open Idealize.ShloMosaic Idealize.ShloMosaic.ValueIdx Cert.Spec

variable {α : Type}

/-- Dropping the unit axis: the reshape to [32,512,512] read at (b, h, w). -/
theorem drop_unit_apply (x : A4.Idx → α) (hc : A4.ShapeCasts A3) (b : Fin 32) (h w : Fin 512) :
    shapeCast A3 x hc (ix3 b h w) = x (px b h w) := by
  refine shapeCast_apply x hc (ix3 b h w) (px b h w) ?_
  rw [Shape.rowMajor_val_four, Shape.rowMajor_val_three]
  show (((b.val * 1 + 0) * 512 + h.val) * 512 + w.val) = ((b.val * 512 + h.val) * 512 + w.val)
  omega

/-- Putting the unit axis back: the reshape to [32,1,512,512] read at (b, 0, h, w). -/
theorem add_unit_apply (y : A3.Idx → α) (hc : A3.ShapeCasts A4) (b : Fin 32) (h w : Fin 512) :
    shapeCast A4 y hc (px b h w) = y (ix3 b h w) := by
  refine shapeCast_apply y hc (px b h w) (ix3 b h w) ?_
  rw [Shape.rowMajor_val_four, Shape.rowMajor_val_three]
  show ((b.val * 512 + h.val) * 512 + w.val) = (((b.val * 1 + 0) * 512 + h.val) * 512 + w.val)
  omega

/-- Every index of a [32,1,512,512] array is a pixel (b, h, w). -/
theorem eq_px (i : A4.Idx) : i = px (i 0) (i 2) (i 3) := by
  funext a
  match a with
  | ⟨0, _⟩ => rfl
  | ⟨1, h1⟩ =>
    apply Fin.ext
    have h : (i ⟨1, h1⟩).val < 1 := (i ⟨1, h1⟩).isLt
    show (i ⟨1, h1⟩).val = 0
    omega
  | ⟨2, _⟩ => rfl
  | ⟨3, _⟩ => rfl

end Cert.HostRead

end
-- ==== Proof.Algebra.lean ====
/-
  The lane-wise quantities of a row-chunked accumulation, joined to the whole-array specification.

  The images [32,1,512,512] are read as [32,512,512] (`to3`); lane `k : Fin 128` stands for the segment id word `k`.
  Then the lane sums and counts are the segment sums and counts of the word `k` (`sums3_eq`, `cnts3_eq`), and the
  one-hot contraction of the lane means over the 128 lanes is the mean of the pixel's own segment (`tgt3_eq`),
  provided every id is below 128: the contraction's sum has one term that is not `m · 0`, the lane of the id itself.
-/
import proofs.«423842_j58059367907504_3_alg».proof.Proof.Spec

noncomputable section

namespace Cert.Algebra

open Cert.Spec Idealize.ShloMosaic Idealize.ShloMosaic.ValueIdx

/-- An image array [32,1,512,512] seen as [32,512,512]. -/
def to3 {α : Type} (x : A4.Idx → α) : A3.Idx → α := fun j => x (px (j 0) (j 1) (j 2))

/-- The lane means as the host computes them from the lane sums and counts. -/
def means3 (rgb freq : A4.Idx → EReal) (spx : A4.Idx → BitVec 32) : M3.Idx → EReal :=
  fun j => Ideal.div (sums3 (to3 rgb) (to3 freq) (to3 spx) (j 0) (j 2)) (max (cnts3 (to3 spx) (j 0) (j 2)) one)

variable (rgb freq : A4.Idx → EReal) (lab : L32.Idx → BitVec 32) (spx : A4.Idx → BitVec 32)

/-- The reshaped array at (b, h, w) is the image at pixel (h, w) of image b. -/
theorem to3_ix3 {α : Type} (x : A4.Idx → α) (b : Fin 32) (h w : Fin 512) : to3 x (ix3 b h w) = x (px b h w) := rfl

/-- Lane k of the lane sums is the segment sum of the word k. -/
theorem sums3_eq (b : Fin 32) (k : Fin 128) :
    sums3 (to3 rgb) (to3 freq) (to3 spx) b k = segSum rgb freq spx b (BitVec.ofNat 32 k.val) := rfl

/-- Lane k of the lane counts is the segment count of the word k. -/
theorem cnts3_eq (b : Fin 32) (k : Fin 128) : cnts3 (to3 spx) b k = segCnt spx b (BitVec.ofNat 32 k.val) := rfl

/-- Lane k of the lane means is the mean of the segment of the word k. -/
theorem means3_ix3 (b : Fin 32) (k : Fin 128) :
    means3 rgb freq spx (ix3 b (0 : Fin 1) k) = mean rgb freq spx b (BitVec.ofNat 32 k.val) := rfl

/-- A word below 128 is the word of one lane only: its own value's. -/
theorem lane_unique {x : BitVec 32} (hx : x.toNat < 128) (k : Fin 128) (hk : k ≠ ⟨x.toNat, hx⟩) :
    ¬ x = BitVec.ofNat 32 k.val := by
  intro h
  apply hk
  apply Fin.ext
  have h2 : x.toNat = (BitVec.ofNat 32 k.val).toNat := congrArg BitVec.toNat h
  rw [BitVec.toNat_ofNat] at h2
  have := k.isLt
  show k.val = x.toNat
  omega

/-- The one-hot contraction over the 128 lanes picks the lane of the pixel's own id: every other term is `m · 0 = 0`
    (for every extended real `m`, the infinite ones included) and the picked one is `m · 1 = m`. -/
theorem tgt3_eq (hr : ∀ i, (spx i).toNat < 128) (b : Fin 32) (h w : Fin 512) :
    tgt3 (to3 spx) (means3 rgb freq spx) lab (ix3 b h w) = tgt rgb freq lab spx (px b h w) := by
  show (if lab (ix1 b) = 0#32 then (0 : EReal)
      else ∑ k : Fin 128, means3 rgb freq spx (ix3 b (0 : Fin 1) k) *
        (if spx (px b h w) = BitVec.ofNat 32 k.val then 1 else 0))
    = (if lab (ix1 b) = 0#32 then (0 : EReal) else mean rgb freq spx b (spx (px b h w)))
  by_cases hl : lab (ix1 b) = 0#32
  · rw [if_pos hl, if_pos hl]
  · rw [if_neg hl, if_neg hl]
    have hk : (spx (px b h w)).toNat < 128 := hr _
    rw [Finset.sum_eq_single (⟨(spx (px b h w)).toNat, hk⟩ : Fin 128)]
    · have hself : spx (px b h w) = BitVec.ofNat 32 (spx (px b h w)).toNat := by
        rw [BitVec.ofNat_toNat, BitVec.setWidth_eq]
      rw [means3_ix3, if_pos hself, mul_one, ← hself]
    · intro k _ hne
      rw [if_neg (lane_unique hk k hne), mul_zero]
    · intro hn
      exact absurd (Finset.mem_univ _) hn

end Cert.Algebra

end
-- ==== Proof.AlgebraLoss.lean ====
/-
  The host's last operations on the accumulated loss shares, joined to the whole-array loss.

  The [32,8,128] array holds, at every entry of image b's block, the same share: the sixteen chunk sums of image b each
  divided by 1024, added. Summed from 0 over all 32·8·128 entries it is the sum over all pixels of both views' squared
  distances, because 1024 copies of x/1024 add up to x for every extended real x; divided by 2²³ that is the sum of the
  two mean squared distances, because a non-negative real factor distributes over a sum of non-negative extended
  reals, and a square is non-negative.
-/
import proofs.«423842_j58059367907504_3_alg».proof.Proof.Algebra
import Mathlib.Data.EReal.Operations
import Mathlib.Algebra.BigOperators.Fin
import Mathlib.Algebra.BigOperators.GroupWithZero.Action

noncomputable section

open scoped BigOperators

namespace Cert.Algebra

open Cert.Spec Idealize.ShloMosaic Idealize.ShloMosaic.ValueIdx

/-! ## The constants as reals -/

/-- The word of `+0.0` denotes 0. -/
theorem zero_eq : Ideal.ofBits .f32 0x00000000#32 = 0 := by simp [Ideal.ofBits, Ideal.ieee]

/-- The word of `1024.0` denotes the real 1024. -/
theorem c1024_eq : c1024 = ((1024 : ℝ) : EReal) := by
  simp [Ideal.ofBits, Ideal.ieee, -EReal.coe_mul]; norm_num

/-- The word of `8388608.0` denotes the real 2²³. -/
theorem c2p23_eq : c2p23 = ((8388608 : ℝ) : EReal) := by
  simp [Ideal.ofBits, Ideal.ieee, -EReal.coe_mul]

/-! ## Extended reals -/

/-- A square is non-negative: `⊥ · ⊥ = ⊤ · ⊤ = ⊤`, and a real square. -/
theorem mul_self_nonneg' (y : EReal) : 0 ≤ y * y := by
  induction y using EReal.rec with
  | bot => rw [EReal.bot_mul_bot]; exact le_top
  | coe r => rw [← EReal.coe_mul]; exact EReal.coe_nonneg.mpr (mul_self_nonneg r)
  | top => rw [EReal.top_mul_top]; exact le_top

/-- 1024 copies of `x / 1024` add up to `x`, for every extended real `x`. -/
theorem nsmul_div_1024 (x : EReal) : (1024 : ℕ) • Ideal.div x c1024 = x := by
  have hc : ((1024 : ℕ) : EReal) * ((1 / 1024 : ℝ) : EReal) = 1 := by
    show (((1024 : ℕ) : ℝ) : EReal) * ((1 / 1024 : ℝ) : EReal) = 1
    rw [← EReal.coe_mul]
    norm_num
  rw [c1024_eq, Ideal.div_coe (by norm_num), EReal.nsmul_eq_mul, mul_comm x, ← mul_assoc, hc, one_mul]

/-- A block of 8 · 128 equal entries sums to 1024 copies of the entry. -/
theorem sum_block (p : EReal) : ∑ _r : Fin 8, ∑ _k : Fin 128, p = (1024 : ℕ) • p := by
  rw [Finset.sum_const, Finset.sum_const, Finset.card_univ, Finset.card_univ, Fintype.card_fin, Fintype.card_fin,
    ← mul_nsmul]

/-! ## Sums over index sets by coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- The 512 rows of an image are the 16 chunks of 32 rows: `(cc, r) ↦ 32·cc + r`. -/
def rowEquiv : Fin 16 × Fin 32 ≃ Fin 512 where
  toFun p := row p.1 p.2
  invFun h := (⟨h.val / 32, by have := h.isLt; omega⟩, ⟨h.val % 32, Nat.mod_lt _ (by norm_num)⟩)
  left_inv := by
    rintro ⟨cc, r⟩
    have := cc.isLt
    have := r.isLt
    refine Prod.ext (Fin.ext ?_) (Fin.ext ?_)
    · show (32 * cc.val + r.val) / 32 = cc.val
      omega
    · show (32 * cc.val + r.val) % 32 = r.val
      omega
  right_inv := by
    intro h
    refine Fin.ext ?_
    show 32 * (h.val / 32) + h.val % 32 = h.val
    omega

/-- A sum over the rows, chunk by chunk, is the sum over all rows. -/
theorem sum_rows {M : Type*} [AddCommMonoid M] (g : Fin 512 → M) :
    ∑ cc : Fin 16, ∑ r : Fin 32, g (row cc r) = ∑ h : Fin 512, g h := by
  rw [← Equiv.sum_comp rowEquiv g, Fintype.sum_prod_type]
  rfl

/-- A sum over the pixels of all images is the sum over image, row and column. -/
theorem sum_px {M : Type*} [AddCommMonoid M] (g : A4.Idx → M) :
    ∑ i : A4.Idx, g i = ∑ b : Fin 32, ∑ h : Fin 512, ∑ w : Fin 512, g (px b h w) := by
  rw [sum_idx4]
  refine Finset.sum_congr rfl fun b _ => ?_
  rw [Fin.sum_univ_one]

/-! ## The loss -/

variable (rgb freq : A4.Idx → EReal) (lab : L32.Idx → BitVec 32) (spx : A4.Idx → BitVec 32)

/-- A view's squared distance to the target is non-negative. -/
theorem sqd_nonneg (x : A4.Idx → EReal) (i : A4.Idx) : 0 ≤ sqd rgb freq lab spx x i := mul_self_nonneg' _

/-- At a pixel the lane-wise squared distances are the two views' squared distances to the target, added. -/
theorem sq3_eq (hr : ∀ i, (spx i).toNat < 128) (b : Fin 32) (h w : Fin 512) :
    sq3 (to3 rgb) (to3 freq) (to3 spx) (means3 rgb freq spx) lab (ix3 b h w)
      = sqd rgb freq lab spx rgb (px b h w) + sqd rgb freq lab spx freq (px b h w) := by
  unfold sq3 sqd
  rw [tgt3_eq rgb freq lab spx hr, to3_ix3, to3_ix3]

/-- 1024 copies of an image's share are the image's sum of squared distances over all its pixels. -/
theorem nsmul_part3 (b : Fin 32) :
    (1024 : ℕ) • part3 (to3 rgb) (to3 freq) (to3 spx) (means3 rgb freq spx) lab b
      = ∑ h : Fin 512, ∑ w : Fin 512, sq3 (to3 rgb) (to3 freq) (to3 spx) (means3 rgb freq spx) lab (ix3 b h w) := by
  unfold part3
  rw [Finset.smul_sum]
  simp only [nsmul_div_1024]
  exact sum_rows (fun h => ∑ w : Fin 512, sq3 (to3 rgb) (to3 freq) (to3 spx) (means3 rgb freq spx) lab (ix3 b h w))

/-- The [32,8,128] array of shares, summed over all its indices, is the sum over all pixels of both squared distances. -/
theorem sum_part3 (hr : ∀ i, (spx i).toNat < 128) :
    ∑ j : P3.Idx, part3 (to3 rgb) (to3 freq) (to3 spx) (means3 rgb freq spx) lab (j 0)
      = (∑ i : A4.Idx, sqd rgb freq lab spx rgb i) + ∑ i : A4.Idx, sqd rgb freq lab spx freq i := by
  rw [sum_idx3, sum_px, sum_px, ← Finset.sum_add_distrib]
  refine Finset.sum_congr rfl fun b _ => ?_
  show ∑ _r : Fin 8, ∑ _k : Fin 128, part3 (to3 rgb) (to3 freq) (to3 spx) (means3 rgb freq spx) lab b = _
  rw [sum_block, nsmul_part3, ← Finset.sum_add_distrib]
  refine Finset.sum_congr rfl fun h _ => ?_
  rw [← Finset.sum_add_distrib]
  refine Finset.sum_congr rfl fun w _ => ?_
  exact sq3_eq rgb freq lab spx hr b h w

/-- The host's sum of the shares from 0, divided by 2²³, is the loss. -/
theorem loss_eq (hr : ∀ i, (spx i).toNat < 128) :
    Ideal.div (Ideal.ofBits .f32 0x00000000#32
        + ∑ j : P3.Idx, part3 (to3 rgb) (to3 freq) (to3 spx) (means3 rgb freq spx) lab (j 0)) c2p23
      = loss rgb freq lab spx := by
  unfold loss
  rw [zero_eq, zero_add, sum_part3 rgb freq lab spx hr, c2p23_eq, Ideal.div_coe (by norm_num), Ideal.div_coe (by norm_num),
    Ideal.div_coe (by norm_num)]
  exact EReal.right_distrib_of_nonneg (Finset.sum_nonneg fun i _ => sqd_nonneg rgb freq lab spx rgb i)
    (Finset.sum_nonneg fun i _ => sqd_nonneg rgb freq lab spx freq i)

end Cert.Algebra

end
-- ==== Proof.KI.Value.lean ====
/-
  What the idealized kernel's @main returns, as functions of its four arguments.

  Read along the fold of buffer contents: the three reshapes give the images as [32,512,512]; region 0 leaves the
  lane sums and lane counts; the host divides them into the lane means; region 1 leaves the target map and, per
  image, the accumulated loss share in every entry of an [8,128] block; the host sums those shares, divides by 2²³
  and reshapes the target map back to [32,1,512,512].  With every segment id below 100 the two results are the
  specification's `loss` and `tgt`.
-/
import proofs.«423842_j58059367907504_3_alg».proof.Proof.KI.Run
import proofs.«423842_j58059367907504_3_alg».proof.Proof.KI.Val0
import proofs.«423842_j58059367907504_3_alg».proof.Proof.KI.Val1
import proofs.«423842_j58059367907504_3_alg».proof.Proof.KI.HostRead
import proofs.«423842_j58059367907504_3_alg».proof.Proof.Algebra
import proofs.«423842_j58059367907504_3_alg».proof.Proof.AlgebraLoss
import Idealize.ShloMosaic.Lib.StableHlo.Run
import Idealize.ShloMosaic.Lib.StableHlo.Predicate
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.StableHlo
open Cert.Spec (A3 A4 M3 P3 L32 px)

variable (m : (ℓ : Loc nD τ sig) → Buf (Elt Ideal) ℓ) (ρ : Dev nD → PrngReg)

/-- The four arguments on core c. -/
abbrev aRgb (c : Dev nD) : A4.Idx → EReal := m ((c : Thread nD τ).loc main_arg0)
abbrev aFreq (c : Dev nD) : A4.Idx → EReal := m ((c : Thread nD τ).loc main_arg1)
abbrev aLab (c : Dev nD) : L32.Idx → BitVec 32 := m ((c : Thread nD τ).loc main_arg2)
abbrev aSpx (c : Dev nD) : A4.Idx → BitVec 32 := m ((c : Thread nD τ).loc main_arg3)

/-! ## The first stretch: the images as [32,512,512] -/

theorem V1_v0 (c : Dev nD) : (V1 m ρ c main_v0 : A3.Idx → EReal) = Cert.Algebra.to3 (aRgb m c) := by
  have e : (V1 m ρ c main_v0 : A3.Idx → EReal)
      = shapeCast S32x512x512 (m ((c : Thread nD τ).loc main_arg0)) shapeCasts_S32x1x512x512_S32x512x512 := by
    show StableHlo.after hostOps0 (W0 m ρ c) (Proc.devRef .tc main_v0) = _
    after_results; rfl
  rw [e]; funext j
  obtain ⟨b, h, w, rfl⟩ : ∃ (b : Fin 32) (h w : Fin 512), j = ix3 b h w := ⟨j 0, j 1, j 2, eq_ix3 j⟩
  exact Cert.HostRead.drop_unit_apply _ _ b h w

theorem V1_v1 (c : Dev nD) : (V1 m ρ c main_v1 : A3.Idx → EReal) = Cert.Algebra.to3 (aFreq m c) := by
  have e : (V1 m ρ c main_v1 : A3.Idx → EReal)
      = shapeCast S32x512x512 (m ((c : Thread nD τ).loc main_arg1)) shapeCasts_S32x1x512x512_S32x512x512 := by
    show StableHlo.after hostOps0 (W0 m ρ c) (Proc.devRef .tc main_v1) = _
    after_results; rfl
  rw [e]; funext j
  obtain ⟨b, h, w, rfl⟩ : ∃ (b : Fin 32) (h w : Fin 512), j = ix3 b h w := ⟨j 0, j 1, j 2, eq_ix3 j⟩
  exact Cert.HostRead.drop_unit_apply _ _ b h w

theorem V1_v2 (c : Dev nD) : (V1 m ρ c main_v2 : A3.Idx → BitVec 32) = Cert.Algebra.to3 (aSpx m c) := by
  have e : (V1 m ρ c main_v2 : A3.Idx → BitVec 32)
      = shapeCast S32x512x512 (m ((c : Thread nD τ).loc main_arg3)) shapeCasts_S32x1x512x512_S32x512x512 := by
    show StableHlo.after hostOps0 (W0 m ρ c) (Proc.devRef .tc main_v2) = _
    after_results; rfl
  rw [e]; funext j
  obtain ⟨b, h, w, rfl⟩ : ∃ (b : Fin 32) (h w : Fin 512), j = ix3 b h w := ⟨j 0, j 1, j 2, eq_ix3 j⟩
  exact Cert.HostRead.drop_unit_apply _ _ b h w

/-! ## Region 0: the lane sums and counts -/

theorem V2_v3_0 (c : Dev nD) (b : Fin 32) (k : Fin 128) :
    (V2 m ρ c main_v3_0 : M3.Idx → EReal) (ix3 b (0 : Fin 1) k)
      = Cert.Spec.sums3 (Cert.Algebra.to3 (aRgb m c)) (Cert.Algebra.to3 (aFreq m c)) (Cert.Algebra.to3 (aSpx m c)) b k := by
  rw [show V2 m ρ c main_v3_0 = (dat0 (V1 m ρ) c).arrAt 3 cfg0.N from W2_arr m ρ c 3, final0_3, V1_v0, V1_v1, V1_v2]

theorem V2_v3_1 (c : Dev nD) (b : Fin 32) (k : Fin 128) :
    (V2 m ρ c main_v3_1 : M3.Idx → EReal) (ix3 b (0 : Fin 1) k) = Cert.Spec.cnts3 (Cert.Algebra.to3 (aSpx m c)) b k := by
  rw [show V2 m ρ c main_v3_1 = (dat0 (V1 m ρ) c).arrAt 4 cfg0.N from W2_arr m ρ c 4, final0_4, V1_v2]

/-- Region 0 leaves its input arrays as it found them, and the second stretch writes none of them. -/
theorem V3_of_in0 (c : Dev nD) (w : Fin cfg0.W) (hw : (cfg0.win w).isOut = false) (h1 : Pipeline.arrRef spec0 w ∉ hostOps1_W) :
    V3 m ρ c (Pipeline.arrRef spec0 w) = V1 m ρ c (Pipeline.arrRef spec0 w) :=
  (StableHlo.after_of_writes_sub hostOps1 _ hostOps1_writes h1).trans <|
    (W2_arr m ρ c w).trans (((dat0 (V1 m ρ) c).arrAt_in w hw _).trans (A_eq0 (V1 m ρ) c w))

theorem V3_v0 (c : Dev nD) : (V3 m ρ c main_v0 : A3.Idx → EReal) = Cert.Algebra.to3 (aRgb m c) :=
  (V3_of_in0 m ρ c 0 rfl (by decide)).trans (V1_v0 m ρ c)
theorem V3_v1 (c : Dev nD) : (V3 m ρ c main_v1 : A3.Idx → EReal) = Cert.Algebra.to3 (aFreq m c) :=
  (V3_of_in0 m ρ c 1 rfl (by decide)).trans (V1_v1 m ρ c)
theorem V3_v2 (c : Dev nD) : (V3 m ρ c main_v2 : A3.Idx → BitVec 32) = Cert.Algebra.to3 (aSpx m c) :=
  (V3_of_in0 m ρ c 2 rfl (by decide)).trans (V1_v2 m ρ c)

/-! ## The second stretch: the lane means -/

theorem V3_v6 (c : Dev nD) : (V3 m ρ c main_v6 : M3.Idx → EReal) = Cert.Algebra.means3 (aRgb m c) (aFreq m c) (aSpx m c) := by
  have e : (V3 m ρ c main_v6 : M3.Idx → EReal)
      = Host.divf (V2 m ρ c main_v3_0) (maximumf (V2 m ρ c main_v3_1)
          (broadcastInDim S32x1x128 ![] bcast_S_S32x1x128 (constant (F := Ideal) S_ .f32 0x3F800000#32))) := by
    show StableHlo.after hostOps1 (W2 m ρ c) (Proc.devRef .tc main_v6) = _
    after_results
  rw [e]; funext j
  obtain ⟨b, z, k, rfl⟩ : ∃ (b : Fin 32) (z : Fin 1) (k : Fin 128), j = ix3 b z k := ⟨j 0, j 1, j 2, eq_ix3 j⟩
  obtain rfl : z = 0 := Subsingleton.elim _ _
  show Ideal.div ((V2 m ρ c main_v3_0 : M3.Idx → EReal) (ix3 b (0 : Fin 1) k))
      (max ((V2 m ρ c main_v3_1 : M3.Idx → EReal) (ix3 b (0 : Fin 1) k))
        (broadcastInDim S32x1x128 ![] bcast_S_S32x1x128 (constant (F := Ideal) S_ .f32 0x3F800000#32) (ix3 b (0 : Fin 1) k))) = _
  rw [V2_v3_0, V2_v3_1, StableHlo.Predicate.bcast_scalar bcast_S_S32x1x128 h_S_]
  rfl

/-- The label table region 1 reads is the label argument. -/
theorem tbl1_eq : (tbl1 m ρ 0 : L32.Idx → BitVec 32) = aLab m 0 :=
  ((StableHlo.after_of_writes_sub hostOps1 _ hostOps1_writes (by decide)).trans <|
    (W2_of_ne m ρ 0 main_arg2 (by decide)).trans <|
    (StableHlo.after_of_writes_sub hostOps0 _ hostOps0_writes (by decide)).trans rfl)

/-! ## Region 1: the target map and the loss shares -/

theorem V4_v7_0 (hr : ∀ i, (aSpx m 0 i).toNat < 128) (b : Fin 32) (h w : Fin 512) :
    (V4 m ρ 0 main_v7_0 : A3.Idx → EReal) (ix3 b h w)
      = Cert.Spec.tgt (aRgb m 0) (aFreq m 0) (aLab m 0) (aSpx m 0) (px b h w) := by
  rw [show V4 m ρ 0 main_v7_0 = (dat1 (V3 m ρ) (adm1 m ρ) 0).arrAt 4 (cfg1 (adm1 m ρ)).N from W4_arr m ρ 0 4,
    final1_4, V3_v2, V3_v6, show ((adm1 m ρ).1 0 : L32.Idx → BitVec 32) = aLab m 0 from tbl1_eq m ρ]
  exact Cert.Algebra.tgt3_eq _ _ _ _ hr b h w

theorem V4_v7_1 (b : Fin 32) (i : Fin 8) (j : Fin 128) :
    (V4 m ρ 0 main_v7_1 : P3.Idx → EReal) (ix3 b i j)
      = Cert.Spec.part3 (Cert.Algebra.to3 (aRgb m 0)) (Cert.Algebra.to3 (aFreq m 0)) (Cert.Algebra.to3 (aSpx m 0))
          (Cert.Algebra.means3 (aRgb m 0) (aFreq m 0) (aSpx m 0)) (aLab m 0) b := by
  rw [show V4 m ρ 0 main_v7_1 = (dat1 (V3 m ρ) (adm1 m ρ) 0).arrAt 5 (cfg1 (adm1 m ρ)).N from W4_arr m ρ 0 5,
    final1_5, V3_v0, V3_v1, V3_v2, V3_v6, show ((adm1 m ρ).1 0 : L32.Idx → BitVec 32) = aLab m 0 from tbl1_eq m ρ]

/-! ## The last stretch: the two results -/

/-- The reshaped target map is the specification's. -/
theorem W5_v10 (hr : ∀ i, (aSpx m 0 i).toNat < 128) :
    (W5 m ρ 0 (Proc.devRef .tc main_v10) : A4.Idx → EReal) = Cert.Spec.tgt (aRgb m 0) (aFreq m 0) (aLab m 0) (aSpx m 0) := by
  have e : (W5 m ρ 0 (Proc.devRef .tc main_v10) : A4.Idx → EReal)
      = shapeCast S32x1x512x512 (V4 m ρ 0 main_v7_0) shapeCasts_S32x512x512_S32x1x512x512 := by
    show StableHlo.after hostOps2 (W4 m ρ 0) (Proc.devRef .tc main_v10) = _
    after_results; rfl
  rw [e]; funext i
  obtain ⟨b, h, w, rfl⟩ : ∃ (b : Fin 32) (h w : Fin 512), i = px b h w := ⟨i 0, i 2, i 3, Cert.HostRead.eq_px i⟩
  exact (Cert.HostRead.add_unit_apply _ _ b h w).trans (V4_v7_0 m ρ hr b h w)

/-- The summed loss shares over 2²³ are the specification's loss. -/
theorem W5_v9 (hr : ∀ i, (aSpx m 0 i).toNat < 128) :
    (W5 m ρ 0 (Proc.devRef .tc main_v9) : Cert.Spec.Sc.Idx → EReal)
      = fun _ => Cert.Spec.loss (aRgb m 0) (aFreq m 0) (aLab m 0) (aSpx m 0) := by
  have e : (W5 m ρ 0 (Proc.devRef .tc main_v9) : Cert.Spec.Sc.Idx → EReal)
      = Host.divf (Host.reduceAdd (V4 m ρ 0 main_v7_1) (constant (F := Ideal) S_ .f32 0x00000000#32) reducesTo_S32x8x128_S_d0_1_2 h_S_)
          (constant (F := Ideal) S_ .f32 0x4B000000#32) := by
    show StableHlo.after hostOps2 (W4 m ρ 0) (Proc.devRef .tc main_v9) = _
    after_results
  rw [e]; funext i
  show Ideal.div (Host.reduceAdd (F := Ideal) (V4 m ρ 0 main_v7_1) (constant (F := Ideal) S_ .f32 0x00000000#32) reducesTo_S32x8x128_S_d0_1_2 h_S_ i)
      Cert.Spec.c2p23 = _
  simp only [Host.reduceAdd, Ideal.hostReduceAdd_def]
  rw [Ideal.hostReduceAdd_total reducesTo_S32x8x128_S_d0_1_2 (fun b => b.elim0) _ _ i]
  rw [← Cert.Algebra.loss_eq (aRgb m 0) (aFreq m 0) (aLab m 0) (aSpx m 0) hr]
  congr 2
  refine Finset.sum_congr rfl fun j _ => ?_
  obtain ⟨b, p, q, rfl⟩ : ∃ (b : Fin 32) (p : Fin 8) (q : Fin 128), j = ix3 b p q := ⟨j 0, j 1, j 2, eq_ix3 j⟩
  exact V4_v7_1 m ρ b p q

/-! ## The run, read -/

/-- With every segment id below 128, every weakly fair execution of the idealized kernel's @main terminates with the
    first result at the specification's loss, the second at its target map, and the arguments as launched. -/
theorem run_value (hr : ∀ i, (aSpx m 0 i).toNat < 128) :
    θ_run defs (onTc (τ := τ) (main (F := Ideal))) ⟨m, fun _ => 0, ρ⟩ (fun r => ∀ c : Dev nD,
      r.2.mem ((c.tc : Thread nD τ).loc main_v9) = (fun _ => Cert.Spec.loss (aRgb m c) (aFreq m c) (aLab m c) (aSpx m c))
      ∧ r.2.mem ((c.tc : Thread nD τ).loc main_v10) = Cert.Spec.tgt (aRgb m c) (aFreq m c) (aLab m c) (aSpx m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain rfl : c = 0 := Subsingleton.elim _ _
    exact ⟨(h 0 _ (mem_uc main_v9 (by decide))).trans (W5_v9 m ρ hr),
      (h 0 _ (mem_uc main_v10 (by decide))).trans (W5_v10 m ρ hr),
      (h 0 _ (mem_uc main_arg0 (by decide))).trans (W5_main_arg0 m ρ 0),
      (h 0 _ (mem_uc main_arg1 (by decide))).trans (W5_main_arg1 m ρ 0),
      (h 0 _ (mem_uc main_arg2 (by decide))).trans (W5_main_arg2 m ρ 0),
      (h 0 _ (mem_uc main_arg3 (by decide))).trans (W5_main_arg3 m ρ 0)⟩) (run_all m ρ)

end Cert.KernelIdeal.Hand

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.LibScatterSet.lean ====
/-
  STABLEHLO'S SCATTER WITH A `SET` BODY, read at an index, for the dimension numbers that writing a block, a row
  segment or a row into a matrix at ONE literal start index lowers to (`x.at[:, o:o+K].set(v)`, `x.at[r, o:o+K].set(v)`,
  `x.at[o:o+K, :].set(v)`, `x.at[r, :].set(v)`).

  `Host.scatter` folds over the update indices; with a body that returns the update, an operand element on which
  exactly the updates of one value land ends at that value, and one on which no update lands keeps the operand's
  (`scatter_set_hit`, `scatter_set_miss`). For one start index every update index lands on its own operand element, so
  the four shapes below read as: inside the written window the update's element, outside it the operand's.
-/
import Idealize.ShloMosaic.PureOps.Ideal
import Idealize.ShloMosaic.Lib.ValueIdx
import proofs.«423842_j58059367907504_3_alg».proof.Proof.LibGatherScatter

noncomputable section

namespace Idealize.ShloMosaic.ScatterSet

open Idealize.ShloMosaic Idealize.ShloMosaic.ValueIdx Idealize.ShloMosaic.GatherScatter

/-! ## The fold, in general -/

section General
variable {s si u : Shape} {α : Type} {w : Nat}

/-- One step of the fold: update number `n` replaces the element it lands on, if any, by its value. -/
private def setStep (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- The scatter with a `set` body is the fold of that step over the update numbers. -/
private theorem scatter_eq_foldl (d : ScatterDims s si u) (x : s.Idx → α) (idx : IVec si w) (upd : u.Idx → α) :
    Host.scatter d (fun _ b => b) x idx upd = (List.finRange u.numel).foldl (setStep d idx upd) x := rfl

/-- A step whose update lands on `i` leaves the update's value at `i`. -/
private theorem setStep_of_some (d : ScatterDims s si u) (idx : IVec si w) (upd : u.Idx → α) (r : s.Idx → α)
    (n : Fin u.numel) (i : s.Idx) (h : d.resultIdx? (u.rowMajor.symm n) idx = some i) :
    setStep d idx upd r n i = upd (u.rowMajor.symm n) := by
  unfold setStep
  rw [h]
  exact if_pos rfl

/-- A step whose update does not land on `i` leaves the element at `i` as it was. -/
private theorem setStep_of_ne (d : ScatterDims s si u) (idx : IVec si w) (upd : u.Idx → α) (r : s.Idx → α)
    (n : Fin u.numel) (i : s.Idx) (h : d.resultIdx? (u.rowMajor.symm n) idx ≠ some i) :
    setStep d idx upd r n i = r i := by
  unfold setStep
  cases hres : d.resultIdx? (u.rowMajor.symm n) idx with
  | none => rfl
  | some i' =>
    have hne : i ≠ i' := fun e => h (by rw [hres, e])
    exact if_neg hne

/-- Folding over update numbers none of which lands on `i` leaves the element at `i` as it was. -/
private theorem foldl_miss (d : ScatterDims s si u) (idx : IVec si w) (upd : u.Idx → α) (i : s.Idx)
    (L : List (Fin u.numel)) (r : s.Idx → α)
    (hnone : ∀ n ∈ L, d.resultIdx? (u.rowMajor.symm n) idx ≠ some i) :
    L.foldl (setStep d idx upd) r i = r i := by
  induction L generalizing r with
  | nil => rfl
  | cons n L ih =>
    rw [List.foldl_cons, ih _ fun m hm => hnone m (List.mem_cons_of_mem _ hm),
      setStep_of_ne d idx upd r n i (hnone n List.mem_cons_self)]

/-- Folding over update numbers one of which lands on `i`, all those that do carrying the value `v`, leaves `v`
    at `i`: after the last of them no later step touches `i`. -/
private theorem foldl_hit (d : ScatterDims s si u) (idx : IVec si w) (upd : u.Idx → α) (i : s.Idx) (v : α)
    (L : List (Fin u.numel)) (r : s.Idx → α)
    (hex : ∃ n ∈ L, d.resultIdx? (u.rowMajor.symm n) idx = some i)
    (hall : ∀ n ∈ L, d.resultIdx? (u.rowMajor.symm n) idx = some i → upd (u.rowMajor.symm n) = v) :
    L.foldl (setStep d idx upd) r i = v := by
  induction L generalizing r with
  | nil => obtain ⟨n, hn, _⟩ := hex; cases hn
  | cons n L ih =>
    rw [List.foldl_cons]
    by_cases hL : ∃ m ∈ L, d.resultIdx? (u.rowMajor.symm m) idx = some i
    · exact ih _ hL fun m hm => hall m (List.mem_cons_of_mem _ hm)
    · have hnone : ∀ m ∈ L, d.resultIdx? (u.rowMajor.symm m) idx ≠ some i := fun m hm e => hL ⟨m, hm, e⟩
      have hn : d.resultIdx? (u.rowMajor.symm n) idx = some i := by
        obtain ⟨m, hm, e⟩ := hex
        rcases List.mem_cons.mp hm with rfl | hm'
        · exact e
        · exact absurd e (hnone m hm')
      rw [foldl_miss d idx upd i L _ hnone, setStep_of_some d idx upd r n i hn]
      exact hall n List.mem_cons_self hn

/-- HIT: if update index `j` lands on `i` and every update index landing on `i` carries `j`'s value, the result at
    `i` is that value. -/
theorem scatter_set_hit (d : ScatterDims s si u) (x : s.Idx → α) (idx : IVec si w) (upd : u.Idx → α) (i : s.Idx)
    (j : u.Idx) (hj : d.resultIdx? j idx = some i)
    (hall : ∀ j', d.resultIdx? j' idx = some i → upd j' = upd j) :
    Host.scatter d (fun _ b => b) x idx upd i = upd j := by
  rw [scatter_eq_foldl]
  refine foldl_hit d idx upd i (upd j) _ x ⟨u.rowMajor j, List.mem_finRange _, ?_⟩ fun n _ hn => hall _ hn
  rw [Equiv.symm_apply_apply]
  exact hj

/-- MISS: if no update index lands on `i`, the result at `i` is the operand's element. -/
theorem scatter_set_miss (d : ScatterDims s si u) (x : s.Idx → α) (idx : IVec si w) (upd : u.Idx → α) (i : s.Idx)
    (hnone : ∀ j, d.resultIdx? j idx ≠ some i) :
    Host.scatter d (fun _ b => b) x idx upd i = x i := by
  rw [scatter_eq_foldl]
  exact foldl_miss d idx upd i _ x fun n _ => hnone _

end General

/-! ## A block of columns: `x.at[:, o:o+K].set(v)`

Operand `[R, C]`, scatter indices `[1]` (the start column), updates `[R, K]`: update_window_dims `[0, 1]`,
inserted_window_dims `[]`, scatter_dims_to_operand_dims `[1]`, index_vector_dim 0. -/

abbrev colBlockDims (R C K : Nat) (wf : ScatterDims.WF ⟨2, ![R, C]⟩ ⟨1, ![1]⟩ ⟨2, ![R, K]⟩ [0, 1] [] [1] 0) :
    ScatterDims ⟨2, ![R, C]⟩ ⟨1, ![1]⟩ ⟨2, ![R, K]⟩ where
  updateWindowDims := [0, 1]
  insertedWindowDims := []
  scatterDimsToOperandDims := [1]
  indexVectorDim := 0
  wf := wf

section ColBlock
variable {R C K w : Nat} (wf : ScatterDims.WF ⟨2, ![R, C]⟩ ⟨1, ![1]⟩ ⟨2, ![R, K]⟩ [0, 1] [] [1] 0)

/-- The scatter index names no row: on the operand's row axis the window starts at `0`. -/
private theorem colBlock_start0 (idx : IVec ⟨1, ![1]⟩ w) (j : (⟨2, ![R, K]⟩ : Shape).Idx) :
    (colBlockDims R C K wf).start j idx 0 = 0 := by
  unfold ScatterDims.start
  rw [dif_neg (by decide : (0 : Fin 2) ∉ ([1] : List (Fin 2)))]

/-- On the operand's column axis the window starts at the scatter index, read signed. -/
private theorem colBlock_start1 (idx : IVec ⟨1, ![1]⟩ w) (j : (⟨2, ![R, K]⟩ : Shape).Idx) :
    (colBlockDims R C K wf).start j idx 1 = (idx (ix1 0)).toInt := by
  have hmem : (1 : Fin 2) ∈ (colBlockDims R C K wf).scatterDimsToOperandDims := List.mem_singleton.mpr rfl
  have hsi : (colBlockDims R C K wf).siIdx j ⟨List.idxOf (1 : Fin 2) (colBlockDims R C K wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- The window coordinate on the operand's row axis is the update's row. -/
private theorem colBlock_window0 (a : Fin R) (b : Fin K) : (colBlockDims R C K wf).window (ix2 a b) 0 = a.val := by
  unfold ScatterDims.window
  rw [dif_pos (mem_kept (by decide : (0 : Fin 2) ∉ ([] : List (Fin 2))))]
  rfl

/-- The window coordinate on the operand's column axis is the update's column. -/
private theorem colBlock_window1 (a : Fin R) (b : Fin K) : (colBlockDims R C K wf).window (ix2 a b) 1 = b.val := by
  unfold ScatterDims.window
  rw [dif_pos (mem_kept (by decide : (1 : Fin 2) ∉ ([] : List (Fin 2))))]
  rfl

/-- Update `(a, b)` lands on element `(r, c)` exactly when `a` is `r` and the start column plus `b` is `c`. -/
private theorem colBlock_resultIdx (idx : IVec ⟨1, ![1]⟩ w) (o : Nat) (ho : (idx (ix1 0)).toInt = (o : Int))
    (a : Fin R) (b : Fin K) (r : Fin R) (c : Fin C) :
    (colBlockDims R C K wf).resultIdx? (ix2 a b) idx = some (ix2 r c) ↔ (a = r ∧ o + b.val = c.val) := by
  rw [resultIdx?_eq_some_iff]
  constructor
  · intro H
    have h0 := H 0
    have h1 := H 1
    rw [colBlock_start0, colBlock_window0, zero_add] at h0
    rw [colBlock_start1, colBlock_window1, ho] at h1
    have h0' : (a.val : Int) = (r.val : Int) := h0
    have h1' : (o : Int) + (b.val : Int) = (c.val : Int) := h1
    exact ⟨Fin.ext (by omega), by omega⟩
  · rintro ⟨rfl, H⟩ e
    match e with
    | ⟨0, _⟩ =>
      show (colBlockDims R C K wf).start (ix2 a b) idx 0 + ((colBlockDims R C K wf).window (ix2 a b) 0 : Int) = (a.val : Int)
      rw [colBlock_start0, colBlock_window0, zero_add]
    | ⟨1, _⟩ =>
      show (colBlockDims R C K wf).start (ix2 a b) idx 1 + ((colBlockDims R C K wf).window (ix2 a b) 1 : Int) = (c.val : Int)
      rw [colBlock_start1, colBlock_window1, ho]
      omega

end ColBlock

/-- Columns `o … o+K−1` hold the update, the others the operand. -/
theorem colBlockSet_apply {α : Type} {R C K w : Nat} (wf : ScatterDims.WF ⟨2, ![R, C]⟩ ⟨1, ![1]⟩ ⟨2, ![R, K]⟩ [0, 1] [] [1] 0)
    (x : (⟨2, ![R, C]⟩ : Shape).Idx → α) (idx : IVec ⟨1, ![1]⟩ w) (upd : (⟨2, ![R, K]⟩ : Shape).Idx → α)
    (o : Nat) (ho : (idx (ix1 0)).toInt = (o : Int)) (r : Fin R) (c : Fin C) :
    Host.scatter (colBlockDims R C K wf) (fun _ b => b) x idx upd (ix2 r c)
      = if h : o ≤ c.val ∧ c.val < o + K then upd (ix2 r ⟨c.val - o, by omega⟩) else x (ix2 r c) := by
  by_cases h : o ≤ c.val ∧ c.val < o + K
  · rw [dif_pos h]
    refine scatter_set_hit _ x idx upd _ (ix2 r ⟨c.val - o, by omega⟩) ?_ ?_
    · exact (colBlock_resultIdx wf idx o ho _ _ _ _).mpr ⟨rfl, by show o + (c.val - o) = c.val; omega⟩
    · intro j' hj'
      obtain ⟨a, b, rfl⟩ : ∃ (a : Fin R) (b : Fin K), j' = ix2 a b := ⟨j' 0, j' 1, eq_ix2 j'⟩
      obtain ⟨rfl, hb⟩ := (colBlock_resultIdx wf idx o ho _ _ _ _).mp hj'
      have hbe : b = ⟨c.val - o, by omega⟩ := Fin.ext (by show b.val = c.val - o; omega)
      rw [hbe]
  · rw [dif_neg h]
    refine scatter_set_miss _ x idx upd _ fun j' hj' => h ?_
    obtain ⟨a, b, rfl⟩ : ∃ (a : Fin R) (b : Fin K), j' = ix2 a b := ⟨j' 0, j' 1, eq_ix2 j'⟩
    obtain ⟨_, hb⟩ := (colBlock_resultIdx wf idx o ho _ _ _ _).mp hj'
    have := b.isLt
    omega

/-! ## A block of rows: `x.at[o:o+K, :].set(v)`

Operand `[R, C]`, scatter indices `[1]` (the start row), updates `[K, C]`: update_window_dims `[0, 1]`,
inserted_window_dims `[]`, scatter_dims_to_operand_dims `[0]`, index_vector_dim 0. -/

abbrev rowBlockDims (R C K : Nat) (wf : ScatterDims.WF ⟨2, ![R, C]⟩ ⟨1, ![1]⟩ ⟨2, ![K, C]⟩ [0, 1] [] [0] 0) :
    ScatterDims ⟨2, ![R, C]⟩ ⟨1, ![1]⟩ ⟨2, ![K, C]⟩ where
  updateWindowDims := [0, 1]
  insertedWindowDims := []
  scatterDimsToOperandDims := [0]
  indexVectorDim := 0
  wf := wf

section RowBlock
variable {R C K w : Nat} (wf : ScatterDims.WF ⟨2, ![R, C]⟩ ⟨1, ![1]⟩ ⟨2, ![K, C]⟩ [0, 1] [] [0] 0)

/-- On the operand's row axis the window starts at the scatter index, read signed. -/
private theorem rowBlock_start0 (idx : IVec ⟨1, ![1]⟩ w) (j : (⟨2, ![K, C]⟩ : Shape).Idx) :
    (rowBlockDims R C K wf).start j idx 0 = (idx (ix1 0)).toInt := by
  have hmem : (0 : Fin 2) ∈ (rowBlockDims R C K wf).scatterDimsToOperandDims := List.mem_singleton.mpr rfl
  have hsi : (rowBlockDims R C K wf).siIdx j ⟨List.idxOf (0 : Fin 2) (rowBlockDims R C K wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- The scatter index names no column: on the operand's column axis the window starts at `0`. -/
private theorem rowBlock_start1 (idx : IVec ⟨1, ![1]⟩ w) (j : (⟨2, ![K, C]⟩ : Shape).Idx) :
    (rowBlockDims R C K wf).start j idx 1 = 0 := by
  unfold ScatterDims.start
  rw [dif_neg (by decide : (1 : Fin 2) ∉ ([0] : List (Fin 2)))]

/-- The window coordinate on the operand's row axis is the update's row. -/
private theorem rowBlock_window0 (a : Fin K) (b : Fin C) : (rowBlockDims R C K wf).window (ix2 a b) 0 = a.val := by
  unfold ScatterDims.window
  rw [dif_pos (mem_kept (by decide : (0 : Fin 2) ∉ ([] : List (Fin 2))))]
  rfl

/-- The window coordinate on the operand's column axis is the update's column. -/
private theorem rowBlock_window1 (a : Fin K) (b : Fin C) : (rowBlockDims R C K wf).window (ix2 a b) 1 = b.val := by
  unfold ScatterDims.window
  rw [dif_pos (mem_kept (by decide : (1 : Fin 2) ∉ ([] : List (Fin 2))))]
  rfl

/-- Update `(a, b)` lands on element `(r, c)` exactly when the start row plus `a` is `r` and `b` is `c`. -/
private theorem rowBlock_resultIdx (idx : IVec ⟨1, ![1]⟩ w) (o : Nat) (ho : (idx (ix1 0)).toInt = (o : Int))
    (a : Fin K) (b : Fin C) (r : Fin R) (c : Fin C) :
    (rowBlockDims R C K wf).resultIdx? (ix2 a b) idx = some (ix2 r c) ↔ (o + a.val = r.val ∧ b = c) := by
  rw [resultIdx?_eq_some_iff]
  constructor
  · intro H
    have h0 := H 0
    have h1 := H 1
    rw [rowBlock_start0, rowBlock_window0, ho] at h0
    rw [rowBlock_start1, rowBlock_window1, zero_add] at h1
    have h0' : (o : Int) + (a.val : Int) = (r.val : Int) := h0
    have h1' : (b.val : Int) = (c.val : Int) := h1
    exact ⟨by omega, Fin.ext (by omega)⟩
  · rintro ⟨H, rfl⟩ e
    match e with
    | ⟨0, _⟩ =>
      show (rowBlockDims R C K wf).start (ix2 a b) idx 0 + ((rowBlockDims R C K wf).window (ix2 a b) 0 : Int) = (r.val : Int)
      rw [rowBlock_start0, rowBlock_window0, ho]
      omega
    | ⟨1, _⟩ =>
      show (rowBlockDims R C K wf).start (ix2 a b) idx 1 + ((rowBlockDims R C K wf).window (ix2 a b) 1 : Int) = (b.val : Int)
      rw [rowBlock_start1, rowBlock_window1, zero_add]

end RowBlock

/-- Rows `o … o+K−1` hold the update, the others the operand. -/
theorem rowBlockSet_apply {α : Type} {R C K w : Nat} (wf : ScatterDims.WF ⟨2, ![R, C]⟩ ⟨1, ![1]⟩ ⟨2, ![K, C]⟩ [0, 1] [] [0] 0)
    (x : (⟨2, ![R, C]⟩ : Shape).Idx → α) (idx : IVec ⟨1, ![1]⟩ w) (upd : (⟨2, ![K, C]⟩ : Shape).Idx → α)
    (o : Nat) (ho : (idx (ix1 0)).toInt = (o : Int)) (r : Fin R) (c : Fin C) :
    Host.scatter (rowBlockDims R C K wf) (fun _ b => b) x idx upd (ix2 r c)
      = if h : o ≤ r.val ∧ r.val < o + K then upd (ix2 ⟨r.val - o, by omega⟩ c) else x (ix2 r c) := by
  by_cases h : o ≤ r.val ∧ r.val < o + K
  · rw [dif_pos h]
    refine scatter_set_hit _ x idx upd _ (ix2 ⟨r.val - o, by omega⟩ c) ?_ ?_
    · exact (rowBlock_resultIdx wf idx o ho _ _ _ _).mpr ⟨by show o + (r.val - o) = r.val; omega, rfl⟩
    · intro j' hj'
      obtain ⟨a, b, rfl⟩ : ∃ (a : Fin K) (b : Fin C), j' = ix2 a b := ⟨j' 0, j' 1, eq_ix2 j'⟩
      obtain ⟨ha, rfl⟩ := (rowBlock_resultIdx wf idx o ho _ _ _ _).mp hj'
      have hae : a = ⟨r.val - o, by omega⟩ := Fin.ext (by show a.val = r.val - o; omega)
      rw [hae]
  · rw [dif_neg h]
    refine scatter_set_miss _ x idx upd _ fun j' hj' => h ?_
    obtain ⟨a, b, rfl⟩ : ∃ (a : Fin K) (b : Fin C), j' = ix2 a b := ⟨j' 0, j' 1, eq_ix2 j'⟩
    obtain ⟨ha, _⟩ := (rowBlock_resultIdx wf idx o ho _ _ _ _).mp hj'
    have := a.isLt
    omega

/-! ## One whole row: `x.at[o, :].set(v)`

Operand `[R, C]`, scatter indices `[1]` (the row), updates `[C]`: update_window_dims `[0]`, inserted_window_dims
`[0]`, scatter_dims_to_operand_dims `[0]`, index_vector_dim 0. -/

abbrev oneRowDims (R C : Nat) (wf : ScatterDims.WF ⟨2, ![R, C]⟩ ⟨1, ![1]⟩ ⟨1, ![C]⟩ [0] [0] [0] 0) :
    ScatterDims ⟨2, ![R, C]⟩ ⟨1, ![1]⟩ ⟨1, ![C]⟩ where
  updateWindowDims := [0]
  insertedWindowDims := [0]
  scatterDimsToOperandDims := [0]
  indexVectorDim := 0
  wf := wf

section OneRow
variable {R C w : Nat} (wf : ScatterDims.WF ⟨2, ![R, C]⟩ ⟨1, ![1]⟩ ⟨1, ![C]⟩ [0] [0] [0] 0)

/-- On the operand's row axis the window starts at the scatter index, read signed. -/
private theorem oneRow_start0 (idx : IVec ⟨1, ![1]⟩ w) (j : (⟨1, ![C]⟩ : Shape).Idx) :
    (oneRowDims R C wf).start j idx 0 = (idx (ix1 0)).toInt := by
  have hmem : (0 : Fin 2) ∈ (oneRowDims R C wf).scatterDimsToOperandDims := List.mem_singleton.mpr rfl
  have hsi : (oneRowDims R C wf).siIdx j ⟨List.idxOf (0 : Fin 2) (oneRowDims R C wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- The scatter index names no column: on the operand's column axis the window starts at `0`. -/
private theorem oneRow_start1 (idx : IVec ⟨1, ![1]⟩ w) (j : (⟨1, ![C]⟩ : Shape).Idx) :
    (oneRowDims R C wf).start j idx 1 = 0 := by
  unfold ScatterDims.start
  rw [dif_neg (by decide : (1 : Fin 2) ∉ ([0] : List (Fin 2)))]

/-- The row axis is inserted: the window coordinate on it is `0`. -/
private theorem oneRow_window0 (j : (⟨1, ![C]⟩ : Shape).Idx) : (oneRowDims R C wf).window j 0 = 0 := by
  unfold ScatterDims.window
  rw [dif_neg (not_mem_kept (List.mem_singleton.mpr rfl))]

/-- The window coordinate on the operand's column axis is the update's coordinate. -/
private theorem oneRow_window1 (b : Fin C) : (oneRowDims R C wf).window (ix1 b) 1 = b.val := by
  unfold ScatterDims.window
  rw [dif_pos (mem_kept (by decide : (1 : Fin 2) ∉ ([0] : List (Fin 2))))]
  rfl

/-- Update `b` lands on element `(r, c)` exactly when the scatter index is `r` and `b` is `c`. -/
private theorem oneRow_resultIdx (idx : IVec ⟨1, ![1]⟩ w) (o : Nat) (ho : (idx (ix1 0)).toInt = (o : Int))
    (b : Fin C) (r : Fin R) (c : Fin C) :
    (oneRowDims R C wf).resultIdx? (ix1 b) idx = some (ix2 r c) ↔ (r.val = o ∧ b = c) := by
  rw [resultIdx?_eq_some_iff]
  constructor
  · intro H
    have h0 := H 0
    have h1 := H 1
    rw [oneRow_start0, oneRow_window0, ho, Nat.cast_zero, add_zero] at h0
    rw [oneRow_start1, oneRow_window1, zero_add] at h1
    have h0' : (o : Int) = (r.val : Int) := h0
    have h1' : (b.val : Int) = (c.val : Int) := h1
    exact ⟨by omega, Fin.ext (by omega)⟩
  · rintro ⟨H, rfl⟩ e
    match e with
    | ⟨0, _⟩ =>
      show (oneRowDims R C wf).start (ix1 b) idx 0 + ((oneRowDims R C wf).window (ix1 b) 0 : Int) = (r.val : Int)
      rw [oneRow_start0, oneRow_window0, ho, Nat.cast_zero, add_zero]
      omega
    | ⟨1, _⟩ =>
      show (oneRowDims R C wf).start (ix1 b) idx 1 + ((oneRowDims R C wf).window (ix1 b) 1 : Int) = (b.val : Int)
      rw [oneRow_start1, oneRow_window1, zero_add]

end OneRow

/-- Row `o` holds the update, the others the operand. -/
theorem oneRowSet_apply {α : Type} {R C w : Nat} (wf : ScatterDims.WF ⟨2, ![R, C]⟩ ⟨1, ![1]⟩ ⟨1, ![C]⟩ [0] [0] [0] 0)
    (x : (⟨2, ![R, C]⟩ : Shape).Idx → α) (idx : IVec ⟨1, ![1]⟩ w) (upd : (⟨1, ![C]⟩ : Shape).Idx → α)
    (o : Nat) (ho : (idx (ix1 0)).toInt = (o : Int)) (r : Fin R) (c : Fin C) :
    Host.scatter (oneRowDims R C wf) (fun _ b => b) x idx upd (ix2 r c)
      = if r.val = o then upd (ix1 c) else x (ix2 r c) := by
  by_cases h : r.val = o
  · rw [if_pos h]
    refine scatter_set_hit _ x idx upd _ (ix1 c) ?_ ?_
    · exact (oneRow_resultIdx wf idx o ho _ _ _).mpr ⟨h, rfl⟩
    · intro j' hj'
      obtain ⟨b, rfl⟩ : ∃ b : Fin C, j' = ix1 b := ⟨j' 0, eq_ix1 j'⟩
      obtain ⟨_, rfl⟩ := (oneRow_resultIdx wf idx o ho _ _ _).mp hj'
      rfl
  · rw [if_neg h]
    refine scatter_set_miss _ x idx upd _ fun j' hj' => h ?_
    obtain ⟨b, rfl⟩ : ∃ b : Fin C, j' = ix1 b := ⟨j' 0, eq_ix1 j'⟩
    exact ((oneRow_resultIdx wf idx o ho _ _ _).mp hj').1

/-! ## A segment of one row: `x.at[r₀, o:o+K].set(v)`

Operand `[R, C]`, scatter indices `[2]` (the row and the start column), updates `[K]`: update_window_dims `[0]`,
inserted_window_dims `[0]`, scatter_dims_to_operand_dims `[0, 1]`, index_vector_dim 0. -/

abbrev rowSegDims (R C K : Nat) (wf : ScatterDims.WF ⟨2, ![R, C]⟩ ⟨1, ![2]⟩ ⟨1, ![K]⟩ [0] [0] [0, 1] 0) :
    ScatterDims ⟨2, ![R, C]⟩ ⟨1, ![2]⟩ ⟨1, ![K]⟩ where
  updateWindowDims := [0]
  insertedWindowDims := [0]
  scatterDimsToOperandDims := [0, 1]
  indexVectorDim := 0
  wf := wf

section RowSeg
variable {R C K w : Nat} (wf : ScatterDims.WF ⟨2, ![R, C]⟩ ⟨1, ![2]⟩ ⟨1, ![K]⟩ [0] [0] [0, 1] 0)

/-- On the operand's row axis the window starts at the first scatter index, read signed. -/
private theorem rowSeg_start0 (idx : IVec ⟨1, ![2]⟩ w) (j : (⟨1, ![K]⟩ : Shape).Idx) :
    (rowSegDims R C K wf).start j idx 0 = (idx (ix1 0)).toInt := by
  have hmem : (0 : Fin 2) ∈ (rowSegDims R C K wf).scatterDimsToOperandDims :=
    (by decide : (0 : Fin 2) ∈ ([0, 1] : List (Fin 2)))
  have hsi : (rowSegDims R C K wf).siIdx j ⟨List.idxOf (0 : Fin 2) (rowSegDims R C K wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- On the operand's column axis the window starts at the second scatter index, read signed. -/
private theorem rowSeg_start1 (idx : IVec ⟨1, ![2]⟩ w) (j : (⟨1, ![K]⟩ : Shape).Idx) :
    (rowSegDims R C K wf).start j idx 1 = (idx (ix1 1)).toInt := by
  have hmem : (1 : Fin 2) ∈ (rowSegDims R C K wf).scatterDimsToOperandDims :=
    (by decide : (1 : Fin 2) ∈ ([0, 1] : List (Fin 2)))
  have hsi : (rowSegDims R C K wf).siIdx j ⟨List.idxOf (1 : Fin 2) (rowSegDims R C K wf).scatterDimsToOperandDims,
      List.idxOf_lt_length_iff.2 hmem⟩ = ix1 1 := by
    funext b; refine Fin.ext ?_
    match b with
    | ⟨0, _⟩ => rfl
  unfold ScatterDims.start
  rw [dif_pos hmem, hsi]

/-- The row axis is inserted: the window coordinate on it is `0`. -/
private theorem rowSeg_window0 (j : (⟨1, ![K]⟩ : Shape).Idx) : (rowSegDims R C K wf).window j 0 = 0 := by
  unfold ScatterDims.window
  rw [dif_neg (not_mem_kept (List.mem_singleton.mpr rfl))]

/-- The window coordinate on the operand's column axis is the update's coordinate. -/
private theorem rowSeg_window1 (b : Fin K) : (rowSegDims R C K wf).window (ix1 b) 1 = b.val := by
  unfold ScatterDims.window
  rw [dif_pos (mem_kept (by decide : (1 : Fin 2) ∉ ([0] : List (Fin 2))))]
  rfl

/-- Update `b` lands on element `(r, c)` exactly when the first scatter index is `r` and the second plus `b` is
    `c`. -/
private theorem rowSeg_resultIdx (idx : IVec ⟨1, ![2]⟩ w) (r₀ o : Nat) (hr : (idx (ix1 0)).toInt = (r₀ : Int))
    (ho : (idx (ix1 1)).toInt = (o : Int)) (b : Fin K) (r : Fin R) (c : Fin C) :
    (rowSegDims R C K wf).resultIdx? (ix1 b) idx = some (ix2 r c) ↔ (r.val = r₀ ∧ o + b.val = c.val) := by
  rw [resultIdx?_eq_some_iff]
  constructor
  · intro H
    have h0 := H 0
    have h1 := H 1
    rw [rowSeg_start0, rowSeg_window0, hr, Nat.cast_zero, add_zero] at h0
    rw [rowSeg_start1, rowSeg_window1, ho] at h1
    have h0' : (r₀ : Int) = (r.val : Int) := h0
    have h1' : (o : Int) + (b.val : Int) = (c.val : Int) := h1
    exact ⟨by omega, by omega⟩
  · rintro ⟨H0, H1⟩ e
    match e with
    | ⟨0, _⟩ =>
      show (rowSegDims R C K wf).start (ix1 b) idx 0 + ((rowSegDims R C K wf).window (ix1 b) 0 : Int) = (r.val : Int)
      rw [rowSeg_start0, rowSeg_window0, hr, Nat.cast_zero, add_zero]
      omega
    | ⟨1, _⟩ =>
      show (rowSegDims R C K wf).start (ix1 b) idx 1 + ((rowSegDims R C K wf).window (ix1 b) 1 : Int) = (c.val : Int)
      rw [rowSeg_start1, rowSeg_window1, ho]
      omega

end RowSeg

/-- Columns `o … o+K−1` of row `r₀` hold the update, every other element the operand. -/
theorem rowSegSet_apply {α : Type} {R C K w : Nat} (wf : ScatterDims.WF ⟨2, ![R, C]⟩ ⟨1, ![2]⟩ ⟨1, ![K]⟩ [0] [0] [0, 1] 0)
    (x : (⟨2, ![R, C]⟩ : Shape).Idx → α) (idx : IVec ⟨1, ![2]⟩ w) (upd : (⟨1, ![K]⟩ : Shape).Idx → α)
    (r₀ o : Nat) (hr : (idx (ix1 0)).toInt = (r₀ : Int)) (ho : (idx (ix1 1)).toInt = (o : Int)) (r : Fin R) (c : Fin C) :
    Host.scatter (rowSegDims R C K wf) (fun _ b => b) x idx upd (ix2 r c)
      = if h : r.val = r₀ ∧ o ≤ c.val ∧ c.val < o + K then upd (ix1 ⟨c.val - o, by omega⟩) else x (ix2 r c) := by
  by_cases h : r.val = r₀ ∧ o ≤ c.val ∧ c.val < o + K
  · rw [dif_pos h]
    refine scatter_set_hit _ x idx upd _ (ix1 ⟨c.val - o, by omega⟩) ?_ ?_
    · exact (rowSeg_resultIdx wf idx r₀ o hr ho _ _ _).mpr ⟨h.1, by show o + (c.val - o) = c.val; omega⟩
    · intro j' hj'
      obtain ⟨b, rfl⟩ : ∃ b : Fin K, j' = ix1 b := ⟨j' 0, eq_ix1 j'⟩
      obtain ⟨_, hb⟩ := (rowSeg_resultIdx wf idx r₀ o hr ho _ _ _).mp hj'
      have hbe : b = ⟨c.val - o, by omega⟩ := Fin.ext (by show b.val = c.val - o; omega)
      rw [hbe]
  · rw [dif_neg h]
    refine scatter_set_miss _ x idx upd _ fun j' hj' => h ?_
    obtain ⟨b, rfl⟩ : ∃ b : Fin K, j' = ix1 b := ⟨j' 0, eq_ix1 j'⟩
    obtain ⟨hr', hb⟩ := (rowSeg_resultIdx wf idx r₀ o hr ho _ _ _).mp hj'
    have := b.isLt
    exact ⟨hr', by omega, by omega⟩

end Idealize.ShloMosaic.ScatterSet

end
-- ==== Proof.LibPairIndex.lean ====
/-
  A MATRIX READ AND WRITTEN AT ONE INDEX PAIR PER ROW, read at an index.

  `x[r, c]` of a matrix `x : [N, N']` at integer arrays `r, c : [M]` is a `stablehlo.gather` whose start indices are
  the pairs `[M, 2]` (offset_dims `[]`, collapsed_slice_dims `[0, 1]`, start_index_map `[0, 1]`, index_vector_dim 1,
  slice_sizes `[1, 1]`), and `x.at[r, c].set(v)` is a `stablehlo.scatter` over the same pairs whose body returns the
  update. The pairs themselves are a `concatenate` along axis 1 of the two index vectors, each broadcast to a column.

  * `pairGather_apply`: the gather's element `j` is the operand at the pair `(idx[j, 0], idx[j, 1])`, each component
    read SIGNED and CLAMPED into the operand; `pairGather_apply_inRange` is the same when the pair is an operand index.
  * `pairSet_apply`: when pair `j`'s row component is `j` itself (`r = arange`), every update lands in its own row, so
    the result at `(r, c)` is update `r` when pair `r`'s column component is `c`, and the operand's element otherwise.
  * `pairs_col0` / `pairs_col1` / `column_apply`: the pairs array read at `(j, 0)` and `(j, 1)`.
  * `wrap_of_nonneg`: jnp's normalisation of a negative index (`select (i < 0) (i + n) i`) leaves a non-negative one.
-/
import Idealize.ShloMosaic.PureOps.Ideal
import Idealize.ShloMosaic.Lib.ValueIdx
import Idealize.ShloMosaic.Lib.Pipeline.Value
import proofs.«423842_j58059367907504_3_alg».proof.Proof.LibGatherScatter
import proofs.«423842_j58059367907504_3_alg».proof.Proof.LibScatterSet

noncomputable section

namespace Idealize.ShloMosaic.PairIndex

open Idealize.ShloMosaic Idealize.ShloMosaic.ValueIdx Idealize.ShloMosaic.GatherScatter Idealize.ShloMosaic.ScatterSet

/-! ## The gather at index pairs -/

section PairGather
variable {α : Type}

/-- The dimension numbers of `x[r, c]` for an operand `[N, N']`, start indices `[M, 2]` and result `[M]`; their
    conditions `wf` are decided on a program's literal shapes. -/
abbrev pairGatherDims (N N' M : Nat)
    (wf : GatherDims.WF ⟨2, ![N, N']⟩ ⟨2, ![M, 2]⟩ ⟨1, ![M]⟩ [] [0, 1] [] [0, 1] [] 1 ![1, 1]) :
    GatherDims ⟨2, ![N, N']⟩ ⟨2, ![M, 2]⟩ ⟨1, ![M]⟩ where
  offsetDims := []
  collapsedSliceDims := [0, 1]
  operandBatchingDims := []
  startIndicesBatchingDims := []
  startIndexMap := [0, 1]
  indexVectorDim := 1
  sliceSizes := ![1, 1]
  wf := wf

variable {N N' M w : Nat} (wf : GatherDims.WF ⟨2, ![N, N']⟩ ⟨2, ![M, 2]⟩ ⟨1, ![M]⟩ [] [0, 1] [] [0, 1] [] 1 ![1, 1])

/-- Result element `j`'s slice starts, on the operand's row axis, at `idx[j, 0]` read signed and clamped into
    `[0, N − 1]`. -/
theorem pairGather_start0 (idx : IVec ⟨2, ![M, 2]⟩ w) (j : Fin M) :
    (pairGatherDims N N' M wf).start (ix1 j) idx 0 = min (idx (ix2 j 0)).toInt.toNat (N - 1) := by
  have hmem : (0 : Fin 2) ∈ (pairGatherDims N N' M wf).startIndexMap :=
    (by decide : (0 : Fin 2) ∈ ([0, 1] : List (Fin 2)))
  have hsi : (pairGatherDims N N' M wf).siIdx (ix1 j) ⟨List.idxOf (0 : Fin 2) (pairGatherDims N N' M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- … and on the column axis at `idx[j, 1]` read signed and clamped into `[0, N' − 1]`. -/
theorem pairGather_start1 (idx : IVec ⟨2, ![M, 2]⟩ w) (j : Fin M) :
    (pairGatherDims N N' M wf).start (ix1 j) idx 1 = min (idx (ix2 j 1)).toInt.toNat (N' - 1) := by
  have hmem : (1 : Fin 2) ∈ (pairGatherDims N N' M wf).startIndexMap :=
    (by decide : (1 : Fin 2) ∈ ([0, 1] : List (Fin 2)))
  have hsi : (pairGatherDims N N' M wf).siIdx (ix1 j) ⟨List.idxOf (1 : Fin 2) (pairGatherDims N N' M wf).startIndexMap,
      List.idxOf_lt_length_iff.2 hmem⟩ = ix2 j 1 := by
    funext b; refine Fin.ext ?_
    match b with
    | ⟨0, _⟩ => rfl
    | ⟨1, _⟩ => rfl
  unfold GatherDims.start
  rw [dif_pos hmem, hsi]
  rfl

/-- THE GATHER READ AT `j`: the operand at the pair `(idx[j, 0], idx[j, 1])`, each component read signed and
    clamped into the operand. -/
theorem pairGather_apply (hN : 0 < N) (hN' : 0 < N')
    (wf : GatherDims.WF ⟨2, ![N, N']⟩ ⟨2, ![M, 2]⟩ ⟨1, ![M]⟩ [] [0, 1] [] [0, 1] [] 1 ![1, 1])
    (x : (⟨2, ![N, N']⟩ : Shape).Idx → α) (idx : IVec ⟨2, ![M, 2]⟩ w) (j : Fin M) :
    Host.gather (pairGatherDims N N' M wf) x idx (ix1 j)
      = x (ix2 ⟨min (idx (ix2 j 0)).toInt.toNat (N - 1), by omega⟩
               ⟨min (idx (ix2 j 1)).toInt.toNat (N' - 1), by omega⟩) := by
  unfold Host.gather
  congr 1
  funext a
  refine Fin.ext ?_
  rw [operandIdx_val, batchCoord_of_nil _ rfl, Nat.add_zero]
  match a with
  | ⟨0, _⟩ =>
    show (pairGatherDims N N' M wf).start (ix1 j) idx 0 + (pairGatherDims N N' M wf).offCoord (ix1 j) 0 = _
    rw [pairGather_start0, offCoord_of_collapsed _ _ (by decide : (0 : Fin 2) ∈ ([0, 1] : List (Fin 2)))]
    rfl
  | ⟨1, _⟩ =>
    show (pairGatherDims N N' M wf).start (ix1 j) idx 1 + (pairGatherDims N N' M wf).offCoord (ix1 j) 1 = _
    rw [pairGather_start1, offCoord_of_collapsed _ _ (by decide : (1 : Fin 2) ∈ ([0, 1] : List (Fin 2)))]
    rfl

/-- The gather at `j` when its pair is the operand index `(r, c)`: the operand there. -/
theorem pairGather_apply_inRange (wf : GatherDims.WF ⟨2, ![N, N']⟩ ⟨2, ![M, 2]⟩ ⟨1, ![M]⟩ [] [0, 1] [] [0, 1] [] 1 ![1, 1])
    (x : (⟨2, ![N, N']⟩ : Shape).Idx → α) (idx : IVec ⟨2, ![M, 2]⟩ w) (j : Fin M) (r : Fin N) (c : Fin N')
    (h0 : (idx (ix2 j 0)).toInt = (r.val : Int)) (h1 : (idx (ix2 j 1)).toInt = (c.val : Int)) :
    Host.gather (pairGatherDims N N' M wf) x idx (ix1 j) = x (ix2 r c) := by
  have hr := r.isLt
  have hc := c.isLt
  rw [pairGather_apply (by omega) (by omega) wf x idx j]
  congr 1
  funext a
  refine Fin.ext ?_
  match a with
  | ⟨0, _⟩ =>
    show min (idx (ix2 j 0)).toInt.toNat (N - 1) = r.val
    rw [h0, Int.toNat_natCast]; omega
  | ⟨1, _⟩ =>
    show min (idx (ix2 j 1)).toInt.toNat (N' - 1) = c.val
    rw [h1, Int.toNat_natCast]; omega

end PairGather

/-! ## Scalars set into a matrix, one per row -/

section PairSet
variable {α : Type} {N N' w : Nat}

/-- SET AT ONE PAIR PER ROW, read at `(r, c)`: with pair `j`'s row component `j` itself, update `r` when pair `r`'s column
    component, read signed, is `c`; the operand's element otherwise (a column component outside the operand lands
    nowhere). -/
theorem pairSet_apply (wf : ScatterDims.WF ⟨2, ![N, N']⟩ ⟨2, ![N, 2]⟩ ⟨1, ![N]⟩ [] [0, 1] [0, 1] 1)
    (x : (⟨2, ![N, N']⟩ : Shape).Idx → α) (idx : IVec ⟨2, ![N, 2]⟩ w) (upd : (⟨1, ![N]⟩ : Shape).Idx → α)
    (hrow : ∀ j : Fin N, (idx (ix2 j 0)).toInt = (j.val : Int)) (r : Fin N) (c : Fin N') :
    Host.scatter (pairScatterDims N N' N wf) (fun _ b => b) x idx upd (ix2 r c)
      = if (idx (ix2 r 1)).toInt = (c.val : Int) then upd (ix1 r) else x (ix2 r c) := by
  by_cases h : (idx (ix2 r 1)).toInt = (c.val : Int)
  · rw [if_pos h]
    refine scatter_set_hit _ x idx upd _ (ix1 r) ((pairScatter_resultIdx wf idx r r c).mpr ⟨hrow r, h⟩) ?_
    intro j' hj'
    obtain ⟨j, rfl⟩ : ∃ j : Fin N, j' = ix1 j := ⟨j' 0, eq_ix1 j'⟩
    have h0 := ((pairScatter_resultIdx wf idx j r c).mp hj').1
    rw [hrow j] at h0
    have e : j = r := Fin.ext (by exact_mod_cast h0)
    rw [e]
  · rw [if_neg h]
    refine scatter_set_miss _ x idx upd _ fun j' hj' => h ?_
    obtain ⟨j, rfl⟩ : ∃ j : Fin N, j' = ix1 j := ⟨j' 0, eq_ix1 j'⟩
    obtain ⟨h0, h1⟩ := (pairScatter_resultIdx wf idx j r c).mp hj'
    rw [hrow j] at h0
    have e : j = r := Fin.ext (by exact_mod_cast h0)
    rw [← e]; exact h1

end PairSet

/-! ## The pairs array -/

section Pairs
variable {α : Type} {M : Nat}

/-- A vector broadcast to a column reads, at `(j, 0)`, the vector at `j`. -/
theorem column_apply (h : (⟨1, ![M]⟩ : Shape).BroadcastsInDim ⟨2, ![M, 1]⟩ ![0]) (v : (⟨1, ![M]⟩ : Shape).Idx → α)
    (j : Fin M) : broadcastInDim ⟨2, ![M, 1]⟩ ![0] h v (ix2 j 0) = v (ix1 j) := by
  simp only [broadcastInDim]
  congr 1
  funext a
  obtain rfl : a = 0 := Subsingleton.elim _ _
  apply Fin.ext
  have hj := j.isLt
  split
  · next h1 => change M = 1 at h1; show (0 : Nat) = j.val; omega
  · rfl

/-- Two columns laid side by side read, at `(j, 0)`, the first column. -/
theorem pairs_col0 (h : Shape.Concatenates [(⟨2, ![M, 1]⟩ : Shape), ⟨2, ![M, 1]⟩] ⟨2, ![M, 2]⟩ 1)
    (a b : (⟨2, ![M, 1]⟩ : Shape).Idx → α) (j : Fin M) :
    concatenate ⟨2, ![M, 2]⟩ 1 [⟨⟨2, ![M, 1]⟩, a⟩, ⟨⟨2, ![M, 1]⟩, b⟩] h (ix2 j 0) = a (ix2 j 0) :=
  concatenate_pair_apply_left (t := ⟨2, ![M, 2]⟩) (s₁ := ⟨2, ![M, 1]⟩) (s₂ := ⟨2, ![M, 1]⟩) (1 : Fin 2) a b h (ix2 j 0) rfl
      (ix2 j 0) fun d => by
    match d with
    | ⟨0, _⟩ => rfl
    | ⟨1, _⟩ => rfl

/-- … and, at `(j, 1)`, the second. -/
theorem pairs_col1 (h : Shape.Concatenates [(⟨2, ![M, 1]⟩ : Shape), ⟨2, ![M, 1]⟩] ⟨2, ![M, 2]⟩ 1)
    (a b : (⟨2, ![M, 1]⟩ : Shape).Idx → α) (j : Fin M) :
    concatenate ⟨2, ![M, 2]⟩ 1 [⟨⟨2, ![M, 1]⟩, a⟩, ⟨⟨2, ![M, 1]⟩, b⟩] h (ix2 j 1) = b (ix2 j 0) :=
  concatenate_pair_apply_right (t := ⟨2, ![M, 2]⟩) (s₁ := ⟨2, ![M, 1]⟩) (s₂ := ⟨2, ![M, 1]⟩) (1 : Fin 2) a b h (ix2 j 1) rfl rfl
    (ix2 j 0) (fun d hd => by
      match d with
      | ⟨0, _⟩ => rfl
      | ⟨1, _⟩ => exact absurd rfl hd) (by rfl)

end Pairs

/-! ## A non-negative index is not wrapped -/

/-- `select (i < 0) (i + n) i` at a word that is non-negative read signed is that word. -/
theorem wrap_of_nonneg (i n : BitVec 32) (h : 0 ≤ i.toInt) :
    Scalar.select (IntOp.cmpi .slt i 0#32) (IntOp.addi i n) i = i := by
  have : IntOp.cmpi .slt i 0#32 = 0#1 := by
    simp only [IntOp.cmpi]
    have : ¬ i.slt 0#32 := by
      simp only [BitVec.slt, BitVec.toInt_zero, decide_eq_true_eq, not_lt]; exact h
    simp [this]
  rw [this]
  exact select_zero _ _

end Idealize.ShloMosaic.PairIndex

end
-- ==== Proof.RefIdx.lean ====
/-
  INDEX AND WORD ARITHMETIC FOR THE FLATTENED IMAGES.

  The 32 images of 512 × 512 pixels flattened to one vector of 8388608 entries: entry `(b·512 + h)·512 + w` is pixel
  `(h, w)` of image `b`. A pixel's segment word `s` (below 100) offset by `100·b` is a small non-negative word whose
  value is `s + 100·b`; two such values agree exactly when the images agree and the segment words agree. So the
  entries of the flat vector whose offset word is `k + 100·b` are the pixels of image `b` whose segment word is `k`,
  and a sum over those entries is the double sum over image `b`'s rows and columns of the terms whose word is `k`.
-/
import Idealize.ShloMosaic.PureOps.Ideal
import Idealize.ShloMosaic.Lib.ValueIdx
import Idealize.ShloMosaic.Lib.StableHlo.Predicate
import proofs.«423842_j58059367907504_3_alg».proof.Proof.Spec

noncomputable section

open scoped BigOperators

namespace Cert.RefIdx

open Idealize.ShloMosaic Idealize.ShloMosaic.ValueIdx Idealize.ShloMosaic.StableHlo Cert.Spec

/-- The flat position of pixel `(h, w)` of image `b`. -/
def flat (b : Fin 32) (h w : Fin 512) : Fin 8388608 :=
  ⟨(b.val * 512 + h.val) * 512 + w.val, by have := b.isLt; have := h.isLt; have := w.isLt; omega⟩

theorem flat_val (b : Fin 32) (h w : Fin 512) : (flat b h w).val = (b.val * 512 + h.val) * 512 + w.val := rfl

/-- The image of a flat position. -/
def imgOf (j : Fin 8388608) : Fin 32 := ⟨j.val / 262144, by have := j.isLt; omega⟩
/-- The row of a flat position. -/
def rowOf (j : Fin 8388608) : Fin 512 := ⟨j.val / 512 % 512, by have := j.isLt; omega⟩
/-- The column of a flat position. -/
def colOf (j : Fin 8388608) : Fin 512 := ⟨j.val % 512, by have := j.isLt; omega⟩

/-- The pixel at a flat position. -/
def pxOf (j : Fin 8388608) : A4.Idx := px (imgOf j) (rowOf j) (colOf j)

theorem imgOf_flat (b : Fin 32) (h w : Fin 512) : imgOf (flat b h w) = b :=
  Fin.ext (by have := b.isLt; have := h.isLt; have := w.isLt; show ((b.val * 512 + h.val) * 512 + w.val) / 262144 = b.val; omega)
theorem rowOf_flat (b : Fin 32) (h w : Fin 512) : rowOf (flat b h w) = h :=
  Fin.ext (by have := b.isLt; have := h.isLt; have := w.isLt; show ((b.val * 512 + h.val) * 512 + w.val) / 512 % 512 = h.val; omega)
theorem colOf_flat (b : Fin 32) (h w : Fin 512) : colOf (flat b h w) = w :=
  Fin.ext (by have := b.isLt; have := h.isLt; have := w.isLt; show ((b.val * 512 + h.val) * 512 + w.val) % 512 = w.val; omega)

theorem pxOf_flat (b : Fin 32) (h w : Fin 512) : pxOf (flat b h w) = px b h w := by
  unfold pxOf; rw [imgOf_flat, rowOf_flat, colOf_flat]

theorem flat_of (j : Fin 8388608) : flat (imgOf j) (rowOf j) (colOf j) = j :=
  Fin.ext (by have := j.isLt; show (j.val / 262144 * 512 + j.val / 512 % 512) * 512 + j.val % 512 = j.val; omega)

/-- Flat positions are the triples (image, row, column) … -/
def flatEquiv : Fin 32 × Fin 512 × Fin 512 ≃ Fin 8388608 where
  toFun p := flat p.1 p.2.1 p.2.2
  invFun j := (imgOf j, rowOf j, colOf j)
  left_inv p := by
    obtain ⟨b, h, w⟩ := p
    exact Prod.ext (imgOf_flat b h w) (Prod.ext (rowOf_flat b h w) (colOf_flat b h w))
  right_inv j := flat_of j

/-- … so a sum over the flat positions is the triple sum over images, rows and columns. -/
theorem sum_flat {A : Type*} [AddCommMonoid A] (f : Fin 8388608 → A) :
    ∑ j, f j = ∑ b : Fin 32, ∑ h : Fin 512, ∑ w : Fin 512, f (flat b h w) := by
  rw [← Equiv.sum_comp flatEquiv f, Fintype.sum_prod_type]
  refine Finset.sum_congr rfl fun b _ => ?_
  rw [Fintype.sum_prod_type]
  rfl

/-- A segment word below 100 offset by 100 times an image number below 32 is the small word of that value. -/
theorem idWord_toNat (s : BitVec 32) (hs : s.toNat < 100) (b : ℕ) (hb : b < 32) :
    (IntOp.addi s (IntOp.muli (BitVec.ofNat 32 b) 100#32)).toNat = s.toNat + 100 * b := by
  simp only [IntOp.addi, IntOp.muli, BitVec.toNat_add, BitVec.toNat_mul, BitVec.toNat_ofNat, Nat.reducePow, Nat.reduceMod]
  omega

/-- … and reads the same signed. -/
theorem idWord_toInt (s : BitVec 32) (hs : s.toNat < 100) (b : ℕ) (hb : b < 32) :
    (IntOp.addi s (IntOp.muli (BitVec.ofNat 32 b) 100#32)).toInt = ((s.toNat + 100 * b : ℕ) : Int) := by
  have h := idWord_toNat s hs b hb
  rw [Predicate.toInt_eq_toNat_of_lt (by rw [h]; omega), h]

/-- The f32 word of one is the extended real `1`. -/
theorem one_eq : Spec.one = 1 := by
  have h : ((8388608 : ℝ) * ((2 : ℝ) ^ 23)⁻¹ : ℝ) = 1 := by norm_num
  simp [Spec.one, Ideal.ofBits, Ideal.ieee]
  exact_mod_cast h

/-- THE ENTRIES OF ONE SEGMENT. With every segment word below 100 and the flat vector's words the offset ones, the sum
    of `f` over the flat positions whose word is `k + 100·b` is the sum over image `b`'s pixels whose segment word is `k`. -/
theorem sum_segment (spx : A4.Idx → BitVec 32) (hr : ∀ i, (spx i).toNat < 100) (f : A4.Idx → EReal)
    (ids : Fin 8388608 → BitVec 32)
    (hids : ∀ j, (ids j).toInt = (((spx (pxOf j)).toNat + 100 * (imgOf j).val : ℕ) : Int))
    (b : Fin 32) (k : BitVec 32) (hk : k.toNat < 100) (n : ℕ) (hn : n = k.toNat + 100 * b.val) :
    ∑ j ∈ Finset.univ.filter (fun j : Fin 8388608 => (ids j).toInt = (n : Int)), f (pxOf j)
      = ∑ h : Fin 512, ∑ w : Fin 512, if spx (px b h w) = k then f (px b h w) else 0 := by
  rw [Finset.sum_filter, sum_flat, Finset.sum_eq_single b]
  · refine Finset.sum_congr rfl fun h _ => Finset.sum_congr rfl fun w _ => ?_
    rw [pxOf_flat]
    refine if_congr ?_ rfl rfl
    rw [hids, pxOf_flat, imgOf_flat, hn]
    constructor
    · intro e
      exact BitVec.eq_of_toNat_eq (by omega)
    · intro e
      rw [e]
  · intro b' _ hb'
    refine Finset.sum_eq_zero fun h _ => Finset.sum_eq_zero fun w _ => ?_
    rw [if_neg]
    rw [hids, pxOf_flat, imgOf_flat, hn]
    have h1 := hr (px b' h w)
    have h2 : b'.val ≠ b.val := fun e => hb' (Fin.ext e)
    omega
  · intro hb; exact absurd (Finset.mem_univ b) hb

end Cert.RefIdx

end
-- ==== Proof.Ref.lean ====
/-
  THE REFERENCE COMPUTES THE SPECIFICATION.

  The reference flattens the images, offsets every pixel's segment word by 100 times its image number, accumulates the
  weighted view and a vector of ones into 3200 zeroed segments, divides, and gathers each pixel's own segment mean.
  With every segment word below 100 the offset words are the small non-negative words `s + 100·b`: none wraps, none is
  negative, and two agree exactly when image and segment word agree. So segment `k + 100·b` holds the sum (the count) of
  image `b`'s pixels whose word is `k`, the gathered value at a pixel is its own segment's mean, the select on the label
  gives the target, and the two means of squared distances are the specification's.
-/
import proofs.«423842_j58059367907504_3_alg».proof.Defs
import proofs.«423842_j58059367907504_3_alg».proof.Proof.Gen.ReferenceIdeal
import proofs.«423842_j58059367907504_3_alg».proof.Proof.Gen.ReferenceIdeal.Run
import proofs.«423842_j58059367907504_3_alg».proof.Proof.Gen.ReferenceIdeal.Read
import proofs.«423842_j58059367907504_3_alg».proof.Proof.Spec
import proofs.«423842_j58059367907504_3_alg».proof.Proof.LibGatherScatter
import proofs.«423842_j58059367907504_3_alg».proof.Proof.LibPairIndex
import proofs.«423842_j58059367907504_3_alg».proof.Proof.RefIdx
import Idealize.ShloMosaic.Lib.StableHlo.Predicate

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.StableHlo Idealize.ShloMosaic.GatherScatter Idealize.ShloMosaic.PairIndex Cert.Spec Cert.RefIdx

variable (x0 x1 : S32x1x512x512.Idx → EReal) (x2 : S32.Idx → BitVec 32) (x3 : S32x1x512x512.Idx → BitVec 32)

/-! ## The index maps of the reshapes and broadcasts -/

/-- The flat vector's entry `j` is the pixel at `j`. -/
theorem idx13 (j : Fin 8388608) : idx_main_v13 (ix1 j) = pxOf j := by
  funext a
  match a with
  | ⟨0, _⟩ => rfl
  | ⟨1, _⟩ => rfl
  | ⟨2, _⟩ => rfl
  | ⟨3, _⟩ => rfl

/-- Through the intermediate [32, 262144] layout too. -/
theorem idx5_12 (j : Fin 8388608) : idx_main_v5 (idx_main_v12 (ix1 j)) = pxOf j := by
  have hj := j.isLt
  funext a
  match a with
  | ⟨0, _⟩ => exact Fin.ext (by show (j.val / 262144 * 262144 + j.val % 262144) / 262144 = j.val / 262144; omega)
  | ⟨1, _⟩ => rfl
  | ⟨2, _⟩ => exact Fin.ext (by show (j.val / 262144 * 262144 + j.val % 262144) / 512 % 512 = j.val / 512 % 512; omega)
  | ⟨3, _⟩ => exact Fin.ext (by show (j.val / 262144 * 262144 + j.val % 262144) % 512 = j.val % 512; omega)

/-- The column of indices at `(j, 0)` is the vector at `j`. -/
theorem idx15 (j : Fin 8388608) : idx_main_v15 (ix2 j 0) = ix1 j := by
  funext a
  match a with
  | ⟨0, _⟩ => rfl

theorem idx19 (j : Fin 8388608) : idx_main_v19 (ix2 j 0) = ix1 j := by
  funext a
  match a with
  | ⟨0, _⟩ => rfl

theorem idx29 (j : Fin 8388608) : idx_main_v29 (ix2 j 0) = ix1 j := by
  funext a
  match a with
  | ⟨0, _⟩ => rfl

/-- Pixel `(b, h, w)` reads the flat vector at its flat position. -/
theorem idx31 (b : Fin 32) (h w : Fin 512) : idx_main_v31 (px b h w) = ix1 (flat b h w) := by
  funext a
  match a with
  | ⟨0, _⟩ => exact Fin.ext (by show ((b.val * 1 + 0) * 512 + h.val) * 512 + w.val = (b.val * 512 + h.val) * 512 + w.val; omega)

/-- The label's broadcast reads the pixel's image. -/
theorem idx34 (i : S32x1x512x512.Idx) : idx_main_v34 (idx_main_call0_v1 i) = ix1 (i 0) := by
  funext a
  match a with
  | ⟨0, _⟩ => rfl

/-! ## The flat vectors -/

/-- The offset segment word at flat position `j`. -/
theorem v12_at (j : Fin 8388608) :
    val_main_v12 (F := Ideal) x3 (ix1 j)
      = IntOp.addi (x3 (pxOf j)) (IntOp.muli (BitVec.ofNat 32 (imgOf j).val) 100#32) := by
  rw [val_main_v12_apply, val_main_v11_apply, val_main_v5_apply, val_main_v10_apply, val_main_v9_apply,
    val_main_v7_apply, val_main_v8_apply, val_main_v6_apply, val_main_c_apply, idx5_12]
  rfl

/-- Under the range hypothesis it is the small word `s + 100·b`. -/
theorem v12_toInt (hr : ∀ i, (x3 i).toNat < 100) (j : Fin 8388608) :
    (val_main_v12 (F := Ideal) x3 (ix1 j)).toInt = (((x3 (pxOf j)).toNat + 100 * (imgOf j).val : ℕ) : Int) := by
  rw [v12_at]
  exact idWord_toInt _ (hr _) _ (imgOf j).isLt

/-- The weighted view at flat position `j`. -/
theorem v13_at (j : Fin 8388608) : val_main_v13 (F := Ideal) x0 x1 (ix1 j) = wsum x0 x1 (pxOf j) := by
  rw [val_main_v13_apply, val_main_v4_apply, val_main_v1_apply, val_main_v3_apply, val_main_v0_apply,
    val_main_v2_apply, val_main_cst_apply, val_main_cst_0_apply, idx13]
  rfl

/-- The vector of ones. -/
theorem v17_at (j : Fin 8388608) : val_main_v17 (F := Ideal) (ix1 j) = Spec.one := by
  rw [val_main_v17_apply, val_main_cst_2_apply]
  rfl

/-! ## The two accumulations -/

theorem scatter_rec : scatter_S3200_S8388608x1_S8388608_n_0_0_1
    = vecScatterDims 3200 8388608 Facts₀.scatter_S3200_S8388608x1_S8388608_n_0_0_1_wf := rfl

theorem gather_rec : gather_S3200_S8388608x1_S8388608_n_0_n_n_0_1_1
    = vecGatherDims 3200 8388608 Facts₀.gather_S3200_S8388608x1_S8388608_n_0_n_n_0_1_1_wf := rfl

/-- Segment `i` of the sums: the weighted view over the flat positions whose offset word is `i`. -/
theorem v16_at (i : Fin 3200) :
    val_main_v16 (F := Ideal) x0 x1 x3 (ix1 i)
      = ∑ j ∈ Finset.univ.filter (fun j : Fin 8388608 => (val_main_v12 (F := Ideal) x3 (ix1 j)).toInt = (i.val : Int)),
          wsum x0 x1 (pxOf j) := by
  unfold val_main_v16
  rw [scatter_rec, vecScatterAdd_apply, val_main_v14_apply, val_main_cst_1_apply, Ideal.ofBits_def, Ideal.ofBits_zero_f32,
    zero_add, Finset.sum_filter, Finset.sum_filter]
  refine Finset.sum_congr rfl fun j _ => ?_
  rw [val_main_v15_apply, idx15, v13_at]

/-- Segment `i` of the counts: a one for every flat position whose offset word is `i`. -/
theorem v20_at (i : Fin 3200) :
    val_main_v20 (F := Ideal) x3 (ix1 i)
      = ∑ j ∈ Finset.univ.filter (fun j : Fin 8388608 => (val_main_v12 (F := Ideal) x3 (ix1 j)).toInt = (i.val : Int)),
          (fun _ : A4.Idx => (1 : EReal)) (pxOf j) := by
  unfold val_main_v20
  rw [scatter_rec, vecScatterAdd_apply, val_main_v18_apply, val_main_cst_3_apply, Ideal.ofBits_def, Ideal.ofBits_zero_f32,
    zero_add, Finset.sum_filter, Finset.sum_filter]
  refine Finset.sum_congr rfl fun j _ => ?_
  rw [val_main_v19_apply, idx19, v17_at, one_eq]

/-- Segment `k + 100·b` of the sums is image `b`'s segment sum at the word `k`. -/
theorem v16_seg (hr : ∀ i, (x3 i).toNat < 100) (b : Fin 32) (k : BitVec 32) (hk : k.toNat < 100) (i : Fin 3200)
    (hi : i.val = k.toNat + 100 * b.val) :
    val_main_v16 (F := Ideal) x0 x1 x3 (ix1 i) = segSum x0 x1 x3 b k := by
  rw [v16_at]
  unfold segSum
  exact sum_segment x3 hr (wsum x0 x1) (fun j => val_main_v12 (F := Ideal) x3 (ix1 j)) (v12_toInt x3 hr) b k hk i.val hi

/-- Segment `k + 100·b` of the counts is image `b`'s segment count at the word `k`. -/
theorem v20_seg (hr : ∀ i, (x3 i).toNat < 100) (b : Fin 32) (k : BitVec 32) (hk : k.toNat < 100) (i : Fin 3200)
    (hi : i.val = k.toNat + 100 * b.val) :
    val_main_v20 (F := Ideal) x3 (ix1 i) = segCnt x3 b k := by
  rw [v20_at]
  unfold segCnt
  exact sum_segment x3 hr (fun _ => (1 : EReal)) (fun j => val_main_v12 (F := Ideal) x3 (ix1 j)) (v12_toInt x3 hr) b k hk i.val hi

/-- Segment `k + 100·b` of the means. -/
theorem v23_seg (hr : ∀ i, (x3 i).toNat < 100) (b : Fin 32) (k : BitVec 32) (hk : k.toNat < 100) (i : Fin 3200)
    (hi : i.val = k.toNat + 100 * b.val) :
    val_main_v23 (F := Ideal) x0 x1 x3 (ix1 i) = mean x0 x1 x3 b k := by
  rw [val_main_v23_apply, val_main_v22_apply, val_main_v21_apply, val_main_cst_4_apply, v16_seg x0 x1 x3 hr b k hk i hi,
    v20_seg x3 hr b k hk i hi]
  rfl

/-! ## The gather -/

/-- The index the gather reads at flat position `j`: the offset word itself, the normalisation of a possibly negative index
    leaving a non-negative word alone. -/
theorem v29_at (hr : ∀ i, (x3 i).toNat < 100) (j : Fin 8388608) :
    val_main_v29 (F := Ideal) x3 (ix2 j 0) = val_main_v12 (F := Ideal) x3 (ix1 j) := by
  rw [val_main_v29_apply, idx29, val_main_v28_apply, val_main_v25_apply, val_main_v27_apply, val_main_v24_apply,
    val_main_c_5_apply]
  refine wrap_of_nonneg _ _ ?_
  rw [v12_toInt x3 hr]
  exact Int.natCast_nonneg _

/-- The gathered value at flat position `j`: the mean of the pixel's own segment. -/
theorem v30_at (hr : ∀ i, (x3 i).toNat < 100) (j : Fin 8388608) :
    val_main_v30 (F := Ideal) x0 x1 x3 (ix1 j) = mean x0 x1 x3 (imgOf j) (x3 (pxOf j)) := by
  unfold val_main_v30
  rw [gather_rec, vecGather_apply (by norm_num : 0 < 3200)]
  refine v23_seg x0 x1 x3 hr (imgOf j) (x3 (pxOf j)) (hr _) _ ?_
  show min (val_main_v29 (F := Ideal) x3 (ix2 j 0)).toInt.toNat (3200 - 1) = _
  rw [v29_at x3 hr, v12_toInt x3 hr, Int.toNat_natCast]
  have h1 := hr (pxOf j)
  have h2 := (imgOf j).isLt
  omega

/-! ## The two results -/

/-- The target at pixel `(b, h, w)`. -/
theorem v35_px (hr : ∀ i, (x3 i).toNat < 100) (b : Fin 32) (h w : Fin 512) :
    val_main_v35 (F := Ideal) x0 x1 x2 x3 (px b h w) = Spec.tgt x0 x1 x2 x3 (px b h w) := by
  rw [val_main_v35_apply, val_main_call0_v1_apply, val_main_v34_apply, val_main_v33_apply, val_main_v32_apply,
    val_main_c_7_apply, idx34, val_main_call0_v2_apply, val_main_call0_v0_apply, val_main_cst_8_apply,
    val_main_v31_apply, idx31, v30_at x0 x1 x3 hr, imgOf_flat, pxOf_flat, Ideal.ofBits_def, Ideal.ofBits_zero_f32]
  unfold Spec.tgt
  show Scalar.select (IntOp.cmpi .ne (x2 (ix1 b)) 0#32) (mean x0 x1 x3 b (x3 (px b h w))) 0
    = if x2 (ix1 b) = 0#32 then 0 else mean x0 x1 x3 b (x3 (px b h w))
  by_cases hl : x2 (ix1 b) = 0#32
  · rw [if_pos hl, hl]
    exact select_zero _ _
  · rw [if_neg hl]
    have : IntOp.cmpi .ne (x2 (ix1 b)) 0#32 = 1#1 := by
      show BitVec.ofBool (x2 (ix1 b) != 0#32) = 1#1
      rw [Predicate.ofBool_eq_one_iff]
      exact bne_iff_ne.mpr hl
    rw [this]
    exact select_one _ _

theorem result_tgt (hr : ∀ i, (x3 i).toNat < 100) :
    Cert.ReferenceIdeal.Read.val_main_v35 (F := Ideal) x0 x1 x2 x3 = Cert.Spec.tgt x0 x1 x2 x3 := by
  funext i
  obtain ⟨b, z, h, w, rfl⟩ : ∃ (b : Fin 32) (z : Fin 1) (h w : Fin 512), i = ix4 b z h w :=
    ⟨i 0, i 1, i 2, i 3, eq_ix4 i⟩
  obtain rfl : z = 0 := Subsingleton.elim _ _
  exact v35_px x0 x1 x2 x3 hr b h w

theorem result_loss (hr : ∀ i, (x3 i).toNat < 100) :
    Cert.ReferenceIdeal.Read.val_main_v44 (F := Ideal) x0 x1 x2 x3 = fun _ => Cert.Spec.loss x0 x1 x2 x3 := by
  funext i
  rw [val_main_v44_apply, val_main_v39_apply, val_main_v43_apply, val_main_v38_apply, val_main_v42_apply,
    val_main_cst_9_apply, val_main_cst_11_apply, val_main_cst_10_apply, val_main_cst_12_apply]
  simp only [val_main_v37_apply, val_main_v36_apply, val_main_v41_apply, val_main_v40_apply]
  rw [result_tgt x0 x1 x2 x3 hr, Ideal.ofBits_def, Ideal.ofBits_zero_f32, zero_add, zero_add]
  rfl

end Cert.ReferenceIdeal.RefValue

end
-- ==== Proof.PreDecode.lean ====
/-
  The precondition's integer half, read back. The printed predicate is the conjunction of four "all" reductions; the
  last two say, of every word s of the fourth argument, 0 ≤ s and s < 100 as signed 32-bit comparisons. A word that is
  non-negative signed reads the same signed and unsigned, so its unsigned value is below 100 as well.
-/
import proofs.«423842_j58059367907504_3_alg».proof.Pre_finite_inputs
import Idealize.ShloMosaic.Lib.ReduceAll
import Idealize.ShloMosaic.Lib.StableHlo.Predicate

noncomputable section

namespace Cert.PreDecode

open Idealize.ShloMosaic

/-- A rank-0 shape has exactly one index. -/
instance subsingleton_scalar_idx : Subsingleton Cert.Pre_finite_inputs.S_.Idx :=
  ⟨fun a b => funext fun d => d.elim0⟩

/-- A 32-bit word s with 0 ≤ s and s < n, both signed, n small, has unsigned value below n: the first comparison
    rules out the negative half, where the signed value is the unsigned one less 2³². -/
theorem toNat_lt_of_signed_range (s : BitVec 32) (n : Nat) (hn : n < 2 ^ 31)
    (hge : IntOp.cmpi .sge s (0#32) = 1#1) (hlt : IntOp.cmpi .slt s (BitVec.ofNat 32 n) = 1#1) : s.toNat < n := by
  have h0 : (0#32).sle s = true := (StableHlo.Predicate.ofBool_eq_one_iff _).1 hge
  have h1 : s.slt (BitVec.ofNat 32 n) = true := (StableHlo.Predicate.ofBool_eq_one_iff _).1 hlt
  rw [BitVec.sle, decide_eq_true_eq] at h0
  rw [BitVec.slt, decide_eq_true_eq, StableHlo.Predicate.toInt_ofNat_small n hn] at h1
  have z : (0#32).toInt = 0 := by decide
  rw [z, BitVec.toInt_eq_toNat_cond] at h0
  rw [BitVec.toInt_eq_toNat_cond] at h1
  have hs := s.isLt
  split at h0 <;> split at h1 <;> omega

/-- Under the printed precondition every word of the fourth argument is, unsigned, below 100. -/
theorem range_of_pre {F : FTy → Type} [FloatOps F] [Cert.Pre_finite_inputs.Facts]
    (x0 x1 : FVec F Cert.Pre_finite_inputs.S32x1x512x512 .f32) (x2 : IVec Cert.Pre_finite_inputs.S32 32)
    (x3 : IVec Cert.Pre_finite_inputs.S32x1x512x512 32)
    (h : Cert.Pre_finite_inputs.fn (F := F) x0 x1 x2 x3 = fun _ => 1#1) : ∀ i, (x3 i).toNat < 100 := by
  intro i
  have hj := congrFun h (fun d => d.elim0)
  dsimp only [Cert.Pre_finite_inputs.fn, Cert.Pre_finite_inputs.fn_part1, andi] at hj
  obtain ⟨h12, h15⟩ := IntOp.andi_eq_one.1 hj
  obtain ⟨_, h11⟩ := IntOp.andi_eq_one.1 h12
  have ege := Host.reduce_andi_all _ _ _ _ _ h11 i
  have elt := Host.reduce_andi_all _ _ _ _ _ h15 i
  dsimp only [cmpi] at ege elt
  rw [StableHlo.Predicate.bcast_scalar _ Cert.Pre_finite_inputs.Facts.h_S_] at ege elt
  exact toNat_lt_of_signed_range (x3 i) 100 (by omega) ege elt

end Cert.PreDecode

end
-- ==== Proof.lean ====
/-
  Two programs compute a per-superpixel mean target map and the mean squared distance of two views to it.

  The kernel (read word by word as `Kernel`, and over the extended reals as `KernelIdeal`) accumulates, image by image
  and in sixteen chunks of 32 rows, the 128 lane sums and lane counts of the weighted view by a one-hot contraction,
  divides them into lane means on the host, contracts the means against the one-hot of each pixel's segment id to get
  the target (zero on the images labelled 0), and accumulates per image the chunks' sums of squared distances, each
  over 1024, in every entry of an 8 × 128 block; the host adds the blocks up and divides by 2²³.  The reference
  offsets each image's ids by 100·b, scatter-adds into 3200 segments, divides, gathers each pixel's own mean, and
  takes the two means of squared distances.

  Frames: @main is five segments (three host stretches, two pipelined regions); each region's body runs at every grid
  point from its windows' blocks to its outputs' buffers, the accumulators carried from a point to the next, and the
  arguments are written by no segment.  The reference is host operations only.
  Values, over the extended reals and with every segment id in [0, 100) — the range the reference's own batching by
  disjoint id ranges [100·b, 100·(b+1)) presupposes, added to the precondition —: lane k of image b holds the sum
  and the count of the pixels whose id is k, which is what segment 100·b + k holds; the one-hot contraction picks the
  lane of the pixel's id (every other term is m·0 = 0); 1024 copies of x/1024 add up to x, and division by 2²³
  distributes over the sum of the two non-negative sums of squares.  No finiteness is used.
-/
import proofs.«423842_j58059367907504_3_alg».proof.Defs
import proofs.«423842_j58059367907504_3_alg».proof.Proof.Gen.Kernel
import proofs.«423842_j58059367907504_3_alg».proof.Proof.Gen.KernelIdeal
import proofs.«423842_j58059367907504_3_alg».proof.Proof.Gen.ReferenceIdeal
import proofs.«423842_j58059367907504_3_alg».proof.Proof.Gen.Pre_finite_inputs
import proofs.«423842_j58059367907504_3_alg».proof.Proof.Gen.ReferenceIdeal.Run
import proofs.«423842_j58059367907504_3_alg».proof.Proof.Gen.ReferenceIdeal.Read
import proofs.«423842_j58059367907504_3_alg».proof.Proof.K.Run
import proofs.«423842_j58059367907504_3_alg».proof.Proof.KI.Value
import proofs.«423842_j58059367907504_3_alg».proof.Proof.Ref
import proofs.«423842_j58059367907504_3_alg».proof.Proof.PreDecode
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ => Cert.Kernel.Hand.frame (F := Bits) m ρ

/-- So does its reading over the extended reals. -/
theorem frame_ki : Cert.frame_KernelIdeal := fun m ρ _ => Cert.KernelIdeal.Hand.frame (F := Ideal) m ρ

/-- The reference is host operations only: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal reading rewrote no operation. -/
theorem preserves : Cert.preserves_Kernel_KernelIdeal := trivial

/-- Both programs end at the specification's loss and target map of the arguments they agree on. -/
theorem algebraic : Cert.algebraic_KernelIdeal_ReferenceIdeal := by
  intro m ρ m' ρ' hpre hagree
  have hr : ∀ i, (m (((0 : Dev Cert.KernelIdeal.nD).tc : Thread Cert.KernelIdeal.nD Cert.KernelIdeal.τ).loc Cert.KernelIdeal.main_arg3) i).toNat < 100 :=
    Cert.PreDecode.range_of_pre _ _ _ _ (hpre 0)
  refine ⟨fun c => fun _ => Cert.Spec.loss (Cert.KernelIdeal.Hand.aRgb m c) (Cert.KernelIdeal.Hand.aFreq m c) (Cert.KernelIdeal.Hand.aLab m c) (Cert.KernelIdeal.Hand.aSpx m c),
    fun c => Cert.Spec.tgt (Cert.KernelIdeal.Hand.aRgb m c) (Cert.KernelIdeal.Hand.aFreq m c) (Cert.KernelIdeal.Hand.aLab m c) (Cert.KernelIdeal.Hand.aSpx m c),
    Cert.KernelIdeal.Hand.run_value m ρ (fun i => lt_trans (hr i) (by norm_num)), ?_⟩
  refine (θ_run Cert.ReferenceIdeal.defs _ _).mono (fun _ h c => ?_) (Cert.ReferenceIdeal.Value.run (F := Ideal) m' ρ')
  obtain rfl : c = 0 := Subsingleton.elim _ _
  obtain ⟨h44, h35, h0, h1, h2, h3⟩ := h 0
  obtain ⟨e0, e1, e2, e3⟩ := hagree 0
  have hr' : ∀ i, (m' (((0 : Dev Cert.ReferenceIdeal.nD).tc : Thread Cert.ReferenceIdeal.nD Cert.ReferenceIdeal.τ).loc Cert.ReferenceIdeal.main_arg3) i).toNat < 100 := by
    rw [e3]; exact hr
  refine ⟨?_, ?_, h0, h1, h2, h3⟩
  · rw [h44, Cert.ReferenceIdeal.Read.val_main_v44_eq, Cert.ReferenceIdeal.RefValue.result_loss _ _ _ _ hr', e0, e1, e2, e3]
    rfl
  · rw [h35, Cert.ReferenceIdeal.Read.val_main_v35_eq, Cert.ReferenceIdeal.RefValue.result_tgt _ _ _ _ hr', e0, e1, e2, e3]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
